-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S5000x128 .f32 .bf16
  ∧ IdealRules.truncf_extf.Statement Cert.KernelIdeal.S5000x128 .f32 .bf16
  ∧ IdealRules.truncf_extf.Statement Cert.KernelIdeal.S5000x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v128)) (v1 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_v129) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_v173) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S100000 : Shape := ⟨1, ![100000]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg6 : FVec F S3x128 .f32) (main_arg7 : FVec F S3x128 .f32) (main_arg8 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  main_v33

def fn {F : FTy → Type} [FloatOps F] (main_arg0 : FVec F S100000x128 .f32) (main_arg1 : IVec S2x640000 32) (main_arg2 : IVec S100000 32) (main_arg3 : FVec F S3x128x128 .f32) (main_arg4 : FVec F S3x128 .f32) (main_arg5 : FVec F S3x128x128 .f32) (main_arg6 : FVec F S3x128 .f32) (main_arg7 : FVec F S3x128 .f32) (main_arg8 : FVec F S3x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_v13 main_v16
-- ==== Kernel.lean ====
abbrev S100000x128 : Shape := ⟨2, ![100000, 128]⟩
abbrev S2x640000 : Shape := ⟨2, ![2, 640000]⟩
abbrev S100000 : Shape := ⟨1, ![100000]⟩
abbrev S3x128x128 : Shape := ⟨3, ![3, 128, 128]⟩
abbrev S3x128 : Shape := ⟨2, ![3, 128]⟩
abbrev S1x640000 : Shape := ⟨2, ![1, 640000]⟩
abbrev S640000 : Shape := ⟨1, ![640000]⟩
abbrev S100000x1 : Shape := ⟨2, ![100000, 1]⟩
abbrev S_ : Shape := ⟨0, ![]⟩
abbrev S640000x1 : Shape := ⟨2, ![640000, 1]⟩
abbrev S640000x128 : Shape := ⟨2, ![640000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S20x8x128 : Shape := ⟨3, ![20, 8, 128]⟩
abbrev S5000x128 : Shape := ⟨2, ![5000, 128]⟩
abbrev S1x8x128 : Shape := ⟨3, ![1, 8, 128]⟩
abbrev S7x128 : Shape := ⟨2, ![7, 128]⟩
abbrev S8x128 : Shape := ⟨2, ![8, 128]⟩
abbrev S20x512x128 : Shape := ⟨3, ![20, 512, 128]⟩
abbrev S5000x1 : Shape := ⟨2, ![5000, 1]⟩
abbrev S1x512x128 : Shape := ⟨3, ![1, 512, 128]⟩
abbrev S1x512 : Shape := ⟨2, ![1, 512]⟩
abbrev S5000x512 : Shape := ⟨2, ![5000, 512]⟩
abbrev S512x128 : Shape := ⟨2, ![512, 128]⟩
abbrev S512x384 : Shape := ⟨2, ![512, 384]⟩
abbrev S100000x384 : Shape := ⟨2, ![100000, 384]⟩

abbrev nBuf : Space → Nat
  | .hbm => 175
  | .vmem => 78
  | .smem => 0
  | _ => 0

abbrev hbmTy0_0 (i : Nat) : BufTy := match i % 128 with
  | 0 => ⟨S100000x128, .f32⟩
  | 1 => ⟨S2x640000, .i32⟩
  | 2 => ⟨S100000, .i32⟩
  | 3 => ⟨S3x128x128, .f32⟩
  | 4 => ⟨S3x128, .f32⟩
  | 5 => ⟨S3x128x128, .f32⟩
  | 6 => ⟨S3x128, .f32⟩
  | 7 => ⟨S3x128, .f32⟩
  | 8 => ⟨S3x128, .f32⟩
  | 9 => ⟨S1x640000, .i32⟩
  | 10 => ⟨S640000, .i32⟩
  | 11 => ⟨S1x640000, .i32⟩
  | 12 => ⟨S640000, .i32⟩
  | 13 => ⟨S100000x1, .i32⟩
  | 14 => ⟨S_, .i32⟩
  | 15 => ⟨S640000, .i32⟩
  | 16 => ⟨S640000, .i1⟩
  | 17 => ⟨S_, .i32⟩
  | 18 => ⟨S640000, .i32⟩
  | 19 => ⟨S640000, .i32⟩
  | 20 => ⟨S640000, .i32⟩
  | 21 => ⟨S640000x1, .i32⟩
  | 22 => ⟨S640000x128, .f32⟩
  | 23 => ⟨S_, .f32⟩
  | 24 => ⟨S100000x128, .f32⟩
  | 25 => ⟨S640000x1, .i32⟩
  | 26 => ⟨S100000x128, .f32⟩
  | 27 => ⟨S1x128x128, .f32⟩
  | 28 => ⟨S128x128, .f32⟩
  | 29 => ⟨S1x128, .f32⟩
  | 30 => ⟨S128, .f32⟩
  | 31 => ⟨S1x128, .f32⟩
  | 32 => ⟨S1x128x128, .f32⟩
  | 33 => ⟨S128x128, .f32⟩
  | 34 => ⟨S1x128, .f32⟩
  | 35 => ⟨S128, .f32⟩
  | 36 => ⟨S1x128, .f32⟩
  | 37 => ⟨S100000x128, .f32⟩
  | 38 => ⟨S20x8x128, .f32⟩
  | 39 => ⟨S20x8x128, .f32⟩
  | 40 => ⟨S_, .f32⟩
  | 41 => ⟨S128, .f32⟩
  | 42 => ⟨S_, .f32⟩
  | 43 => ⟨S128, .f32⟩
  | 44 => ⟨S_, .f32⟩
  | 45 => ⟨S128, .f32⟩
  | 46 => ⟨S128, .f32⟩
  | 47 => ⟨S_, .f32⟩
  | 48 => ⟨S128, .f32⟩
  | 49 => ⟨S128, .f32⟩
  | 50 => ⟨S128, .f32⟩
  | 51 => ⟨S128, .f32⟩
  | 52 => ⟨S_, .f32⟩
  | 53 => ⟨S128, .f32⟩
  | 54 => ⟨S128, .f32⟩
  | 55 => ⟨S1x128, .f32⟩
  | 56 => ⟨S1x128, .f32⟩
  | 57 => ⟨S1x128, .f32⟩
  | 58 => ⟨S128, .f32⟩
  | 59 => ⟨S1x128, .f32⟩
  | 60 => ⟨S1x128, .f32⟩
  | 61 => ⟨S128, .f32⟩
  | 62 => ⟨S1x128, .f32⟩
  | 63 => ⟨S100000x128, .f32⟩
  | 64 => ⟨S20x512x128, .f32⟩
  | 65 => ⟨S_, .f32⟩
  | 66 => ⟨S512x128, .f32⟩
  | 67 => ⟨S_, .i32⟩
  | 68 => ⟨S640000, .i32⟩
  | 69 => ⟨S640000, .i1⟩
  | 70 => ⟨S_, .i32⟩
  | 71 => ⟨S640000, .i32⟩
  | 72 => ⟨S640000, .i32⟩
  | 73 => ⟨S640000, .i32⟩
  | 74 => ⟨S640000x1, .i32⟩
  | 75 => ⟨S640000x128, .f32⟩
  | 76 => ⟨S_, .f32⟩
  | 77 => ⟨S100000x128, .f32⟩
  | 78 => ⟨S640000x1, .i32⟩
  | 79 => ⟨S100000x128, .f32⟩
  | 80 => ⟨S1x128x128, .f32⟩
  | 81 => ⟨S128x128, .f32⟩
  | 82 => ⟨S1x128, .f32⟩
  | 83 => ⟨S128, .f32⟩
  | 84 => ⟨S1x128, .f32⟩
  | 85 => ⟨S1x128x128, .f32⟩
  | 86 => ⟨S128x128, .f32⟩
  | 87 => ⟨S1x128, .f32⟩
  | 88 => ⟨S128, .f32⟩
  | 89 => ⟨S1x128, .f32⟩
  | 90 => ⟨S100000x128, .f32⟩
  | 91 => ⟨S20x8x128, .f32⟩
  | 92 => ⟨S20x8x128, .f32⟩
  | 93 => ⟨S_, .f32⟩
  | 94 => ⟨S128, .f32⟩
  | 95 => ⟨S_, .f32⟩
  | 96 => ⟨S128, .f32⟩
  | 97 => ⟨S_, .f32⟩
  | 98 => ⟨S128, .f32⟩
  | 99 => ⟨S128, .f32⟩
  | 100 => ⟨S_, .f32⟩
  | 101 => ⟨S128, .f32⟩
  | 102 => ⟨S128, .f32⟩
  | 103 => ⟨S128, .f32⟩
  | 104 => ⟨S128, .f32⟩
  | 105 => ⟨S_, .f32⟩
  | 106 => ⟨S128, .f32⟩
  | 107 => ⟨S128, .f32⟩
  | 108 => ⟨S1x128, .f32⟩
  | 109 => ⟨S1x128, .f32⟩
  | 110 => ⟨S1x128, .f32⟩
  | 111 => ⟨S128, .f32⟩
  | 112 => ⟨S1x128, .f32⟩
  | 113 => ⟨S1x128, .f32⟩
  | 114 => ⟨S128, .f32⟩
  | 115 => ⟨S1x128, .f32⟩
  | 116 => ⟨S100000x128, .f32⟩
  | 117 => ⟨S20x512x128, .f32⟩
  | 118 => ⟨S_, .f32⟩
  | 119 => ⟨S512x128, .f32⟩
  | 120 => ⟨S_, .i32⟩
  | 121 => ⟨S640000, .i32⟩
  | 122 => ⟨S640000, .i1⟩
  | 123 => ⟨S_, .i32⟩
  | 124 => ⟨S640000, .i32⟩
  | 125 => ⟨S640000, .i32⟩
  | 126 => ⟨S640000, .i32⟩
  | 127 => ⟨S640000x1, .i32⟩
  | _ => ⟨S100000x128, .f32⟩

abbrev hbmTy0_1 (i : Nat) : BufTy := match i % 128 with
  | 0 => ⟨S640000x128, .f32⟩
  | 1 => ⟨S_, .f32⟩
  | 2 => ⟨S100000x128, .f32⟩
  | 3 => ⟨S640000x1, .i32⟩
  | 4 => ⟨S100000x128, .f32⟩
  | 5 => ⟨S1x128x128, .f32⟩
  | 6 => ⟨S128x128, .f32⟩
  | 7 => ⟨S1x128, .f32⟩
  | 8 => ⟨S128, .f32⟩
  | 9 => ⟨S1x128, .f32⟩
  | 10 => ⟨S1x128x128, .f32⟩
  | 11 => ⟨S128x128, .f32⟩
  | 12 => ⟨S1x128, .f32⟩
  | 13 => ⟨S128, .f32⟩
  | 14 => ⟨S1x128, .f32⟩
  | 15 => ⟨S100000x128, .f32⟩
  | 16 => ⟨S20x8x128, .f32⟩
  | 17 => ⟨S20x8x128, .f32⟩
  | 18 => ⟨S_, .f32⟩
  | 19 => ⟨S128, .f32⟩
  | 20 => ⟨S_, .f32⟩
  | 21 => ⟨S128, .f32⟩
  | 22 => ⟨S_, .f32⟩
  | 23 => ⟨S128, .f32⟩
  | 24 => ⟨S128, .f32⟩
  | 25 => ⟨S_, .f32⟩
  | 26 => ⟨S128, .f32⟩
  | 27 => ⟨S128, .f32⟩
  | 28 => ⟨S128, .f32⟩
  | 29 => ⟨S128, .f32⟩
  | 30 => ⟨S_, .f32⟩
  | 31 => ⟨S128, .f32⟩
  | 32 => ⟨S128, .f32⟩
  | 33 => ⟨S1x128, .f32⟩
  | 34 => ⟨S1x128, .f32⟩
  | 35 => ⟨S1x128, .f32⟩
  | 36 => ⟨S128, .f32⟩
  | 37 => ⟨S1x128, .f32⟩
  | 38 => ⟨S1x128, .f32⟩
  | 39 => ⟨S128, .f32⟩
  | 40 => ⟨S1x128, .f32⟩
  | 41 => ⟨S100000x128, .f32⟩
  | 42 => ⟨S20x512x128, .f32⟩
  | 43 => ⟨S_, .f32⟩
  | 44 => ⟨S512x128, .f32⟩
  | 45 => ⟨S512x384, .f32⟩
  | 46 => ⟨S100000x384, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x8x128, .f32⟩
  | .local _ .vmem, ⟨11, _⟩ => ⟨S1x8x128, .f32⟩
  | .local _ .vmem, ⟨12, _⟩ => ⟨S1x8x128, .f32⟩
  | .local _ .vmem, ⟨13, _⟩ => ⟨S1x8x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S5000x1, .i32⟩
  | .local _ .vmem, ⟨21, _⟩ => ⟨S5000x1, .i32⟩
  | .local _ .vmem, ⟨22, _⟩ => ⟨S5000x128, .f32⟩
  | .local _ .vmem, ⟨23, _⟩ => ⟨S5000x128, .f32⟩
  | .local _ .vmem, ⟨24, _⟩ => ⟨S1x512x128, .f32⟩
  | .local _ .vmem, ⟨25, _⟩ => ⟨S1x512x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S1x8x128, .f32⟩
  | .local _ .vmem, ⟨37, _⟩ => ⟨S1x8x128, .f32⟩
  | .local _ .vmem, ⟨38, _⟩ => ⟨S1x8x128, .f32⟩
  | .local _ .vmem, ⟨39, _⟩ => ⟨S1x8x128, .f32⟩
  | .local _ .vmem, ⟨40, _⟩ => ⟨S5000x128, .f32⟩
  | .local _ .vmem, ⟨41, _⟩ => ⟨S5000x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S5000x1, .i32⟩
  | .local _ .vmem, ⟨47, _⟩ => ⟨S5000x1, .i32⟩
  | .local _ .vmem, ⟨48, _⟩ => ⟨S5000x128, .f32⟩
  | .local _ .vmem, ⟨49, _⟩ => ⟨S5000x128, .f32⟩
  | .local _ .vmem, ⟨50, _⟩ => ⟨S1x512x128, .f32⟩
  | .local _ .vmem, ⟨51, _⟩ => ⟨S1x512x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S128x128, .f32⟩
  | .local _ .vmem, ⟨57, _⟩ => ⟨S1x128, .f32⟩
  | .local _ .vmem, ⟨58, _⟩ => ⟨S128x128, .f32⟩
  | .local _ .vmem, ⟨59, _⟩ => ⟨S1x128, .f32⟩
  | .local _ .vmem, ⟨60, _⟩ => ⟨S5000x128, .f32⟩
  | .local _ .vmem, ⟨61, _⟩ => ⟨S5000x128, .f32⟩
  | .local _ .vmem, ⟨62, _⟩ => ⟨S1x8x128, .f32⟩
  | .local _ .vmem, ⟨63, _⟩ => ⟨S1x8x128, .f32⟩
  | .local _ .vmem, ⟨64, _⟩ => ⟨S1x8x128, .f32⟩
  | .local _ .vmem, ⟨65, _⟩ => ⟨S1x8x128, .f32⟩
  | .local _ .vmem, ⟨66, _⟩ => ⟨S5000x128, .f32⟩
  | .local _ .vmem, ⟨67, _⟩ => ⟨S5000x128, .f32⟩
  | .local _ .vmem, ⟨68, _⟩ => ⟨S1x128, .f32⟩
  | .local _ .vmem, ⟨69, _⟩ => ⟨S1x128, .f32⟩
  | .local _ .vmem, ⟨70, _⟩ => ⟨S1x128, .f32⟩
  | .local _ .vmem, ⟨71, _⟩ => ⟨S1x128, .f32⟩
  | .local _ .vmem, ⟨72, _⟩ => ⟨S5000x1, .i32⟩
  | .local _ .vmem, ⟨73, _⟩ => ⟨S5000x1, .i32⟩
  | .local _ .vmem, ⟨74, _⟩ => ⟨S5000x128, .f32⟩
  | .local _ .vmem, ⟨75, _⟩ => ⟨S5000x128, .f32⟩
  | .local _ .vmem, ⟨76, _⟩ => ⟨S1x512x128, .f32⟩
  | .local _ .vmem, ⟨77, _⟩ => ⟨S1x512x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev main_v25_2 : Ref sig .tc := ⟨.hbm, 39, rfl⟩
abbrev main_cst_1 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44_0 : Ref sig .tc := ⟨.hbm, 63, rfl⟩
abbrev main_v44_1 : Ref sig .tc := ⟨.hbm, 64, rfl⟩
abbrev main_cst_6 : Ref sig .tc := ⟨.hbm, 65, rfl⟩
abbrev main_v45 : Ref sig .tc := ⟨.hbm, 66, rfl⟩
abbrev main_c_7 : Ref sig .tc := ⟨.hbm, 67, rfl⟩
abbrev main_v46 : Ref sig .tc := ⟨.hbm, 68, rfl⟩
abbrev main_v47 : Ref sig .tc := ⟨.hbm, 69, rfl⟩
abbrev main_c_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66_0 : Ref sig .tc := ⟨.hbm, 90, rfl⟩
abbrev main_v66_1 : Ref sig .tc := ⟨.hbm, 91, rfl⟩
abbrev main_v66_2 : Ref sig .tc := ⟨.hbm, 92, rfl⟩
abbrev main_cst_10 : Ref sig .tc := ⟨.hbm, 93, rfl⟩
abbrev main_v67 : Ref sig .tc := ⟨.hbm, 94, rfl⟩
abbrev main_cst_11 : Ref sig .tc := ⟨.hbm, 95, rfl⟩
abbrev main_v68 : Ref sig .tc := ⟨.hbm, 96, rfl⟩
abbrev main_cst_12 : Ref sig .tc := ⟨.hbm, 97, rfl⟩
abbrev main_v69 : Ref sig .tc := ⟨.hbm, 98, rfl⟩
abbrev main_v70 : Ref sig .tc := ⟨.hbm, 99, rfl⟩
abbrev main_cst_13 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_14 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85_0 : Ref sig .tc := ⟨.hbm, 116, rfl⟩
abbrev main_v85_1 : Ref sig .tc := ⟨.hbm, 117, rfl⟩
abbrev main_cst_15 : Ref sig .tc := ⟨.hbm, 118, rfl⟩
abbrev main_v86 : Ref sig .tc := ⟨.hbm, 119, rfl⟩
abbrev main_c_16 : Ref sig .tc := ⟨.hbm, 120, rfl⟩
abbrev main_v87 : Ref sig .tc := ⟨.hbm, 121, rfl⟩
abbrev main_v88 : Ref sig .tc := ⟨.hbm, 122, rfl⟩
abbrev main_c_17 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_18 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107_0 : Ref sig .tc := ⟨.hbm, 143, rfl⟩
abbrev main_v107_1 : Ref sig .tc := ⟨.hbm, 144, rfl⟩
abbrev main_v107_2 : Ref sig .tc := ⟨.hbm, 145, rfl⟩
abbrev main_cst_19 : Ref sig .tc := ⟨.hbm, 146, rfl⟩
abbrev main_v108 : Ref sig .tc := ⟨.hbm, 147, rfl⟩
abbrev main_cst_20 : Ref sig .tc := ⟨.hbm, 148, rfl⟩
abbrev main_v109 : Ref sig .tc := ⟨.hbm, 149, rfl⟩
abbrev main_cst_21 : Ref sig .tc := ⟨.hbm, 150, rfl⟩
abbrev main_v110 : Ref sig .tc := ⟨.hbm, 151, rfl⟩
abbrev main_v111 : Ref sig .tc := ⟨.hbm, 152, rfl⟩
abbrev main_cst_22 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_cst_23 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126_0 : Ref sig .tc := ⟨.hbm, 169, rfl⟩
abbrev main_v126_1 : Ref sig .tc := ⟨.hbm, 170, rfl⟩
abbrev main_cst_24 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg6_1 : Ref sig .tc := ⟨.vmem, 35, rfl⟩
abbrev cc2_stg7_0 : Ref sig .tc := ⟨.vmem, 36, rfl⟩
abbrev cc2_stg7_1 : Ref sig .tc := ⟨.vmem, 37, rfl⟩
abbrev cc2_stg8_0 : Ref sig .tc := ⟨.vmem, 38, rfl⟩
abbrev cc2_stg8_1 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg2_0 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg5_1 : Ref sig .tc := ⟨.vmem, 47, rfl⟩
abbrev cc3_stg6_0 : Ref sig .tc := ⟨.vmem, 48, rfl⟩
abbrev cc3_stg6_1 : Ref sig .tc := ⟨.vmem, 49, rfl⟩
abbrev cc3_stg7_0 : Ref sig .tc := ⟨.vmem, 50, rfl⟩
abbrev cc3_stg7_1 : Ref sig .tc := ⟨.vmem, 51, rfl⟩
abbrev cc4_stg0_0 : Ref sig .tc := ⟨.vmem, 52, rfl⟩
abbrev cc4_stg0_1 : Ref sig .tc := ⟨.vmem, 53, rfl⟩
abbrev cc4_stg1_0 : Ref sig .tc := ⟨.vmem, 54, rfl⟩
abbrev cc4_stg1_1 : Ref sig .tc := ⟨.vmem, 55, rfl⟩
abbrev cc4_stg2_0 : Ref sig .tc := ⟨.vmem, 56, rfl⟩
abbrev cc4_stg3_0 : Ref sig .tc := ⟨.vmem, 57, rfl⟩
abbrev cc4_stg4_0 : Ref sig .tc := ⟨.vmem, 58, rfl⟩
abbrev cc4_stg5_0 : Ref sig .tc := ⟨.vmem, 59, rfl⟩
abbrev cc4_stg6_0 : Ref sig .tc := ⟨.vmem, 60, rfl⟩
abbrev cc4_stg6_1 : Ref sig .tc := ⟨.vmem, 61, rfl⟩
abbrev cc4_stg7_0 : Ref sig .tc := ⟨.vmem, 62, rfl⟩
abbrev cc4_stg7_1 : Ref sig .tc := ⟨.vmem, 63, rfl⟩
abbrev cc4_stg8_0 : Ref sig .tc := ⟨.vmem, 64, rfl⟩
abbrev cc4_stg8_1 : Ref sig .tc := ⟨.vmem, 65, rfl⟩
abbrev cc5_stg0_0 : Ref sig .tc := ⟨.vmem, 66, rfl⟩
abbrev cc5_stg0_1 : Ref sig .tc := ⟨.vmem, 67, rfl⟩
abbrev cc5_stg1_0 : Ref sig .tc := ⟨.vmem, 68, rfl⟩
abbrev cc5_stg2_0 : Ref sig .tc := ⟨.vmem, 69, rfl⟩
abbrev cc5_stg3_0 : Ref sig .tc := ⟨.vmem, 70, rfl⟩
abbrev cc5_stg4_0 : Ref sig .tc := ⟨.vmem, 71, rfl⟩
abbrev cc5_stg5_0 : Ref sig .tc := ⟨.vmem, 72, rfl⟩
abbrev cc5_stg5_1 : Ref sig .tc := ⟨.vmem, 73, rfl⟩
abbrev cc5_stg6_0 : Ref sig .tc := ⟨.vmem, 74, rfl⟩
abbrev cc5_stg6_1 : Ref sig .tc := ⟨.vmem, 75, rfl⟩
abbrev cc5_stg7_0 : Ref sig .tc := ⟨.vmem, 76, rfl⟩
abbrev cc5_stg7_1 : Ref sig .tc := ⟨.vmem, 77, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem6_1 : DmaSem sig := 35
abbrev cc2_sem7_0 : DmaSem sig := 36
abbrev cc2_sem7_1 : DmaSem sig := 37
abbrev cc2_sem8_0 : DmaSem sig := 38
abbrev cc2_sem8_1 : DmaSem sig := 39
abbrev cc3_sem0_0 : DmaSem sig := 40
abbrev cc3_sem0_1 : DmaSem sig := 41
abbrev cc3_sem1_0 : DmaSem sig := 42
abbrev cc3_sem2_0 : DmaSem sig := 43
abbrev cc3_sem3_0 : DmaSem sig := 44
abbrev cc3_sem4_0 : DmaSem sig := 45
abbrev cc3_sem5_0 : DmaSem sig := 46
abbrev cc3_sem5_1 : DmaSem sig := 47
abbrev cc3_sem6_0 : DmaSem sig := 48
abbrev cc3_sem6_1 : DmaSem sig := 49
abbrev cc3_sem7_0 : DmaSem sig := 50
abbrev cc3_sem7_1 : DmaSem sig := 51
abbrev cc4_sem0_0 : DmaSem sig := 52
abbrev cc4_sem0_1 : DmaSem sig := 53
abbrev cc4_sem1_0 : DmaSem sig := 54
abbrev cc4_sem1_1 : DmaSem sig := 55
abbrev cc4_sem2_0 : DmaSem sig := 56
abbrev cc4_sem3_0 : DmaSem sig := 57
abbrev cc4_sem4_0 : DmaSem sig := 58
abbrev cc4_sem5_0 : DmaSem sig := 59
abbrev cc4_sem6_0 : DmaSem sig := 60
abbrev cc4_sem6_1 : DmaSem sig := 61
abbrev cc4_sem7_0 : DmaSem sig := 62
abbrev cc4_sem7_1 : DmaSem sig := 63
abbrev cc4_sem8_0 : DmaSem sig := 64
abbrev cc4_sem8_1 : DmaSem sig := 65
abbrev cc5_sem0_0 : DmaSem sig := 66
abbrev cc5_sem0_1 : DmaSem sig := 67
abbrev cc5_sem1_0 : DmaSem sig := 68
abbrev cc5_sem2_0 : DmaSem sig := 69
abbrev cc5_sem3_0 : DmaSem sig := 70
abbrev cc5_sem4_0 : DmaSem sig := 71
abbrev cc5_sem5_0 : DmaSem sig := 72
abbrev cc5_sem5_1 : DmaSem sig := 73
abbrev cc5_sem6_0 : DmaSem sig := 74
abbrev cc5_sem6_1 : DmaSem sig := 75
abbrev cc5_sem7_0 : DmaSem sig := 76
abbrev cc5_sem7_1 : DmaSem sig := 77

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x1 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x512x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x8x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x8x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x1 .i32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x512x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_8 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S1x8x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S1x8x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x1 .i32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S1x512x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  shapeCasts_S100000_S100000x1 : S100000.ShapeCasts S100000x1
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  concatenates_S1x128_S7x128_S8x128_d0 : Shape.Concatenates [S1x128, S7x128] S8x128 0
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  reducesTo_S20x8x128_S128_d0_1 : S20x8x128.ReducesTo [0, 1] S128
  h_S_ : 0 < S_.numel
  bcast_S_S128 : S_.BroadcastsInDim S128 (![] : Fin 0 → Fin S128.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S1x512_d1_w32 : S1x512.Iotas .tc 32 [1]
  broadcasts_S5000x1_S5000x512 : S5000x1.Broadcasts S5000x512
  broadcasts_S1x512_S5000x512 : S1x512.Broadcasts S5000x512
  natLt_1_32 : 1 < 32
  shapeCasts_S512x128_S1x512x128 : S512x128.ShapeCasts S1x512x128
  inb_S1x512x128_S1x512x128_0_0_0 : ∀ a, (![0, 0, 0] : Fin 3 → Nat) a + S1x512x128.size a ≤ S1x512x128.size a
  h_S1x512x128 : 0 < S1x512x128.numel
  reducesTo_S20x512x128_S512x128_d0 : S20x512x128.ReducesTo [0] S512x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S512x128_S512x128_S512x128_S512x384_d1 : Shape.Concatenates [S512x128, S512x128, S512x128] S512x384 1
  concatenates_S100000x128_S100000x128_S100000x128_S100000x384_d1 : Shape.Concatenates [S100000x128, S100000x128, S100000x128] S100000x384 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x128_S5000x128_1_0_0_1_n_n_wf : DotDims.WF S5000x128 S128x128 S5000x128 [1] [0] [0] [1] [] []
  dot_S5000x512_S5000x128_S512x128_0_0_1_1_n_n_wf : DotDims.WF S5000x512 S5000x128 S512x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x128.size a ≤ S20x8x128.size a
  hwx0_7 : ∀ i : grid0.Coords, EltTy.bits .f32 = 32 ∨ (Rect.block (s := S20x8x128) S1x8x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x8x128.size a ≤ S20x8x128.size a
  hwx0_8 : ∀ i : grid0.Coords, EltTy.bits .f32 = 32 ∨ (Rect.block (s := S20x8x128) S1x8x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x1.size a ≤ S100000x1.size a
  hwx1_5 : ∀ i : grid1.Coords, EltTy.bits .i32 = 32 ∨ (Rect.block (s := S100000x1) S5000x1.size (cc1_transform_5 i) (hinb1_5 i)).WholeWords (EltTy.packing .i32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x512x128.size a ≤ S20x512x128.size a
  hwx1_7 : ∀ i : grid1.Coords, EltTy.bits .f32 = 32 ∨ (Rect.block (s := S20x512x128) S1x512x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x8x128.size a ≤ S20x8x128.size a
  hwx2_7 : ∀ i : grid2.Coords, EltTy.bits .f32 = 32 ∨ (Rect.block (s := S20x8x128) S1x8x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x8x128.size a ≤ S20x8x128.size a
  hwx2_8 : ∀ i : grid2.Coords, EltTy.bits .f32 = 32 ∨ (Rect.block (s := S20x8x128) S1x8x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x1.size a ≤ S100000x1.size a
  hwx3_5 : ∀ i : grid3.Coords, EltTy.bits .i32 = 32 ∨ (Rect.block (s := S100000x1) S5000x1.size (cc3_transform_5 i) (hinb3_5 i)).WholeWords (EltTy.packing .i32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1x512x128.size a ≤ S20x512x128.size a
  hwx3_7 : ∀ i : grid3.Coords, EltTy.bits .f32 = 32 ∨ (Rect.block (s := S20x512x128) S1x512x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S100000x128.size a
  hwx4_6 : ∀ i : grid4.Coords, EltTy.bits .f32 = 32 ∨ (Rect.block (s := S100000x128) S5000x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S1x8x128.size a ≤ S20x8x128.size a
  hwx4_7 : ∀ i : grid4.Coords, EltTy.bits .f32 = 32 ∨ (Rect.block (s := S20x8x128) S1x8x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S1x8x128.size a ≤ S20x8x128.size a
  hwx4_8 : ∀ i : grid4.Coords, EltTy.bits .f32 = 32 ∨ (Rect.block (s := S20x8x128) S1x8x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x1.size a ≤ S100000x1.size a
  hwx5_5 : ∀ i : grid5.Coords, EltTy.bits .i32 = 32 ∨ (Rect.block (s := S100000x1) S5000x1.size (cc5_transform_5 i) (hinb5_5 i)).WholeWords (EltTy.packing .i32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S100000x128.size a
  hwx5_6 : ∀ i : grid5.Coords, EltTy.bits .f32 = 32 ∨ (Rect.block (s := S100000x128) S5000x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S1x512x128.size a ≤ S20x512x128.size a
  hwx5_7 : ∀ i : grid5.Coords, EltTy.bits .f32 = 32 ∨ (Rect.block (s := S20x512x128) S1x512x128.size (cc5_transform_7 i) (hinb5_7 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x512_S5000x128_S512x128_0_0_1_1_n_n : DotDims S5000x512 S5000x128 S512x128 where
  lhsContracting := [0]
  rhsContracting := [0]
  lhsNonContracting := [1]
  rhsNonContracting := [1]
  lhsBatch := []
  rhsBatch := []
  wf := dot_S5000x512_S5000x128_S512x128_0_0_1_1_n_n_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v25_1) S1x8x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v25_2) S1x8x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v25_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S5000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v44_0) S5000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v44_1) S1x512x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v55) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44_0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v66_1) S1x8x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v66_2) S1x8x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v66_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v78) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v77) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v81) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v84) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v4) S5000x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v85_0) S5000x128.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v85_1) S1x512x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v96) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v85_0) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v98) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v101) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v103) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v106) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v107_0) S5000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v107_1) S1x8x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v107_2) S1x8x128.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v107_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v119) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v118) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v122) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v125) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v4) S5000x1.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v126_0) S5000x128.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v126_1) S1x512x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S100000 : Shape := ⟨1, ![100000]⟩
abbrev S3x128x128 : Shape := ⟨3, ![3, 128, 128]⟩
abbrev S3x128 : Shape := ⟨2, ![3, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S512x128 : Shape := ⟨2, ![512, 128]⟩
abbrev S100000x1 : Shape := ⟨2, ![100000, 1]⟩
abbrev S512x384 : Shape := ⟨2, ![512, 384]⟩
abbrev S100000x384 : Shape := ⟨2, ![100000, 384]⟩

abbrev nBuf : Space → Nat
  | .hbm => 315
  | .vmem => 0
  | .smem => 0
  | _ => 0

abbrev hbmTy0_0 (i : Nat) : BufTy := match i % 128 with
  | 0 => ⟨S100000x128, .f32⟩
  | 1 => ⟨S2x640000, .i32⟩
  | 2 => ⟨S100000, .i32⟩
  | 3 => ⟨S3x128x128, .f32⟩
  | 4 => ⟨S3x128, .f32⟩
  | 5 => ⟨S3x128x128, .f32⟩
  | 6 => ⟨S3x128, .f32⟩
  | 7 => ⟨S3x128, .f32⟩
  | 8 => ⟨S3x128, .f32⟩
  | 9 => ⟨S1x640000, .i32⟩
  | 10 => ⟨S640000, .i32⟩
  | 11 => ⟨S1x640000, .i32⟩
  | 12 => ⟨S640000, .i32⟩
  | 13 => ⟨S_, .i32⟩
  | 14 => ⟨S640000, .i32⟩
  | 15 => ⟨S640000, .i1⟩
  | 16 => ⟨S_, .i32⟩
  | 17 => ⟨S640000, .i32⟩
  | 18 => ⟨S640000, .i32⟩
  | 19 => ⟨S640000, .i32⟩
  | 20 => ⟨S640000x1, .i32⟩
  | 21 => ⟨S640000x128, .f32⟩
  | 22 => ⟨S_, .f32⟩
  | 23 => ⟨S100000x128, .f32⟩
  | 24 => ⟨S640000x1, .i32⟩
  | 25 => ⟨S100000x128, .f32⟩
  | 26 => ⟨S100000x128, .f32⟩
  | 27 => ⟨S1x128x128, .f32⟩
  | 28 => ⟨S128x128, .f32⟩
  | 29 => ⟨S100000x128, .f32⟩
  | 30 => ⟨S1x128, .f32⟩
  | 31 => ⟨S128, .f32⟩
  | 32 => ⟨S1x128, .f32⟩
  | 33 => ⟨S100000x128, .f32⟩
  | 34 => ⟨S100000x128, .f32⟩
  | 35 => ⟨S_, .f32⟩
  | 36 => ⟨S100000x128, .f32⟩
  | 37 => ⟨S100000x128, .f32⟩
  | 38 => ⟨S1x128x128, .f32⟩
  | 39 => ⟨S128x128, .f32⟩
  | 40 => ⟨S100000x128, .f32⟩
  | 41 => ⟨S1x128, .f32⟩
  | 42 => ⟨S128, .f32⟩
  | 43 => ⟨S1x128, .f32⟩
  | 44 => ⟨S100000x128, .f32⟩
  | 45 => ⟨S100000x128, .f32⟩
  | 46 => ⟨S_, .f32⟩
  | 47 => ⟨S100000x128, .f32⟩
  | 48 => ⟨S100000x128, .i1⟩
  | 49 => ⟨S_, .f32⟩
  | 50 => ⟨S100000x128, .f32⟩
  | 51 => ⟨S100000x128, .i1⟩
  | 52 => ⟨S_, .f32⟩
  | 53 => ⟨S_, .f32⟩
  | 54 => ⟨S100000x128, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S100000x128, .f32⟩
  | 61 => ⟨S_, .f32⟩
  | 62 => ⟨S128, .f32⟩
  | 63 => ⟨S_, .f32⟩
  | 64 => ⟨S128, .f32⟩
  | 65 => ⟨S128, .f32⟩
  | 66 => ⟨S_, .i32⟩
  | 67 => ⟨S_, .f32⟩
  | 68 => ⟨S128, .f32⟩
  | 69 => ⟨S1x128, .f32⟩
  | 70 => ⟨S_, .f32⟩
  | 71 => ⟨S1x128, .f32⟩
  | 72 => ⟨S1x128, .f32⟩
  | 73 => ⟨S100000x128, .f32⟩
  | 74 => ⟨S100000x128, .f32⟩
  | 75 => ⟨S100000x128, .f32⟩
  | 76 => ⟨S_, .f32⟩
  | 77 => ⟨S_, .f32⟩
  | 78 => ⟨S_, .f32⟩
  | 79 => ⟨S_, .f32⟩
  | 80 => ⟨S128, .f32⟩
  | 81 => ⟨S128, .f32⟩
  | 82 => ⟨S128, .f32⟩
  | 83 => ⟨S_, .f32⟩
  | 84 => ⟨S_, .i1⟩
  | 85 => ⟨S_, .f32⟩
  | 86 => ⟨S_, .f32⟩
  | 87 => ⟨S128, .f32⟩
  | 88 => ⟨S128, .f32⟩
  | 89 => ⟨S1x128, .f32⟩
  | 90 => ⟨S100000x128, .f32⟩
  | 91 => ⟨S100000x128, .f32⟩
  | 92 => ⟨S_, .f32⟩
  | 93 => ⟨S128, .f32⟩
  | 94 => ⟨S128, .f32⟩
  | 95 => ⟨S128, .f32⟩
  | 96 => ⟨S1x128, .f32⟩
  | 97 => ⟨S100000x128, .f32⟩
  | 98 => ⟨S100000x128, .f32⟩
  | 99 => ⟨S1x128, .f32⟩
  | 100 => ⟨S128, .f32⟩
  | 101 => ⟨S1x128, .f32⟩
  | 102 => ⟨S100000x128, .f32⟩
  | 103 => ⟨S100000x128, .f32⟩
  | 104 => ⟨S1x128, .f32⟩
  | 105 => ⟨S128, .f32⟩
  | 106 => ⟨S1x128, .f32⟩
  | 107 => ⟨S100000x128, .f32⟩
  | 108 => ⟨S100000x128, .f32⟩
  | 109 => ⟨S_, .i32⟩
  | 110 => ⟨S640000, .i32⟩
  | 111 => ⟨S640000, .i1⟩
  | 112 => ⟨S_, .i32⟩
  | 113 => ⟨S640000, .i32⟩
  | 114 => ⟨S640000, .i32⟩
  | 115 => ⟨S640000, .i32⟩
  | 116 => ⟨S640000x1, .i32⟩
  | 117 => ⟨S640000x128, .f32⟩
  | 118 => ⟨S_, .f32⟩
  | 119 => ⟨S100000x128, .f32⟩
  | 120 => ⟨S640000x1, .i32⟩
  | 121 => ⟨S100000x128, .f32⟩
  | 122 => ⟨S100000x128, .f32⟩
  | 123 => ⟨S1x128x128, .f32⟩
  | 124 => ⟨S128x128, .f32⟩
  | 125 => ⟨S100000x128, .f32⟩
  | 126 => ⟨S1x128, .f32⟩
  | 127 => ⟨S128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S1x128x128, .f32⟩
  | 7 => ⟨S128x128, .f32⟩
  | 8 => ⟨S100000x128, .f32⟩
  | 9 => ⟨S1x128, .f32⟩
  | 10 => ⟨S128, .f32⟩
  | 11 => ⟨S1x128, .f32⟩
  | 12 => ⟨S100000x128, .f32⟩
  | 13 => ⟨S100000x128, .f32⟩
  | 14 => ⟨S_, .f32⟩
  | 15 => ⟨S100000x128, .f32⟩
  | 16 => ⟨S100000x128, .i1⟩
  | 17 => ⟨S_, .f32⟩
  | 18 => ⟨S100000x128, .f32⟩
  | 19 => ⟨S100000x128, .i1⟩
  | 20 => ⟨S_, .f32⟩
  | 21 => ⟨S_, .f32⟩
  | 22 => ⟨S100000x128, .f32⟩
  | 23 => ⟨S100000x128, .f32⟩
  | 24 => ⟨S100000x128, .f32⟩
  | 25 => ⟨S_, .f32⟩
  | 26 => ⟨S100000x128, .f32⟩
  | 27 => ⟨S100000x128, .f32⟩
  | 28 => ⟨S100000x128, .f32⟩
  | 29 => ⟨S_, .f32⟩
  | 30 => ⟨S128, .f32⟩
  | 31 => ⟨S_, .f32⟩
  | 32 => ⟨S128, .f32⟩
  | 33 => ⟨S128, .f32⟩
  | 34 => ⟨S_, .i32⟩
  | 35 => ⟨S_, .f32⟩
  | 36 => ⟨S128, .f32⟩
  | 37 => ⟨S1x128, .f32⟩
  | 38 => ⟨S_, .f32⟩
  | 39 => ⟨S1x128, .f32⟩
  | 40 => ⟨S1x128, .f32⟩
  | 41 => ⟨S100000x128, .f32⟩
  | 42 => ⟨S100000x128, .f32⟩
  | 43 => ⟨S100000x128, .f32⟩
  | 44 => ⟨S_, .f32⟩
  | 45 => ⟨S_, .f32⟩
  | 46 => ⟨S_, .f32⟩
  | 47 => ⟨S_, .f32⟩
  | 48 => ⟨S128, .f32⟩
  | 49 => ⟨S128, .f32⟩
  | 50 => ⟨S128, .f32⟩
  | 51 => ⟨S_, .f32⟩
  | 52 => ⟨S_, .i1⟩
  | 53 => ⟨S_, .f32⟩
  | 54 => ⟨S_, .f32⟩
  | 55 => ⟨S128, .f32⟩
  | 56 => ⟨S128, .f32⟩
  | 57 => ⟨S1x128, .f32⟩
  | 58 => ⟨S100000x128, .f32⟩
  | 59 => ⟨S100000x128, .f32⟩
  | 60 => ⟨S_, .f32⟩
  | 61 => ⟨S128, .f32⟩
  | 62 => ⟨S128, .f32⟩
  | 63 => ⟨S128, .f32⟩
  | 64 => ⟨S1x128, .f32⟩
  | 65 => ⟨S100000x128, .f32⟩
  | 66 => ⟨S100000x128, .f32⟩
  | 67 => ⟨S1x128, .f32⟩
  | 68 => ⟨S128, .f32⟩
  | 69 => ⟨S1x128, .f32⟩
  | 70 => ⟨S100000x128, .f32⟩
  | 71 => ⟨S100000x128, .f32⟩
  | 72 => ⟨S1x128, .f32⟩
  | 73 => ⟨S128, .f32⟩
  | 74 => ⟨S1x128, .f32⟩
  | 75 => ⟨S100000x128, .f32⟩
  | 76 => ⟨S100000x128, .f32⟩
  | 77 => ⟨S_, .i32⟩
  | 78 => ⟨S640000, .i32⟩
  | 79 => ⟨S640000, .i1⟩
  | 80 => ⟨S_, .i32⟩
  | 81 => ⟨S640000, .i32⟩
  | 82 => ⟨S640000, .i32⟩
  | 83 => ⟨S640000, .i32⟩
  | 84 => ⟨S640000x1, .i32⟩
  | 85 => ⟨S640000x128, .f32⟩
  | 86 => ⟨S_, .f32⟩
  | 87 => ⟨S100000x128, .f32⟩
  | 88 => ⟨S640000x1, .i32⟩
  | 89 => ⟨S100000x128, .f32⟩
  | 90 => ⟨S100000x128, .f32⟩
  | 91 => ⟨S1x128x128, .f32⟩
  | 92 => ⟨S128x128, .f32⟩
  | 93 => ⟨S100000x128, .f32⟩
  | 94 => ⟨S1x128, .f32⟩
  | 95 => ⟨S128, .f32⟩
  | 96 => ⟨S1x128, .f32⟩
  | 97 => ⟨S100000x128, .f32⟩
  | 98 => ⟨S100000x128, .f32⟩
  | 99 => ⟨S_, .f32⟩
  | 100 => ⟨S100000x128, .f32⟩
  | 101 => ⟨S100000x128, .f32⟩
  | 102 => ⟨S1x128x128, .f32⟩
  | 103 => ⟨S128x128, .f32⟩
  | 104 => ⟨S100000x128, .f32⟩
  | 105 => ⟨S1x128, .f32⟩
  | 106 => ⟨S128, .f32⟩
  | 107 => ⟨S1x128, .f32⟩
  | 108 => ⟨S100000x128, .f32⟩
  | 109 => ⟨S100000x128, .f32⟩
  | 110 => ⟨S_, .f32⟩
  | 111 => ⟨S100000x128, .f32⟩
  | 112 => ⟨S100000x128, .i1⟩
  | 113 => ⟨S_, .f32⟩
  | 114 => ⟨S100000x128, .f32⟩
  | 115 => ⟨S100000x128, .i1⟩
  | 116 => ⟨S_, .f32⟩
  | 117 => ⟨S_, .f32⟩
  | 118 => ⟨S100000x128, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S100000x128, .f32⟩
  | 125 => ⟨S_, .f32⟩
  | 126 => ⟨S128, .f32⟩
  | 127 => ⟨S_, .f32⟩
  | _ => ⟨S100000x128, .f32⟩

abbrev hbmTy0_2 (i : Nat) : BufTy := match i % 128 with
  | 0 => ⟨S128, .f32⟩
  | 1 => ⟨S128, .f32⟩
  | 2 => ⟨S_, .i32⟩
  | 3 => ⟨S_, .f32⟩
  | 4 => ⟨S128, .f32⟩
  | 5 => ⟨S1x128, .f32⟩
  | 6 => ⟨S_, .f32⟩
  | 7 => ⟨S1x128, .f32⟩
  | 8 => ⟨S1x128, .f32⟩
  | 9 => ⟨S100000x128, .f32⟩
  | 10 => ⟨S100000x128, .f32⟩
  | 11 => ⟨S100000x128, .f32⟩
  | 12 => ⟨S_, .f32⟩
  | 13 => ⟨S_, .f32⟩
  | 14 => ⟨S_, .f32⟩
  | 15 => ⟨S_, .f32⟩
  | 16 => ⟨S128, .f32⟩
  | 17 => ⟨S128, .f32⟩
  | 18 => ⟨S128, .f32⟩
  | 19 => ⟨S_, .f32⟩
  | 20 => ⟨S_, .i1⟩
  | 21 => ⟨S_, .f32⟩
  | 22 => ⟨S_, .f32⟩
  | 23 => ⟨S128, .f32⟩
  | 24 => ⟨S128, .f32⟩
  | 25 => ⟨S1x128, .f32⟩
  | 26 => ⟨S100000x128, .f32⟩
  | 27 => ⟨S100000x128, .f32⟩
  | 28 => ⟨S_, .f32⟩
  | 29 => ⟨S128, .f32⟩
  | 30 => ⟨S128, .f32⟩
  | 31 => ⟨S128, .f32⟩
  | 32 => ⟨S1x128, .f32⟩
  | 33 => ⟨S100000x128, .f32⟩
  | 34 => ⟨S100000x128, .f32⟩
  | 35 => ⟨S1x128, .f32⟩
  | 36 => ⟨S128, .f32⟩
  | 37 => ⟨S1x128, .f32⟩
  | 38 => ⟨S100000x128, .f32⟩
  | 39 => ⟨S100000x128, .f32⟩
  | 40 => ⟨S1x128, .f32⟩
  | 41 => ⟨S128, .f32⟩
  | 42 => ⟨S1x128, .f32⟩
  | 43 => ⟨S100000x128, .f32⟩
  | 44 => ⟨S100000x128, .f32⟩
  | 45 => ⟨S_, .f32⟩
  | 46 => ⟨S512x128, .f32⟩
  | 47 => ⟨S100000x1, .i32⟩
  | 48 => ⟨S512x128, .f32⟩
  | 49 => ⟨S_, .f32⟩
  | 50 => ⟨S512x128, .f32⟩
  | 51 => ⟨S100000x1, .i32⟩
  | 52 => ⟨S512x128, .f32⟩
  | 53 => ⟨S_, .f32⟩
  | 54 => ⟨S512x128, .f32⟩
  | 55 => ⟨S100000x1, .i32⟩
  | 56 => ⟨S512x128, .f32⟩
  | 57 => ⟨S512x384, .f32⟩
  | 58 => ⟨S100000x384, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_cst_0 : Ref sig .tc := ⟨.hbm, 49, rfl⟩
abbrev main_call0_v2 : Ref sig .tc := ⟨.hbm, 50, rfl⟩
abbrev main_call0_v3 : Ref sig .tc := ⟨.hbm, 51, rfl⟩
abbrev main_call0_cst_1 : Ref sig .tc := ⟨.hbm, 52, rfl⟩
abbrev main_call0_call0_v0 : Ref sig .tc := ⟨.hbm, 53, rfl⟩
abbrev main_call0_call0_v1 : Ref sig .tc := ⟨.hbm, 54, rfl⟩
abbrev main_call0_v4 : Ref sig .tc := ⟨.hbm, 55, rfl⟩
abbrev main_call0_v5 : Ref sig .tc := ⟨.hbm, 56, rfl⟩
abbrev main_call0_cst_2 : Ref sig .tc := ⟨.hbm, 57, rfl⟩
abbrev main_call0_v6 : Ref sig .tc := ⟨.hbm, 58, rfl⟩
abbrev main_call0_v7 : Ref sig .tc := ⟨.hbm, 59, rfl⟩
abbrev main_v33 : Ref sig .tc := ⟨.hbm, 60, rfl⟩
abbrev main_cst_2 : Ref sig .tc := ⟨.hbm, 61, rfl⟩
abbrev main_v34 : Ref sig .tc := ⟨.hbm, 62, rfl⟩
abbrev main_cst_3 : Ref sig .tc := ⟨.hbm, 63, rfl⟩
abbrev main_v35 : Ref sig .tc := ⟨.hbm, 64, rfl⟩
abbrev main_v36 : Ref sig .tc := ⟨.hbm, 65, rfl⟩
abbrev main_c_4 : Ref sig .tc := ⟨.hbm, 66, rfl⟩
abbrev main_call1_cst : Ref sig .tc := ⟨.hbm, 67, rfl⟩
abbrev main_call1_v0 : Ref sig .tc := ⟨.hbm, 68, rfl⟩
abbrev main_call1_v1 : Ref sig .tc := ⟨.hbm, 69, rfl⟩
abbrev main_call1_cst_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_v6 : Ref sig .tc := ⟨.hbm, 75, rfl⟩
abbrev main_call1_v7 : Ref sig .tc := ⟨.hbm, 76, rfl⟩
abbrev main_call1_cst_1 : Ref sig .tc := ⟨.hbm, 77, rfl⟩
abbrev main_call1_v8 : Ref sig .tc := ⟨.hbm, 78, rfl⟩
abbrev main_call1_cst_2 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_cst_3 : Ref sig .tc := ⟨.hbm, 83, rfl⟩
abbrev main_call1_v12 : Ref sig .tc := ⟨.hbm, 84, rfl⟩
abbrev main_call1_cst_4 : Ref sig .tc := ⟨.hbm, 85, rfl⟩
abbrev main_call1_call0_v0 : Ref sig .tc := ⟨.hbm, 86, rfl⟩
abbrev main_call1_call0_v1 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_cst_5 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_c_6 : Ref sig .tc := ⟨.hbm, 109, rfl⟩
abbrev main_v57 : Ref sig .tc := ⟨.hbm, 110, rfl⟩
abbrev main_v58 : Ref sig .tc := ⟨.hbm, 111, rfl⟩
abbrev main_c_7 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_cst_8 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_cst_9 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_call2_cst : Ref sig .tc := ⟨.hbm, 142, rfl⟩
abbrev main_call2_v0 : Ref sig .tc := ⟨.hbm, 143, rfl⟩
abbrev main_call2_v1 : Ref sig .tc := ⟨.hbm, 144, rfl⟩
abbrev main_call2_cst_0 : Ref sig .tc := ⟨.hbm, 145, rfl⟩
abbrev main_call2_v2 : Ref sig .tc := ⟨.hbm, 146, rfl⟩
abbrev main_call2_v3 : Ref sig .tc := ⟨.hbm, 147, rfl⟩
abbrev main_call2_cst_1 : Ref sig .tc := ⟨.hbm, 148, rfl⟩
abbrev main_call2_call0_v0 : Ref sig .tc := ⟨.hbm, 149, rfl⟩
abbrev main_call2_call0_v1 : Ref sig .tc := ⟨.hbm, 150, rfl⟩
abbrev main_call2_v4 : Ref sig .tc := ⟨.hbm, 151, rfl⟩
abbrev main_call2_v5 : Ref sig .tc := ⟨.hbm, 152, rfl⟩
abbrev main_call2_cst_2 : Ref sig .tc := ⟨.hbm, 153, rfl⟩
abbrev main_call2_v6 : Ref sig .tc := ⟨.hbm, 154, rfl⟩
abbrev main_call2_v7 : Ref sig .tc := ⟨.hbm, 155, rfl⟩
abbrev main_v86 : Ref sig .tc := ⟨.hbm, 156, rfl⟩
abbrev main_cst_10 : Ref sig .tc := ⟨.hbm, 157, rfl⟩
abbrev main_v87 : Ref sig .tc := ⟨.hbm, 158, rfl⟩
abbrev main_cst_11 : Ref sig .tc := ⟨.hbm, 159, rfl⟩
abbrev main_v88 : Ref sig .tc := ⟨.hbm, 160, rfl⟩
abbrev main_v89 : Ref sig .tc := ⟨.hbm, 161, rfl⟩
abbrev main_c_12 : Ref sig .tc := ⟨.hbm, 162, rfl⟩
abbrev main_call3_cst : Ref sig .tc := ⟨.hbm, 163, rfl⟩
abbrev main_call3_v0 : Ref sig .tc := ⟨.hbm, 164, rfl⟩
abbrev main_call3_v1 : Ref sig .tc := ⟨.hbm, 165, rfl⟩
abbrev main_call3_cst_0 : Ref sig .tc := ⟨.hbm, 166, rfl⟩
abbrev main_call3_v2 : Ref sig .tc := ⟨.hbm, 167, rfl⟩
abbrev main_call3_v3 : Ref sig .tc := ⟨.hbm, 168, rfl⟩
abbrev main_call3_v4 : Ref sig .tc := ⟨.hbm, 169, rfl⟩
abbrev main_call3_v5 : Ref sig .tc := ⟨.hbm, 170, rfl⟩
abbrev main_call3_v6 : Ref sig .tc := ⟨.hbm, 171, rfl⟩
abbrev main_call3_v7 : Ref sig .tc := ⟨.hbm, 172, rfl⟩
abbrev main_call3_cst_1 : Ref sig .tc := ⟨.hbm, 173, rfl⟩
abbrev main_call3_v8 : Ref sig .tc := ⟨.hbm, 174, rfl⟩
abbrev main_call3_cst_2 : Ref sig .tc := ⟨.hbm, 175, rfl⟩
abbrev main_call3_v9 : Ref sig .tc := ⟨.hbm, 176, rfl⟩
abbrev main_call3_v10 : Ref sig .tc := ⟨.hbm, 177, rfl⟩
abbrev main_call3_v11 : Ref sig .tc := ⟨.hbm, 178, rfl⟩
abbrev main_call3_cst_3 : Ref sig .tc := ⟨.hbm, 179, rfl⟩
abbrev main_call3_v12 : Ref sig .tc := ⟨.hbm, 180, rfl⟩
abbrev main_call3_cst_4 : Ref sig .tc := ⟨.hbm, 181, rfl⟩
abbrev main_call3_call0_v0 : Ref sig .tc := ⟨.hbm, 182, rfl⟩
abbrev main_call3_call0_v1 : Ref sig .tc := ⟨.hbm, 183, rfl⟩
abbrev main_v90 : Ref sig .tc := ⟨.hbm, 184, rfl⟩
abbrev main_v91 : Ref sig .tc := ⟨.hbm, 185, rfl⟩
abbrev main_v92 : Ref sig .tc := ⟨.hbm, 186, rfl⟩
abbrev main_v93 : Ref sig .tc := ⟨.hbm, 187, rfl⟩
abbrev main_cst_13 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_v98 : Ref sig .tc := ⟨.hbm, 193, rfl⟩
abbrev main_v99 : Ref sig .tc := ⟨.hbm, 194, rfl⟩
abbrev main_v100 : Ref sig .tc := ⟨.hbm, 195, rfl⟩
abbrev main_v101 : Ref sig .tc := ⟨.hbm, 196, rfl⟩
abbrev main_v102 : Ref sig .tc := ⟨.hbm, 197, rfl⟩
abbrev main_v103 : Ref sig .tc := ⟨.hbm, 198, rfl⟩
abbrev main_v104 : Ref sig .tc := ⟨.hbm, 199, rfl⟩
abbrev main_v105 : Ref sig .tc := ⟨.hbm, 200, rfl⟩
abbrev main_v106 : Ref sig .tc := ⟨.hbm, 201, rfl⟩
abbrev main_v107 : Ref sig .tc := ⟨.hbm, 202, rfl⟩
abbrev main_v108 : Ref sig .tc := ⟨.hbm, 203, rfl⟩
abbrev main_v109 : Ref sig .tc := ⟨.hbm, 204, rfl⟩
abbrev main_c_14 : Ref sig .tc := ⟨.hbm, 205, rfl⟩
abbrev main_v110 : Ref sig .tc := ⟨.hbm, 206, rfl⟩
abbrev main_v111 : Ref sig .tc := ⟨.hbm, 207, rfl⟩
abbrev main_c_15 : Ref sig .tc := ⟨.hbm, 208, rfl⟩
abbrev main_v112 : Ref sig .tc := ⟨.hbm, 209, rfl⟩
abbrev main_v113 : Ref sig .tc := ⟨.hbm, 210, rfl⟩
abbrev main_v114 : Ref sig .tc := ⟨.hbm, 211, rfl⟩
abbrev main_v115 : Ref sig .tc := ⟨.hbm, 212, rfl⟩
abbrev main_v116 : Ref sig .tc := ⟨.hbm, 213, rfl⟩
abbrev main_cst_16 : Ref sig .tc := ⟨.hbm, 214, rfl⟩
abbrev main_v117 : Ref sig .tc := ⟨.hbm, 215, rfl⟩
abbrev main_v118 : Ref sig .tc := ⟨.hbm, 216, rfl⟩
abbrev main_v119 : Ref sig .tc := ⟨.hbm, 217, rfl⟩
abbrev main_v120 : Ref sig .tc := ⟨.hbm, 218, rfl⟩
abbrev main_v121 : Ref sig .tc := ⟨.hbm, 219, rfl⟩
abbrev main_v122 : Ref sig .tc := ⟨.hbm, 220, rfl⟩
abbrev main_v123 : Ref sig .tc := ⟨.hbm, 221, rfl⟩
abbrev main_v124 : Ref sig .tc := ⟨.hbm, 222, rfl⟩
abbrev main_v125 : Ref sig .tc := ⟨.hbm, 223, rfl⟩
abbrev main_v126 : Ref sig .tc := ⟨.hbm, 224, rfl⟩
abbrev main_v127 : Ref sig .tc := ⟨.hbm, 225, rfl⟩
abbrev main_v128 : Ref sig .tc := ⟨.hbm, 226, rfl⟩
abbrev main_cst_17 : Ref sig .tc := ⟨.hbm, 227, rfl⟩
abbrev main_v129 : Ref sig .tc := ⟨.hbm, 228, rfl⟩
abbrev main_v130 : Ref sig .tc := ⟨.hbm, 229, rfl⟩
abbrev main_v131 : Ref sig .tc := ⟨.hbm, 230, rfl⟩
abbrev main_v132 : Ref sig .tc := ⟨.hbm, 231, rfl⟩
abbrev main_v133 : Ref sig .tc := ⟨.hbm, 232, rfl⟩
abbrev main_v134 : Ref sig .tc := ⟨.hbm, 233, rfl⟩
abbrev main_v135 : Ref sig .tc := ⟨.hbm, 234, rfl⟩
abbrev main_v136 : Ref sig .tc := ⟨.hbm, 235, rfl⟩
abbrev main_v137 : Ref sig .tc := ⟨.hbm, 236, rfl⟩
abbrev main_v138 : Ref sig .tc := ⟨.hbm, 237, rfl⟩
abbrev main_call4_cst : Ref sig .tc := ⟨.hbm, 238, rfl⟩
abbrev main_call4_v0 : Ref sig .tc := ⟨.hbm, 239, rfl⟩
abbrev main_call4_v1 : Ref sig .tc := ⟨.hbm, 240, rfl⟩
abbrev main_call4_cst_0 : Ref sig .tc := ⟨.hbm, 241, rfl⟩
abbrev main_call4_v2 : Ref sig .tc := ⟨.hbm, 242, rfl⟩
abbrev main_call4_v3 : Ref sig .tc := ⟨.hbm, 243, rfl⟩
abbrev main_call4_cst_1 : Ref sig .tc := ⟨.hbm, 244, rfl⟩
abbrev main_call4_call0_v0 : Ref sig .tc := ⟨.hbm, 245, rfl⟩
abbrev main_call4_call0_v1 : Ref sig .tc := ⟨.hbm, 246, rfl⟩
abbrev main_call4_v4 : Ref sig .tc := ⟨.hbm, 247, rfl⟩
abbrev main_call4_v5 : Ref sig .tc := ⟨.hbm, 248, rfl⟩
abbrev main_call4_cst_2 : Ref sig .tc := ⟨.hbm, 249, rfl⟩
abbrev main_call4_v6 : Ref sig .tc := ⟨.hbm, 250, rfl⟩
abbrev main_call4_v7 : Ref sig .tc := ⟨.hbm, 251, rfl⟩
abbrev main_v139 : Ref sig .tc := ⟨.hbm, 252, rfl⟩
abbrev main_cst_18 : Ref sig .tc := ⟨.hbm, 253, rfl⟩
abbrev main_v140 : Ref sig .tc := ⟨.hbm, 254, rfl⟩
abbrev main_cst_19 : Ref sig .tc := ⟨.hbm, 255, rfl⟩
abbrev main_v141 : Ref sig .tc := ⟨.hbm, 256, rfl⟩
abbrev main_v142 : Ref sig .tc := ⟨.hbm, 257, rfl⟩
abbrev main_c_20 : Ref sig .tc := ⟨.hbm, 258, rfl⟩
abbrev main_call5_cst : Ref sig .tc := ⟨.hbm, 259, rfl⟩
abbrev main_call5_v0 : Ref sig .tc := ⟨.hbm, 260, rfl⟩
abbrev main_call5_v1 : Ref sig .tc := ⟨.hbm, 261, rfl⟩
abbrev main_call5_cst_0 : Ref sig .tc := ⟨.hbm, 262, rfl⟩
abbrev main_call5_v2 : Ref sig .tc := ⟨.hbm, 263, rfl⟩
abbrev main_call5_v3 : Ref sig .tc := ⟨.hbm, 264, rfl⟩
abbrev main_call5_v4 : Ref sig .tc := ⟨.hbm, 265, rfl⟩
abbrev main_call5_v5 : Ref sig .tc := ⟨.hbm, 266, rfl⟩
abbrev main_call5_v6 : Ref sig .tc := ⟨.hbm, 267, rfl⟩
abbrev main_call5_v7 : Ref sig .tc := ⟨.hbm, 268, rfl⟩
abbrev main_call5_cst_1 : Ref sig .tc := ⟨.hbm, 269, rfl⟩
abbrev main_call5_v8 : Ref sig .tc := ⟨.hbm, 270, rfl⟩
abbrev main_call5_cst_2 : Ref sig .tc := ⟨.hbm, 271, rfl⟩
abbrev main_call5_v9 : Ref sig .tc := ⟨.hbm, 272, rfl⟩
abbrev main_call5_v10 : Ref sig .tc := ⟨.hbm, 273, rfl⟩
abbrev main_call5_v11 : Ref sig .tc := ⟨.hbm, 274, rfl⟩
abbrev main_call5_cst_3 : Ref sig .tc := ⟨.hbm, 275, rfl⟩
abbrev main_call5_v12 : Ref sig .tc := ⟨.hbm, 276, rfl⟩
abbrev main_call5_cst_4 : Ref sig .tc := ⟨.hbm, 277, rfl⟩
abbrev main_call5_call0_v0 : Ref sig .tc := ⟨.hbm, 278, rfl⟩
abbrev main_call5_call0_v1 : Ref sig .tc := ⟨.hbm, 279, rfl⟩
abbrev main_v143 : Ref sig .tc := ⟨.hbm, 280, rfl⟩
abbrev main_v144 : Ref sig .tc := ⟨.hbm, 281, rfl⟩
abbrev main_v145 : Ref sig .tc := ⟨.hbm, 282, rfl⟩
abbrev main_v146 : Ref sig .tc := ⟨.hbm, 283, rfl⟩
abbrev main_cst_21 : Ref sig .tc := ⟨.hbm, 284, rfl⟩
abbrev main_v147 : Ref sig .tc := ⟨.hbm, 285, rfl⟩
abbrev main_v148 : Ref sig .tc := ⟨.hbm, 286, rfl⟩
abbrev main_v149 : Ref sig .tc := ⟨.hbm, 287, rfl⟩
abbrev main_v150 : Ref sig .tc := ⟨.hbm, 288, rfl⟩
abbrev main_v151 : Ref sig .tc := ⟨.hbm, 289, rfl⟩
abbrev main_v152 : Ref sig .tc := ⟨.hbm, 290, rfl⟩
abbrev main_v153 : Ref sig .tc := ⟨.hbm, 291, rfl⟩
abbrev main_v154 : Ref sig .tc := ⟨.hbm, 292, rfl⟩
abbrev main_v155 : Ref sig .tc := ⟨.hbm, 293, rfl⟩
abbrev main_v156 : Ref sig .tc := ⟨.hbm, 294, rfl⟩
abbrev main_v157 : Ref sig .tc := ⟨.hbm, 295, rfl⟩
abbrev main_v158 : Ref sig .tc := ⟨.hbm, 296, rfl⟩
abbrev main_v159 : Ref sig .tc := ⟨.hbm, 297, rfl⟩
abbrev main_v160 : Ref sig .tc := ⟨.hbm, 298, rfl⟩
abbrev main_v161 : Ref sig .tc := ⟨.hbm, 299, rfl⟩
abbrev main_v162 : Ref sig .tc := ⟨.hbm, 300, rfl⟩
abbrev main_cst_22 : Ref sig .tc := ⟨.hbm, 301, rfl⟩
abbrev main_v163 : Ref sig .tc := ⟨.hbm, 302, rfl⟩
abbrev main_v164 : Ref sig .tc := ⟨.hbm, 303, rfl⟩
abbrev main_v165 : Ref sig .tc := ⟨.hbm, 304, rfl⟩
abbrev main_cst_23 : Ref sig .tc := ⟨.hbm, 305, rfl⟩
abbrev main_v166 : Ref sig .tc := ⟨.hbm, 306, rfl⟩
abbrev main_v167 : Ref sig .tc := ⟨.hbm, 307, rfl⟩
abbrev main_v168 : Ref sig .tc := ⟨.hbm, 308, rfl⟩
abbrev main_cst_24 : Ref sig .tc := ⟨.hbm, 309, rfl⟩
abbrev main_v169 : Ref sig .tc := ⟨.hbm, 310, rfl⟩
abbrev main_v170 : Ref sig .tc := ⟨.hbm, 311, rfl⟩
abbrev main_v171 : Ref sig .tc := ⟨.hbm, 312, rfl⟩
abbrev main_v172 : Ref sig .tc := ⟨.hbm, 313, rfl⟩
abbrev main_v173 : Ref sig .tc := ⟨.hbm, 314, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S512x128 : S_.BroadcastsInDim S512x128 (![] : Fin 0 → Fin S512x128.rank)
  bcast_S100000_S100000x1_0 : S100000.BroadcastsInDim S100000x1 (![0] : Fin 1 → Fin S100000x1.rank)
  concatenates_S512x128_S512x128_S512x128_S512x384_d1 : Shape.Concatenates [S512x128, S512x128, S512x128] S512x384 1
  concatenates_S100000x128_S100000x128_S100000x128_S100000x384_d1 : Shape.Concatenates [S100000x128, S100000x128, S100000x128] S100000x384 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf

class Facts : Prop extends Facts₀ where

variable [Facts]
-- ==== Proof.KIRegA0.lean ====
/- The region-0 half of the frame of the idealized program: the first call of the two-layer perceptron with column
   statistics (pipeline 0, nine windows: the aggregated features, the node features, two weight matrices and two bias
   rows read; the activated features and the per-block column sums of them and of their squares written), at a
   PARAMETER `V`: the contents of the core's buffers when the region is entered. Per window its block at a grid point;
   per output window what the body's one store leaves in its buffer as a function of the six input blocks; the body's
   triple; the pipeline's proof data; and the body obligation at every grid point. Generic in the float instance. -/
import proofs.«406400_j6640019439960_2_alg».proof.Proof.Gen.KernelIdeal.Launch
import proofs.«406400_j6640019439960_2_alg».proof.Proof.Gen.KernelIdeal.Skeleton
import proofs.«406400_j6640019439960_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when region 0 is entered: the parameter this half is stated at
variable (V : (c : Dev nD) → (b : Ref sig .tc) → Buf (Elt F) ((c : Thread nD τ).loc b))

/-! # REGION 0: pipeline 0, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, for ANY proof data whose array is
    `V`'s (`hA`) and whose body leaves the block in place (`hafter`). Windows 0 and 1 (the 5000-row blocks of the two
    feature arrays) are fetched at every point; windows 2 to 5 (the weights and biases, one block each, the index map
    constant) are fetched at the first point only, and at every later point the index has not moved, so the buffer
    still holds the one block. All six are uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

-- the whole block of each of the four block shapes: every load and every store of the body is one of these
abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0
abbrev r0_3 : Rect S1x8x128 := Rect.unit (s := S1x8x128) ![0, 0, 0] S1x8x128.size inb_S1x8x128_S1x8x128_0_0_0

/-! ## What the body leaves in each output window's buffer -/

/-- Window 6 (the activated features) after the body: its one store, of the whole block,
    ELU(relu((x0 + x1)·x2 + x3)·x4 + x5) as the skeleton's payload states it. -/
def out0_6 (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 :=
  View.canon [⟨r0_0, k0_pay4 (View.ld x0 r0_0) (View.ld x1 r0_0) (View.ld x2 r0_1) (View.ld x3 r0_2) (View.ld x4 r0_1) (View.ld x5 r0_2)⟩]

/-- Its one store is of the whole block, so it covers the buffer. -/
theorem cover0_6 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-- Window 7 (the block's column sums, padded with seven zero rows) after the body: its one store. -/
def out0_7 (x0 : Vec F S5000x128 .f32) (x1 : Vec F S5000x128 .f32) (x2 : Vec F S128x128 .f32) (x3 : Vec F S1x128 .f32) (x4 : Vec F S128x128 .f32) (x5 : Vec F S1x128 .f32) : Vec F S1x8x128 .f32 :=
  View.canon [⟨r0_3, k0_pay2 (k0_pay5 (View.ld x0 r0_0) (View.ld x1 r0_0) (View.ld x2 r0_1) (View.ld x3 r0_2) (View.ld x4 r0_1) (View.ld x5 r0_2)) (Scalar.ofBits .f32 0x00000000#32)⟩]

/-- Its one store is of the whole block, so it covers the buffer. -/
theorem cover0_7 (p0 : Vec F S1x8x128 .f32) (y : S1x8x128.Idx) :
    ∃ pc ∈ ([⟨r0_3, p0⟩] : List (View.Piece (Elt F) S1x8x128 .f32)), y ∈ pc.1.set :=
  View.cover_of_tiled [⟨r0_3, p0⟩] S1x8x128.size (by rfl) y

/-- Window 8 (the block's column sums of squares, padded with seven zero rows) after the body: its one store. -/
def out0_8 (x0 : Vec F S5000x128 .f32) (x1 : Vec F S5000x128 .f32) (x2 : Vec F S128x128 .f32) (x3 : Vec F S1x128 .f32) (x4 : Vec F S128x128 .f32) (x5 : Vec F S1x128 .f32) : Vec F S1x8x128 .f32 :=
  View.canon [⟨r0_3, k0_pay3 (k0_pay6 (View.ld x0 r0_0) (View.ld x1 r0_0) (View.ld x2 r0_1) (View.ld x3 r0_2) (View.ld x4 r0_1) (View.ld x5 r0_2)) (Scalar.ofBits .f32 0x00000000#32)⟩]

/-- Its one store is of the whole block, so it covers the buffer. -/
theorem cover0_8 (p0 : Vec F S1x8x128 .f32) (y : S1x8x128.Idx) :
    ∃ pc ∈ ([⟨r0_3, p0⟩] : List (View.Piece (Elt F) S1x8x128 .f32)), y ∈ pc.1.set :=
  View.cover_of_tiled [⟨r0_3, p0⟩] S1x8x128.size (by rfl) y

/-! ## The body's triple -/

set_option maxHeartbeats 1000000 in
/-- The kernel body on whole staging memrefs, the six inputs' at read contents `xW` and the three outputs' at anything,
    runs to the continuation holding the inputs' as they were and each output's at `out0_W` of the inputs'. Each
    output is loaded once before its store; the loaded value is used nowhere, so what the buffer held does not
    matter. The body and its one part are their skeletons, run statement by statement through the part call. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x8x128 .f32) (harg8 : arg8.IsWhole) (arg9 : Memref sig .tc .vmem S1x8x128 .f32) (harg9 : arg9.IsWhole)
    (x0 : Vec F S5000x128 .f32) (x1 : Vec F S5000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5) ∗ owns (c : Thread nD τ) arg9 fullShare (out0_8 x0 x1 x2 x3 x4 x5)) -∗ K ⟨⟩))
      ⊢ wp frame (wpE (defs₀ (F := F)) Variants.none c none) E (cc0__mlp_stats_kernel i arg1 harg1 arg2 harg2 arg3 harg3 arg4 harg4 arg5 harg5 arg6 harg6 arg7 harg7 arg8 harg8 arg9 harg9) K := by
  simp only [cc0__mlp_stats_kernel_eq_skeleton]; unfold cc0__mlp_stats_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover0_6 _)
  isplitl [H7]
  · iexists _; isplitr
    swap; · iexact H7
    ipureintro
    try dsimp only
    exact View.read_writes_eq_canon _ _ _ (cover0_7 _)
  iexists _; isplitr
  swap; · iexact H8
  ipureintro
  try dsimp only
  exact View.read_writes_eq_canon _ _ _ (cover0_8 _)

/-! ## The pipeline's proof data -/

/-- The proof data of pipeline 0 on core `c`: the arrays as the region finds them (`V`); after the body at point `t`
    each input's buffer at its block and each output's at `out0_W` of the six input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
    | ⟨8, _⟩ => out0_8 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the nine windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ (grid0.coords t) _ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegB1.lean ====
/- The region-1 half of the frame of `Cert.KernelIdeal`: pipeline 1 (the batch-norm and pooling kernel, 8 windows: inputs 0 to 5,
   outputs 6 and 7), at a PARAMETER `V` — the TensorCore's buffer contents when the region is entered —, for any float
   instance `F`. Each window's block at a grid point (`iblk1`); each input's staging buffer at its block at every point,
   fetched there or not (`before1_W`); what the body's one store leaves in each output's buffer (`out1_W`); the body's
   triple (`sound_kernel1`); the pipeline's proof data (`dat1`) and the body obligation (`body_obligation1`). -/
import proofs.«406400_j6640019439960_2_alg».proof.Proof.Gen.KernelIdeal.Launch
import proofs.«406400_j6640019439960_2_alg».proof.Proof.Gen.KernelIdeal.Skeleton
import proofs.«406400_j6640019439960_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate of the long axis
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: pipeline 1, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (fetched at every point): its current staging buffer holds its block at every point, for ANY proof data whose
    array is `V`'s (`hA`) and whose body leaves the block in place (`hafter`). The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (fetched at the first point only; its block index never moves, so the block fetched
    there is the block of every later point): its current staging buffer holds its block at every point, for ANY proof data whose
    array is `V`'s (`hA`) and whose body leaves the block in place (`hafter`). The window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (fetched at the first point only; its block index never moves, so the block fetched
    there is the block of every later point): its current staging buffer holds its block at every point, for ANY proof data whose
    array is `V`'s (`hA`) and whose body leaves the block in place (`hafter`). The window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (fetched at the first point only; its block index never moves, so the block fetched
    there is the block of every later point): its current staging buffer holds its block at every point, for ANY proof data whose
    array is `V`'s (`hA`) and whose body leaves the block in place (`hafter`). The window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (fetched at the first point only; its block index never moves, so the block fetched
    there is the block of every later point): its current staging buffer holds its block at every point, for ANY proof data whose
    array is `V`'s (`hA`) and whose body leaves the block in place (`hafter`). The window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5 (fetched at every point): its current staging buffer holds its block at every point, for ANY proof data whose
    array is `V`'s (`hA`) and whose body leaves the block in place (`hafter`). The window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0
abbrev r1_2 : Rect S5000x1 := Rect.unit (s := S5000x1) ![0, 0] S5000x1.size inb_S5000x1_S5000x1_0_0
abbrev r1_3 : Rect S1x512x128 := Rect.unit (s := S1x512x128) ![0, 0, 0] S1x512x128.size inb_S1x512x128_S1x512x128_0_0_0

/-! ## What the body leaves in each output window's buffer -/

/-- Window 6's staging buffer after the body, from the input windows' blocks: its one store, of the whole buffer
    (the normalised block: (x0 − mean) · rsqrt(var + ε) · γ + β, the statistics read from windows 1 to 4). -/
def out1_6 (x0 : Vec F S5000x128 .f32) (x1 : Vec F S1x128 .f32) (x2 : Vec F S1x128 .f32) (x3 : Vec F S1x128 .f32) (x4 : Vec F S1x128 .f32) (x5 : Vec F S5000x1 .i32) : Vec F S5000x128 .f32 :=
  View.canon [⟨r1_0, k1_pay1 (View.ld x2 r1_1) (View.ld x0 r1_0) (View.ld x1 r1_1) (View.ld x3 r1_1) (View.ld x4 r1_1)⟩]

/-- Its one store is of the whole buffer, so it covers it. -/
theorem cover1_6 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-- Window 7's staging buffer after the body, from the input windows' blocks: its one store, of the whole buffer
    (the pooled block: the one-hot matrix of window 5's segment ids, contracted over the rows with the
    normalised block, split in a high and a low bf16 half). -/
def out1_7 (x0 : Vec F S5000x128 .f32) (x1 : Vec F S1x128 .f32) (x2 : Vec F S1x128 .f32) (x3 : Vec F S1x128 .f32) (x4 : Vec F S1x128 .f32) (x5 : Vec F S5000x1 .i32) : Vec F S1x512x128 .f32 :=
  View.canon [⟨r1_3, k1_pay2 (View.ld x2 r1_1) (View.ld x0 r1_0) (View.ld x1 r1_1) (View.ld x3 r1_1) (View.ld x4 r1_1) (View.ld x5 r1_2)⟩]

/-- Its one store is of the whole buffer, so it covers it. -/
theorem cover1_7 (p0 : Vec F S1x512x128 .f32) (y : S1x512x128.Idx) :
    ∃ pc ∈ ([⟨r1_3, p0⟩] : List (View.Piece (Elt F) S1x512x128 .f32)), y ∈ pc.1.set :=
  View.cover_of_tiled [⟨r1_3, p0⟩] S1x512x128.size (by rfl) y

/-! ## The body's triple -/

set_option maxHeartbeats 1000000 in
/-- The kernel body on whole staging memrefs, the inputs' at read contents `xW` and the outputs' at anything, runs to
    the continuation holding the inputs' as they were and each output's at `out1_W` of the inputs'. The printed
    functions are their skeletons: six loads of the inputs, a load of each output whose value is not used, and one
    store to each output; the run goes through the part call. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S1x512x128 .f32) (harg8 : arg8.IsWhole)
    (x0 : Vec F S5000x128 .f32) (x1 : Vec F S1x128 .f32) (x2 : Vec F S1x128 .f32) (x3 : Vec F S1x128 .f32) (x4 : Vec F S1x128 .f32) (x5 : Vec F S5000x1 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__bn_pool_kernel i arg1 harg1 arg2 harg2 arg3 harg3 arg4 harg4 arg5 harg5 arg6 harg6 arg7 harg7 arg8 harg8) K := by
  simp only [cc1__bn_pool_kernel_eq_skeleton]; unfold cc1__bn_pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover1_6 _)
  iexists _; isplitr
  swap; · iexact H7
  ipureintro
  try dsimp only
  exact View.read_writes_eq_canon _ _ _ (cover1_7 _)

/-! ## The pipeline's proof data -/

/-- The proof data of pipeline 1 on core `c`: the arrays as the region finds them (`V`); after the body at point `t`
    each input's buffer at its block and each output's at `out1_W` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks (`before1_W`), so `sound_kernel1` applies; the invariant
    and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRegB3.lean ====
/- The region-3 half of the frame of `Cert.KernelIdeal`: pipeline 3 (the batch-norm and pooling kernel, 8 windows: inputs 0 to 5,
   outputs 6 and 7), at a PARAMETER `V` — the TensorCore's buffer contents when the region is entered —, for any float
   instance `F`. Each window's block at a grid point (`iblk3`); each input's staging buffer at its block at every point,
   fetched there or not (`before3_W`); what the body's one store leaves in each output's buffer (`out3_W`); the body's
   triple (`sound_kernel3`); the pipeline's proof data (`dat3`) and the body obligation (`body_obligation3`). -/
import proofs.«406400_j6640019439960_2_alg».proof.Proof.Gen.KernelIdeal.Launch
import proofs.«406400_j6640019439960_2_alg».proof.Proof.Gen.KernelIdeal.Skeleton
import proofs.«406400_j6640019439960_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate of the long axis
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 3: pipeline 3, at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (fetched at every point): its current staging buffer holds its block at every point, for ANY proof data whose
    array is `V`'s (`hA`) and whose body leaves the block in place (`hafter`). The window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (fetched at the first point only; its block index never moves, so the block fetched
    there is the block of every later point): its current staging buffer holds its block at every point, for ANY proof data whose
    array is `V`'s (`hA`) and whose body leaves the block in place (`hafter`). The window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (fetched at the first point only; its block index never moves, so the block fetched
    there is the block of every later point): its current staging buffer holds its block at every point, for ANY proof data whose
    array is `V`'s (`hA`) and whose body leaves the block in place (`hafter`). The window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3 (fetched at the first point only; its block index never moves, so the block fetched
    there is the block of every later point): its current staging buffer holds its block at every point, for ANY proof data whose
    array is `V`'s (`hA`) and whose body leaves the block in place (`hafter`). The window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4 (fetched at the first point only; its block index never moves, so the block fetched
    there is the block of every later point): its current staging buffer holds its block at every point, for ANY proof data whose
    array is `V`'s (`hA`) and whose body leaves the block in place (`hafter`). The window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5 (fetched at every point): its current staging buffer holds its block at every point, for ANY proof data whose
    array is `V`'s (`hA`) and whose body leaves the block in place (`hafter`). The window is uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and store is of a whole buffer -/

abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0
abbrev r3_2 : Rect S5000x1 := Rect.unit (s := S5000x1) ![0, 0] S5000x1.size inb_S5000x1_S5000x1_0_0
abbrev r3_3 : Rect S1x512x128 := Rect.unit (s := S1x512x128) ![0, 0, 0] S1x512x128.size inb_S1x512x128_S1x512x128_0_0_0

/-! ## What the body leaves in each output window's buffer -/

/-- Window 6's staging buffer after the body, from the input windows' blocks: its one store, of the whole buffer
    (the normalised block: (x0 − mean) · rsqrt(var + ε) · γ + β, the statistics read from windows 1 to 4). -/
def out3_6 (x0 : Vec F S5000x128 .f32) (x1 : Vec F S1x128 .f32) (x2 : Vec F S1x128 .f32) (x3 : Vec F S1x128 .f32) (x4 : Vec F S1x128 .f32) (x5 : Vec F S5000x1 .i32) : Vec F S5000x128 .f32 :=
  View.canon [⟨r3_0, k3_pay1 (View.ld x2 r3_1) (View.ld x0 r3_0) (View.ld x1 r3_1) (View.ld x3 r3_1) (View.ld x4 r3_1)⟩]

/-- Its one store is of the whole buffer, so it covers it. -/
theorem cover3_6 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-- Window 7's staging buffer after the body, from the input windows' blocks: its one store, of the whole buffer
    (the pooled block: the one-hot matrix of window 5's segment ids, contracted over the rows with the
    normalised block, split in a high and a low bf16 half). -/
def out3_7 (x0 : Vec F S5000x128 .f32) (x1 : Vec F S1x128 .f32) (x2 : Vec F S1x128 .f32) (x3 : Vec F S1x128 .f32) (x4 : Vec F S1x128 .f32) (x5 : Vec F S5000x1 .i32) : Vec F S1x512x128 .f32 :=
  View.canon [⟨r3_3, k3_pay2 (View.ld x2 r3_1) (View.ld x0 r3_0) (View.ld x1 r3_1) (View.ld x3 r3_1) (View.ld x4 r3_1) (View.ld x5 r3_2)⟩]

/-- Its one store is of the whole buffer, so it covers it. -/
theorem cover3_7 (p0 : Vec F S1x512x128 .f32) (y : S1x512x128.Idx) :
    ∃ pc ∈ ([⟨r3_3, p0⟩] : List (View.Piece (Elt F) S1x512x128 .f32)), y ∈ pc.1.set :=
  View.cover_of_tiled [⟨r3_3, p0⟩] S1x512x128.size (by rfl) y

/-! ## The body's triple -/

set_option maxHeartbeats 1000000 in
/-- The kernel body on whole staging memrefs, the inputs' at read contents `xW` and the outputs' at anything, runs to
    the continuation holding the inputs' as they were and each output's at `out3_W` of the inputs'. The printed
    functions are their skeletons: six loads of the inputs, a load of each output whose value is not used, and one
    store to each output; the run goes through the part call. -/
theorem sound_kernel3 (c : Dev nD) (E : Set ℕ) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S1x512x128 .f32) (harg8 : arg8.IsWhole)
    (x0 : Vec F S5000x128 .f32) (x1 : Vec F S1x128 .f32) (x2 : Vec F S1x128 .f32) (x3 : Vec F S1x128 .f32) (x4 : Vec F S1x128 .f32) (x5 : Vec F S5000x1 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5) ∗ owns (c : Thread nD τ) arg8 fullShare (out3_7 x0 x1 x2 x3 x4 x5)) -∗ K ⟨⟩))
      ⊢ wp frame (wpE (defs₀ (F := F)) Variants.none c none) E (cc3__bn_pool_kernel i arg1 harg1 arg2 harg2 arg3 harg3 arg4 harg4 arg5 harg5 arg6 harg6 arg7 harg7 arg8 harg8) K := by
  simp only [cc3__bn_pool_kernel_eq_skeleton]; unfold cc3__bn_pool_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover3_6 _)
  iexists _; isplitr
  swap; · iexact H7
  ipureintro
  try dsimp only
  exact View.read_writes_eq_canon _ _ _ (cover3_7 _)

/-! ## The pipeline's proof data -/

/-- The proof data of pipeline 3 on core `c`: the arrays as the region finds them (`V`); after the body at point `t`
    each input's buffer at its block and each output's at `out3_W` of the input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
    | ⟨7, _⟩ => out3_7 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' memrefs hold their blocks (`before3_W`), so `sound_kernel3` applies; the invariant
    and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ (grid3.coords t) _ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KIRegB5.lean ====
/- The region-5 half of the frame of `Cert.KernelIdeal`: pipeline 5 (the batch-norm and pooling kernel, 8 windows: inputs 0 to 5,
   outputs 6 and 7), at a PARAMETER `V` — the TensorCore's buffer contents when the region is entered —, for any float
   instance `F`. Each window's block at a grid point (`iblk5`); each input's staging buffer at its block at every point,
   fetched there or not (`before5_W`); what the body's one store leaves in each output's buffer (`out5_W`); the body's
   triple (`sound_kernel5`); the pipeline's proof data (`dat5`) and the body obligation (`body_obligation5`). -/
import proofs.«406400_j6640019439960_2_alg».proof.Proof.Gen.KernelIdeal.Launch
import proofs.«406400_j6640019439960_2_alg».proof.Proof.Gen.KernelIdeal.Skeleton
import proofs.«406400_j6640019439960_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate of the long axis
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 5: pipeline 5, at the entry contents `V` -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 (fetched at every point): its current staging buffer holds its block at every point, for ANY proof data whose
    array is `V`'s (`hA`) and whose body leaves the block in place (`hafter`). The window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1 (fetched at the first point only; its block index never moves, so the block fetched
    there is the block of every later point): its current staging buffer holds its block at every point, for ANY proof data whose
    array is `V`'s (`hA`) and whose body leaves the block in place (`hafter`). The window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2 (fetched at the first point only; its block index never moves, so the block fetched
    there is the block of every later point): its current staging buffer holds its block at every point, for ANY proof data whose
    array is `V`'s (`hA`) and whose body leaves the block in place (`hafter`). The window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3 (fetched at the first point only; its block index never moves, so the block fetched
    there is the block of every later point): its current staging buffer holds its block at every point, for ANY proof data whose
    array is `V`'s (`hA`) and whose body leaves the block in place (`hafter`). The window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4 (fetched at the first point only; its block index never moves, so the block fetched
    there is the block of every later point): its current staging buffer holds its block at every point, for ANY proof data whose
    array is `V`'s (`hA`) and whose body leaves the block in place (`hafter`). The window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5 (fetched at every point): its current staging buffer holds its block at every point, for ANY proof data whose
    array is `V`'s (`hA`) and whose body leaves the block in place (`hafter`). The window is uncut and never idle. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and store is of a whole buffer -/

abbrev r5_0 : Rect S5000x128 := Rect.unit (s := S5000x128) ![0, 0] S5000x128.size inb_S5000x128_S5000x128_0_0
abbrev r5_1 : Rect S1x128 := Rect.unit (s := S1x128) ![0, 0] S1x128.size inb_S1x128_S1x128_0_0
abbrev r5_2 : Rect S5000x1 := Rect.unit (s := S5000x1) ![0, 0] S5000x1.size inb_S5000x1_S5000x1_0_0
abbrev r5_3 : Rect S1x512x128 := Rect.unit (s := S1x512x128) ![0, 0, 0] S1x512x128.size inb_S1x512x128_S1x512x128_0_0_0

/-! ## What the body leaves in each output window's buffer -/

/-- Window 6's staging buffer after the body, from the input windows' blocks: its one store, of the whole buffer
    (the normalised block: (x0 − mean) · rsqrt(var + ε) · γ + β, the statistics read from windows 1 to 4). -/
def out5_6 (x0 : Vec F S5000x128 .f32) (x1 : Vec F S1x128 .f32) (x2 : Vec F S1x128 .f32) (x3 : Vec F S1x128 .f32) (x4 : Vec F S1x128 .f32) (x5 : Vec F S5000x1 .i32) : Vec F S5000x128 .f32 :=
  View.canon [⟨r5_0, k5_pay1 (View.ld x2 r5_1) (View.ld x0 r5_0) (View.ld x1 r5_1) (View.ld x3 r5_1) (View.ld x4 r5_1)⟩]

/-- Its one store is of the whole buffer, so it covers it. -/
theorem cover5_6 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-- Window 7's staging buffer after the body, from the input windows' blocks: its one store, of the whole buffer
    (the pooled block: the one-hot matrix of window 5's segment ids, contracted over the rows with the
    normalised block, split in a high and a low bf16 half). -/
def out5_7 (x0 : Vec F S5000x128 .f32) (x1 : Vec F S1x128 .f32) (x2 : Vec F S1x128 .f32) (x3 : Vec F S1x128 .f32) (x4 : Vec F S1x128 .f32) (x5 : Vec F S5000x1 .i32) : Vec F S1x512x128 .f32 :=
  View.canon [⟨r5_3, k5_pay2 (View.ld x2 r5_1) (View.ld x0 r5_0) (View.ld x1 r5_1) (View.ld x3 r5_1) (View.ld x4 r5_1) (View.ld x5 r5_2)⟩]

/-- Its one store is of the whole buffer, so it covers it. -/
theorem cover5_7 (p0 : Vec F S1x512x128 .f32) (y : S1x512x128.Idx) :
    ∃ pc ∈ ([⟨r5_3, p0⟩] : List (View.Piece (Elt F) S1x512x128 .f32)), y ∈ pc.1.set :=
  View.cover_of_tiled [⟨r5_3, p0⟩] S1x512x128.size (by rfl) y

/-! ## The body's triple -/

set_option maxHeartbeats 1000000 in
/-- The kernel body on whole staging memrefs, the inputs' at read contents `xW` and the outputs' at anything, runs to
    the continuation holding the inputs' as they were and each output's at `out5_W` of the inputs'. The printed
    functions are their skeletons: six loads of the inputs, a load of each output whose value is not used, and one
    store to each output; the run goes through the part call. -/
theorem sound_kernel5 (c : Dev nD) (E : Set ℕ) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S1x512x128 .f32) (harg8 : arg8.IsWhole)
    (x0 : Vec F S5000x128 .f32) (x1 : Vec F S1x128 .f32) (x2 : Vec F S1x128 .f32) (x3 : Vec F S1x128 .f32) (x4 : Vec F S1x128 .f32) (x5 : Vec F S5000x1 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5_6 x0 x1 x2 x3 x4 x5) ∗ owns (c : Thread nD τ) arg8 fullShare (out5_7 x0 x1 x2 x3 x4 x5)) -∗ K ⟨⟩))
      ⊢ wp frame (wpE (defs₀ (F := F)) Variants.none c none) E (cc5__bn_pool_kernel i arg1 harg1 arg2 harg2 arg3 harg3 arg4 harg4 arg5 harg5 arg6 harg6 arg7 harg7 arg8 harg8) K := by
  simp only [cc5__bn_pool_kernel_eq_skeleton]; unfold cc5__bn_pool_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover5_6 _)
  iexists _; isplitr
  swap; · iexact H7
  ipureintro
  try dsimp only
  exact View.read_writes_eq_canon _ _ _ (cover5_7 _)

/-! ## The pipeline's proof data -/

/-- The proof data of pipeline 5 on core `c`: the arrays as the region finds them (`V`); after the body at point `t`
    each input's buffer at its block and each output's at `out5_W` of the input blocks; the invariant is the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
    | ⟨7, _⟩ => out5_7 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window (the proof data's `match` reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

/-- The body at any point: the inputs' memrefs hold their blocks (`before5_W`), so `sound_kernel5` applies; the invariant
    and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ (grid5.coords t) _ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KIFold.lean ====
/- The buffer contents at every boundary of the idealized program's run, as a fold from the launch memory. Between
   two items of @main core `c` holds every unscoped buffer at a valuation `WJ m c`: the launch memory read per core
   (`W0`); after a stretch of host operations the stretch's own evaluation of the valuation before it (odd J); after a
   kernel region the valuation before it with the region's window arrays replaced by what the pipeline leaves in them
   (the input arrays as entered, every output array with its write-backs folded in), every other buffer as entered
   (even J ≥ 2). Each argument array is read back through the whole fold to its launch contents: no host operation
   writes an argument, and the one region that names an argument (region 0, window 1) only reads it. No separation
   logic here. Generic in the float instance. -/
import proofs.«406400_j6640019439960_2_alg».proof.Proof.KIRegA0
import proofs.«406400_j6640019439960_2_alg».proof.Proof.KIRegB1
import proofs.«406400_j6640019439960_2_alg».proof.Proof.KIRegA2
import proofs.«406400_j6640019439960_2_alg».proof.Proof.KIRegB3
import proofs.«406400_j6640019439960_2_alg».proof.Proof.KIRegA4
import proofs.«406400_j6640019439960_2_alg».proof.Proof.KIRegB5
import proofs.«406400_j6640019439960_2_alg».proof.Proof.Gen.KernelIdeal.Launch
import proofs.«406400_j6640019439960_2_alg».proof.Proof.Gen.KernelIdeal.Regions
import Idealize.ShloMosaic.Lib.Pipeline.FrameSuffix

-- deciding that a reference is none of a region's window arrays, or none of a stretch's written references, walks
-- lists of some dozens of the program's 253 references
set_option maxRecDepth 4096

noncomputable section

namespace Cert.KernelIdeal.Hand

open Cert.KernelIdeal.Gen
open Idealize.ShloMosaic Idealize.ShloMosaic.TcCoe
open Idealize.ShloMosaic.Pipeline (Dat Cfg Window)

variable {F : FTy → Type} [FloatOps F]
variable (m : (ℓ : Loc nD τ sig) → Buf (Elt F) ℓ)

/-! ## The fold -/

/-- Core `c`'s buffers at launch. -/
abbrev W0 : Dev nD → Valuation τ sig (Elt F) := fun c b => m ((c : Dev nD), b)

/-- After the host stretch `hostOps0`: the contents region 0 is entered from. -/
abbrev W1 : Dev nD → Valuation τ sig (Elt F) := fun c => StableHlo.after hostOps0 (W0 m c)
/-- The same read at the TensorCore's references: the parameter region 0's proof data are taken at. -/
abbrev V1 : (c : Dev nD) → (b : Ref sig .tc) → Buf (Elt F) ((c : Thread nD τ).loc b) := fun c b => W1 m c b
/-- At region 0's exit: each of its window arrays at what the pipeline leaves after the last grid point (an input
    array as entered, an output array with every write-back folded in), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m c b

/-- After the host stretch `hostOps1`: the contents region 1 is entered from. -/
abbrev W3 : Dev nD → Valuation τ sig (Elt F) := fun c => StableHlo.after hostOps1 (W2 m c)
/-- The same read at the TensorCore's references: the parameter region 1's proof data are taken at. -/
abbrev V3 : (c : Dev nD) → (b : Ref sig .tc) → Buf (Elt F) ((c : Thread nD τ).loc b) := fun c b => W3 m c b
/-- At region 1's exit: each of its window arrays at what the pipeline leaves after the last grid point (an input
    array as entered, an output array with every write-back folded in), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m c b

/-- After the host stretch `hostOps2`: the contents region 2 is entered from. -/
abbrev W5 : Dev nD → Valuation τ sig (Elt F) := fun c => StableHlo.after hostOps2 (W4 m c)
/-- The same read at the TensorCore's references: the parameter region 2's proof data are taken at. -/
abbrev V5 : (c : Dev nD) → (b : Ref sig .tc) → Buf (Elt F) ((c : Thread nD τ).loc b) := fun c b => W5 m c b
/-- At region 2's exit: each of its window arrays at what the pipeline leaves after the last grid point (an input
    array as entered, an output array with every write-back folded in), every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m c b

/-- After the host stretch `hostOps3`: the contents region 3 is entered from. -/
abbrev W7 : Dev nD → Valuation τ sig (Elt F) := fun c => StableHlo.after hostOps3 (W6 m c)
/-- The same read at the TensorCore's references: the parameter region 3's proof data are taken at. -/
abbrev V7 : (c : Dev nD) → (b : Ref sig .tc) → Buf (Elt F) ((c : Thread nD τ).loc b) := fun c b => W7 m c b
/-- At region 3's exit: each of its window arrays at what the pipeline leaves after the last grid point (an input
    array as entered, an output array with every write-back folded in), every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m c b

/-- After the host stretch `hostOps4`: the contents region 4 is entered from. -/
abbrev W9 : Dev nD → Valuation τ sig (Elt F) := fun c => StableHlo.after hostOps4 (W8 m c)
/-- The same read at the TensorCore's references: the parameter region 4's proof data are taken at. -/
abbrev V9 : (c : Dev nD) → (b : Ref sig .tc) → Buf (Elt F) ((c : Thread nD τ).loc b) := fun c b => W9 m c b
/-- At region 4's exit: each of its window arrays at what the pipeline leaves after the last grid point (an input
    array as entered, an output array with every write-back folded in), every other buffer as entered. -/
def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m c b

/-- After the host stretch `hostOps5`: the contents region 5 is entered from. -/
abbrev W11 : Dev nD → Valuation τ sig (Elt F) := fun c => StableHlo.after hostOps5 (W10 m c)
/-- The same read at the TensorCore's references: the parameter region 5's proof data are taken at. -/
abbrev V11 : (c : Dev nD) → (b : Ref sig .tc) → Buf (Elt F) ((c : Thread nD τ).loc b) := fun c b => W11 m c b
/-- At region 5's exit: each of its window arrays at what the pipeline leaves after the last grid point (an input
    array as entered, an output array with every write-back folded in), every other buffer as entered. -/
def W12 (c : Dev nD) : Valuation τ sig (Elt F) :=
  Pipeline.withArrays spec5 c (W11 m c) fun w => (dat5 (V11 m) c).arrAt w cfg5.N
theorem W12_arr (c : Dev nD) (w : Fin cfg5.W) :
    W12 m c (Proc.devRef .tc (Pipeline.arrRef spec5 w)) = (dat5 (V11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
/-- The same read at the TensorCore's references (region 5's exit contents). -/
abbrev V12 : (c : Dev nD) → (b : Ref sig .tc) → Buf (Elt F) ((c : Thread nD τ).loc b) := fun c b => W12 m c b

/-- After the last host stretch `hostOps6`: the contents the program returns with. -/
abbrev W13 : Dev nD → Valuation τ sig (Elt F) := fun c => StableHlo.after hostOps6 (W12 m c)

/-! ## A host stretch changes only what its operations write -/

theorem W1_of (c : Dev nD) (r : Ref sig .tc) (h : r ∉ (hostOps0_W : List (Ref sig .tc))) :
    W1 m c (Proc.devRef .tc r) = W0 m c (Proc.devRef .tc r) :=
  StableHlo.after_of_writes_sub hostOps0 _ hostOps0_writes h
theorem W3_of (c : Dev nD) (r : Ref sig .tc) (h : r ∉ (hostOps1_W : List (Ref sig .tc))) :
    W3 m c (Proc.devRef .tc r) = W2 m c (Proc.devRef .tc r) :=
  StableHlo.after_of_writes_sub hostOps1 _ hostOps1_writes h
theorem W5_of (c : Dev nD) (r : Ref sig .tc) (h : r ∉ (hostOps2_W : List (Ref sig .tc))) :
    W5 m c (Proc.devRef .tc r) = W4 m c (Proc.devRef .tc r) :=
  StableHlo.after_of_writes_sub hostOps2 _ hostOps2_writes h
theorem W7_of (c : Dev nD) (r : Ref sig .tc) (h : r ∉ (hostOps3_W : List (Ref sig .tc))) :
    W7 m c (Proc.devRef .tc r) = W6 m c (Proc.devRef .tc r) :=
  StableHlo.after_of_writes_sub hostOps3 _ hostOps3_writes h
theorem W9_of (c : Dev nD) (r : Ref sig .tc) (h : r ∉ (hostOps4_W : List (Ref sig .tc))) :
    W9 m c (Proc.devRef .tc r) = W8 m c (Proc.devRef .tc r) :=
  StableHlo.after_of_writes_sub hostOps4 _ hostOps4_writes h
theorem W11_of (c : Dev nD) (r : Ref sig .tc) (h : r ∉ (hostOps5_W : List (Ref sig .tc))) :
    W11 m c (Proc.devRef .tc r) = W10 m c (Proc.devRef .tc r) :=
  StableHlo.after_of_writes_sub hostOps5 _ hostOps5_writes h
theorem W13_of (c : Dev nD) (r : Ref sig .tc) (h : r ∉ (hostOps6_W : List (Ref sig .tc))) :
    W13 m c (Proc.devRef .tc r) = W12 m c (Proc.devRef .tc r) :=
  StableHlo.after_of_writes_sub hostOps6 _ hostOps6_writes h

/-! ## The arguments end as launched

No host operation writes an argument. Region 0 reads `main_arg0` through its input window 1, whose array the
pipeline leaves as entered; no other region and no other argument meets a window at all. -/

/-- An input window's array is, after the last grid point, what the proof data were taken at: region 0's window 1. -/
theorem W2_main_arg0 (c : Dev nD) : W2 m c (Proc.devRef .tc main_arg0) = W1 m c (Proc.devRef .tc main_arg0) :=
  (W2_arr m c 1).trans (((dat0 (V1 m) c).arrAt_in 1 rfl _).trans (A_eq0 (V1 m) c 1))

theorem W13_main_arg0 (c : Dev nD) : W13 m c (Proc.devRef .tc main_arg0) = m ((c : Thread nD τ).loc main_arg0) :=
  (W13_of m c main_arg0 (by decide)).trans <|
  (W12_of_ne m c main_arg0 (by decide)).trans <|
  (W11_of m c main_arg0 (by decide)).trans <|
  (W10_of_ne m c main_arg0 (by decide)).trans <|
  (W9_of m c main_arg0 (by decide)).trans <|
  (W8_of_ne m c main_arg0 (by decide)).trans <|
  (W7_of m c main_arg0 (by decide)).trans <|
  (W6_of_ne m c main_arg0 (by decide)).trans <|
  (W5_of m c main_arg0 (by decide)).trans <|
  (W4_of_ne m c main_arg0 (by decide)).trans <|
  (W3_of m c main_arg0 (by decide)).trans <|
  (W2_main_arg0 m c).trans <|
  (W1_of m c main_arg0 (by decide)).trans rfl

theorem W13_main_arg1 (c : Dev nD) : W13 m c (Proc.devRef .tc main_arg1) = m ((c : Thread nD τ).loc main_arg1) :=
  (W13_of m c main_arg1 (by decide)).trans <|
  (W12_of_ne m c main_arg1 (by decide)).trans <|
  (W11_of m c main_arg1 (by decide)).trans <|
  (W10_of_ne m c main_arg1 (by decide)).trans <|
  (W9_of m c main_arg1 (by decide)).trans <|
  (W8_of_ne m c main_arg1 (by decide)).trans <|
  (W7_of m c main_arg1 (by decide)).trans <|
  (W6_of_ne m c main_arg1 (by decide)).trans <|
  (W5_of m c main_arg1 (by decide)).trans <|
  (W4_of_ne m c main_arg1 (by decide)).trans <|
  (W3_of m c main_arg1 (by decide)).trans <|
  (W2_of_ne m c main_arg1 (by decide)).trans <|
  (W1_of m c main_arg1 (by decide)).trans rfl

theorem W13_main_arg2 (c : Dev nD) : W13 m c (Proc.devRef .tc main_arg2) = m ((c : Thread nD τ).loc main_arg2) :=
  (W13_of m c main_arg2 (by decide)).trans <|
  (W12_of_ne m c main_arg2 (by decide)).trans <|
  (W11_of m c main_arg2 (by decide)).trans <|
  (W10_of_ne m c main_arg2 (by decide)).trans <|
  (W9_of m c main_arg2 (by decide)).trans <|
  (W8_of_ne m c main_arg2 (by decide)).trans <|
  (W7_of m c main_arg2 (by decide)).trans <|
  (W6_of_ne m c main_arg2 (by decide)).trans <|
  (W5_of m c main_arg2 (by decide)).trans <|
  (W4_of_ne m c main_arg2 (by decide)).trans <|
  (W3_of m c main_arg2 (by decide)).trans <|
  (W2_of_ne m c main_arg2 (by decide)).trans <|
  (W1_of m c main_arg2 (by decide)).trans rfl

theorem W13_main_arg3 (c : Dev nD) : W13 m c (Proc.devRef .tc main_arg3) = m ((c : Thread nD τ).loc main_arg3) :=
  (W13_of m c main_arg3 (by decide)).trans <|
  (W12_of_ne m c main_arg3 (by decide)).trans <|
  (W11_of m c main_arg3 (by decide)).trans <|
  (W10_of_ne m c main_arg3 (by decide)).trans <|
  (W9_of m c main_arg3 (by decide)).trans <|
  (W8_of_ne m c main_arg3 (by decide)).trans <|
  (W7_of m c main_arg3 (by decide)).trans <|
  (W6_of_ne m c main_arg3 (by decide)).trans <|
  (W5_of m c main_arg3 (by decide)).trans <|
  (W4_of_ne m c main_arg3 (by decide)).trans <|
  (W3_of m c main_arg3 (by decide)).trans <|
  (W2_of_ne m c main_arg3 (by decide)).trans <|
  (W1_of m c main_arg3 (by decide)).trans rfl

theorem W13_main_arg4 (c : Dev nD) : W13 m c (Proc.devRef .tc main_arg4) = m ((c : Thread nD τ).loc main_arg4) :=
  (W13_of m c main_arg4 (by decide)).trans <|
  (W12_of_ne m c main_arg4 (by decide)).trans <|
  (W11_of m c main_arg4 (by decide)).trans <|
  (W10_of_ne m c main_arg4 (by decide)).trans <|
  (W9_of m c main_arg4 (by decide)).trans <|
  (W8_of_ne m c main_arg4 (by decide)).trans <|
  (W7_of m c main_arg4 (by decide)).trans <|
  (W6_of_ne m c main_arg4 (by decide)).trans <|
  (W5_of m c main_arg4 (by decide)).trans <|
  (W4_of_ne m c main_arg4 (by decide)).trans <|
  (W3_of m c main_arg4 (by decide)).trans <|
  (W2_of_ne m c main_arg4 (by decide)).trans <|
  (W1_of m c main_arg4 (by decide)).trans rfl

theorem W13_main_arg5 (c : Dev nD) : W13 m c (Proc.devRef .tc main_arg5) = m ((c : Thread nD τ).loc main_arg5) :=
  (W13_of m c main_arg5 (by decide)).trans <|
  (W12_of_ne m c main_arg5 (by decide)).trans <|
  (W11_of m c main_arg5 (by decide)).trans <|
  (W10_of_ne m c main_arg5 (by decide)).trans <|
  (W9_of m c main_arg5 (by decide)).trans <|
  (W8_of_ne m c main_arg5 (by decide)).trans <|
  (W7_of m c main_arg5 (by decide)).trans <|
  (W6_of_ne m c main_arg5 (by decide)).trans <|
  (W5_of m c main_arg5 (by decide)).trans <|
  (W4_of_ne m c main_arg5 (by decide)).trans <|
  (W3_of m c main_arg5 (by decide)).trans <|
  (W2_of_ne m c main_arg5 (by decide)).trans <|
  (W1_of m c main_arg5 (by decide)).trans rfl

theorem W13_main_arg6 (c : Dev nD) : W13 m c (Proc.devRef .tc main_arg6) = m ((c : Thread nD τ).loc main_arg6) :=
  (W13_of m c main_arg6 (by decide)).trans <|
  (W12_of_ne m c main_arg6 (by decide)).trans <|
  (W11_of m c main_arg6 (by decide)).trans <|
  (W10_of_ne m c main_arg6 (by decide)).trans <|
  (W9_of m c main_arg6 (by decide)).trans <|
  (W8_of_ne m c main_arg6 (by decide)).trans <|
  (W7_of m c main_arg6 (by decide)).trans <|
  (W6_of_ne m c main_arg6 (by decide)).trans <|
  (W5_of m c main_arg6 (by decide)).trans <|
  (W4_of_ne m c main_arg6 (by decide)).trans <|
  (W3_of m c main_arg6 (by decide)).trans <|
  (W2_of_ne m c main_arg6 (by decide)).trans <|
  (W1_of m c main_arg6 (by decide)).trans rfl

theorem W13_main_arg7 (c : Dev nD) : W13 m c (Proc.devRef .tc main_arg7) = m ((c : Thread nD τ).loc main_arg7) :=
  (W13_of m c main_arg7 (by decide)).trans <|
  (W12_of_ne m c main_arg7 (by decide)).trans <|
  (W11_of m c main_arg7 (by decide)).trans <|
  (W10_of_ne m c main_arg7 (by decide)).trans <|
  (W9_of m c main_arg7 (by decide)).trans <|
  (W8_of_ne m c main_arg7 (by decide)).trans <|
  (W7_of m c main_arg7 (by decide)).trans <|
  (W6_of_ne m c main_arg7 (by decide)).trans <|
  (W5_of m c main_arg7 (by decide)).trans <|
  (W4_of_ne m c main_arg7 (by decide)).trans <|
  (W3_of m c main_arg7 (by decide)).trans <|
  (W2_of_ne m c main_arg7 (by decide)).trans <|
  (W1_of m c main_arg7 (by decide)).trans rfl

theorem W13_main_arg8 (c : Dev nD) : W13 m c (Proc.devRef .tc main_arg8) = m ((c : Thread nD τ).loc main_arg8) :=
  (W13_of m c main_arg8 (by decide)).trans <|
  (W12_of_ne m c main_arg8 (by decide)).trans <|
  (W11_of m c main_arg8 (by decide)).trans <|
  (W10_of_ne m c main_arg8 (by decide)).trans <|
  (W9_of m c main_arg8 (by decide)).trans <|
  (W8_of_ne m c main_arg8 (by decide)).trans <|
  (W7_of m c main_arg8 (by decide)).trans <|
  (W6_of_ne m c main_arg8 (by decide)).trans <|
  (W5_of m c main_arg8 (by decide)).trans <|
  (W4_of_ne m c main_arg8 (by decide)).trans <|
  (W3_of m c main_arg8 (by decide)).trans <|
  (W2_of_ne m c main_arg8 (by decide)).trans <|
  (W1_of m c main_arg8 (by decide)).trans rfl

end Cert.KernelIdeal.Hand

end
-- ==== Proof.KIRun.lean ====
/- The run of the idealized program's @main from the launch to the return: six kernel regions among seven stretches
   of host operations. Between two items every core holds each unscoped buffer whole at the fold's valuation for that
   boundary, beside its generator register at some state and nothing owed. A host stretch takes the valuation to its
   own evaluation of it. A kernel region splits its window arrays out of the unscoped buffers at the entry contents,
   runs its pipeline from the proof data taken at those contents, and puts the arrays back at what the pipeline
   leaves: the next boundary's valuation by definition. The launch makes the first state on every core; the last is
   read against the final memory, which gives the two results at the last valuation and, through the fold, every
   argument at its launch contents. Generic in the float instance. -/
import proofs.«406400_j6640019439960_2_alg».proof.Proof.KIFold
import proofs.«406400_j6640019439960_2_alg».proof.Proof.Gen.KernelIdeal.Launch
import proofs.«406400_j6640019439960_2_alg».proof.Proof.Gen.KernelIdeal.Skeleton
import proofs.«406400_j6640019439960_2_alg».proof.Proof.Gen.KernelIdeal.Points
import proofs.«406400_j6640019439960_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

-- deciding that a reference is unscoped walks the program's 253 references
set_option maxRecDepth 4096

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)

variable {F : FTy → Type} [FloatOps F]

local notation "𝕄" => MT nD τ sig Unit (Elt F) ℕ (UR sig nD τ) ℕ

variable (m : (ℓ : Loc nD τ sig) → Buf (Elt F) ℓ)

/-! ## A region's exit contents, as the two facts its exit needs

At region K's exit each of its arrays holds what the pipeline leaves (`hFK`) and every other buffer what it held at
entry (`hrestK`). -/

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)
theorem hF4 (c : Dev nD) (w : Fin cfg4.W) : (dat4 (V9 m) c).arrAt w cfg4.N = V10 m c (Pipeline.arrRef spec4 w) :=
  (W10_arr m c w).symm
theorem hrest4 (c : Dev nD) : ∀ b, b ∉ Finset.univ.image (Pipeline.arrRef spec4) → V10 m c b = V9 m c b :=
  fun b hb => W10_of_ne m c b fun w e => hb (Finset.mem_image.mpr ⟨w, Finset.mem_univ _, e⟩)
theorem hF5 (c : Dev nD) (w : Fin cfg5.W) : (dat5 (V11 m) c).arrAt w cfg5.N = V12 m c (Pipeline.arrRef spec5 w) :=
  (W12_arr m c w).symm
theorem hrest5 (c : Dev nD) : ∀ b, b ∉ Finset.univ.image (Pipeline.arrRef spec5) → V12 m c b = V11 m c b :=
  fun b hb => W12_of_ne m c b fun w e => hb (Finset.mem_image.mpr ⟨w, Finset.mem_univ _, e⟩)

/-! ## The proof data family and the thread state -/

/-- Every pipeline's proof data, each taken at its region's entry contents. -/
def pdats : (p : Fin 6) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
  | ⟨5, _⟩ => fun c => dat5 (V11 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it is left
    with those references at the stretch's evaluation of `W c`, the next boundary's valuation by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last valuation, the generator register
    at some state. -/
abbrev Tₙ (c : Dev nD) : sProp 𝕄 := iprop(StableHlo.held (c : Thread nD τ) (Pipeline.ucRefs τ sig) (W13 m c) ∗ ∃ r, prngReg c r)
/-- What the last host stretch leaves is the last thread state beside the core owing nothing. -/
theorem hlast (c : Dev nD) : iprop(StableHlo.held (c : Thread nD τ) (Pipeline.ucRefs τ sig) (W13 m c) ∗ R (F := F) c)
    ⊢ iprop(Tₙ m c ∗ ∃ W, owes (c : Thread nD τ) (0 : CellTallies nD τ sig Unit) W) := by
  iintro ⟨Hh, Hp, HO⟩
  isplitl [Hh Hp]
  · isplitl [Hh] <;> iassumption
  iexact HO

/-! ## The regions as segments

Region K is entered from every unscoped buffer at the valuation before it and left at the one after it. Its arrays
are split out of the unscoped buffers and put back at the exit contents; the generator register goes into the
pipeline's invariant and comes out of it; nothing is owed; the kernel has no semaphore of its own. -/

-- applying a library lemma stated over the pinned configuration of pipeline p unifies with the printed configuration
-- only when unification may unfold plain definitions in a metavariable's type
set_option backward.isDefEq.respectTransparency.types false in
/-- REGION 0: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration of pipeline p unifies with the printed configuration
-- only when unification may unfold plain definitions in a metavariable's type
set_option backward.isDefEq.respectTransparency.types false in
/-- REGION 1: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration of pipeline p unifies with the printed configuration
-- only when unification may unfold plain definitions in a metavariable's type
set_option backward.isDefEq.respectTransparency.types false in
/-- REGION 2: entered from every unscoped buffer at `W5`, left at `W6`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration of pipeline p unifies with the printed configuration
-- only when unification may unfold plain definitions in a metavariable's type
set_option backward.isDefEq.respectTransparency.types false in
/-- REGION 3: entered from every unscoped buffer at `W7`, left at `W8`. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration of pipeline p unifies with the printed configuration
-- only when unification may unfold plain definitions in a metavariable's type
set_option backward.isDefEq.respectTransparency.types false in
/-- REGION 4: entered from every unscoped buffer at `W9`, left at `W10`. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (V9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V9 m c) (V10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration of pipeline p unifies with the printed configuration
-- only when unification may unfold plain definitions in a metavariable's type
set_option backward.isDefEq.respectTransparency.types false in
/-- REGION 5: entered from every unscoped buffer at `W11`, left at `W12`. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m) c).loose
  hwaits := Pipeline.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (V11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (V11 m c) (V12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 13 items in order: a host segment per stretch from its boundary's valuation, a region per kernel call. -/
abbrev segs : List (Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .region (reg5 m),
    .host (hseg hostOps6 hostOps6_sub hostOps6_fresh (W12 m)) ]

-- the launch theorem's implicit arguments are found by unifying its conclusion with this one, which takes unfolding
-- plain definitions in a metavariable's type
set_option backward.isDefEq.respectTransparency.types false in
/-- THE RUN. At the compiled mesh, from any memory with zero counters, every weakly fair execution of @main on the
    TensorCores terminates, nothing faulting, and every final memory holds the two results at the last valuation of
    the fold and every argument array as launched. -/
theorem run_main (ρ : Dev nD → PrngReg) : θ_run defs (onTc (τ := τ) (main (F := F))) ⟨m, fun _ => 0, ρ⟩ (fun r => ∀ c : Dev nD,
      r.2.mem ((c.tc : Thread nD τ).loc main_v128) = W13 m c (Proc.devRef .tc main_v128)
      ∧ r.2.mem ((c.tc : Thread nD τ).loc main_v129) = W13 m c (Proc.devRef .tc main_v129)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_dev (pcfgs (F := F)) adm (pdats m) () cellOf_inj emb₁ defs₀ 𝒱₀ L lv m ρ main (fun _ => segs m)
    (fun c Q => by
      rewrite [main_chain c, Seg.run_eq_chain,
        show (segs m).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl, .rfl, .rfl, .rfl, .rfl, .rfl, .rfl, hlast m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h c =>
      ⟨h c _ (mem_uc main_v128 (by decide)),
       h c _ (mem_uc main_v129 (by decide)),
       (h c _ (mem_uc main_arg0 (by decide))).trans (W13_main_arg0 m c),
       (h c _ (mem_uc main_arg1 (by decide))).trans (W13_main_arg1 m c),
       (h c _ (mem_uc main_arg2 (by decide))).trans (W13_main_arg2 m c),
       (h c _ (mem_uc main_arg3 (by decide))).trans (W13_main_arg3 m c),
       (h c _ (mem_uc main_arg4 (by decide))).trans (W13_main_arg4 m c),
       (h c _ (mem_uc main_arg5 (by decide))).trans (W13_main_arg5 m c),
       (h c _ (mem_uc main_arg6 (by decide))).trans (W13_main_arg6 m c),
       (h c _ (mem_uc main_arg7 (by decide))).trans (W13_main_arg7 m c),
       (h c _ (mem_uc main_arg8 (by decide))).trans (W13_main_arg8 m c)⟩)

/-- THE FRAME: every argument array ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (run_main m ρ).mono fun r h c => (h c).2.2

end Cert.KernelIdeal.Hand

end
-- ==== Proof.Spec.lean ====
/-
  The mathematics both programs compute, index by index over the extended reals, in curried form.
  One layer: the aggregate plus the features goes through two affine maps with a rectifier between them and an
  exponential-linear unit after them; the column means and variances of the result normalise it; the normalised
  rows are summed per graph.  The variance appears in two forms — the mean of squares less the squared mean,
  clipped at zero, and the mean of squared deviations — which agree on real entries.
-/
import Idealize.ShloMosaic.PureOps.Ideal
import Idealize.ShloMosaic.Lib.ValueIdx

noncomputable section

namespace Cert.Spec

open Idealize.ShloMosaic Idealize.ShloMosaic.ValueIdx

/-- Nodes, feature columns, graphs. -/
abbrev Rw := Fin 100000
abbrev Cl := Fin 128
abbrev Gr := Fin 512

/-- The two float literals both programs share, kept as their words: the variance's offset and the node count. -/
abbrev epsW : EReal := Ideal.ofBits .f32 0x3727C5AC#32
abbrev nW : EReal := Ideal.ofBits .f32 0x47C35000#32

/-- A rank-2 array read at a pair of coordinates. -/
abbrev of2 {a b : Nat} (f : (⟨2, ![a, b]⟩ : Shape).Idx → EReal) : Fin a → Fin b → EReal := fun p q => f (ix2 p q)
/-- A rank-1 array read at a coordinate. -/
abbrev of1 {a : Nat} (f : (⟨1, ![a]⟩ : Shape).Idx → EReal) : Fin a → EReal := fun p => f (ix1 p)
/-- A one-row matrix read at a column. -/
abbrev row {b : Nat} (f : (⟨2, ![1, b]⟩ : Shape).Idx → EReal) : Fin b → EReal := fun q => f (ix2 0 q)
/-- A curried function as a rank-2 array. -/
abbrev toArr2 {a b : Nat} (g : Fin a → Fin b → EReal) : (⟨2, ![a, b]⟩ : Shape).Idx → EReal := fun i => g (i 0) (i 1)
/-- A function of a coordinate as a rank-1 array. -/
abbrev toArr1 {a : Nat} (g : Fin a → EReal) : (⟨1, ![a]⟩ : Shape).Idx → EReal := fun i => g (i 0)
/-- A function of a column as a one-row matrix. -/
abbrev toRow {b : Nat} (g : Fin b → EReal) : (⟨2, ![1, b]⟩ : Shape).Idx → EReal := fun i => g (i 1)

/-- (The row-wise maps are stated for any row type: the whole array's rows and one block's rows alike.)
    An affine map of the rows: `x · W + b`. -/
def lin {ρ : Type} (x : ρ → Cl → EReal) (W : Cl → Cl → EReal) (b : Cl → EReal) : ρ → Cl → EReal :=
  fun n j => (∑ k : Cl, x n k * W k j) + b j
/-- The rectifier. -/
def relu {ρ : Type} (x : ρ → Cl → EReal) : ρ → Cl → EReal := fun n j => max (x n j) 0
/-- The exponential-linear unit: `y` where `y > 0`, `exp y - 1` elsewhere. -/
def elu {ρ : Type} (y : ρ → Cl → EReal) : ρ → Cl → EReal :=
  fun n j => Scalar.select (Ideal.cmp .ogt (y n j) 0) (y n j) (Ideal.exp (y n j) - 1)
/-- One layer's perceptron on the aggregate plus the features. -/
def mlp {ρ : Type} (agg h : ρ → Cl → EReal) (W1 : Cl → Cl → EReal) (b1 : Cl → EReal) (W2 : Cl → Cl → EReal) (b2 : Cl → EReal) :
    ρ → Cl → EReal :=
  elu (lin (relu (lin (fun n j => agg n j + h n j) W1 b1)) W2 b2)
/-- Column sums. -/
def colSum (e : Rw → Cl → EReal) : Cl → EReal := fun j => ∑ n : Rw, e n j
/-- Column means. -/
def mean (e : Rw → Cl → EReal) : Cl → EReal := fun j => Ideal.div (colSum e j) nW
/-- The variance as the mean of squares less the squared mean, clipped at zero. -/
def varK (e : Rw → Cl → EReal) : Cl → EReal :=
  fun j => max (Ideal.div (colSum (fun n j => e n j * e n j) j) nW - mean e j * mean e j) 0
/-- The variance as the mean of the squared deviations from the mean. -/
def varR (e : Rw → Cl → EReal) : Cl → EReal :=
  fun j => Ideal.div (colSum (fun n j => (e n j - mean e j) * (e n j - mean e j)) j) nW
/-- The normalisation by given column statistics, scaled and shifted. -/
def bn {ρ : Type} (e : ρ → Cl → EReal) (mu var gamma beta : Cl → EReal) : ρ → Cl → EReal :=
  fun n j => (e n j - mu j) * Ideal.rsqrt (var j + epsW) * gamma j + beta j
/-- The rows summed per graph: row `n` counts for graph `g` when its label is the word of `g`. -/
def pool (h : Rw → Cl → EReal) (batch : Rw → BitVec 32) : Gr → Cl → EReal :=
  fun g j => ∑ n : Rw, if batch n = BitVec.ofNat 32 g.val then h n j else 0

/-- Row `r` of row-block `b`: the 100000 rows are 20 blocks of 5000. -/
def blkRow (b : Fin 20) (r : Fin 5000) : Rw := ⟨b.val * 5000 + r.val, by omega⟩
/-- Per-block column sums laid out as eight rows per block: the sum in row 0, zeros below. -/
def parts (e : Rw → Cl → EReal) : (⟨3, ![20, 8, 128]⟩ : Shape).Idx → EReal :=
  fun i => if (i 1).val = 0 then ∑ r : Fin 5000, e (blkRow (i 0) r) (i 2) else 0
/-- Per-block per-graph row sums. -/
def poolParts (h : Rw → Cl → EReal) (batch : Rw → BitVec 32) : (⟨3, ![20, 512, 128]⟩ : Shape).Idx → EReal :=
  fun i => ∑ r : Fin 5000, if batch (blkRow (i 0) r) = BitVec.ofNat 32 (i 1).val then h (blkRow (i 0) r) (i 2) else 0
/-- The graph labels of a one-column label matrix. -/
abbrev lab (f : (⟨2, ![100000, 1]⟩ : Shape).Idx → BitVec 32) : Rw → BitVec 32 := fun n => f (ix2 n 0)

/-- The graph labels of a label vector. -/
abbrev lab1 (f : (⟨1, ![100000]⟩ : Shape).Idx → BitVec 32) : Rw → BitVec 32 := fun n => f (ix1 n)

/-- A layer's new features with the clipped form of the variance. -/
def layerK (agg h : Rw → Cl → EReal) (W1 : Cl → Cl → EReal) (b1 : Cl → EReal) (W2 : Cl → Cl → EReal) (b2 gamma beta : Cl → EReal) :
    Rw → Cl → EReal :=
  bn (mlp agg h W1 b1 W2 b2) (mean (mlp agg h W1 b1 W2 b2)) (varK (mlp agg h W1 b1 W2 b2)) gamma beta
/-- A layer's new features with the deviation form of the variance. -/
def layerR (agg h : Rw → Cl → EReal) (W1 : Cl → Cl → EReal) (b1 : Cl → EReal) (W2 : Cl → Cl → EReal) (b2 gamma beta : Cl → EReal) :
    Rw → Cl → EReal :=
  bn (mlp agg h W1 b1 W2 b2) (mean (mlp agg h W1 b1 W2 b2)) (varR (mlp agg h W1 b1 W2 b2)) gamma beta

/-- An extended real that is a real number. -/
def IsReal (x : EReal) : Prop := ∃ r : ℝ, x = (r : EReal)
/-- Every entry a real number. -/
def R2 {α β : Type} (x : α → β → EReal) : Prop := ∀ a b, IsReal (x a b)
def R1 {α : Type} (x : α → EReal) : Prop := ∀ a, IsReal (x a)

end Cert.Spec

end
-- ==== Proof.Math.lean ====
/-
  Pure mathematics over the extended reals for the layer: the two float literals as numbers, closure of the real
  numbers inside the extended reals under the operations the layer uses, the agreement of the two forms of the
  variance on real entries, and the regrouping of a sum over the hundred thousand rows into twenty blocks of five
  thousand, also in the layouts that keep one partial sum per block.
-/
import proofs.«406400_j6640019439960_2_alg».proof.Proof.Spec
import Idealize.ShloMosaic.PureOps.Ideal
import Idealize.ShloMosaic.Lib.ValueIdx
import Mathlib.Data.EReal.Basic
import Mathlib.Data.EReal.Operations
import Mathlib.Data.EReal.Inv
import Mathlib.Algebra.BigOperators.Group.Finset.Basic
import Mathlib.Algebra.BigOperators.Fin
import Mathlib.Algebra.Order.BigOperators.Group.Finset
import Mathlib.Data.Fintype.BigOperators
import Mathlib.Logic.Equiv.Fin.Basic
import Mathlib.Tactic.Ring
import Mathlib.Tactic.NormNum
import Mathlib.Tactic.Positivity

noncomputable section

namespace Cert.Spec

open Idealize.ShloMosaic Idealize.ShloMosaic.ValueIdx

/-! ### The literals -/

/-- The node count's word denotes one hundred thousand: exponent field 143 and fraction 4411392 give
    (2^23 + 4411392) · 2^(143 - 127 - 23) = 12800000 / 128. -/
theorem nW_eq : nW = ((100000 : ℝ) : EReal) := by
  simp [nW, Ideal.ofBits, Ideal.ieee]
  rw [← EReal.coe_mul]
  norm_num

/-- The word with exponent field 127 and fraction zero denotes one. -/
theorem one_eq : Ideal.ofBits .f32 0x3F800000#32 = 1 := by
  simp [Ideal.ofBits, Ideal.ieee]
  rw [← EReal.coe_mul, ← EReal.coe_one]
  norm_num

/-- The variance offset's word denotes a positive real number (10995116 · 2^(-40)). -/
theorem epsW_real : ∃ r : ℝ, 0 < r ∧ epsW = (r : EReal) := by
  simp [epsW, Ideal.ofBits, Ideal.ieee]
  exact ⟨10995116 * (2 ^ 40)⁻¹, by positivity, by rw [EReal.coe_mul]⟩

/-! ### Real numbers inside the extended reals -/

theorem isReal_zero : IsReal 0 := ⟨0, EReal.coe_zero.symm⟩

theorem isReal_one : IsReal 1 := ⟨1, EReal.coe_one.symm⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_sub {x y : EReal} (hx : IsReal x) (hy : IsReal y) : IsReal (x - y) := by
  obtain ⟨a, rfl⟩ := hx
  obtain ⟨b, rfl⟩ := hy
  exact ⟨a - b, (EReal.coe_sub a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The inclusion of the reals is monotone, so it carries a maximum to the maximum. -/
theorem coe_max (a b : ℝ) : ((max a b : ℝ) : EReal) = max (a : EReal) (b : EReal) :=
  Monotone.map_max (fun _ _ h => EReal.coe_le_coe_iff.mpr h)

theorem isReal_max {x y : EReal} (hx : IsReal x) (hy : IsReal y) : IsReal (max x y) := by
  obtain ⟨a, rfl⟩ := hx
  obtain ⟨b, rfl⟩ := hy
  exact ⟨max a b, (coe_max a b).symm⟩

theorem isReal_sum {ι : Type} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact isReal_add (h a (Finset.mem_insert_self a s)) (ih (fun i hi => h i (Finset.mem_insert_of_mem hi)))

/-- The inclusion of the reals carries a finite sum to the sum of the inclusions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_exp {x : EReal} (h : IsReal x) : IsReal (Ideal.exp x) := by
  obtain ⟨r, rfl⟩ := h
  exact ⟨Real.exp r, rfl⟩

/-- Division of a real by the node count is the real quotient: the count is not zero. -/
theorem div_nW_coe (r : ℝ) : Ideal.div (r : EReal) nW = ((r / 100000 : ℝ) : EReal) := by
  rw [nW_eq]
  unfold Ideal.div
  rw [if_neg (EReal.coe_ne_zero.mpr (by norm_num)), ← EReal.coe_inv, ← EReal.coe_mul, div_eq_mul_inv]

theorem isReal_div_nW {x : EReal} (h : IsReal x) : IsReal (Ideal.div x nW) := by
  obtain ⟨r, rfl⟩ := h
  exact ⟨r / 100000, div_nW_coe r⟩

/-- The reciprocal square root of a positive real is the real reciprocal of its square root. -/
theorem rsqrt_coe_pos {r : ℝ} (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr h.le), if_neg h.ne']

theorem isReal_rsqrt_pos {r : ℝ} (h : 0 < r) : IsReal (Ideal.rsqrt (r : EReal)) :=
  ⟨(Real.sqrt r)⁻¹, rsqrt_coe_pos h⟩

theorem isReal_select (b : BitVec 1) {x y : EReal} (hx : IsReal x) (hy : IsReal y) :
    IsReal (Scalar.select b x y) := by
  unfold Scalar.select
  split
  · exact hx
  · exact hy

theorem sub_self_real {x : EReal} (h : IsReal x) : x - x = 0 := by
  obtain ⟨r, rfl⟩ := h
  rw [← EReal.coe_sub, sub_self, EReal.coe_zero]

/-! ### The row-wise maps keep real entries real -/

theorem lin_real {ρ : Type} {x : ρ → Cl → EReal} {W : Cl → Cl → EReal} {b : Cl → EReal}
    (hx : R2 x) (hW : R2 W) (hb : R1 b) : R2 (lin x W b) := by
  intro n j
  exact isReal_add (isReal_sum _ _ (fun k _ => isReal_mul (hx n k) (hW k j))) (hb j)

theorem relu_real {ρ : Type} {x : ρ → Cl → EReal} (hx : R2 x) : R2 (relu x) := by
  intro n j
  exact isReal_max (hx n j) isReal_zero

theorem elu_real {ρ : Type} {y : ρ → Cl → EReal} (hy : R2 y) : R2 (elu y) := by
  intro n j
  exact isReal_select _ (hy n j) (isReal_sub (isReal_exp (hy n j)) isReal_one)

theorem mlp_real {ρ : Type} {agg h : ρ → Cl → EReal} {W1 : Cl → Cl → EReal} {b1 : Cl → EReal}
    {W2 : Cl → Cl → EReal} {b2 : Cl → EReal}
    (ha : R2 agg) (hh : R2 h) (hW1 : R2 W1) (hb1 : R1 b1) (hW2 : R2 W2) (hb2 : R1 b2) :
    R2 (mlp agg h W1 b1 W2 b2) :=
  elu_real (lin_real (relu_real (lin_real (fun n j => isReal_add (ha n j) (hh n j)) hW1 hb1)) hW2 hb2)

theorem mean_real {e : Rw → Cl → EReal} (he : R2 e) : R1 (mean e) := by
  intro j
  exact isReal_div_nW (isReal_sum _ _ (fun n _ => he n j))

/-- With a nonnegative real variance the offset variance is a positive real, so its reciprocal square root is real. -/
theorem bn_real {ρ : Type} {e : ρ → Cl → EReal} {mu var gamma beta : Cl → EReal}
    (he : R2 e) (hmu : R1 mu) (hvar : ∀ j, ∃ r : ℝ, 0 ≤ r ∧ var j = (r : EReal)) (hg : R1 gamma) (hb : R1 beta) :
    R2 (bn e mu var gamma beta) := by
  intro n j
  obtain ⟨v, hv0, hv⟩ := hvar j
  obtain ⟨ε, hε0, hε⟩ := epsW_real
  have hr : IsReal (Ideal.rsqrt (var j + epsW)) := by
    rw [hv, hε, ← EReal.coe_add]
    exact isReal_rsqrt_pos (add_pos_of_nonneg_of_pos hv0 hε0)
  exact isReal_add (isReal_mul (isReal_mul (isReal_sub (he n j) (hmu j)) hr) (hg j)) (hb j)

/-! ### The two forms of the variance -/

/-- Real entries written as the inclusion of a real array. -/
theorem exists_real_array {e : Rw → Cl → EReal} (he : R2 e) :
    ∃ a : Rw → Cl → ℝ, e = fun n j => (a n j : EReal) := by
  have he' : ∀ n j, ∃ r : ℝ, e n j = (r : EReal) := he
  choose a ha using he'
  exact ⟨a, funext fun n => funext fun j => ha n j⟩

theorem colSum_coe (a : Rw → Cl → ℝ) (j : Cl) :
    colSum (fun n j => (a n j : EReal)) j = ((∑ n : Rw, a n j : ℝ) : EReal) := by
  unfold colSum
  exact (coe_sum _ _).symm

theorem mean_coe (a : Rw → Cl → ℝ) (j : Cl) :
    mean (fun n j => (a n j : EReal)) j = (((∑ n : Rw, a n j) / 100000 : ℝ) : EReal) := by
  unfold mean
  rw [colSum_coe, div_nW_coe]

/-- In the reals, with N = 100000 rows, S the sum and μ = S / N: Σ (a - μ)² = Σ a² - 2 μ S + N μ², so the mean of the
    squared deviations is the mean of the squares less μ². -/
theorem real_var_identity (a : Rw → ℝ) :
    (∑ n : Rw, (a n - (∑ m : Rw, a m) / 100000) * (a n - (∑ m : Rw, a m) / 100000)) / 100000
      = (∑ n : Rw, a n * a n) / 100000 - ((∑ m : Rw, a m) / 100000) * ((∑ m : Rw, a m) / 100000) := by
  have h1 : ∀ n : Rw, (a n - (∑ m : Rw, a m) / 100000) * (a n - (∑ m : Rw, a m) / 100000)
      = a n * a n - 2 * ((∑ m : Rw, a m) / 100000) * a n
        + ((∑ m : Rw, a m) / 100000) * ((∑ m : Rw, a m) / 100000) := fun n => by ring
  simp only [h1]
  rw [Finset.sum_add_distrib, Finset.sum_sub_distrib, ← Finset.mul_sum, Finset.sum_const, Finset.card_univ,
    Fintype.card_fin, nsmul_eq_mul]
  push_cast
  ring

theorem varR_coe (a : Rw → Cl → ℝ) (j : Cl) :
    varR (fun n j => (a n j : EReal)) j
      = (((∑ n : Rw, (a n j - (∑ m : Rw, a m j) / 100000) * (a n j - (∑ m : Rw, a m j) / 100000)) / 100000 : ℝ)
          : EReal) := by
  unfold varR
  simp only [mean_coe, ← EReal.coe_sub, ← EReal.coe_mul]
  rw [colSum_coe (fun n j => (a n j - (∑ m : Rw, a m j) / 100000) * (a n j - (∑ m : Rw, a m j) / 100000)),
    div_nW_coe]

theorem varK_coe (a : Rw → Cl → ℝ) (j : Cl) :
    varK (fun n j => (a n j : EReal)) j
      = ((max ((∑ n : Rw, a n j * a n j) / 100000
            - ((∑ m : Rw, a m j) / 100000) * ((∑ m : Rw, a m j) / 100000)) 0 : ℝ) : EReal) := by
  unfold varK
  simp only [mean_coe, ← EReal.coe_mul]
  rw [colSum_coe (fun n j => a n j * a n j), div_nW_coe, ← EReal.coe_sub, coe_max, EReal.coe_zero]

/-- The mean of squared deviations of a real array is a nonnegative real. -/
theorem real_var_nonneg (a : Rw → Cl → ℝ) (j : Cl) :
    0 ≤ (∑ n : Rw, (a n j - (∑ m : Rw, a m j) / 100000) * (a n j - (∑ m : Rw, a m j) / 100000)) / 100000 :=
  div_nonneg (Finset.sum_nonneg fun _ _ => mul_self_nonneg _) (by norm_num)

theorem varR_nonneg_real {e : Rw → Cl → EReal} (he : R2 e) : ∀ j, ∃ r : ℝ, 0 ≤ r ∧ varR e j = (r : EReal) := by
  obtain ⟨a, rfl⟩ := exists_real_array he
  intro j
  exact ⟨_, real_var_nonneg a j, varR_coe a j⟩

/-- On real entries the mean of squares less the squared mean equals the mean of squared deviations, which is
    nonnegative, so the clip at zero changes nothing. -/
theorem varK_eq_varR {e : Rw → Cl → EReal} (he : R2 e) : varK e = varR e := by
  obtain ⟨a, rfl⟩ := exists_real_array he
  funext j
  rw [varK_coe, varR_coe, ← real_var_identity (fun n => a n j), max_eq_left (real_var_nonneg a j)]

theorem layerK_eq_layerR {agg h : Rw → Cl → EReal} {W1 : Cl → Cl → EReal} {b1 : Cl → EReal}
    {W2 : Cl → Cl → EReal} {b2 gamma beta : Cl → EReal}
    (ha : R2 agg) (hh : R2 h) (hW1 : R2 W1) (hb1 : R1 b1) (hW2 : R2 W2) (hb2 : R1 b2) :
    layerK agg h W1 b1 W2 b2 gamma beta = layerR agg h W1 b1 W2 b2 gamma beta := by
  unfold layerK layerR
  rw [varK_eq_varR (mlp_real ha hh hW1 hb1 hW2 hb2)]

theorem layerR_real {agg h : Rw → Cl → EReal} {W1 : Cl → Cl → EReal} {b1 : Cl → EReal}
    {W2 : Cl → Cl → EReal} {b2 gamma beta : Cl → EReal}
    (ha : R2 agg) (hh : R2 h) (hW1 : R2 W1) (hb1 : R1 b1) (hW2 : R2 W2) (hb2 : R1 b2)
    (hg : R1 gamma) (hbeta : R1 beta) : R2 (layerR agg h W1 b1 W2 b2 gamma beta) :=
  bn_real (mlp_real ha hh hW1 hb1 hW2 hb2) (mean_real (mlp_real ha hh hW1 hb1 hW2 hb2))
    (varR_nonneg_real (mlp_real ha hh hW1 hb1 hW2 hb2)) hg hbeta

/-! ### The hundred thousand rows as twenty blocks of five thousand -/

/-- A sum over the rows is the sum over the blocks of the sums over each block's rows: the pairs (block, row in
    block) correspond one to one to the rows by (b, r) ↦ 5000 b + r. -/
theorem sum_blocks {M : Type} [AddCommMonoid M] (f : Rw → M) :
    (∑ b : Fin 20, ∑ r : Fin 5000, f (blkRow b r)) = ∑ n : Rw, f n := by
  rw [← Fintype.sum_prod_type' (fun (b : Fin 20) (r : Fin 5000) => f (blkRow b r))]
  refine Fintype.sum_equiv (finProdFinEquiv (m := 20) (n := 5000)) _ _ (fun x => ?_)
  congr 1
  apply Fin.ext
  show x.1.val * 5000 + x.2.val = x.2.val + 5000 * x.1.val
  omega

theorem colSum_blocks (e : Rw → Cl → EReal) (j : Cl) :
    (∑ b : Fin 20, ∑ r : Fin 5000, e (blkRow b r) j) = colSum e j :=
  sum_blocks (fun n => e n j)

theorem pool_blocks (h : Rw → Cl → EReal) (batch : Rw → BitVec 32) (g : Gr) (j : Cl) :
    (∑ b : Fin 20, ∑ r : Fin 5000,
        (if batch (blkRow b r) = BitVec.ofNat 32 g.val then h (blkRow b r) j else 0)) = pool h batch g j :=
  sum_blocks (fun n => if batch n = BitVec.ofNat 32 g.val then h n j else 0)

/-! ### Sums over a rank-3 index set by coordinates -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl (fun a _ => ?_)
  rw [Fintype.sum_prod_type]
  rfl

/-- Of eight rows only row 0 carries a value. -/
theorem sum_row0 (X : EReal) : (∑ b : Fin 8, if b.val = 0 then X else 0) = X := by
  rw [Finset.sum_eq_single (0 : Fin 8)]
  · simp
  · intro b _ hb
    rw [if_neg]
    intro hv
    exact hb (Fin.ext hv)
  · intro h0
    exact absurd (Finset.mem_univ _) h0

/-- The eight-row layout of the per-block column sums, summed over blocks and rows at one column, is the column sum. -/
theorem sum_parts_coord (e : Rw → Cl → EReal) (j : Cl) :
    (∑ b : Fin 20, ∑ r : Fin 8, parts e (ix3 b r j)) = colSum e j := by
  have hr : ∀ b : Fin 20, (∑ r : Fin 8, parts e (ix3 b r j)) = ∑ r : Fin 5000, e (blkRow b r) j := by
    intro b
    exact sum_row0 (∑ r : Fin 5000, e (blkRow b r) j)
  simp only [hr]
  exact colSum_blocks e j

/-- The per-block per-graph sums, summed over blocks at one graph and column, are the per-graph sum. -/
theorem sum_poolParts_coord (h : Rw → Cl → EReal) (batch : Rw → BitVec 32) (g : Gr) (j : Cl) :
    (∑ b : Fin 20, poolParts h batch (ix3 b g j)) = pool h batch g j :=
  pool_blocks h batch g j

/-- The same as a sum over the indices of the layout whose column is the given one. -/
theorem sum_parts (e : Rw → Cl → EReal) (j : Cl)
    [DecidablePred (fun i : (⟨3, ![20, 8, 128]⟩ : Shape).Idx => i 2 = j)] :
    (∑ i ∈ (Finset.univ : Finset ((⟨3, ![20, 8, 128]⟩ : Shape).Idx)).filter (fun i => i 2 = j), parts e i)
      = colSum e j := by
  rw [Finset.sum_filter, sum_idx3]
  refine Eq.trans ?_ (sum_parts_coord e j)
  refine Finset.sum_congr rfl (fun a _ => Finset.sum_congr rfl (fun b _ => ?_))
  rw [Finset.sum_eq_single j]
  · exact if_pos rfl
  · intro c _ hc
    exact if_neg hc
  · intro h0
    exact absurd (Finset.mem_univ _) h0

/-- The same as a sum over the indices of the layout whose graph and column are the given ones. -/
theorem sum_poolParts (h : Rw → Cl → EReal) (batch : Rw → BitVec 32) (g : Gr) (j : Cl)
    [DecidablePred (fun i : (⟨3, ![20, 512, 128]⟩ : Shape).Idx => i 1 = g ∧ i 2 = j)] :
    (∑ i ∈ Finset.univ.filter (fun i : (⟨3, ![20, 512, 128]⟩ : Shape).Idx => i 1 = g ∧ i 2 = j),
        poolParts h batch i) = pool h batch g j := by
  rw [Finset.sum_filter, sum_idx3]
  refine Eq.trans ?_ (sum_poolParts_coord h batch g j)
  refine Finset.sum_congr rfl (fun a _ => ?_)
  rw [Finset.sum_eq_single g]
  · rw [Finset.sum_eq_single j]
    · exact if_pos ⟨rfl, rfl⟩
    · intro c _ hc
      exact if_neg (fun hp => hc hp.2)
    · intro h0
      exact absurd (Finset.mem_univ _) h0
  · intro b _ hb
    exact Finset.sum_eq_zero (fun c _ => if_neg (fun hp => hb hp.1))
  · intro h0
    exact absurd (Finset.mem_univ _) h0

end Cert.Spec

end
-- ==== Proof.Layers.lean ====
/-
  Three layers in sequence, for a given neighbour aggregation.  Each layer aggregates the current features, runs
  the perceptron and the normalisation, and the new features feed the next layer; every layer's features are also
  summed per graph.  The two forms of the variance give the same sequence as long as the inputs are real numbers
  and the aggregation keeps real entries real.
-/
import proofs.«406400_j6640019439960_2_alg».proof.Proof.Spec
import proofs.«406400_j6640019439960_2_alg».proof.Proof.Math

noncomputable section

namespace Cert.Spec

/-- The inputs both programs take, read in curried form: the node features, the graph labels, and per layer the
    two weight matrices, the two biases, the scale and the shift. -/
structure Inp where
  x : Rw → Cl → EReal
  lbl : Rw → BitVec 32
  W1 : Fin 3 → Cl → Cl → EReal
  b1 : Fin 3 → Cl → EReal
  W2 : Fin 3 → Cl → Cl → EReal
  b2 : Fin 3 → Cl → EReal
  gamma : Fin 3 → Cl → EReal
  beta : Fin 3 → Cl → EReal

/-- Every float input a real number. -/
structure Inp.Real (I : Inp) : Prop where
  x : R2 I.x
  W1 : ∀ L, R2 (I.W1 L)
  b1 : ∀ L, R1 (I.b1 L)
  W2 : ∀ L, R2 (I.W2 L)
  b2 : ∀ L, R1 (I.b2 L)
  gamma : ∀ L, R1 (I.gamma L)
  beta : ∀ L, R1 (I.beta L)

variable (A : (Rw → Cl → EReal) → (Rw → Cl → EReal)) (I : Inp)

/-- The features after `L` layers, the variance in its clipped form. -/
def hK : (L : Nat) → Rw → Cl → EReal
  | 0 => I.x
  | L + 1 => layerK (A (hK L)) (hK L) (I.W1 ⟨L % 3, Nat.mod_lt _ (by decide)⟩) (I.b1 ⟨L % 3, Nat.mod_lt _ (by decide)⟩)
      (I.W2 ⟨L % 3, Nat.mod_lt _ (by decide)⟩) (I.b2 ⟨L % 3, Nat.mod_lt _ (by decide)⟩)
      (I.gamma ⟨L % 3, Nat.mod_lt _ (by decide)⟩) (I.beta ⟨L % 3, Nat.mod_lt _ (by decide)⟩)

/-- The features after `L` layers, the variance in its deviation form. -/
def hR : (L : Nat) → Rw → Cl → EReal
  | 0 => I.x
  | L + 1 => layerR (A (hR L)) (hR L) (I.W1 ⟨L % 3, Nat.mod_lt _ (by decide)⟩) (I.b1 ⟨L % 3, Nat.mod_lt _ (by decide)⟩)
      (I.W2 ⟨L % 3, Nat.mod_lt _ (by decide)⟩) (I.b2 ⟨L % 3, Nat.mod_lt _ (by decide)⟩)
      (I.gamma ⟨L % 3, Nat.mod_lt _ (by decide)⟩) (I.beta ⟨L % 3, Nat.mod_lt _ (by decide)⟩)

theorem hK_succ (L : Nat) : hK A I (L + 1) = layerK (A (hK A I L)) (hK A I L) (I.W1 ⟨L % 3, Nat.mod_lt _ (by decide)⟩)
    (I.b1 ⟨L % 3, Nat.mod_lt _ (by decide)⟩) (I.W2 ⟨L % 3, Nat.mod_lt _ (by decide)⟩) (I.b2 ⟨L % 3, Nat.mod_lt _ (by decide)⟩)
    (I.gamma ⟨L % 3, Nat.mod_lt _ (by decide)⟩) (I.beta ⟨L % 3, Nat.mod_lt _ (by decide)⟩) := rfl

theorem hR_succ (L : Nat) : hR A I (L + 1) = layerR (A (hR A I L)) (hR A I L) (I.W1 ⟨L % 3, Nat.mod_lt _ (by decide)⟩)
    (I.b1 ⟨L % 3, Nat.mod_lt _ (by decide)⟩) (I.W2 ⟨L % 3, Nat.mod_lt _ (by decide)⟩) (I.b2 ⟨L % 3, Nat.mod_lt _ (by decide)⟩)
    (I.gamma ⟨L % 3, Nat.mod_lt _ (by decide)⟩) (I.beta ⟨L % 3, Nat.mod_lt _ (by decide)⟩) := rfl

variable {A I}

/-- With real inputs and an aggregation that keeps real entries real, the two sequences agree and stay real. -/
theorem hK_eq_hR (hA : ∀ h, R2 h → R2 (A h)) (hI : I.Real) : ∀ L, hK A I L = hR A I L ∧ R2 (hR A I L)
  | 0 => ⟨rfl, hI.x⟩
  | L + 1 => by
    obtain ⟨he, hr⟩ := hK_eq_hR hA hI L
    refine ⟨?_, ?_⟩
    · rw [hK_succ, hR_succ, he]
      exact layerK_eq_layerR (hA _ hr) hr (hI.W1 _) (hI.b1 _) (hI.W2 _) (hI.b2 _)
    · rw [hR_succ]
      exact layerR_real (hA _ hr) hr (hI.W1 _) (hI.b1 _) (hI.W2 _) (hI.b2 _) (hI.gamma _) (hI.beta _)

end Cert.Spec

end
-- ==== Proof.Agg.lean ====
/-
  The neighbour aggregation both programs share, as one function of the features and the two rows of the edge list:
  every edge adds its source node's feature row to its destination node's row, a negative source index counting
  from the end.  Each aggregated entry is zero plus a finite sum of entries of the features, so real features
  aggregate to real entries.  The first, third and fifth host stretches of the kernel program compute this function:
  the first at the features given and the two rows it slices off the edge list, the later two at the features the
  layer before left and the same two rows.
-/
import proofs.«406400_j6640019439960_2_alg».proof.Proof.Gen.KernelIdeal
import proofs.«406400_j6640019439960_2_alg».proof.Proof.Gen.KernelIdeal.Launch
import proofs.«406400_j6640019439960_2_alg».proof.Proof.Spec
import proofs.«406400_j6640019439960_2_alg».proof.Proof.Math
import Idealize.ShloMosaic.PureOps.Ideal
import Idealize.ShloMosaic.PureOps.Ideal.Laws
import Idealize.ShloMosaic.Lib.ValueIdx
import Idealize.ShloMosaic.Lib.StableHlo.Run

noncomputable section

namespace Cert.KernelIdeal.Hand

open Cert.KernelIdeal Cert.KernelIdeal.Gen Cert.Spec Idealize.ShloMosaic Idealize.ShloMosaic.ValueIdx
open Idealize.ShloMosaic.StableHlo (after_cons after_nil)

/-! ## The aggregation as one function -/

/-- The edges' source nodes: row 0 of the edge list. -/
def srcOf (ei : S2x640000.Idx → BitVec 32) : S640000.Idx → BitVec 32 :=
  shapeCast S640000 (extractStridedSlice S1x640000 ![0, 0] ei slices_S2x640000_S1x640000_0_0) shapeCasts_S1x640000_S640000

/-- The edges' destination nodes: row 1 of the edge list. -/
def dstOf (ei : S2x640000.Idx → BitVec 32) : S640000.Idx → BitVec 32 :=
  shapeCast S640000 (extractStridedSlice S1x640000 ![1, 0] ei slices_S2x640000_S1x640000_1_0) shapeCasts_S1x640000_S640000

/-- The aggregate of the features `h` along the edges `src → dst`: from the zero array, each edge adds the row of `h`
    at its source (a negative source index first moved up by the node count) to the row at its destination. -/
def aggCore (h : S100000x128.Idx → EReal) (src dst : S640000.Idx → BitVec 32) : S100000x128.Idx → EReal :=
  Host.scatterAdd scatter_S100000x128_S640000x1_S640000x128_1_0_0_1
    (broadcastInDim S100000x128 ![] bcast_S_S100000x128 (constant (F := Ideal) S_ .f32 0x00000000#32))
    (broadcastInDim S640000x1 ![0] bcast_S640000_S640000x1_0 dst)
    (Host.gather gather_S100000x128_S640000x1_S640000x128_1_0_n_n_0_1_1128 h
      (broadcastInDim S640000x1 ![0] bcast_S640000_S640000x1_0
        (select (cmpi .slt src (broadcastInDim S640000 ![] bcast_S_S640000 (constantI S_ 32 0#32)))
          (addi src (broadcastInDim S640000 ![] bcast_S_S640000 (constantI S_ 32 100000#32))) src)))

/-- Real features aggregate to real entries: an aggregated entry is the zero it starts from plus a finite sum of
    gathered entries, and every gathered entry is an entry of the features. Which entry is never asked. -/
theorem aggCore_real (h : S100000x128.Idx → EReal) (src dst : S640000.Idx → BitVec 32) (hh : R2 (of2 h)) :
    R2 (of2 (aggCore h src dst)) := by
  intro a b
  show IsReal (aggCore h src dst (ix2 a b))
  unfold aggCore Host.scatterAdd
  rw [Ideal.hostScatterAdd_def]
  unfold Ideal.hostScatterAdd
  refine isReal_add ?_ (isReal_sum _ _ fun j _ => ?_)
  · show IsReal (Ideal.ofBits .f32 0x00000000#32)
    rw [Ideal.ofBits_zero_f32]
    exact isReal_zero
  · unfold Host.gather
    generalize (gather_S100000x128_S640000x1_S640000x128_1_0_n_n_0_1_1128).operandIdx j _ = i
    rw [eq_ix2 i]
    exact hh (i 0) (i 1)

/-! ## The host stretches compute it -/

set_option maxHeartbeats 2000000 in
/-- The first stretch: the aggregate of the given features along the two rows it slices off the edge list. -/
theorem stretch0_agg (U : Valuation τ sig (Elt Ideal)) :
    (StableHlo.after (hostOps0 (F := Ideal)) U (Proc.devRef .tc main_v14) : S100000x128.Idx → EReal)
      = aggCore (U (Proc.devRef .tc main_arg0)) (srcOf (U (Proc.devRef .tc main_arg1))) (dstOf (U (Proc.devRef .tc main_arg1))) := by
  after_results_simp
  rfl

/-- It leaves the edges' source nodes, -/
theorem stretch0_src (U : Valuation τ sig (Elt Ideal)) :
    (StableHlo.after (hostOps0 (F := Ideal)) U (Proc.devRef .tc main_v1) : S640000.Idx → BitVec 32)
      = srcOf (U (Proc.devRef .tc main_arg1)) := by
  after_results
  rfl

/-- their destination nodes, -/
theorem stretch0_dst (U : Valuation τ sig (Elt Ideal)) :
    (StableHlo.after (hostOps0 (F := Ideal)) U (Proc.devRef .tc main_v3) : S640000.Idx → BitVec 32)
      = dstOf (U (Proc.devRef .tc main_arg1)) := by
  after_results
  rfl

/-- and the graph labels as a one-column matrix. -/
theorem stretch0_lab (U : Valuation τ sig (Elt Ideal)) :
    (StableHlo.after (hostOps0 (F := Ideal)) U (Proc.devRef .tc main_v4) : S100000x1.Idx → BitVec 32)
      = shapeCast S100000x1 (U (Proc.devRef .tc main_arg2)) shapeCasts_S100000_S100000x1 := by
  after_results
  rfl

set_option maxHeartbeats 2000000 in
/-- The third stretch: the aggregate of the first layer's features along the same edges. -/
theorem stretch2_agg (U : Valuation τ sig (Elt Ideal)) :
    (StableHlo.after (hostOps2 (F := Ideal)) U (Proc.devRef .tc main_v55) : S100000x128.Idx → EReal)
      = aggCore (U (Proc.devRef .tc main_v44_0)) (U (Proc.devRef .tc main_v1)) (U (Proc.devRef .tc main_v3)) := by
  after_results_simp
  rfl

set_option maxHeartbeats 2000000 in
/-- The fifth stretch: the aggregate of the second layer's features along the same edges. -/
theorem stretch4_agg (U : Valuation τ sig (Elt Ideal)) :
    (StableHlo.after (hostOps4 (F := Ideal)) U (Proc.devRef .tc main_v96) : S100000x128.Idx → EReal)
      = aggCore (U (Proc.devRef .tc main_v85_0)) (U (Proc.devRef .tc main_v1)) (U (Proc.devRef .tc main_v3)) := by
  after_results_simp
  rfl

end Cert.KernelIdeal.Hand

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.KIValA0.lean ====
/- The values the first call of the two-layer perceptron with column statistics leaves in its three output arrays,
   over the extended reals, as whole-array functions of the contents the region is entered with.  One block of the
   activated features is the perceptron of the block's rows of the aggregate and the features: the two matrix products
   are plain sums over the 128 columns, the bias rows are read at row 0, the rectifier's and the unit's constants are
   0 and 1, and the narrowing of the operands is the identity.  The perceptron is row-wise, so a block's rows of it
   are the whole array's at those rows; the twenty blocks tile the array.  The per-block column sums, of the block
   and of its squares, sit in row 0 of an eight-row tile whose other rows are 0. -/
import proofs.«406400_j6640019439960_2_alg».proof.Proof.KIRegA0
import proofs.«406400_j6640019439960_2_alg».proof.Proof.Spec
import proofs.«406400_j6640019439960_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Spec

/-! ## Facts the three calls of the kernel share -/

/-- The word of the float one is the extended real 1. -/
theorem one_word : Ideal.ofBits .f32 0x3F800000#32 = 1 := by
  simp [Ideal.ofBits, Ideal.ieee]
  rw [← EReal.coe_mul]
  norm_num

/-- The exponential of a block, at an index. -/
theorem expBlock_apply {s : Shape} {φ : FTy} (x : FVec Ideal s φ) (i : s.Idx) : exp x i = Ideal.exp (x i) := rfl

/-- The comparison of two extended reals is the linear order's. -/
theorem cmpWord {φ : FTy} (p : CmpFPredicate) (x y : Ideal φ) : FloatOps.cmpf p x y = Ideal.cmp p x y := rfl

/-- A product of a [5000,128] block with a [128,128] matrix into the zero accumulator, at (p, q): the sum over the
    128 columns. -/
theorem blockProd_apply {φ₁ φ₂ : FTy} (l : FVec Ideal S5000x128 φ₁) (r : FVec Ideal S128x128 φ₂) (p : Fin 5000) (q : Fin 128) :
    FloatOps.matmul dot_S5000x128_S128x128_S5000x128_1_0_0_1_n_n none l r (constant (F := Ideal) S5000x128 .f32 0x00000000#32) (ix2 p q)
      = ∑ k : Fin 128, l (ix2 p k) * r (ix2 k q) := by
  rw [Ideal.matmul_constant_zero_apply]
  exact PlainDot.sum_eq dot_S5000x128_S128x128_S5000x128_1_0_0_1_n_n rfl rfl rfl rfl rfl rfl l r p q

/-- A one-row matrix spread over the 5000 rows, at (p, q): the row at column q. -/
theorem rowSpread_apply (x : FVec Ideal S1x128 .f32) (p : Fin 5000) (q : Fin 128) :
    broadcastTo S5000x128 x broadcasts_S1x128_S5000x128 (ix2 p q) = x (ix2 0 q) :=
  broadcastTo_apply x broadcasts_S1x128_S5000x128 (ix2 p q) (ix2 0 q) (fun a => by
    match a with
    | ⟨0, _⟩ => rfl
    | ⟨1, _⟩ => rfl)

/-- A [5000,128] block summed over its rows and laid out as a one-row matrix, at column q: the sum over the rows. -/
theorem colSumRow_apply (e : FVec Ideal S5000x128 .f32) (u : Fin 1) (q : Fin 128) :
    shapeCast S1x128 (multiReduction (F := Ideal) .add [0] S128 e 0x00000000#32 reduces_S5000x128_S128 (.inl rfl) rfl)
        shapeCasts_S128_S1x128 (ix2 u q)
      = ∑ r : Fin 5000, e (ix2 r q) := by
  refine (shapeCast_a_1a_apply _ shapeCasts_S128_S1x128 u q).trans
    ((Ideal.multiReduction_add_single e _ reduces_S5000x128_S128 (.inl rfl) rfl (ix1 q)).trans ?_)
  exact Finset.sum_congr rfl fun r _ => congrArg e (funext fun a => by
    match a with
    | ⟨0, _⟩ => rfl
    | ⟨1, _⟩ => rfl)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The zero word as the tile's filler. -/
theorem zero_word : (Scalar.ofBits .f32 0x00000000#32 : Ideal .f32) = 0 := Ideal.ofBits_zero_f32

/-- The perceptron of six loaded blocks, curried: rows of the block against columns. -/
abbrev actOf (x0 x1 : Vec Ideal S5000x128 .f32) (x2 : Vec Ideal S128x128 .f32) (x3 : Vec Ideal S1x128 .f32)
    (x4 : Vec Ideal S128x128 .f32) (x5 : Vec Ideal S1x128 .f32) : Fin 5000 → Cl → EReal :=
  mlp (ρ := Fin 5000) (of2 x0) (of2 x1) (of2 x2) (row x3) (of2 x4) (row x5)

-- a block's rows are the array's rows

/-- The perceptron is row-wise: on a block whose two feature blocks are rows `blkRow b ·` of two arrays, it is the
    perceptron of the arrays at those rows. -/
theorem actOf_rows (A H : S100000x128.Idx → EReal) (x0 x1 : Vec Ideal S5000x128 .f32) (x2 : Vec Ideal S128x128 .f32)
    (x3 : Vec Ideal S1x128 .f32) (x4 : Vec Ideal S128x128 .f32) (x5 : Vec Ideal S1x128 .f32) (b : Fin 20)
    (h0 : ∀ (p : Fin 5000) (q : Fin 128), x0 (ix2 p q) = A (ix2 (blkRow b p) q))
    (h1 : ∀ (p : Fin 5000) (q : Fin 128), x1 (ix2 p q) = H (ix2 (blkRow b p) q)) (p : Fin 5000) (q : Cl) :
    actOf x0 x1 x2 x3 x4 x5 p q = mlp (of2 A) (of2 H) (of2 x2) (row x3) (of2 x4) (row x5) (blkRow b p) q := by
  have e0 : of2 x0 = fun r => of2 A (blkRow b r) := funext fun p => funext fun q => h0 p q
  have e1 : of2 x1 = fun r => of2 H (blkRow b r) := funext fun p => funext fun q => h1 p q
  show mlp (ρ := Fin 5000) (of2 x0) (of2 x1) (of2 x2) (row x3) (of2 x4) (row x5) p q = _
  rw [e0, e1]
  rfl

/-- A block function that is, row by row, a whole-array function at the block's rows is that function read through
    any embedding that adds the block's first row on axis 0 and keeps axis 1. -/
theorem block_of_rows (G : S100000x128.Idx → EReal) (B : S5000x128.Idx → EReal) (emb : S5000x128.Idx → S100000x128.Idx)
    (b : Fin 20) (he0 : ∀ j, (emb j 0).val = b.val * 5000 + (j 0).val) (he1 : ∀ j, (emb j 1).val = (j 1).val)
    (hB : ∀ (p : Fin 5000) (q : Fin 128), B (ix2 p q) = G (ix2 (blkRow b p) q)) : B = fun j => G (emb j) := by
  funext j
  have hj : emb j = ix2 (blkRow b (j 0)) (j 1) := funext fun a => Fin.ext (by
    match a with
    | ⟨0, _⟩ => exact he0 j
    | ⟨1, _⟩ => exact he1 j)
  rw [hj]
  exact (congrArg B (eq_ix2 j)).trans (hB (j 0) (j 1))

/-- A tile holding a block's column sums in row 0 is the per-block sums' array read through any embedding that puts
    the tile at block b and keeps the other two axes. -/
theorem tile_of_parts (e : Rw → Cl → EReal) (B : S1x8x128.Idx → EReal) (emb : S1x8x128.Idx → S20x8x128.Idx) (b : Fin 20)
    (he0 : ∀ j, (emb j 0).val = b.val) (he1 : ∀ j, (emb j 1).val = (j 1).val) (he2 : ∀ j, (emb j 2).val = (j 2).val)
    (hB : ∀ j : S1x8x128.Idx, B j = if (j 1).val = 0 then ∑ r : Fin 5000, e (blkRow b r) (j 2) else 0) :
    B = fun j => parts e (emb j) := by
  funext j
  have h0 : emb j 0 = b := Fin.ext (he0 j)
  have h2 : emb j 2 = j 2 := Fin.ext (he2 j)
  rw [hB j]
  show _ = if (emb j 1).val = 0 then ∑ r : Fin 5000, e (blkRow (emb j 0) r) (emb j 2) else 0
  rw [h0, h2, he1 j]

/-! ## The first call: one block of its perceptron, index by index -/

/-- The block the body stores in the first output window, at (p, q): the perceptron of the six loaded blocks. -/
theorem actBlock0_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k0_pay4 (F := Ideal) x0 x1 x2 x3 x4 x5 (ix2 p q)
      = mlp (ρ := Fin 5000) (of2 x0) (of2 x1) (of2 x2) (row x3) (of2 x4) (row x5) p q := by
  unfold k0_pay4 mlp elu lin relu
  simp only [shapeCast_self, select_apply, cmpf_apply, subf_apply, addf_apply, broadcast_apply, maximumf_apply,
    truncf_apply, matmul, blockProd_apply, rowSpread_apply, expBlock_apply, cmpWord, Ideal.ofBits_def, Ideal.ofBits_zero_f32, one_word]

/-- The stored block of activated features as one function of the six loaded blocks. -/
theorem actBlock0_eq (x0 x1 : Vec Ideal S5000x128 .f32) (x2 : Vec Ideal S128x128 .f32) (x3 : Vec Ideal S1x128 .f32)
    (x4 : Vec Ideal S128x128 .f32) (x5 : Vec Ideal S1x128 .f32) :
    k0_pay4 (F := Ideal) x0 x1 x2 x3 x4 x5 = toArr2 (actOf x0 x1 x2 x3 x4 x5) :=
  funext fun j => by
    obtain ⟨p, q, rfl⟩ : ∃ (p : Fin 5000) (q : Fin 128), j = ix2 p q := ⟨j 0, j 1, eq_ix2 j⟩
    exact actBlock0_apply x0 x1 x2 x3 x4 x5 p q

/-- The sums' row set over seven rows of zeros and laid out as a [1,8,128] tile, at (u, b, q): the row where b = 0,
    zero below. -/
theorem tile0_apply (v : FVec Ideal S1x128 .f32) (u : Fin 1) (b : Fin 8) (q : Fin 128) :
    k0_pay2 (F := Ideal) v (Scalar.ofBits .f32 0x00000000#32) (ix3 u b q) = if b.val = 0 then v (ix2 0 q) else 0 := by
  unfold k0_pay2 k0_pay1
  rw [shapeCast_ab_1ab_apply]
  split
  · next hb =>
    exact concatenate_pair_apply_left 0 v _ concatenates_S1x128_S7x128_S8x128_d0 (ix2 b q) rfl (ix2 0 q) (fun a => by
      match a with
      | ⟨0, _⟩ => exact hb.symm
      | ⟨1, _⟩ => rfl)
  · next hb =>
    exact (concatenate_pair_apply_right 0 v _ concatenates_S1x128_S7x128_S8x128_d0 (ix2 b q) rfl rfl
      (ix2 ⟨b.val - 1, by omega⟩ q) (fun a ha => by
        match a, ha with
        | ⟨0, _⟩, ha => exact absurd rfl ha
        | ⟨1, _⟩, _ => rfl) (by show b.val - 1 + 1 = b.val; omega)).trans zero_word

/-- The second tile is laid out as the first. -/
theorem tile0_apply' (v : FVec Ideal S1x128 .f32) (u : Fin 1) (b : Fin 8) (q : Fin 128) :
    k0_pay3 (F := Ideal) v (Scalar.ofBits .f32 0x00000000#32) (ix3 u b q) = if b.val = 0 then v (ix2 0 q) else 0 :=
  tile0_apply v u b q

/-! ## What the body leaves in each output buffer, as functions of the six loaded blocks -/

/-- The first output buffer: the perceptron of the blocks. -/
theorem out0_6_eq (x0 x1 : Vec Ideal S5000x128 .f32) (x2 : Vec Ideal S128x128 .f32) (x3 : Vec Ideal S1x128 .f32)
    (x4 : Vec Ideal S128x128 .f32) (x5 : Vec Ideal S1x128 .f32) :
    out0_6 (F := Ideal) x0 x1 x2 x3 x4 x5 = toArr2 (actOf x0 x1 x2 x3 x4 x5) := by
  unfold out0_6
  rw [View.canon_unit_zero zeros2]
  simp only [View.ld_unit_zero (S := S5000x128) zeros2, View.ld_unit_zero (S := S128x128) zeros2, View.ld_unit_zero (S := S1x128) zeros2]
  exact actBlock0_eq x0 x1 x2 x3 x4 x5

/-- The second output buffer: the perceptron's column sums over the block in row 0, zeros below. -/
theorem out0_7_eq (x0 x1 : Vec Ideal S5000x128 .f32) (x2 : Vec Ideal S128x128 .f32) (x3 : Vec Ideal S1x128 .f32)
    (x4 : Vec Ideal S128x128 .f32) (x5 : Vec Ideal S1x128 .f32) :
    out0_7 (F := Ideal) x0 x1 x2 x3 x4 x5
      = fun i : S1x8x128.Idx => if (i 1).val = 0 then ∑ r : Fin 5000, actOf x0 x1 x2 x3 x4 x5 r (i 2) else 0 := by
  unfold out0_7
  rw [View.canon_unit_zero zeros3]
  simp only [View.ld_unit_zero (S := S5000x128) zeros2, View.ld_unit_zero (S := S128x128) zeros2, View.ld_unit_zero (S := S1x128) zeros2]
  funext i
  obtain ⟨u, b, q, rfl⟩ : ∃ (u : Fin 1) (b : Fin 8) (q : Fin 128), i = ix3 u b q := ⟨i 0, i 1, i 2, eq_ix3 i⟩
  rw [tile0_apply]
  refine if_congr Iff.rfl ?_ rfl
  unfold k0_pay5
  rw [colSumRow_apply]
  exact Finset.sum_congr rfl fun r _ => actBlock0_apply x0 x1 x2 x3 x4 x5 r q

/-- The third output buffer: the column sums of the perceptron's squares over the block in row 0, zeros below. -/
theorem out0_8_eq (x0 x1 : Vec Ideal S5000x128 .f32) (x2 : Vec Ideal S128x128 .f32) (x3 : Vec Ideal S1x128 .f32)
    (x4 : Vec Ideal S128x128 .f32) (x5 : Vec Ideal S1x128 .f32) :
    out0_8 (F := Ideal) x0 x1 x2 x3 x4 x5
      = fun i : S1x8x128.Idx => if (i 1).val = 0 then
          ∑ r : Fin 5000, actOf x0 x1 x2 x3 x4 x5 r (i 2) * actOf x0 x1 x2 x3 x4 x5 r (i 2) else 0 := by
  unfold out0_8
  rw [View.canon_unit_zero zeros3]
  simp only [View.ld_unit_zero (S := S5000x128) zeros2, View.ld_unit_zero (S := S128x128) zeros2, View.ld_unit_zero (S := S1x128) zeros2]
  funext i
  obtain ⟨u, b, q, rfl⟩ : ∃ (u : Fin 1) (b : Fin 8) (q : Fin 128), i = ix3 u b q := ⟨i 0, i 1, i 2, eq_ix3 i⟩
  rw [tile0_apply']
  refine if_congr Iff.rfl ?_ rfl
  unfold k0_pay6
  rw [colSumRow_apply]
  exact Finset.sum_congr rfl fun r _ => by
    rw [mulf_apply, actBlock0_apply x0 x1 x2 x3 x4 x5 r q]

/-! ## The region's blocks, read off the entry contents -/

-- the core's buffer contents when region 0 is entered
variable (V : (c : Dev nD) → (b : Ref sig .tc) → Buf (Elt Ideal) ((c : Thread nD τ).loc b))

/-- The activated features of the whole array: the perceptron of the aggregate, the features, the two weight matrices
    and the two bias rows as the region finds them. -/
abbrev eA0 (c : Dev nD) : Rw → Cl → EReal :=
  mlp (of2 (V c main_v14 : S100000x128.Idx → EReal)) (of2 (V c main_arg0 : S100000x128.Idx → EReal))
    (of2 (V c main_v16 : S128x128.Idx → EReal)) (row (V c main_v19 : S1x128.Idx → EReal))
    (of2 (V c main_v21 : S128x128.Idx → EReal)) (row (V c main_v24 : S1x128.Idx → EReal))

/-- The printed index maps over the grid: the two feature windows and the three output windows sit at block t on
    their first axis, the four parameter windows at their one block. -/
theorem idx0_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_6.index t (0 : Fin 2) = t.val ∧ win0_6.index t (1 : Fin 2) = 0 :=
  (by decide +kernel : ∀ t : Fin grid0.N, _)
theorem idx0_params : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)
theorem idx0_tiles : ∀ t : Fin cfg0.N, win0_7.index t (0 : Fin 3) = t.val ∧ win0_7.index t (1 : Fin 3) = 0
    ∧ win0_7.index t (2 : Fin 3) = 0
    ∧ win0_8.index t (0 : Fin 3) = t.val ∧ win0_8.index t (1 : Fin 3) = 0 ∧ win0_8.index t (2 : Fin 3) = 0 :=
  (by decide +kernel : ∀ t : Fin grid0.N, _)

/-- Window 0's block at point t is rows `blkRow t ·` of the aggregate. -/
theorem aggBlk0 (c : Dev nD) (t : Fin cfg0.N) (p : Fin 5000) (q : Fin 128) :
    (iblk0 V c 0 t : Vec Ideal S5000x128 .f32) (ix2 p q) = (V c main_v14 : S100000x128.Idx → EReal) (ix2 (blkRow t p) q) := by
  obtain ⟨e0, e1, -, -, -, -⟩ := idx0_rows t
  show (V c main_v14 : S100000x128.Idx → EReal) (((cfg0.win 0).blk t).view.emb (ix2 p q)) = _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * q.val = q.val; omega

/-- Window 1's block at point t is rows `blkRow t ·` of the features. -/
theorem featBlk0 (c : Dev nD) (t : Fin cfg0.N) (p : Fin 5000) (q : Fin 128) :
    (iblk0 V c 1 t : Vec Ideal S5000x128 .f32) (ix2 p q) = (V c main_arg0 : S100000x128.Idx → EReal) (ix2 (blkRow t p) q) := by
  obtain ⟨-, -, e0, e1, -, -⟩ := idx0_rows t
  show (V c main_arg0 : S100000x128.Idx → EReal) (((cfg0.win 1).blk t).view.emb (ix2 p q)) = _
  refine congrArg _ (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * q.val = q.val; omega

/-- Windows 2 to 5 hold their whole arrays at every point. -/
theorem w1Blk0 (c : Dev nD) (t : Fin cfg0.N) : (iblk0 V c 2 t : Vec Ideal S128x128 .f32) = (V c main_v16 : S128x128.Idx → EReal) := by
  obtain ⟨e0, e1, -, -, -, -, -, -⟩ := idx0_params t
  funext j
  show (V c main_v16 : S128x128.Idx → EReal) (((cfg0.win 2).blk t).view.emb j) = _
  refine congrArg _ (funext fun a => Fin.ext ?_)
  match a with
  | ⟨0, _⟩ => show win0_2.index t (0 : Fin 2) * 128 + 1 * (j 0).val = (j 0).val; omega
  | ⟨1, _⟩ => show win0_2.index t (1 : Fin 2) * 128 + 1 * (j 1).val = (j 1).val; omega
theorem b1Blk0 (c : Dev nD) (t : Fin cfg0.N) : (iblk0 V c 3 t : Vec Ideal S1x128 .f32) = (V c main_v19 : S1x128.Idx → EReal) := by
  obtain ⟨-, -, e0, e1, -, -, -, -⟩ := idx0_params t
  funext j
  show (V c main_v19 : S1x128.Idx → EReal) (((cfg0.win 3).blk t).view.emb j) = _
  refine congrArg _ (funext fun a => Fin.ext ?_)
  match a with
  | ⟨0, _⟩ => show win0_3.index t (0 : Fin 2) * 1 + 1 * (j 0).val = (j 0).val; omega
  | ⟨1, _⟩ => show win0_3.index t (1 : Fin 2) * 128 + 1 * (j 1).val = (j 1).val; omega
theorem w2Blk0 (c : Dev nD) (t : Fin cfg0.N) : (iblk0 V c 4 t : Vec Ideal S128x128 .f32) = (V c main_v21 : S128x128.Idx → EReal) := by
  obtain ⟨-, -, -, -, e0, e1, -, -⟩ := idx0_params t
  funext j
  show (V c main_v21 : S128x128.Idx → EReal) (((cfg0.win 4).blk t).view.emb j) = _
  refine congrArg _ (funext fun a => Fin.ext ?_)
  match a with
  | ⟨0, _⟩ => show win0_4.index t (0 : Fin 2) * 128 + 1 * (j 0).val = (j 0).val; omega
  | ⟨1, _⟩ => show win0_4.index t (1 : Fin 2) * 128 + 1 * (j 1).val = (j 1).val; omega
theorem b2Blk0 (c : Dev nD) (t : Fin cfg0.N) : (iblk0 V c 5 t : Vec Ideal S1x128 .f32) = (V c main_v24 : S1x128.Idx → EReal) := by
  obtain ⟨-, -, -, -, -, -, e0, e1⟩ := idx0_params t
  funext j
  show (V c main_v24 : S1x128.Idx → EReal) (((cfg0.win 5).blk t).view.emb j) = _
  refine congrArg _ (funext fun a => Fin.ext ?_)
  match a with
  | ⟨0, _⟩ => show win0_5.index t (0 : Fin 2) * 1 + 1 * (j 0).val = (j 0).val; omega
  | ⟨1, _⟩ => show win0_5.index t (1 : Fin 2) * 128 + 1 * (j 1).val = (j 1).val; omega

/-- The perceptron of the six blocks at point t is the whole array's perceptron at rows `blkRow t ·`. -/
theorem act_at0 (c : Dev nD) (t : Fin cfg0.N) (p : Fin 5000) (q : Cl) :
    actOf (iblk0 V c 0 t) (iblk0 V c 1 t) (iblk0 V c 2 t) (iblk0 V c 3 t) (iblk0 V c 4 t) (iblk0 V c 5 t) p q
      = eA0 V c (blkRow t p) q := by
  rw [actOf_rows (V c main_v14) (V c main_arg0) _ _ _ _ _ _ t (aggBlk0 V c t) (featBlk0 V c t) p q,
    w1Blk0 V c t, b1Blk0 V c t, w2Blk0 V c t, b2Blk0 V c t]

/-! ## From blocks to the arrays -/

/-- What point t writes back to the first output array is block t of the whole array's perceptron. -/
theorem flushed0_6_eq (c : Dev nD) (t : Fin cfg0.N) :
    (dat0 V c).flushed 6 t = ((cfg0.win 6).blk t).view.read (Elt Ideal) (toArr2 (eA0 V c)) := by
  show (cfg0.win 6).cut (grid0.coords t) ((dat0 V c).after 6 t) = _
  rw [after0_6, out0_6_eq]
  obtain ⟨-, -, -, -, e0, e1⟩ := idx0_rows t
  exact block_of_rows (toArr2 (eA0 V c)) _ (((cfg0.win 6).blk t).view.emb) t
    (fun j => by show win0_6.index t (0 : Fin 2) * 5000 + 1 * (j 0).val = t.val * 5000 + (j 0).val; omega)
    (fun j => by show win0_6.index t (1 : Fin 2) * 128 + 1 * (j 1).val = (j 1).val; omega)
    (fun p q => act_at0 V c t p q)

/-- An index of the first output array is in point t's block iff each coordinate is in the block's range. -/
theorem mem_blk0_6 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v25_0).slice (win0_6.rect t)).set ↔ _
  rw [View.set_slice_whole, Rect.mem_set_unit]
  exact Iff.rfl

/-- The twenty blocks tile the first output array: row n is in block n / 5000. -/
theorem cover0_6_arr (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ : ∃ t : Fin cfg0.N, t.val = (i 0).val / 5000 := ⟨⟨(i 0).val / 5000, by show _ < 20; omega⟩, rfl⟩
  obtain ⟨-, -, -, -, e0, e1⟩ := idx0_rows t
  refine ⟨t, flush0_6 t, ?_⟩
  rw [mem_blk0_6]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- THE FIRST OUTPUT ARRAY after the region: the perceptron of the entry contents. -/
theorem arr0_6 (c : Dev nD) : (dat0 V c).arrAt 6 cfg0.N = toArr2 (eA0 V c) :=
  (dat0 V c).arrAt_eq_of_cover 6 (toArr2 (eA0 V c)) (fun t _ => flushed0_6_eq V c t) cover0_6_arr

/-- What point t writes back to the second output array is tile t of the per-block column sums of the perceptron. -/
theorem flushed0_7_eq (c : Dev nD) (t : Fin cfg0.N) :
    (dat0 V c).flushed 7 t = ((cfg0.win 7).blk t).view.read (Elt Ideal) (parts (eA0 V c)) := by
  show (cfg0.win 7).cut (grid0.coords t) ((dat0 V c).after 7 t) = _
  rw [after0_7, out0_7_eq]
  obtain ⟨e0, e1, e2, -, -, -⟩ := idx0_tiles t
  exact tile_of_parts (eA0 V c) _ (((cfg0.win 7).blk t).view.emb) t
    (fun j => by
      have hj : (j 0).val < 1 := (j 0).isLt
      show win0_7.index t (0 : Fin 3) * 1 + 1 * (j 0).val = t.val; omega)
    (fun j => by show win0_7.index t (1 : Fin 3) * 8 + 1 * (j 1).val = (j 1).val; omega)
    (fun j => by show win0_7.index t (2 : Fin 3) * 128 + 1 * (j 2).val = (j 2).val; omega)
    (fun j => if_congr Iff.rfl (Finset.sum_congr rfl fun r _ => act_at0 V c t r (j 2)) rfl)

/-- What point t writes back to the third output array is tile t of the per-block column sums of the perceptron's
    squares. -/
theorem flushed0_8_eq (c : Dev nD) (t : Fin cfg0.N) :
    (dat0 V c).flushed 8 t
      = ((cfg0.win 8).blk t).view.read (Elt Ideal) (parts (fun n j => eA0 V c n j * eA0 V c n j)) := by
  show (cfg0.win 8).cut (grid0.coords t) ((dat0 V c).after 8 t) = _
  rw [after0_8, out0_8_eq]
  obtain ⟨-, -, -, e0, e1, e2⟩ := idx0_tiles t
  exact tile_of_parts (fun n j => eA0 V c n j * eA0 V c n j) _ (((cfg0.win 8).blk t).view.emb) t
    (fun j => by
      have hj : (j 0).val < 1 := (j 0).isLt
      show win0_8.index t (0 : Fin 3) * 1 + 1 * (j 0).val = t.val; omega)
    (fun j => by show win0_8.index t (1 : Fin 3) * 8 + 1 * (j 1).val = (j 1).val; omega)
    (fun j => by show win0_8.index t (2 : Fin 3) * 128 + 1 * (j 2).val = (j 2).val; omega)
    (fun j => if_congr Iff.rfl (Finset.sum_congr rfl fun r _ => by rw [act_at0 V c t r (j 2)]) rfl)

/-- An index of the second output array is in point t's tile iff each coordinate is in the tile's range. -/
theorem mem_blk0_7 (t : Fin cfg0.N) (i : S20x8x128.Idx) :
    i ∈ ((cfg0.win 7).blk t).view.set ↔ ∀ a : Fin 3, win0_7.index t a * S1x8x128.size a ≤ (i a).val ∧ (i a).val < win0_7.index t a * S1x8x128.size a + S1x8x128.size a := by
  show i ∈ ((View.whole main_v25_1).slice (win0_7.rect t)).set ↔ _
  rw [View.set_slice_whole, Rect.mem_set_unit]
  exact Iff.rfl
theorem mem_blk0_8 (t : Fin cfg0.N) (i : S20x8x128.Idx) :
    i ∈ ((cfg0.win 8).blk t).view.set ↔ ∀ a : Fin 3, win0_8.index t a * S1x8x128.size a ≤ (i a).val ∧ (i a).val < win0_8.index t a * S1x8x128.size a + S1x8x128.size a := by
  show i ∈ ((View.whole main_v25_2).slice (win0_8.rect t)).set ↔ _
  rw [View.set_slice_whole, Rect.mem_set_unit]
  exact Iff.rfl

/-- The twenty tiles fill the second and the third output array: index (b, ·, ·) is in tile b. -/
theorem cover0_7_arr (i : S20x8x128.Idx) : ∃ t : Fin cfg0.N, (cfg0.win 7).flush t = true ∧ i ∈ ((cfg0.win 7).blk t).view.set := by
  have hi0 : (i 0).val < 20 := (i 0).isLt
  have hi1 : (i 1).val < 8 := (i 1).isLt
  have hi2 : (i 2).val < 128 := (i 2).isLt
  obtain ⟨t, ht⟩ : ∃ t : Fin cfg0.N, t.val = (i 0).val := ⟨⟨(i 0).val, hi0⟩, rfl⟩
  obtain ⟨e0, e1, e2, -, -, -⟩ := idx0_tiles t
  refine ⟨t, flush0_7 t, ?_⟩
  rw [mem_blk0_7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 8 ≤ (i 1).val ∧ (i 1).val < win0_7.index t (1 : Fin 3) * 8 + 8; omega
  | ⟨2, _⟩ => show win0_7.index t (2 : Fin 3) * 128 ≤ (i 2).val ∧ (i 2).val < win0_7.index t (2 : Fin 3) * 128 + 128; omega
theorem cover0_8_arr (i : S20x8x128.Idx) : ∃ t : Fin cfg0.N, (cfg0.win 8).flush t = true ∧ i ∈ ((cfg0.win 8).blk t).view.set := by
  have hi0 : (i 0).val < 20 := (i 0).isLt
  have hi1 : (i 1).val < 8 := (i 1).isLt
  have hi2 : (i 2).val < 128 := (i 2).isLt
  obtain ⟨t, ht⟩ : ∃ t : Fin cfg0.N, t.val = (i 0).val := ⟨⟨(i 0).val, hi0⟩, rfl⟩
  obtain ⟨-, -, -, e0, e1, e2⟩ := idx0_tiles t
  refine ⟨t, flush0_8 t, ?_⟩
  rw [mem_blk0_8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 8 ≤ (i 1).val ∧ (i 1).val < win0_8.index t (1 : Fin 3) * 8 + 8; omega
  | ⟨2, _⟩ => show win0_8.index t (2 : Fin 3) * 128 ≤ (i 2).val ∧ (i 2).val < win0_8.index t (2 : Fin 3) * 128 + 128; omega

/-- THE SECOND OUTPUT ARRAY after the region: per block, the column sums of the perceptron in row 0, zeros below. -/
theorem arr0_7 (c : Dev nD) : (dat0 V c).arrAt 7 cfg0.N = parts (eA0 V c) :=
  (dat0 V c).arrAt_eq_of_cover 7 (parts (eA0 V c)) (fun t _ => flushed0_7_eq V c t) cover0_7_arr

/-- THE THIRD OUTPUT ARRAY after the region: per block, the column sums of the perceptron's squares in row 0, zeros
    below. -/
theorem arr0_8 (c : Dev nD) : (dat0 V c).arrAt 8 cfg0.N = parts (fun n j => eA0 V c n j * eA0 V c n j) :=
  (dat0 V c).arrAt_eq_of_cover 8 (parts (fun n j => eA0 V c n j * eA0 V c n j)) (fun t _ => flushed0_8_eq V c t) cover0_8_arr

end Cert.KernelIdeal.Hand

end
-- ==== Proof.KIValB1.lean ====
/- The values region 1 of `Cert.KernelIdeal` (the batch-norm and pooling kernel) leaves in its two output arrays, over the
   extended reals, as whole-array functions of the region-entry contents `V`: the first output is the normalisation of the
   activated features by the given column statistics, row by row; the second holds, per row block and per graph, the sum
   of the normalised rows of that block whose label is the graph's word. -/
import proofs.«406400_j6640019439960_2_alg».proof.Proof.KIRegB1
import proofs.«406400_j6640019439960_2_alg».proof.Proof.Spec
import proofs.«406400_j6640019439960_2_alg».proof.Proof.Math
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal.Gen Cert.Spec
open Idealize.ShloMosaic Idealize.ShloMosaic.TcCoe Idealize.ShloMosaic.ValueIdx
open Idealize.ShloMosaic.Pipeline (Dat Cfg Window)
open Facts₀ Facts

-- the TensorCore's buffer contents when the region is entered, over the extended reals
variable (V : (c : Dev nD) → (b : Ref sig .tc) → Buf (Elt Ideal) ((c : Thread nD τ).loc b))

/-! # Region 1: the normalisation, index by index -/

theorem zeroOff1_2 : (![0, 0] : Fin 2 → Nat) = fun _ => 0 := funext fun a => by fin_cases a <;> rfl
theorem zeroOff1_3 : (![0, 0, 0] : Fin 3 → Nat) = fun _ => 0 := funext fun a => by fin_cases a <;> rfl

/-- The normalisation payload at a row and a column: the entry less the column's mean, times the reciprocal root of the
    column's variance plus the offset, times the column's scale, plus the column's shift. -/
theorem pay1_1_apply (x2 : S1x128.Idx → EReal) (x0 : S5000x128.Idx → EReal) (x1 x3 x4 : S1x128.Idx → EReal) (p : Fin 5000) (q : Fin 128) :
    k1_pay1 (F := Ideal) x2 x0 x1 x3 x4 (ix2 p q)
      = (x0 (ix2 p q) - x1 (ix2 0 q)) * Ideal.rsqrt (x2 (ix2 0 q) + epsW) * x3 (ix2 0 q) + x4 (ix2 0 q) := by
  unfold k1_pay1
  simp only [shapeCast_self]
  rw [addf_apply, mulf_apply, mulf_apply, subf_apply]
  rw [broadcastTo_1b_ab_apply, broadcastTo_1b_ab_apply, broadcastTo_1b_ab_apply, broadcastTo_1b_ab_apply]
  rfl

/-! ## The windows' blocks among the arrays' indices -/

/-- The printed index maps, decided over the 20 grid points: the row-blocked windows sit at block `t`, the one-row
    windows at their only block. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 3) = t.val ∧ win1_7.index t (1 : Fin 3) = 0 ∧ win1_7.index t (2 : Fin 3) = 0 :=
  (by decide +kernel : ∀ t : Fin grid1.N, _)

/-- A grid point as a row block. -/
def blkOf1 (t : Fin cfg1.N) : Fin 20 := ⟨t.val, by have h := t.isLt; have e : cfg1.N = 20 := N_1; omega⟩

theorem emb1_0 (t : Fin cfg1.N) (p : Fin 5000) (q : Fin 128) :
    ((cfg1.win 0).blk t).view.emb (ix2 p q : S5000x128.Idx) = (ix2 (blkRow (blkOf1 t) p) q : S100000x128.Idx) := by
  obtain ⟨e0, e1, -⟩ := idx_facts1 t
  funext a; apply Fin.ext
  match a with
  | ⟨0, _⟩ => show win1_0.index t (0 : Fin 2) * 5000 + 1 * p.val = t.val * 5000 + p.val; omega
  | ⟨1, _⟩ => show win1_0.index t (1 : Fin 2) * 128 + 1 * q.val = q.val; omega

theorem emb1_6 (t : Fin cfg1.N) (p : Fin 5000) (q : Fin 128) :
    ((cfg1.win 6).blk t).view.emb (ix2 p q : S5000x128.Idx) = (ix2 (blkRow (blkOf1 t) p) q : S100000x128.Idx) := by
  obtain ⟨-, -, -, -, -, -, -, -, -, -, -, -, e0, e1, -⟩ := idx_facts1 t
  funext a; apply Fin.ext
  match a with
  | ⟨0, _⟩ => show win1_6.index t (0 : Fin 2) * 5000 + 1 * p.val = t.val * 5000 + p.val; omega
  | ⟨1, _⟩ => show win1_6.index t (1 : Fin 2) * 128 + 1 * q.val = q.val; omega

theorem emb1_1 (t : Fin cfg1.N) (q : Fin 128) :
    ((cfg1.win 1).blk t).view.emb (ix2 0 q : S1x128.Idx) = (ix2 0 q : S1x128.Idx) := by
  obtain ⟨-, -, e0, e1, -⟩ := idx_facts1 t
  funext a; apply Fin.ext
  match a with
  | ⟨0, _⟩ => show win1_1.index t (0 : Fin 2) * 1 + 1 * 0 = 0; omega
  | ⟨1, _⟩ => show win1_1.index t (1 : Fin 2) * 128 + 1 * q.val = q.val; omega

theorem emb1_2 (t : Fin cfg1.N) (q : Fin 128) :
    ((cfg1.win 2).blk t).view.emb (ix2 0 q : S1x128.Idx) = (ix2 0 q : S1x128.Idx) := by
  obtain ⟨-, -, -, -, e0, e1, -⟩ := idx_facts1 t
  funext a; apply Fin.ext
  match a with
  | ⟨0, _⟩ => show win1_2.index t (0 : Fin 2) * 1 + 1 * 0 = 0; omega
  | ⟨1, _⟩ => show win1_2.index t (1 : Fin 2) * 128 + 1 * q.val = q.val; omega

theorem emb1_3 (t : Fin cfg1.N) (q : Fin 128) :
    ((cfg1.win 3).blk t).view.emb (ix2 0 q : S1x128.Idx) = (ix2 0 q : S1x128.Idx) := by
  obtain ⟨-, -, -, -, -, -, e0, e1, -⟩ := idx_facts1 t
  funext a; apply Fin.ext
  match a with
  | ⟨0, _⟩ => show win1_3.index t (0 : Fin 2) * 1 + 1 * 0 = 0; omega
  | ⟨1, _⟩ => show win1_3.index t (1 : Fin 2) * 128 + 1 * q.val = q.val; omega

theorem emb1_4 (t : Fin cfg1.N) (q : Fin 128) :
    ((cfg1.win 4).blk t).view.emb (ix2 0 q : S1x128.Idx) = (ix2 0 q : S1x128.Idx) := by
  obtain ⟨-, -, -, -, -, -, -, -, e0, e1, -⟩ := idx_facts1 t
  funext a; apply Fin.ext
  match a with
  | ⟨0, _⟩ => show win1_4.index t (0 : Fin 2) * 1 + 1 * 0 = 0; omega
  | ⟨1, _⟩ => show win1_4.index t (1 : Fin 2) * 128 + 1 * q.val = q.val; omega

/-! ## The first output: the normalised features -/

/-- The normalised features, from the region-entry contents. -/
abbrev hB1 (c : Dev nD) : Rw → Cl → EReal :=
  bn (of2 (V c main_v25_0)) (row (V c main_v37)) (row (V c main_v36)) (row (V c main_v40)) (row (V c main_v43))

/-- The normalisation payload of the blocks at point `t`, at a row and a column of the block: the normalised features at
    the block's row among all rows. -/
theorem pay1_1_blk (c : Dev nD) (t : Fin cfg1.N) (p : Fin 5000) (q : Fin 128) :
    k1_pay1 (F := Ideal) (iblk1 V c 2 t) (iblk1 V c 0 t) (iblk1 V c 1 t) (iblk1 V c 3 t) (iblk1 V c 4 t) (ix2 p q)
      = hB1 V c (blkRow (blkOf1 t) p) q := by
  rw [pay1_1_apply]
  have h0 : iblk1 V c 0 t (ix2 p q : S5000x128.Idx) = of2 (V c main_v25_0) (blkRow (blkOf1 t) p) q :=
    congrArg (V c main_v25_0) (emb1_0 t p q)
  have h1 : iblk1 V c 1 t (ix2 0 q : S1x128.Idx) = row (V c main_v37) q := congrArg (V c main_v37) (emb1_1 t q)
  have h2 : iblk1 V c 2 t (ix2 0 q : S1x128.Idx) = row (V c main_v36) q := congrArg (V c main_v36) (emb1_2 t q)
  have h3 : iblk1 V c 3 t (ix2 0 q : S1x128.Idx) = row (V c main_v40) q := congrArg (V c main_v40) (emb1_3 t q)
  have h4 : iblk1 V c 4 t (ix2 0 q : S1x128.Idx) = row (V c main_v43) q := congrArg (V c main_v43) (emb1_4 t q)
  rw [h0, h1, h2, h3, h4]
  rfl

/-- What grid point `t` writes back to the first output is block `t` of the normalised features. -/
theorem flushed1_6_eq (c : Dev nD) (t : Fin cfg1.N) :
    (dat1 V c).flushed 6 t = ((cfg1.win 6).blk t).view.read (Elt Ideal) (toArr2 (hB1 V c)) := by
  show (cfg1.win 6).cut (grid1.coords t) ((dat1 V c).after 6 t) = _
  rw [after1_6]
  unfold out1_6
  rw [View.canon_unit_zero zeroOff1_2]
  simp only [View.ld_unit_zero (S := S5000x128) zeroOff1_2, View.ld_unit_zero (S := S1x128) zeroOff1_2]
  funext j
  obtain ⟨p, q, rfl⟩ : ∃ (p : Fin 5000) (q : Fin 128), j = ix2 p q := ⟨j 0, j 1, eq_ix2 j⟩
  show k1_pay1 (F := Ideal) (iblk1 V c 2 t) (iblk1 V c 0 t) (iblk1 V c 1 t) (iblk1 V c 3 t) (iblk1 V c 4 t) (ix2 p q)
    = toArr2 (hB1 V c) (((cfg1.win 6).blk t).view.emb (ix2 p q : S5000x128.Idx))
  rw [pay1_1_blk, emb1_6]

/-- An index of the first output's array is in point `t`'s block iff each coordinate is in the block's range on its axis. -/
theorem mem_blk1_6 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v44_0).slice (win1_6.rect t)).set ↔ _
  rw [View.set_slice_whole, Rect.mem_set_unit]
  exact Iff.rfl

/-- Every row lies in the block of its quotient by 5000: the blocks cover the array. -/
theorem covered1_6 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by omega⟩, rfl⟩
  obtain ⟨-, -, -, -, -, -, -, -, -, -, -, -, e0, e1, -⟩ := idx_facts1 t
  refine ⟨t, flush1_6 t, ?_⟩
  rw [mem_blk1_6]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- THE FIRST OUTPUT after the region: the normalised features. -/
theorem arr1_6 (c : Dev nD) : (dat1 V c).arrAt 6 cfg1.N = toArr2 (hB1 V c) :=
  (dat1 V c).arrAt_eq_of_cover 6 (toArr2 (hB1 V c)) (fun t _ => flushed1_6_eq V c t) covered1_6

/-! # Region 1: the pooled sums, index by index -/

theorem lhsPool1_0 (i : S512x128.Idx) (q : dot_S5000x512_S5000x128_S512x128_0_0_1_1_n_n.contr.Idx) :
    (dot_S5000x512_S5000x128_S512x128_0_0_1_1_n_n.lhsIdx i q 0).val = (q ⟨0, by decide⟩).val :=
  dot_S5000x512_S5000x128_S512x128_0_0_1_1_n_n.lhsIdx_val_of_single rfl i q
theorem lhsPool1_1 (i : S512x128.Idx) (q : dot_S5000x512_S5000x128_S512x128_0_0_1_1_n_n.contr.Idx) :
    (dot_S5000x512_S5000x128_S512x128_0_0_1_1_n_n.lhsIdx i q 1).val = (i 0).val := by
  unfold DotDims.lhsIdx
  rw [dif_neg (show ¬(1 : Fin S5000x512.rank) ∈ dot_S5000x512_S5000x128_S512x128_0_0_1_1_n_n.lhsBatch by decide), dif_pos (show (1 : Fin S5000x512.rank) ∈ dot_S5000x512_S5000x128_S512x128_0_0_1_1_n_n.lhsNonContracting by decide)]
  rfl
theorem rhsPool1_0 (i : S512x128.Idx) (q : dot_S5000x512_S5000x128_S512x128_0_0_1_1_n_n.contr.Idx) :
    (dot_S5000x512_S5000x128_S512x128_0_0_1_1_n_n.rhsIdx i q 0).val = (q ⟨0, by decide⟩).val :=
  dot_S5000x512_S5000x128_S512x128_0_0_1_1_n_n.rhsIdx_val_of_single rfl i q
theorem rhsPool1_1 (i : S512x128.Idx) (q : dot_S5000x512_S5000x128_S512x128_0_0_1_1_n_n.contr.Idx) :
    (dot_S5000x512_S5000x128_S512x128_0_0_1_1_n_n.rhsIdx i q 1).val = (i 1).val := by
  unfold DotDims.rhsIdx
  rw [dif_neg (show ¬(1 : Fin S5000x128.rank) ∈ dot_S5000x512_S5000x128_S512x128_0_0_1_1_n_n.rhsBatch by decide), dif_pos (show (1 : Fin S5000x128.rank) ∈ dot_S5000x512_S5000x128_S512x128_0_0_1_1_n_n.rhsNonContracting by decide)]
  rfl

/-- A one-column matrix broadcast along the columns reads, at a row and any column, the column's entry of that row. -/
theorem colBroadcast1_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The comparison bit of two words, widened and read as a float: one where the words are equal, zero elsewhere. -/
theorem onehotWord1 (a b : BitVec 32) :
    (FloatOps.sitofp (F := Ideal) .f32 ((IntOp.cmpi .eq a b).setWidth 32) : EReal) = if a = b then 1 else 0 := by
  show ((((BitVec.ofBool (a == b)).setWidth 32).toInt : ℝ) : EReal) = _
  by_cases h : a = b
  · have hb : (a == b) = true := by simpa using h
    rw [hb, if_pos h]
    have e : ((BitVec.ofBool true).setWidth 32).toInt = 1 := by decide
    rw [e]; simp
  · have hb : (a == b) = false := by simpa using h
    rw [hb, if_neg h]
    have e : ((BitVec.ofBool false).setWidth 32).toInt = 0 := by decide
    rw [e]; simp

theorem cmpiAt1 {s : Shape} {w : Nat} (p : CmpIPredicate) (x y : IVec s w) (i : s.Idx) :
    cmpi p x y i = IntOp.cmpi p (x i) (y i) := rfl

/-- The pooling product into the zero accumulator, at a graph and a column: the sum over the block's 5000 rows of the
    left factor at (row, graph) times the right factor at (row, column). -/
theorem poolMatmul1_apply (L : FVec Ideal S5000x512 .bf16) (R : FVec Ideal S5000x128 .bf16) (g : Fin 512) (q : Fin 128) :
    FloatOps.matmul dot_S5000x512_S5000x128_S512x128_0_0_1_1_n_n none L R (constant S512x128 .f32 0x00000000#32) (ix2 g q)
      = ∑ k : Fin 5000, L (ix2 k g) * R (ix2 k q) := by
  rw [Ideal.matmul_constant_zero_apply, ← Equiv.sum_comp (contrEquiv1 dot_S5000x512_S5000x128_S512x128_0_0_1_1_n_n 5000 rfl rfl).symm]
  refine Finset.sum_congr rfl fun k _ => ?_
  have hk := contrEquiv1_symm_val dot_S5000x512_S5000x128_S512x128_0_0_1_1_n_n 5000 rfl rfl k
  have el : dot_S5000x512_S5000x128_S512x128_0_0_1_1_n_n.lhsIdx (ix2 g q) ((contrEquiv1 dot_S5000x512_S5000x128_S512x128_0_0_1_1_n_n 5000 rfl rfl).symm k) = ix2 k g :=
    funext fun a => Fin.ext (by
      match a with
      | ⟨0, _⟩ => exact (lhsPool1_0 _ _).trans hk
      | ⟨1, _⟩ => exact lhsPool1_1 _ _)
  have er : dot_S5000x512_S5000x128_S512x128_0_0_1_1_n_n.rhsIdx (ix2 g q) ((contrEquiv1 dot_S5000x512_S5000x128_S512x128_0_0_1_1_n_n 5000 rfl rfl).symm k) = ix2 k q :=
    funext fun a => Fin.ext (by
      match a with
      | ⟨0, _⟩ => exact (rhsPool1_0 _ _).trans hk
      | ⟨1, _⟩ => exact rhsPool1_1 _ _)
  rw [el, er]

/-- The pooling payload at a graph and a column: the sum over the block's rows of the normalised entry where the row's
    label is the graph's word — the low half of the split contributes nothing where the normalised entries are real. -/
theorem pay1_2_apply (x2 : S1x128.Idx → EReal) (x0 : S5000x128.Idx → EReal) (x1 x3 x4 : S1x128.Idx → EReal) (x5 : S5000x1.Idx → BitVec 32)
    (hreal : ∀ (p : Fin 5000) (q : Fin 128), IsReal (k1_pay1 (F := Ideal) x2 x0 x1 x3 x4 (ix2 p q)))
    (u : Fin 1) (g : Fin 512) (q : Fin 128) :
    k1_pay2 (F := Ideal) x2 x0 x1 x3 x4 x5 (ix3 u g q)
      = ∑ r : Fin 5000, if x5 (ix2 r 0) = BitVec.ofNat 32 g.val then k1_pay1 (F := Ideal) x2 x0 x1 x3 x4 (ix2 r q) else 0 := by
  unfold k1_pay2
  simp only [shapeCast_self]
  rw [shapeCast_ab_1ab_apply, addf_apply]
  simp only [matmul]
  rw [poolMatmul1_apply, poolMatmul1_apply, ← Finset.sum_add_distrib]
  refine Finset.sum_congr rfl fun k _ => ?_
  simp only [truncf_apply, subf_apply, sitofp_apply, extui_apply, cmpiAt1]
  rw [sub_self_real (hreal k q), mul_zero, add_zero, colBroadcast1_apply, broadcastTo_1b_ab_apply, iota_single_apply, onehotWord1]
  show (if x5 (ix2 k 0) = BitVec.ofNat 32 g.val then (1 : EReal) else 0) * _ = _
  rw [ite_mul, one_mul, zero_mul]

/-! ## The second output: per row block and graph, the sum of the block's normalised rows of that graph -/

theorem emb1_5 (t : Fin cfg1.N) (r : Fin 5000) :
    ((cfg1.win 5).blk t).view.emb (ix2 r 0 : S5000x1.Idx) = (ix2 (blkRow (blkOf1 t) r) 0 : S100000x1.Idx) := by
  obtain ⟨-, -, -, -, -, -, -, -, -, -, e0, e1, -⟩ := idx_facts1 t
  funext a; apply Fin.ext
  match a with
  | ⟨0, _⟩ => show win1_5.index t (0 : Fin 2) * 5000 + 1 * r.val = t.val * 5000 + r.val; omega
  | ⟨1, _⟩ => show win1_5.index t (1 : Fin 2) * 1 + 1 * 0 = 0; omega

theorem emb1_7 (t : Fin cfg1.N) (u : Fin 1) (g : Fin 512) (q : Fin 128) :
    ((cfg1.win 7).blk t).view.emb (ix3 u g q : S1x512x128.Idx) = (ix3 (blkOf1 t) g q : S20x512x128.Idx) := by
  obtain ⟨-, -, -, -, -, -, -, -, -, -, -, -, -, -, e0, e1, e2⟩ := idx_facts1 t
  funext a; apply Fin.ext
  match a with
  | ⟨0, _⟩ => show win1_7.index t (0 : Fin 3) * 1 + 1 * u.val = t.val; have := u.isLt; omega
  | ⟨1, _⟩ => show win1_7.index t (1 : Fin 3) * 512 + 1 * g.val = g.val; omega
  | ⟨2, _⟩ => show win1_7.index t (2 : Fin 3) * 128 + 1 * q.val = q.val; omega

/-- What grid point `t` writes back to the second output is block `t` of the per-block pooled sums, where the normalised
    features are real. -/
theorem flushed1_7_eq (c : Dev nD) (hreal : R2 (hB1 V c)) (t : Fin cfg1.N) :
    (dat1 V c).flushed 7 t = ((cfg1.win 7).blk t).view.read (Elt Ideal) (poolParts (hB1 V c) (lab (V c main_v4))) := by
  show (cfg1.win 7).cut (grid1.coords t) ((dat1 V c).after 7 t) = _
  rw [after1_7]
  unfold out1_7
  rw [View.canon_unit_zero zeroOff1_3]
  simp only [View.ld_unit_zero (S := S5000x128) zeroOff1_2, View.ld_unit_zero (S := S1x128) zeroOff1_2, View.ld_unit_zero (S := S5000x1) zeroOff1_2]
  funext j
  obtain ⟨u, g, q, rfl⟩ : ∃ (u : Fin 1) (g : Fin 512) (q : Fin 128), j = ix3 u g q := ⟨j 0, j 1, j 2, eq_ix3 j⟩
  show k1_pay2 (F := Ideal) (iblk1 V c 2 t) (iblk1 V c 0 t) (iblk1 V c 1 t) (iblk1 V c 3 t) (iblk1 V c 4 t) (iblk1 V c 5 t) (ix3 u g q)
    = poolParts (hB1 V c) (lab (V c main_v4)) (((cfg1.win 7).blk t).view.emb (ix3 u g q : S1x512x128.Idx))
  rw [pay1_2_apply _ _ _ _ _ _ (fun p q' => by rw [pay1_1_blk]; exact hreal _ _), emb1_7]
  show _ = ∑ r : Fin 5000, if lab (V c main_v4) (blkRow (blkOf1 t) r) = BitVec.ofNat 32 g.val then hB1 V c (blkRow (blkOf1 t) r) q else 0
  refine Finset.sum_congr rfl fun r _ => ?_
  have h5 : iblk1 V c 5 t (ix2 r 0 : S5000x1.Idx) = lab (V c main_v4) (blkRow (blkOf1 t) r) := congrArg (V c main_v4) (emb1_5 t r)
  rw [pay1_1_blk, h5]

/-- An index of the second output's array is in point `t`'s block iff each coordinate is in the block's range on its axis. -/
theorem mem_blk1_7 (t : Fin cfg1.N) (i : S20x512x128.Idx) :
    i ∈ ((cfg1.win 7).blk t).view.set ↔ ∀ a : Fin 3, win1_7.index t a * S1x512x128.size a ≤ (i a).val ∧ (i a).val < win1_7.index t a * S1x512x128.size a + S1x512x128.size a := by
  show i ∈ ((View.whole main_v44_1).slice (win1_7.rect t)).set ↔ _
  rw [View.set_slice_whole, Rect.mem_set_unit]
  exact Iff.rfl

/-- Every index lies in the block of its first coordinate: the blocks cover the array. -/
theorem covered1_7 (i : S20x512x128.Idx) :
    ∃ t : Fin cfg1.N, (cfg1.win 7).flush t = true ∧ i ∈ ((cfg1.win 7).blk t).view.set := by
  have hi0 : (i 0).val < 20 := (i 0).isLt
  have hi1 : (i 1).val < 512 := (i 1).isLt
  have hi2 : (i 2).val < 128 := (i 2).isLt
  have hN : cfg1.N = 20 := N_1
  obtain ⟨t, ht⟩ : ∃ t : Fin cfg1.N, t.val = (i 0).val := ⟨⟨(i 0).val, by omega⟩, rfl⟩
  obtain ⟨-, -, -, -, -, -, -, -, -, -, -, -, -, -, e0, e1, e2⟩ := idx_facts1 t
  refine ⟨t, flush1_7 t, ?_⟩
  rw [mem_blk1_7]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 512 ≤ (i 1).val ∧ (i 1).val < win1_7.index t (1 : Fin 3) * 512 + 512; omega
  | ⟨2, _⟩ => show win1_7.index t (2 : Fin 3) * 128 ≤ (i 2).val ∧ (i 2).val < win1_7.index t (2 : Fin 3) * 128 + 128; omega

/-- THE SECOND OUTPUT after the region, where the normalised features are real: per row block and graph, the sum of the
    block's normalised rows whose label is the graph's word. -/
theorem arr1_7 (c : Dev nD) (hreal : R2 (hB1 V c)) :
    (dat1 V c).arrAt 7 cfg1.N = poolParts (hB1 V c) (lab (V c main_v4)) :=
  (dat1 V c).arrAt_eq_of_cover 7 (poolParts (hB1 V c) (lab (V c main_v4))) (fun t _ => flushed1_7_eq V c hreal t) covered1_7

end Cert.KernelIdeal.Hand

end
-- ==== Proof.KIValB3.lean ====
/- The values region 3 of `Cert.KernelIdeal` (the batch-norm and pooling kernel) leaves in its two output arrays, over the
   extended reals, as whole-array functions of the region-entry contents `V`: the first output is the normalisation of the
   activated features by the given column statistics, row by row; the second holds, per row block and per graph, the sum
   of the normalised rows of that block whose label is the graph's word. -/
import proofs.«406400_j6640019439960_2_alg».proof.Proof.KIRegB3
import proofs.«406400_j6640019439960_2_alg».proof.Proof.Spec
import proofs.«406400_j6640019439960_2_alg».proof.Proof.Math
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal.Gen Cert.Spec
open Idealize.ShloMosaic Idealize.ShloMosaic.TcCoe Idealize.ShloMosaic.ValueIdx
open Idealize.ShloMosaic.Pipeline (Dat Cfg Window)
open Facts₀ Facts

-- the TensorCore's buffer contents when the region is entered, over the extended reals
variable (V : (c : Dev nD) → (b : Ref sig .tc) → Buf (Elt Ideal) ((c : Thread nD τ).loc b))

/-! # Region 3: the normalisation, index by index -/

theorem zeroOff3_2 : (![0, 0] : Fin 2 → Nat) = fun _ => 0 := funext fun a => by fin_cases a <;> rfl
theorem zeroOff3_3 : (![0, 0, 0] : Fin 3 → Nat) = fun _ => 0 := funext fun a => by fin_cases a <;> rfl

/-- The normalisation payload at a row and a column: the entry less the column's mean, times the reciprocal root of the
    column's variance plus the offset, times the column's scale, plus the column's shift. -/
theorem pay3_1_apply (x2 : S1x128.Idx → EReal) (x0 : S5000x128.Idx → EReal) (x1 x3 x4 : S1x128.Idx → EReal) (p : Fin 5000) (q : Fin 128) :
    k3_pay1 (F := Ideal) x2 x0 x1 x3 x4 (ix2 p q)
      = (x0 (ix2 p q) - x1 (ix2 0 q)) * Ideal.rsqrt (x2 (ix2 0 q) + epsW) * x3 (ix2 0 q) + x4 (ix2 0 q) := by
  unfold k3_pay1
  simp only [shapeCast_self]
  rw [addf_apply, mulf_apply, mulf_apply, subf_apply]
  rw [broadcastTo_1b_ab_apply, broadcastTo_1b_ab_apply, broadcastTo_1b_ab_apply, broadcastTo_1b_ab_apply]
  rfl

/-! ## The windows' blocks among the arrays' indices -/

/-- The printed index maps, decided over the 20 grid points: the row-blocked windows sit at block `t`, the one-row
    windows at their only block. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0
    ∧ win3_7.index t (0 : Fin 3) = t.val ∧ win3_7.index t (1 : Fin 3) = 0 ∧ win3_7.index t (2 : Fin 3) = 0 :=
  (by decide +kernel : ∀ t : Fin grid3.N, _)

/-- A grid point as a row block. -/
def blkOf3 (t : Fin cfg3.N) : Fin 20 := ⟨t.val, by have h := t.isLt; have e : cfg3.N = 20 := N_3; omega⟩

theorem emb3_0 (t : Fin cfg3.N) (p : Fin 5000) (q : Fin 128) :
    ((cfg3.win 0).blk t).view.emb (ix2 p q : S5000x128.Idx) = (ix2 (blkRow (blkOf3 t) p) q : S100000x128.Idx) := by
  obtain ⟨e0, e1, -⟩ := idx_facts3 t
  funext a; apply Fin.ext
  match a with
  | ⟨0, _⟩ => show win3_0.index t (0 : Fin 2) * 5000 + 1 * p.val = t.val * 5000 + p.val; omega
  | ⟨1, _⟩ => show win3_0.index t (1 : Fin 2) * 128 + 1 * q.val = q.val; omega

theorem emb3_6 (t : Fin cfg3.N) (p : Fin 5000) (q : Fin 128) :
    ((cfg3.win 6).blk t).view.emb (ix2 p q : S5000x128.Idx) = (ix2 (blkRow (blkOf3 t) p) q : S100000x128.Idx) := by
  obtain ⟨-, -, -, -, -, -, -, -, -, -, -, -, e0, e1, -⟩ := idx_facts3 t
  funext a; apply Fin.ext
  match a with
  | ⟨0, _⟩ => show win3_6.index t (0 : Fin 2) * 5000 + 1 * p.val = t.val * 5000 + p.val; omega
  | ⟨1, _⟩ => show win3_6.index t (1 : Fin 2) * 128 + 1 * q.val = q.val; omega

theorem emb3_1 (t : Fin cfg3.N) (q : Fin 128) :
    ((cfg3.win 1).blk t).view.emb (ix2 0 q : S1x128.Idx) = (ix2 0 q : S1x128.Idx) := by
  obtain ⟨-, -, e0, e1, -⟩ := idx_facts3 t
  funext a; apply Fin.ext
  match a with
  | ⟨0, _⟩ => show win3_1.index t (0 : Fin 2) * 1 + 1 * 0 = 0; omega
  | ⟨1, _⟩ => show win3_1.index t (1 : Fin 2) * 128 + 1 * q.val = q.val; omega

theorem emb3_2 (t : Fin cfg3.N) (q : Fin 128) :
    ((cfg3.win 2).blk t).view.emb (ix2 0 q : S1x128.Idx) = (ix2 0 q : S1x128.Idx) := by
  obtain ⟨-, -, -, -, e0, e1, -⟩ := idx_facts3 t
  funext a; apply Fin.ext
  match a with
  | ⟨0, _⟩ => show win3_2.index t (0 : Fin 2) * 1 + 1 * 0 = 0; omega
  | ⟨1, _⟩ => show win3_2.index t (1 : Fin 2) * 128 + 1 * q.val = q.val; omega

theorem emb3_3 (t : Fin cfg3.N) (q : Fin 128) :
    ((cfg3.win 3).blk t).view.emb (ix2 0 q : S1x128.Idx) = (ix2 0 q : S1x128.Idx) := by
  obtain ⟨-, -, -, -, -, -, e0, e1, -⟩ := idx_facts3 t
  funext a; apply Fin.ext
  match a with
  | ⟨0, _⟩ => show win3_3.index t (0 : Fin 2) * 1 + 1 * 0 = 0; omega
  | ⟨1, _⟩ => show win3_3.index t (1 : Fin 2) * 128 + 1 * q.val = q.val; omega

theorem emb3_4 (t : Fin cfg3.N) (q : Fin 128) :
    ((cfg3.win 4).blk t).view.emb (ix2 0 q : S1x128.Idx) = (ix2 0 q : S1x128.Idx) := by
  obtain ⟨-, -, -, -, -, -, -, -, e0, e1, -⟩ := idx_facts3 t
  funext a; apply Fin.ext
  match a with
  | ⟨0, _⟩ => show win3_4.index t (0 : Fin 2) * 1 + 1 * 0 = 0; omega
  | ⟨1, _⟩ => show win3_4.index t (1 : Fin 2) * 128 + 1 * q.val = q.val; omega

/-! ## The first output: the normalised features -/

/-- The normalised features, from the region-entry contents. -/
abbrev hB3 (c : Dev nD) : Rw → Cl → EReal :=
  bn (of2 (V c main_v66_0)) (row (V c main_v78)) (row (V c main_v77)) (row (V c main_v81)) (row (V c main_v84))

/-- The normalisation payload of the blocks at point `t`, at a row and a column of the block: the normalised features at
    the block's row among all rows. -/
theorem pay3_1_blk (c : Dev nD) (t : Fin cfg3.N) (p : Fin 5000) (q : Fin 128) :
    k3_pay1 (F := Ideal) (iblk3 V c 2 t) (iblk3 V c 0 t) (iblk3 V c 1 t) (iblk3 V c 3 t) (iblk3 V c 4 t) (ix2 p q)
      = hB3 V c (blkRow (blkOf3 t) p) q := by
  rw [pay3_1_apply]
  have h0 : iblk3 V c 0 t (ix2 p q : S5000x128.Idx) = of2 (V c main_v66_0) (blkRow (blkOf3 t) p) q :=
    congrArg (V c main_v66_0) (emb3_0 t p q)
  have h1 : iblk3 V c 1 t (ix2 0 q : S1x128.Idx) = row (V c main_v78) q := congrArg (V c main_v78) (emb3_1 t q)
  have h2 : iblk3 V c 2 t (ix2 0 q : S1x128.Idx) = row (V c main_v77) q := congrArg (V c main_v77) (emb3_2 t q)
  have h3 : iblk3 V c 3 t (ix2 0 q : S1x128.Idx) = row (V c main_v81) q := congrArg (V c main_v81) (emb3_3 t q)
  have h4 : iblk3 V c 4 t (ix2 0 q : S1x128.Idx) = row (V c main_v84) q := congrArg (V c main_v84) (emb3_4 t q)
  rw [h0, h1, h2, h3, h4]
  rfl

/-- What grid point `t` writes back to the first output is block `t` of the normalised features. -/
theorem flushed3_6_eq (c : Dev nD) (t : Fin cfg3.N) :
    (dat3 V c).flushed 6 t = ((cfg3.win 6).blk t).view.read (Elt Ideal) (toArr2 (hB3 V c)) := by
  show (cfg3.win 6).cut (grid3.coords t) ((dat3 V c).after 6 t) = _
  rw [after3_6]
  unfold out3_6
  rw [View.canon_unit_zero zeroOff3_2]
  simp only [View.ld_unit_zero (S := S5000x128) zeroOff3_2, View.ld_unit_zero (S := S1x128) zeroOff3_2]
  funext j
  obtain ⟨p, q, rfl⟩ : ∃ (p : Fin 5000) (q : Fin 128), j = ix2 p q := ⟨j 0, j 1, eq_ix2 j⟩
  show k3_pay1 (F := Ideal) (iblk3 V c 2 t) (iblk3 V c 0 t) (iblk3 V c 1 t) (iblk3 V c 3 t) (iblk3 V c 4 t) (ix2 p q)
    = toArr2 (hB3 V c) (((cfg3.win 6).blk t).view.emb (ix2 p q : S5000x128.Idx))
  rw [pay3_1_blk, emb3_6]

/-- An index of the first output's array is in point `t`'s block iff each coordinate is in the block's range on its axis. -/
theorem mem_blk3_6 (t : Fin cfg3.N) (i : S100000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v85_0).slice (win3_6.rect t)).set ↔ _
  rw [View.set_slice_whole, Rect.mem_set_unit]
  exact Iff.rfl

/-- Every row lies in the block of its quotient by 5000: the blocks cover the array. -/
theorem covered3_6 (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  have hN : cfg3.N = 20 := N_3
  obtain ⟨t, ht⟩ : ∃ t : Fin cfg3.N, t.val = (i 0).val / 5000 := ⟨⟨(i 0).val / 5000, by omega⟩, rfl⟩
  obtain ⟨-, -, -, -, -, -, -, -, -, -, -, -, e0, e1, -⟩ := idx_facts3 t
  refine ⟨t, flush3_6 t, ?_⟩
  rw [mem_blk3_6]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 128 ≤ (i 1).val ∧ (i 1).val < win3_6.index t (1 : Fin 2) * 128 + 128; omega

/-- THE FIRST OUTPUT after the region: the normalised features. -/
theorem arr3_6 (c : Dev nD) : (dat3 V c).arrAt 6 cfg3.N = toArr2 (hB3 V c) :=
  (dat3 V c).arrAt_eq_of_cover 6 (toArr2 (hB3 V c)) (fun t _ => flushed3_6_eq V c t) covered3_6

/-! # Region 3: the pooled sums, index by index -/

theorem lhsPool3_0 (i : S512x128.Idx) (q : dot_S5000x512_S5000x128_S512x128_0_0_1_1_n_n.contr.Idx) :
    (dot_S5000x512_S5000x128_S512x128_0_0_1_1_n_n.lhsIdx i q 0).val = (q ⟨0, by decide⟩).val :=
  dot_S5000x512_S5000x128_S512x128_0_0_1_1_n_n.lhsIdx_val_of_single rfl i q
theorem lhsPool3_1 (i : S512x128.Idx) (q : dot_S5000x512_S5000x128_S512x128_0_0_1_1_n_n.contr.Idx) :
    (dot_S5000x512_S5000x128_S512x128_0_0_1_1_n_n.lhsIdx i q 1).val = (i 0).val := by
  unfold DotDims.lhsIdx
  rw [dif_neg (show ¬(1 : Fin S5000x512.rank) ∈ dot_S5000x512_S5000x128_S512x128_0_0_1_1_n_n.lhsBatch by decide), dif_pos (show (1 : Fin S5000x512.rank) ∈ dot_S5000x512_S5000x128_S512x128_0_0_1_1_n_n.lhsNonContracting by decide)]
  rfl
theorem rhsPool3_0 (i : S512x128.Idx) (q : dot_S5000x512_S5000x128_S512x128_0_0_1_1_n_n.contr.Idx) :
    (dot_S5000x512_S5000x128_S512x128_0_0_1_1_n_n.rhsIdx i q 0).val = (q ⟨0, by decide⟩).val :=
  dot_S5000x512_S5000x128_S512x128_0_0_1_1_n_n.rhsIdx_val_of_single rfl i q
theorem rhsPool3_1 (i : S512x128.Idx) (q : dot_S5000x512_S5000x128_S512x128_0_0_1_1_n_n.contr.Idx) :
    (dot_S5000x512_S5000x128_S512x128_0_0_1_1_n_n.rhsIdx i q 1).val = (i 1).val := by
  unfold DotDims.rhsIdx
  rw [dif_neg (show ¬(1 : Fin S5000x128.rank) ∈ dot_S5000x512_S5000x128_S512x128_0_0_1_1_n_n.rhsBatch by decide), dif_pos (show (1 : Fin S5000x128.rank) ∈ dot_S5000x512_S5000x128_S512x128_0_0_1_1_n_n.rhsNonContracting by decide)]
  rfl

/-- A one-column matrix broadcast along the columns reads, at a row and any column, the column's entry of that row. -/
theorem colBroadcast3_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The comparison bit of two words, widened and read as a float: one where the words are equal, zero elsewhere. -/
theorem onehotWord3 (a b : BitVec 32) :
    (FloatOps.sitofp (F := Ideal) .f32 ((IntOp.cmpi .eq a b).setWidth 32) : EReal) = if a = b then 1 else 0 := by
  show ((((BitVec.ofBool (a == b)).setWidth 32).toInt : ℝ) : EReal) = _
  by_cases h : a = b
  · have hb : (a == b) = true := by simpa using h
    rw [hb, if_pos h]
    have e : ((BitVec.ofBool true).setWidth 32).toInt = 1 := by decide
    rw [e]; simp
  · have hb : (a == b) = false := by simpa using h
    rw [hb, if_neg h]
    have e : ((BitVec.ofBool false).setWidth 32).toInt = 0 := by decide
    rw [e]; simp

theorem cmpiAt3 {s : Shape} {w : Nat} (p : CmpIPredicate) (x y : IVec s w) (i : s.Idx) :
    cmpi p x y i = IntOp.cmpi p (x i) (y i) := rfl

/-- The pooling product into the zero accumulator, at a graph and a column: the sum over the block's 5000 rows of the
    left factor at (row, graph) times the right factor at (row, column). -/
theorem poolMatmul3_apply (L : FVec Ideal S5000x512 .bf16) (R : FVec Ideal S5000x128 .bf16) (g : Fin 512) (q : Fin 128) :
    FloatOps.matmul dot_S5000x512_S5000x128_S512x128_0_0_1_1_n_n none L R (constant S512x128 .f32 0x00000000#32) (ix2 g q)
      = ∑ k : Fin 5000, L (ix2 k g) * R (ix2 k q) := by
  rw [Ideal.matmul_constant_zero_apply, ← Equiv.sum_comp (contrEquiv1 dot_S5000x512_S5000x128_S512x128_0_0_1_1_n_n 5000 rfl rfl).symm]
  refine Finset.sum_congr rfl fun k _ => ?_
  have hk := contrEquiv1_symm_val dot_S5000x512_S5000x128_S512x128_0_0_1_1_n_n 5000 rfl rfl k
  have el : dot_S5000x512_S5000x128_S512x128_0_0_1_1_n_n.lhsIdx (ix2 g q) ((contrEquiv1 dot_S5000x512_S5000x128_S512x128_0_0_1_1_n_n 5000 rfl rfl).symm k) = ix2 k g :=
    funext fun a => Fin.ext (by
      match a with
      | ⟨0, _⟩ => exact (lhsPool3_0 _ _).trans hk
      | ⟨1, _⟩ => exact lhsPool3_1 _ _)
  have er : dot_S5000x512_S5000x128_S512x128_0_0_1_1_n_n.rhsIdx (ix2 g q) ((contrEquiv1 dot_S5000x512_S5000x128_S512x128_0_0_1_1_n_n 5000 rfl rfl).symm k) = ix2 k q :=
    funext fun a => Fin.ext (by
      match a with
      | ⟨0, _⟩ => exact (rhsPool3_0 _ _).trans hk
      | ⟨1, _⟩ => exact rhsPool3_1 _ _)
  rw [el, er]

/-- The pooling payload at a graph and a column: the sum over the block's rows of the normalised entry where the row's
    label is the graph's word — the low half of the split contributes nothing where the normalised entries are real. -/
theorem pay3_2_apply (x2 : S1x128.Idx → EReal) (x0 : S5000x128.Idx → EReal) (x1 x3 x4 : S1x128.Idx → EReal) (x5 : S5000x1.Idx → BitVec 32)
    (hreal : ∀ (p : Fin 5000) (q : Fin 128), IsReal (k3_pay1 (F := Ideal) x2 x0 x1 x3 x4 (ix2 p q)))
    (u : Fin 1) (g : Fin 512) (q : Fin 128) :
    k3_pay2 (F := Ideal) x2 x0 x1 x3 x4 x5 (ix3 u g q)
      = ∑ r : Fin 5000, if x5 (ix2 r 0) = BitVec.ofNat 32 g.val then k3_pay1 (F := Ideal) x2 x0 x1 x3 x4 (ix2 r q) else 0 := by
  unfold k3_pay2
  simp only [shapeCast_self]
  rw [shapeCast_ab_1ab_apply, addf_apply]
  simp only [matmul]
  rw [poolMatmul3_apply, poolMatmul3_apply, ← Finset.sum_add_distrib]
  refine Finset.sum_congr rfl fun k _ => ?_
  simp only [truncf_apply, subf_apply, sitofp_apply, extui_apply, cmpiAt3]
  rw [sub_self_real (hreal k q), mul_zero, add_zero, colBroadcast3_apply, broadcastTo_1b_ab_apply, iota_single_apply, onehotWord3]
  show (if x5 (ix2 k 0) = BitVec.ofNat 32 g.val then (1 : EReal) else 0) * _ = _
  rw [ite_mul, one_mul, zero_mul]

/-! ## The second output: per row block and graph, the sum of the block's normalised rows of that graph -/

theorem emb3_5 (t : Fin cfg3.N) (r : Fin 5000) :
    ((cfg3.win 5).blk t).view.emb (ix2 r 0 : S5000x1.Idx) = (ix2 (blkRow (blkOf3 t) r) 0 : S100000x1.Idx) := by
  obtain ⟨-, -, -, -, -, -, -, -, -, -, e0, e1, -⟩ := idx_facts3 t
  funext a; apply Fin.ext
  match a with
  | ⟨0, _⟩ => show win3_5.index t (0 : Fin 2) * 5000 + 1 * r.val = t.val * 5000 + r.val; omega
  | ⟨1, _⟩ => show win3_5.index t (1 : Fin 2) * 1 + 1 * 0 = 0; omega

theorem emb3_7 (t : Fin cfg3.N) (u : Fin 1) (g : Fin 512) (q : Fin 128) :
    ((cfg3.win 7).blk t).view.emb (ix3 u g q : S1x512x128.Idx) = (ix3 (blkOf3 t) g q : S20x512x128.Idx) := by
  obtain ⟨-, -, -, -, -, -, -, -, -, -, -, -, -, -, e0, e1, e2⟩ := idx_facts3 t
  funext a; apply Fin.ext
  match a with
  | ⟨0, _⟩ => show win3_7.index t (0 : Fin 3) * 1 + 1 * u.val = t.val; have := u.isLt; omega
  | ⟨1, _⟩ => show win3_7.index t (1 : Fin 3) * 512 + 1 * g.val = g.val; omega
  | ⟨2, _⟩ => show win3_7.index t (2 : Fin 3) * 128 + 1 * q.val = q.val; omega

/-- What grid point `t` writes back to the second output is block `t` of the per-block pooled sums, where the normalised
    features are real. -/
theorem flushed3_7_eq (c : Dev nD) (hreal : R2 (hB3 V c)) (t : Fin cfg3.N) :
    (dat3 V c).flushed 7 t = ((cfg3.win 7).blk t).view.read (Elt Ideal) (poolParts (hB3 V c) (lab (V c main_v4))) := by
  show (cfg3.win 7).cut (grid3.coords t) ((dat3 V c).after 7 t) = _
  rw [after3_7]
  unfold out3_7
  rw [View.canon_unit_zero zeroOff3_3]
  simp only [View.ld_unit_zero (S := S5000x128) zeroOff3_2, View.ld_unit_zero (S := S1x128) zeroOff3_2, View.ld_unit_zero (S := S5000x1) zeroOff3_2]
  funext j
  obtain ⟨u, g, q, rfl⟩ : ∃ (u : Fin 1) (g : Fin 512) (q : Fin 128), j = ix3 u g q := ⟨j 0, j 1, j 2, eq_ix3 j⟩
  show k3_pay2 (F := Ideal) (iblk3 V c 2 t) (iblk3 V c 0 t) (iblk3 V c 1 t) (iblk3 V c 3 t) (iblk3 V c 4 t) (iblk3 V c 5 t) (ix3 u g q)
    = poolParts (hB3 V c) (lab (V c main_v4)) (((cfg3.win 7).blk t).view.emb (ix3 u g q : S1x512x128.Idx))
  rw [pay3_2_apply _ _ _ _ _ _ (fun p q' => by rw [pay3_1_blk]; exact hreal _ _), emb3_7]
  show _ = ∑ r : Fin 5000, if lab (V c main_v4) (blkRow (blkOf3 t) r) = BitVec.ofNat 32 g.val then hB3 V c (blkRow (blkOf3 t) r) q else 0
  refine Finset.sum_congr rfl fun r _ => ?_
  have h5 : iblk3 V c 5 t (ix2 r 0 : S5000x1.Idx) = lab (V c main_v4) (blkRow (blkOf3 t) r) := congrArg (V c main_v4) (emb3_5 t r)
  rw [pay3_1_blk, h5]

/-- An index of the second output's array is in point `t`'s block iff each coordinate is in the block's range on its axis. -/
theorem mem_blk3_7 (t : Fin cfg3.N) (i : S20x512x128.Idx) :
    i ∈ ((cfg3.win 7).blk t).view.set ↔ ∀ a : Fin 3, win3_7.index t a * S1x512x128.size a ≤ (i a).val ∧ (i a).val < win3_7.index t a * S1x512x128.size a + S1x512x128.size a := by
  show i ∈ ((View.whole main_v85_1).slice (win3_7.rect t)).set ↔ _
  rw [View.set_slice_whole, Rect.mem_set_unit]
  exact Iff.rfl

/-- Every index lies in the block of its first coordinate: the blocks cover the array. -/
theorem covered3_7 (i : S20x512x128.Idx) :
    ∃ t : Fin cfg3.N, (cfg3.win 7).flush t = true ∧ i ∈ ((cfg3.win 7).blk t).view.set := by
  have hi0 : (i 0).val < 20 := (i 0).isLt
  have hi1 : (i 1).val < 512 := (i 1).isLt
  have hi2 : (i 2).val < 128 := (i 2).isLt
  have hN : cfg3.N = 20 := N_3
  obtain ⟨t, ht⟩ : ∃ t : Fin cfg3.N, t.val = (i 0).val := ⟨⟨(i 0).val, by omega⟩, rfl⟩
  obtain ⟨-, -, -, -, -, -, -, -, -, -, -, -, -, -, e0, e1, e2⟩ := idx_facts3 t
  refine ⟨t, flush3_7 t, ?_⟩
  rw [mem_blk3_7]
  intro a
  match a with
  | ⟨0, _⟩ => show win3_7.index t (0 : Fin 3) * 1 ≤ (i 0).val ∧ (i 0).val < win3_7.index t (0 : Fin 3) * 1 + 1; omega
  | ⟨1, _⟩ => show win3_7.index t (1 : Fin 3) * 512 ≤ (i 1).val ∧ (i 1).val < win3_7.index t (1 : Fin 3) * 512 + 512; omega
  | ⟨2, _⟩ => show win3_7.index t (2 : Fin 3) * 128 ≤ (i 2).val ∧ (i 2).val < win3_7.index t (2 : Fin 3) * 128 + 128; omega

/-- THE SECOND OUTPUT after the region, where the normalised features are real: per row block and graph, the sum of the
    block's normalised rows whose label is the graph's word. -/
theorem arr3_7 (c : Dev nD) (hreal : R2 (hB3 V c)) :
    (dat3 V c).arrAt 7 cfg3.N = poolParts (hB3 V c) (lab (V c main_v4)) :=
  (dat3 V c).arrAt_eq_of_cover 7 (poolParts (hB3 V c) (lab (V c main_v4))) (fun t _ => flushed3_7_eq V c hreal t) covered3_7

end Cert.KernelIdeal.Hand

end
-- ==== Proof.KIValB5.lean ====
/- The values region 5 of `Cert.KernelIdeal` (the batch-norm and pooling kernel) leaves in its two output arrays, over the
   extended reals, as whole-array functions of the region-entry contents `V`: the first output is the normalisation of the
   activated features by the given column statistics, row by row; the second holds, per row block and per graph, the sum
   of the normalised rows of that block whose label is the graph's word. -/
import proofs.«406400_j6640019439960_2_alg».proof.Proof.KIRegB5
import proofs.«406400_j6640019439960_2_alg».proof.Proof.Spec
import proofs.«406400_j6640019439960_2_alg».proof.Proof.Math
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal.Gen Cert.Spec
open Idealize.ShloMosaic Idealize.ShloMosaic.TcCoe Idealize.ShloMosaic.ValueIdx
open Idealize.ShloMosaic.Pipeline (Dat Cfg Window)
open Facts₀ Facts

-- the TensorCore's buffer contents when the region is entered, over the extended reals
variable (V : (c : Dev nD) → (b : Ref sig .tc) → Buf (Elt Ideal) ((c : Thread nD τ).loc b))

/-! # Region 5: the normalisation, index by index -/

theorem zeroOff5_2 : (![0, 0] : Fin 2 → Nat) = fun _ => 0 := funext fun a => by fin_cases a <;> rfl
theorem zeroOff5_3 : (![0, 0, 0] : Fin 3 → Nat) = fun _ => 0 := funext fun a => by fin_cases a <;> rfl

/-- The normalisation payload at a row and a column: the entry less the column's mean, times the reciprocal root of the
    column's variance plus the offset, times the column's scale, plus the column's shift. -/
theorem pay5_1_apply (x2 : S1x128.Idx → EReal) (x0 : S5000x128.Idx → EReal) (x1 x3 x4 : S1x128.Idx → EReal) (p : Fin 5000) (q : Fin 128) :
    k5_pay1 (F := Ideal) x2 x0 x1 x3 x4 (ix2 p q)
      = (x0 (ix2 p q) - x1 (ix2 0 q)) * Ideal.rsqrt (x2 (ix2 0 q) + epsW) * x3 (ix2 0 q) + x4 (ix2 0 q) := by
  unfold k5_pay1
  simp only [shapeCast_self]
  rw [addf_apply, mulf_apply, mulf_apply, subf_apply]
  rw [broadcastTo_1b_ab_apply, broadcastTo_1b_ab_apply, broadcastTo_1b_ab_apply, broadcastTo_1b_ab_apply]
  rfl

/-! ## The windows' blocks among the arrays' indices -/

/-- The printed index maps, decided over the 20 grid points: the row-blocked windows sit at block `t`, the one-row
    windows at their only block. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0
    ∧ win5_7.index t (0 : Fin 3) = t.val ∧ win5_7.index t (1 : Fin 3) = 0 ∧ win5_7.index t (2 : Fin 3) = 0 :=
  (by decide +kernel : ∀ t : Fin grid5.N, _)

/-- A grid point as a row block. -/
def blkOf5 (t : Fin cfg5.N) : Fin 20 := ⟨t.val, by have h := t.isLt; have e : cfg5.N = 20 := N_5; omega⟩

theorem emb5_0 (t : Fin cfg5.N) (p : Fin 5000) (q : Fin 128) :
    ((cfg5.win 0).blk t).view.emb (ix2 p q : S5000x128.Idx) = (ix2 (blkRow (blkOf5 t) p) q : S100000x128.Idx) := by
  obtain ⟨e0, e1, -⟩ := idx_facts5 t
  funext a; apply Fin.ext
  match a with
  | ⟨0, _⟩ => show win5_0.index t (0 : Fin 2) * 5000 + 1 * p.val = t.val * 5000 + p.val; omega
  | ⟨1, _⟩ => show win5_0.index t (1 : Fin 2) * 128 + 1 * q.val = q.val; omega

theorem emb5_6 (t : Fin cfg5.N) (p : Fin 5000) (q : Fin 128) :
    ((cfg5.win 6).blk t).view.emb (ix2 p q : S5000x128.Idx) = (ix2 (blkRow (blkOf5 t) p) q : S100000x128.Idx) := by
  obtain ⟨-, -, -, -, -, -, -, -, -, -, -, -, e0, e1, -⟩ := idx_facts5 t
  funext a; apply Fin.ext
  match a with
  | ⟨0, _⟩ => show win5_6.index t (0 : Fin 2) * 5000 + 1 * p.val = t.val * 5000 + p.val; omega
  | ⟨1, _⟩ => show win5_6.index t (1 : Fin 2) * 128 + 1 * q.val = q.val; omega

theorem emb5_1 (t : Fin cfg5.N) (q : Fin 128) :
    ((cfg5.win 1).blk t).view.emb (ix2 0 q : S1x128.Idx) = (ix2 0 q : S1x128.Idx) := by
  obtain ⟨-, -, e0, e1, -⟩ := idx_facts5 t
  funext a; apply Fin.ext
  match a with
  | ⟨0, _⟩ => show win5_1.index t (0 : Fin 2) * 1 + 1 * 0 = 0; omega
  | ⟨1, _⟩ => show win5_1.index t (1 : Fin 2) * 128 + 1 * q.val = q.val; omega

theorem emb5_2 (t : Fin cfg5.N) (q : Fin 128) :
    ((cfg5.win 2).blk t).view.emb (ix2 0 q : S1x128.Idx) = (ix2 0 q : S1x128.Idx) := by
  obtain ⟨-, -, -, -, e0, e1, -⟩ := idx_facts5 t
  funext a; apply Fin.ext
  match a with
  | ⟨0, _⟩ => show win5_2.index t (0 : Fin 2) * 1 + 1 * 0 = 0; omega
  | ⟨1, _⟩ => show win5_2.index t (1 : Fin 2) * 128 + 1 * q.val = q.val; omega

theorem emb5_3 (t : Fin cfg5.N) (q : Fin 128) :
    ((cfg5.win 3).blk t).view.emb (ix2 0 q : S1x128.Idx) = (ix2 0 q : S1x128.Idx) := by
  obtain ⟨-, -, -, -, -, -, e0, e1, -⟩ := idx_facts5 t
  funext a; apply Fin.ext
  match a with
  | ⟨0, _⟩ => show win5_3.index t (0 : Fin 2) * 1 + 1 * 0 = 0; omega
  | ⟨1, _⟩ => show win5_3.index t (1 : Fin 2) * 128 + 1 * q.val = q.val; omega

theorem emb5_4 (t : Fin cfg5.N) (q : Fin 128) :
    ((cfg5.win 4).blk t).view.emb (ix2 0 q : S1x128.Idx) = (ix2 0 q : S1x128.Idx) := by
  obtain ⟨-, -, -, -, -, -, -, -, e0, e1, -⟩ := idx_facts5 t
  funext a; apply Fin.ext
  match a with
  | ⟨0, _⟩ => show win5_4.index t (0 : Fin 2) * 1 + 1 * 0 = 0; omega
  | ⟨1, _⟩ => show win5_4.index t (1 : Fin 2) * 128 + 1 * q.val = q.val; omega

/-! ## The first output: the normalised features -/

/-- The normalised features, from the region-entry contents. -/
abbrev hB5 (c : Dev nD) : Rw → Cl → EReal :=
  bn (of2 (V c main_v107_0)) (row (V c main_v119)) (row (V c main_v118)) (row (V c main_v122)) (row (V c main_v125))

/-- The normalisation payload of the blocks at point `t`, at a row and a column of the block: the normalised features at
    the block's row among all rows. -/
theorem pay5_1_blk (c : Dev nD) (t : Fin cfg5.N) (p : Fin 5000) (q : Fin 128) :
    k5_pay1 (F := Ideal) (iblk5 V c 2 t) (iblk5 V c 0 t) (iblk5 V c 1 t) (iblk5 V c 3 t) (iblk5 V c 4 t) (ix2 p q)
      = hB5 V c (blkRow (blkOf5 t) p) q := by
  rw [pay5_1_apply]
  have h0 : iblk5 V c 0 t (ix2 p q : S5000x128.Idx) = of2 (V c main_v107_0) (blkRow (blkOf5 t) p) q :=
    congrArg (V c main_v107_0) (emb5_0 t p q)
  have h1 : iblk5 V c 1 t (ix2 0 q : S1x128.Idx) = row (V c main_v119) q := congrArg (V c main_v119) (emb5_1 t q)
  have h2 : iblk5 V c 2 t (ix2 0 q : S1x128.Idx) = row (V c main_v118) q := congrArg (V c main_v118) (emb5_2 t q)
  have h3 : iblk5 V c 3 t (ix2 0 q : S1x128.Idx) = row (V c main_v122) q := congrArg (V c main_v122) (emb5_3 t q)
  have h4 : iblk5 V c 4 t (ix2 0 q : S1x128.Idx) = row (V c main_v125) q := congrArg (V c main_v125) (emb5_4 t q)
  rw [h0, h1, h2, h3, h4]
  rfl

/-- What grid point `t` writes back to the first output is block `t` of the normalised features. -/
theorem flushed5_6_eq (c : Dev nD) (t : Fin cfg5.N) :
    (dat5 V c).flushed 6 t = ((cfg5.win 6).blk t).view.read (Elt Ideal) (toArr2 (hB5 V c)) := by
  show (cfg5.win 6).cut (grid5.coords t) ((dat5 V c).after 6 t) = _
  rw [after5_6]
  unfold out5_6
  rw [View.canon_unit_zero zeroOff5_2]
  simp only [View.ld_unit_zero (S := S5000x128) zeroOff5_2, View.ld_unit_zero (S := S1x128) zeroOff5_2]
  funext j
  obtain ⟨p, q, rfl⟩ : ∃ (p : Fin 5000) (q : Fin 128), j = ix2 p q := ⟨j 0, j 1, eq_ix2 j⟩
  show k5_pay1 (F := Ideal) (iblk5 V c 2 t) (iblk5 V c 0 t) (iblk5 V c 1 t) (iblk5 V c 3 t) (iblk5 V c 4 t) (ix2 p q)
    = toArr2 (hB5 V c) (((cfg5.win 6).blk t).view.emb (ix2 p q : S5000x128.Idx))
  rw [pay5_1_blk, emb5_6]

/-- An index of the first output's array is in point `t`'s block iff each coordinate is in the block's range on its axis. -/
theorem mem_blk5_6 (t : Fin cfg5.N) (i : S100000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole main_v126_0).slice (win5_6.rect t)).set ↔ _
  rw [View.set_slice_whole, Rect.mem_set_unit]
  exact Iff.rfl

/-- Every row lies in the block of its quotient by 5000: the blocks cover the array. -/
theorem covered5_6 (i : S100000x128.Idx) :
    ∃ t : Fin cfg5.N, (cfg5.win 6).flush t = true ∧ i ∈ ((cfg5.win 6).blk t).view.set := by
  have hi0 : (i 0).val < 100000 := (i 0).isLt
  have hi1 : (i 1).val < 128 := (i 1).isLt
  have hN : cfg5.N = 20 := N_5
  obtain ⟨t, ht⟩ : ∃ t : Fin cfg5.N, t.val = (i 0).val / 5000 := ⟨⟨(i 0).val / 5000, by omega⟩, rfl⟩
  obtain ⟨-, -, -, -, -, -, -, -, -, -, -, -, e0, e1, -⟩ := idx_facts5 t
  refine ⟨t, flush5_6 t, ?_⟩
  rw [mem_blk5_6]
  intro a
  match a with
  | ⟨0, _⟩ => show win5_6.index t (0 : Fin 2) * 5000 ≤ (i 0).val ∧ (i 0).val < win5_6.index t (0 : Fin 2) * 5000 + 5000; omega
  | ⟨1, _⟩ => show win5_6.index t (1 : Fin 2) * 128 ≤ (i 1).val ∧ (i 1).val < win5_6.index t (1 : Fin 2) * 128 + 128; omega

/-- THE FIRST OUTPUT after the region: the normalised features. -/
theorem arr5_6 (c : Dev nD) : (dat5 V c).arrAt 6 cfg5.N = toArr2 (hB5 V c) :=
  (dat5 V c).arrAt_eq_of_cover 6 (toArr2 (hB5 V c)) (fun t _ => flushed5_6_eq V c t) covered5_6

/-! # Region 5: the pooled sums, index by index -/

theorem lhsPool5_0 (i : S512x128.Idx) (q : dot_S5000x512_S5000x128_S512x128_0_0_1_1_n_n.contr.Idx) :
    (dot_S5000x512_S5000x128_S512x128_0_0_1_1_n_n.lhsIdx i q 0).val = (q ⟨0, by decide⟩).val :=
  dot_S5000x512_S5000x128_S512x128_0_0_1_1_n_n.lhsIdx_val_of_single rfl i q
theorem lhsPool5_1 (i : S512x128.Idx) (q : dot_S5000x512_S5000x128_S512x128_0_0_1_1_n_n.contr.Idx) :
    (dot_S5000x512_S5000x128_S512x128_0_0_1_1_n_n.lhsIdx i q 1).val = (i 0).val := by
  unfold DotDims.lhsIdx
  rw [dif_neg (show ¬(1 : Fin S5000x512.rank) ∈ dot_S5000x512_S5000x128_S512x128_0_0_1_1_n_n.lhsBatch by decide), dif_pos (show (1 : Fin S5000x512.rank) ∈ dot_S5000x512_S5000x128_S512x128_0_0_1_1_n_n.lhsNonContracting by decide)]
  rfl
theorem rhsPool5_0 (i : S512x128.Idx) (q : dot_S5000x512_S5000x128_S512x128_0_0_1_1_n_n.contr.Idx) :
    (dot_S5000x512_S5000x128_S512x128_0_0_1_1_n_n.rhsIdx i q 0).val = (q ⟨0, by decide⟩).val :=
  dot_S5000x512_S5000x128_S512x128_0_0_1_1_n_n.rhsIdx_val_of_single rfl i q
theorem rhsPool5_1 (i : S512x128.Idx) (q : dot_S5000x512_S5000x128_S512x128_0_0_1_1_n_n.contr.Idx) :
    (dot_S5000x512_S5000x128_S512x128_0_0_1_1_n_n.rhsIdx i q 1).val = (i 1).val := by
  unfold DotDims.rhsIdx
  rw [dif_neg (show ¬(1 : Fin S5000x128.rank) ∈ dot_S5000x512_S5000x128_S512x128_0_0_1_1_n_n.rhsBatch by decide), dif_pos (show (1 : Fin S5000x128.rank) ∈ dot_S5000x512_S5000x128_S512x128_0_0_1_1_n_n.rhsNonContracting by decide)]
  rfl

/-- A one-column matrix broadcast along the columns reads, at a row and any column, the column's entry of that row. -/
theorem colBroadcast5_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The comparison bit of two words, widened and read as a float: one where the words are equal, zero elsewhere. -/
theorem onehotWord5 (a b : BitVec 32) :
    (FloatOps.sitofp (F := Ideal) .f32 ((IntOp.cmpi .eq a b).setWidth 32) : EReal) = if a = b then 1 else 0 := by
  show ((((BitVec.ofBool (a == b)).setWidth 32).toInt : ℝ) : EReal) = _
  by_cases h : a = b
  · have hb : (a == b) = true := by simpa using h
    rw [hb, if_pos h]
    have e : ((BitVec.ofBool true).setWidth 32).toInt = 1 := by decide
    rw [e]; simp
  · have hb : (a == b) = false := by simpa using h
    rw [hb, if_neg h]
    have e : ((BitVec.ofBool false).setWidth 32).toInt = 0 := by decide
    rw [e]; simp

theorem cmpiAt5 {s : Shape} {w : Nat} (p : CmpIPredicate) (x y : IVec s w) (i : s.Idx) :
    cmpi p x y i = IntOp.cmpi p (x i) (y i) := rfl

/-- The pooling product into the zero accumulator, at a graph and a column: the sum over the block's 5000 rows of the
    left factor at (row, graph) times the right factor at (row, column). -/
theorem poolMatmul5_apply (L : FVec Ideal S5000x512 .bf16) (R : FVec Ideal S5000x128 .bf16) (g : Fin 512) (q : Fin 128) :
    FloatOps.matmul dot_S5000x512_S5000x128_S512x128_0_0_1_1_n_n none L R (constant S512x128 .f32 0x00000000#32) (ix2 g q)
      = ∑ k : Fin 5000, L (ix2 k g) * R (ix2 k q) := by
  rw [Ideal.matmul_constant_zero_apply, ← Equiv.sum_comp (contrEquiv1 dot_S5000x512_S5000x128_S512x128_0_0_1_1_n_n 5000 rfl rfl).symm]
  refine Finset.sum_congr rfl fun k _ => ?_
  have hk := contrEquiv1_symm_val dot_S5000x512_S5000x128_S512x128_0_0_1_1_n_n 5000 rfl rfl k
  have el : dot_S5000x512_S5000x128_S512x128_0_0_1_1_n_n.lhsIdx (ix2 g q) ((contrEquiv1 dot_S5000x512_S5000x128_S512x128_0_0_1_1_n_n 5000 rfl rfl).symm k) = ix2 k g :=
    funext fun a => Fin.ext (by
      match a with
      | ⟨0, _⟩ => exact (lhsPool5_0 _ _).trans hk
      | ⟨1, _⟩ => exact lhsPool5_1 _ _)
  have er : dot_S5000x512_S5000x128_S512x128_0_0_1_1_n_n.rhsIdx (ix2 g q) ((contrEquiv1 dot_S5000x512_S5000x128_S512x128_0_0_1_1_n_n 5000 rfl rfl).symm k) = ix2 k q :=
    funext fun a => Fin.ext (by
      match a with
      | ⟨0, _⟩ => exact (rhsPool5_0 _ _).trans hk
      | ⟨1, _⟩ => exact rhsPool5_1 _ _)
  rw [el, er]

/-- The pooling payload at a graph and a column: the sum over the block's rows of the normalised entry where the row's
    label is the graph's word — the low half of the split contributes nothing where the normalised entries are real. -/
theorem pay5_2_apply (x2 : S1x128.Idx → EReal) (x0 : S5000x128.Idx → EReal) (x1 x3 x4 : S1x128.Idx → EReal) (x5 : S5000x1.Idx → BitVec 32)
    (hreal : ∀ (p : Fin 5000) (q : Fin 128), IsReal (k5_pay1 (F := Ideal) x2 x0 x1 x3 x4 (ix2 p q)))
    (u : Fin 1) (g : Fin 512) (q : Fin 128) :
    k5_pay2 (F := Ideal) x2 x0 x1 x3 x4 x5 (ix3 u g q)
      = ∑ r : Fin 5000, if x5 (ix2 r 0) = BitVec.ofNat 32 g.val then k5_pay1 (F := Ideal) x2 x0 x1 x3 x4 (ix2 r q) else 0 := by
  unfold k5_pay2
  simp only [shapeCast_self]
  rw [shapeCast_ab_1ab_apply, addf_apply]
  simp only [matmul]
  rw [poolMatmul5_apply, poolMatmul5_apply, ← Finset.sum_add_distrib]
  refine Finset.sum_congr rfl fun k _ => ?_
  simp only [truncf_apply, subf_apply, sitofp_apply, extui_apply, cmpiAt5]
  rw [sub_self_real (hreal k q), mul_zero, add_zero, colBroadcast5_apply, broadcastTo_1b_ab_apply, iota_single_apply, onehotWord5]
  show (if x5 (ix2 k 0) = BitVec.ofNat 32 g.val then (1 : EReal) else 0) * _ = _
  rw [ite_mul, one_mul, zero_mul]

/-! ## The second output: per row block and graph, the sum of the block's normalised rows of that graph -/

theorem emb5_5 (t : Fin cfg5.N) (r : Fin 5000) :
    ((cfg5.win 5).blk t).view.emb (ix2 r 0 : S5000x1.Idx) = (ix2 (blkRow (blkOf5 t) r) 0 : S100000x1.Idx) := by
  obtain ⟨-, -, -, -, -, -, -, -, -, -, e0, e1, -⟩ := idx_facts5 t
  funext a; apply Fin.ext
  match a with
  | ⟨0, _⟩ => show win5_5.index t (0 : Fin 2) * 5000 + 1 * r.val = t.val * 5000 + r.val; omega
  | ⟨1, _⟩ => show win5_5.index t (1 : Fin 2) * 1 + 1 * 0 = 0; omega

theorem emb5_7 (t : Fin cfg5.N) (u : Fin 1) (g : Fin 512) (q : Fin 128) :
    ((cfg5.win 7).blk t).view.emb (ix3 u g q : S1x512x128.Idx) = (ix3 (blkOf5 t) g q : S20x512x128.Idx) := by
  obtain ⟨-, -, -, -, -, -, -, -, -, -, -, -, -, -, e0, e1, e2⟩ := idx_facts5 t
  funext a; apply Fin.ext
  match a with
  | ⟨0, _⟩ => show win5_7.index t (0 : Fin 3) * 1 + 1 * u.val = t.val; have := u.isLt; omega
  | ⟨1, _⟩ => show win5_7.index t (1 : Fin 3) * 512 + 1 * g.val = g.val; omega
  | ⟨2, _⟩ => show win5_7.index t (2 : Fin 3) * 128 + 1 * q.val = q.val; omega

/-- What grid point `t` writes back to the second output is block `t` of the per-block pooled sums, where the normalised
    features are real. -/
theorem flushed5_7_eq (c : Dev nD) (hreal : R2 (hB5 V c)) (t : Fin cfg5.N) :
    (dat5 V c).flushed 7 t = ((cfg5.win 7).blk t).view.read (Elt Ideal) (poolParts (hB5 V c) (lab (V c main_v4))) := by
  show (cfg5.win 7).cut (grid5.coords t) ((dat5 V c).after 7 t) = _
  rw [after5_7]
  unfold out5_7
  rw [View.canon_unit_zero zeroOff5_3]
  simp only [View.ld_unit_zero (S := S5000x128) zeroOff5_2, View.ld_unit_zero (S := S1x128) zeroOff5_2, View.ld_unit_zero (S := S5000x1) zeroOff5_2]
  funext j
  obtain ⟨u, g, q, rfl⟩ : ∃ (u : Fin 1) (g : Fin 512) (q : Fin 128), j = ix3 u g q := ⟨j 0, j 1, j 2, eq_ix3 j⟩
  show k5_pay2 (F := Ideal) (iblk5 V c 2 t) (iblk5 V c 0 t) (iblk5 V c 1 t) (iblk5 V c 3 t) (iblk5 V c 4 t) (iblk5 V c 5 t) (ix3 u g q)
    = poolParts (hB5 V c) (lab (V c main_v4)) (((cfg5.win 7).blk t).view.emb (ix3 u g q : S1x512x128.Idx))
  rw [pay5_2_apply _ _ _ _ _ _ (fun p q' => by rw [pay5_1_blk]; exact hreal _ _), emb5_7]
  show _ = ∑ r : Fin 5000, if lab (V c main_v4) (blkRow (blkOf5 t) r) = BitVec.ofNat 32 g.val then hB5 V c (blkRow (blkOf5 t) r) q else 0
  refine Finset.sum_congr rfl fun r _ => ?_
  have h5 : iblk5 V c 5 t (ix2 r 0 : S5000x1.Idx) = lab (V c main_v4) (blkRow (blkOf5 t) r) := congrArg (V c main_v4) (emb5_5 t r)
  rw [pay5_1_blk, h5]

/-- An index of the second output's array is in point `t`'s block iff each coordinate is in the block's range on its axis. -/
theorem mem_blk5_7 (t : Fin cfg5.N) (i : S20x512x128.Idx) :
    i ∈ ((cfg5.win 7).blk t).view.set ↔ ∀ a : Fin 3, win5_7.index t a * S1x512x128.size a ≤ (i a).val ∧ (i a).val < win5_7.index t a * S1x512x128.size a + S1x512x128.size a := by
  show i ∈ ((View.whole main_v126_1).slice (win5_7.rect t)).set ↔ _
  rw [View.set_slice_whole, Rect.mem_set_unit]
  exact Iff.rfl

/-- Every index lies in the block of its first coordinate: the blocks cover the array. -/
theorem covered5_7 (i : S20x512x128.Idx) :
    ∃ t : Fin cfg5.N, (cfg5.win 7).flush t = true ∧ i ∈ ((cfg5.win 7).blk t).view.set := by
  have hi0 : (i 0).val < 20 := (i 0).isLt
  have hi1 : (i 1).val < 512 := (i 1).isLt
  have hi2 : (i 2).val < 128 := (i 2).isLt
  have hN : cfg5.N = 20 := N_5
  obtain ⟨t, ht⟩ : ∃ t : Fin cfg5.N, t.val = (i 0).val := ⟨⟨(i 0).val, by omega⟩, rfl⟩
  obtain ⟨-, -, -, -, -, -, -, -, -, -, -, -, -, -, e0, e1, e2⟩ := idx_facts5 t
  refine ⟨t, flush5_7 t, ?_⟩
  rw [mem_blk5_7]
  intro a
  match a with
  | ⟨0, _⟩ => show win5_7.index t (0 : Fin 3) * 1 ≤ (i 0).val ∧ (i 0).val < win5_7.index t (0 : Fin 3) * 1 + 1; omega
  | ⟨1, _⟩ => show win5_7.index t (1 : Fin 3) * 512 ≤ (i 1).val ∧ (i 1).val < win5_7.index t (1 : Fin 3) * 512 + 512; omega
  | ⟨2, _⟩ => show win5_7.index t (2 : Fin 3) * 128 ≤ (i 2).val ∧ (i 2).val < win5_7.index t (2 : Fin 3) * 128 + 128; omega

/-- THE SECOND OUTPUT after the region, where the normalised features are real: per row block and graph, the sum of the
    block's normalised rows whose label is the graph's word. -/
theorem arr5_7 (c : Dev nD) (hreal : R2 (hB5 V c)) :
    (dat5 V c).arrAt 7 cfg5.N = poolParts (hB5 V c) (lab (V c main_v4)) :=
  (dat5 V c).arrAt_eq_of_cover 7 (poolParts (hB5 V c) (lab (V c main_v4))) (fun t _ => flushed5_7_eq V c hreal t) covered5_7

end Cert.KernelIdeal.Hand

end
-- ==== Proof.KIValHost.lean ====
/- What the host stretches between the kernel regions leave, over the extended reals, in the buffers the regions read,
   as functions of a variable valuation: from the per-block column sums of the activated features and of their squares,
   the row of column means and the row of clipped variances; the rows of scale and shift; a layer's two weight matrices
   and two bias rows, cut from the stacks of three; from the per-block per-graph sums, the per-graph sums; and the two
   results as concatenations of the three layers' arrays. -/
import proofs.«406400_j6640019439960_2_alg».proof.Proof.Spec
import proofs.«406400_j6640019439960_2_alg».proof.Proof.Math
import proofs.«406400_j6640019439960_2_alg».proof.Proof.Gen.KernelIdeal
import proofs.«406400_j6640019439960_2_alg».proof.Proof.Gen.KernelIdeal.Launch
import Idealize.ShloMosaic.Lib.StableHlo.Run
import Idealize.ShloMosaic.Lib.IdealHost
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

set_option maxRecDepth 16384

noncomputable section

namespace Cert.KernelIdeal.Hand

open Cert.KernelIdeal Cert.KernelIdeal.Gen Cert.Spec
open Idealize.ShloMosaic Idealize.ShloMosaic.ValueIdx

/-! ## Arrays and their curried readings -/

/-- A rank-2 array is the array of its curried reading. -/
theorem toArr2_of2 {a b : Nat} (f : (⟨2, ![a, b]⟩ : Shape).Idx → EReal) : toArr2 (of2 f) = f := by
  funext i
  exact congrArg f (eq_ix2 i).symm

/-- A label vector cast to one column reads, as labels, the vector. -/
theorem lab_cast (x : S100000.Idx → BitVec 32) :
    lab (shapeCast S100000x1 x shapeCasts_S100000_S100000x1) = lab1 x := by
  funext n
  show shapeCast S100000x1 x shapeCasts_S100000_S100000x1 (ix2 n 0) = x (ix1 n)
  refine shapeCast_apply x _ _ _ ?_
  rw [Shape.rowMajor_val_one, Shape.rowMajor_val_two]
  show n.val = n.val * 1 + 0
  omega

/-! ## One member of a stack of three -/

/-- Row `o` of a three-row stack, cut off as a one-row matrix, flattened and made a one-row matrix again. -/
def rowOf (o : Nat) (X : S3x128.Idx → EReal) (hs : S3x128.Slices ![o, 0] S1x128) : S1x128.Idx → EReal :=
  shapeCast S1x128 (shapeCast S128 (extractStridedSlice S1x128 ![o, 0] X hs) shapeCasts_S1x128_S128) shapeCasts_S128_S1x128

/-- Matrix `o` of a stack of three, cut off and made a matrix. -/
def matOf (o : Nat) (X : S3x128x128.Idx → EReal) (hs : S3x128x128.Slices ![o, 0, 0] S1x128x128) : S128x128.Idx → EReal :=
  shapeCast S128x128 (extractStridedSlice S1x128x128 ![o, 0, 0] X hs) shapeCasts_S1x128x128_S128x128

/-- The row at column j is the stack at (o, j): the two casts keep the row-major position, the cut shifts the row. -/
theorem rowOf_eq (o : Nat) (X : S3x128.Idx → EReal) (hs : S3x128.Slices ![o, 0] S1x128) (L : Fin 3) (hL : L.val = o) :
    rowOf o X hs = toRow (fun j => X (ix2 L j)) := by
  funext i
  obtain ⟨u, j, rfl⟩ : ∃ (u : Fin 1) (j : Fin 128), i = ix2 u j := ⟨i 0, i 1, eq_ix2 i⟩
  unfold rowOf
  rw [shapeCast_a_1a_apply, shapeCast_1a_a_apply]
  exact slice2_axis0_apply o X hs 0 j L (by show L.val = o + 0; omega)

/-- The matrix at (k, j) is the stack at (o, k, j). -/
theorem matOf_eq (o : Nat) (X : S3x128x128.Idx → EReal) (hs : S3x128x128.Slices ![o, 0, 0] S1x128x128) (L : Fin 3)
    (hL : L.val = o) : matOf o X hs = toArr2 (fun k j => X (ix3 L k j)) := by
  funext i
  obtain ⟨k, j, rfl⟩ : ∃ (k : Fin 128) (j : Fin 128), i = ix2 k j := ⟨i 0, i 1, eq_ix2 i⟩
  unfold matOf
  rw [shapeCast_1ab_ab_apply]
  refine extractStridedSlice_apply _ _ _ _ _ (fun ax => ?_)
  match ax with
  | ⟨0, _⟩ => show L.val = o + 0; omega
  | ⟨1, _⟩ => exact (Nat.zero_add _).symm
  | ⟨2, _⟩ => exact (Nat.zero_add _).symm

/-! ## The column statistics from the per-block sums -/

/-- The sum of a per-block layout over blocks and rows, from zero: one entry per column. -/
def sumsArr (x : S20x8x128.Idx → EReal) : S128.Idx → EReal :=
  Host.reduceAdd x (constant (F := Ideal) S_ .f32 0x00000000#32) reducesTo_S20x8x128_S128_d0_1 h_S_

/-- Those sums divided by the node count. -/
def meanArr (x : S20x8x128.Idx → EReal) : S128.Idx → EReal :=
  Host.divf (sumsArr x) (broadcastInDim S128 ![] bcast_S_S128 (constant (F := Ideal) S_ .f32 0x47C35000#32))

/-- From the layouts of the entries' and of the squares' sums: the mean of squares less the squared mean, clipped at zero. -/
def varArr (x y : S20x8x128.Idx → EReal) : S128.Idx → EReal :=
  maximumf (F := Ideal) (φ := .f32) (subf (F := Ideal) (φ := .f32) (meanArr y) (mulf (F := Ideal) (φ := .f32) (meanArr x) (meanArr x)))
    (broadcastInDim S128 ![] bcast_S_S128 (constant (F := Ideal) S_ .f32 0x00000000#32))

/-- An index of the per-block layout drops to column j exactly when its column is j. -/
theorem drop_parts_iff (i : S20x8x128.Idx) (j : Cl) :
    reducesTo_S20x8x128_S128_d0_1.drop i = ix1 j ↔ i 2 = j := by
  have hv := Shape.ReducesTo.drop_apply_val_of_eq reducesTo_S20x8x128_S128_d0_1 i (0 : Fin 1) (2 : Fin 3)
  constructor
  · intro h
    exact Fin.ext (hv.symm.trans (congrArg (fun t : S128.Idx => (t 0).val) h))
  · intro h
    funext b
    match b with
    | ⟨0, _⟩ => exact Fin.ext (hv.trans (congrArg Fin.val h))

/-- The sums of the layout of per-block column sums are the column sums. -/
theorem sumsArr_parts (e : Rw → Cl → EReal) (j : Cl) : sumsArr (parts e) (ix1 j) = colSum e j := by
  unfold sumsArr
  rw [hostReduceAdd_apply, constant_apply, Ideal.ofBits_zero_f32]
  unfold Ideal.hostReduceAdd
  rw [zero_add, Finset.sum_filter, sum_idx3]
  refine Eq.trans ?_ (sum_parts_coord e j)
  refine Finset.sum_congr rfl (fun a _ => Finset.sum_congr rfl (fun b _ => ?_))
  rw [Finset.sum_eq_single j]
  · exact if_pos ((drop_parts_iff _ j).mpr rfl)
  · intro c _ hc
    exact if_neg (fun hp => hc ((drop_parts_iff _ j).mp hp))
  · intro h0
    exact absurd (Finset.mem_univ _) h0

theorem meanArr_parts (e : Rw → Cl → EReal) (j : Cl) : meanArr (parts e) (ix1 j) = mean e j := by
  unfold meanArr mean
  rw [hostDivf_apply, sumsArr_parts, broadcastInDim_scalar_apply, constant_apply]

theorem varArr_parts (e : Rw → Cl → EReal) (j : Cl) :
    varArr (parts e) (parts (fun n j => e n j * e n j)) (ix1 j) = varK e j := by
  unfold varArr varK
  rw [maximumf_apply, subf_apply, mulf_apply, meanArr_parts e j, meanArr_parts (fun n j => e n j * e n j) j,
    broadcastInDim_scalar_apply, constant_apply, Ideal.ofBits_zero_f32]
  rfl

/-- The means as a one-row matrix. -/
theorem meanRow_parts (e : Rw → Cl → EReal) :
    shapeCast S1x128 (meanArr (parts e)) shapeCasts_S128_S1x128 = toRow (mean e) := by
  funext i
  obtain ⟨u, j, rfl⟩ : ∃ (u : Fin 1) (j : Fin 128), i = ix2 u j := ⟨i 0, i 1, eq_ix2 i⟩
  rw [shapeCast_a_1a_apply]
  exact meanArr_parts e j

/-- The clipped variances as a one-row matrix. -/
theorem varRow_parts (e : Rw → Cl → EReal) :
    shapeCast S1x128 (varArr (parts e) (parts (fun n j => e n j * e n j))) shapeCasts_S128_S1x128 = toRow (varK e) := by
  funext i
  obtain ⟨u, j, rfl⟩ : ∃ (u : Fin 1) (j : Fin 128), i = ix2 u j := ⟨i 0, i 1, eq_ix2 i⟩
  rw [shapeCast_a_1a_apply]
  exact varArr_parts e j

/-! ## The per-graph sums from the per-block per-graph sums -/

/-- The sum of a per-block per-graph layout over the blocks, from zero. -/
def poolArr (x : S20x512x128.Idx → EReal) : S512x128.Idx → EReal :=
  Host.reduceAdd x (constant (F := Ideal) S_ .f32 0x00000000#32) reducesTo_S20x512x128_S512x128_d0 h_S_

/-- An index of the per-block per-graph layout drops to (g, j) exactly when its graph is g and its column is j. -/
theorem drop_pool_iff (i : S20x512x128.Idx) (g : Gr) (j : Cl) :
    reducesTo_S20x512x128_S512x128_d0.drop i = ix2 g j ↔ (i 1 = g ∧ i 2 = j) := by
  have h0 := Shape.ReducesTo.drop_apply_val_of_eq reducesTo_S20x512x128_S512x128_d0 i (0 : Fin 2) (1 : Fin 3)
  have h1 := Shape.ReducesTo.drop_apply_val_of_eq reducesTo_S20x512x128_S512x128_d0 i (1 : Fin 2) (2 : Fin 3)
  constructor
  · intro h
    exact ⟨Fin.ext (h0.symm.trans (congrArg (fun t : S512x128.Idx => (t 0).val) h)),
      Fin.ext (h1.symm.trans (congrArg (fun t : S512x128.Idx => (t 1).val) h))⟩
  · rintro ⟨hg, hj⟩
    funext b
    match b with
    | ⟨0, _⟩ => exact Fin.ext (h0.trans (congrArg Fin.val hg))
    | ⟨1, _⟩ => exact Fin.ext (h1.trans (congrArg Fin.val hj))

/-- The sums over the blocks of the per-block per-graph sums are the per-graph sums. -/
theorem poolArr_poolParts (h : Rw → Cl → EReal) (lbl : Rw → BitVec 32) :
    poolArr (poolParts h lbl) = toArr2 (pool h lbl) := by
  funext i
  obtain ⟨g, j, rfl⟩ : ∃ (g : Fin 512) (j : Fin 128), i = ix2 g j := ⟨i 0, i 1, eq_ix2 i⟩
  show poolArr (poolParts h lbl) (ix2 g j) = pool h lbl g j
  unfold poolArr
  rw [hostReduceAdd_apply, constant_apply, Ideal.ofBits_zero_f32]
  unfold Ideal.hostReduceAdd
  rw [zero_add, Finset.sum_filter, sum_idx3]
  refine Eq.trans ?_ (sum_poolParts_coord h lbl g j)
  refine Finset.sum_congr rfl (fun a _ => ?_)
  rw [Finset.sum_eq_single g]
  · rw [Finset.sum_eq_single j]
    · exact if_pos ((drop_pool_iff _ g j).mpr ⟨rfl, rfl⟩)
    · intro c _ hc
      exact if_neg (fun hp => hc ((drop_pool_iff _ g j).mp hp).2)
    · intro h0
      exact absurd (Finset.mem_univ _) h0
  · intro b _ hb
    exact Finset.sum_eq_zero (fun c _ => if_neg (fun hp => hb ((drop_pool_iff _ g j).mp hp).1))
  · intro h0
    exact absurd (Finset.mem_univ _) h0

/-! ## The stretches that follow the perceptron regions: the statistics and the rows of scale and shift -/

/-- Stretch 1: the row of column means, from the per-block column sums. -/
theorem stretch1_mu (U : Valuation τ sig (Elt Ideal)) (e : Rw → Cl → EReal)
    (h7 : (U (Proc.devRef .tc main_v25_1) : S20x8x128.Idx → EReal) = parts e) :
    (StableHlo.after (hostOps1 (F := Ideal)) U (Proc.devRef .tc main_v37) : S1x128.Idx → EReal) = toRow (mean e) := by
  refine Eq.trans ?_ (meanRow_parts e)
  rw [← h7]
  after_results
  rfl

/-- Stretch 1: the row of clipped variances, from the per-block column sums of the entries and of their squares. -/
theorem stretch1_var (U : Valuation τ sig (Elt Ideal)) (e : Rw → Cl → EReal)
    (h7 : (U (Proc.devRef .tc main_v25_1) : S20x8x128.Idx → EReal) = parts e)
    (h8 : (U (Proc.devRef .tc main_v25_2) : S20x8x128.Idx → EReal) = parts (fun n j => e n j * e n j)) :
    (StableHlo.after (hostOps1 (F := Ideal)) U (Proc.devRef .tc main_v36) : S1x128.Idx → EReal) = toRow (varK e) := by
  refine Eq.trans ?_ (varRow_parts e)
  rw [← h7, ← h8]
  after_results
  rfl

/-- Stretch 1: the row of scales is row 0 of the stack. -/
theorem stretch1_gamma (U : Valuation τ sig (Elt Ideal)) :
    (StableHlo.after (hostOps1 (F := Ideal)) U (Proc.devRef .tc main_v40) : S1x128.Idx → EReal)
      = toRow (fun j => (U (Proc.devRef .tc main_arg7) : S3x128.Idx → EReal) (ix2 0 j)) := by
  refine Eq.trans ?_ (rowOf_eq 0 (U (Proc.devRef .tc main_arg7)) slices_S3x128_S1x128_0_0 0 rfl)
  after_results
  rfl

/-- Stretch 1: the row of shifts is row 0 of the stack. -/
theorem stretch1_beta (U : Valuation τ sig (Elt Ideal)) :
    (StableHlo.after (hostOps1 (F := Ideal)) U (Proc.devRef .tc main_v43) : S1x128.Idx → EReal)
      = toRow (fun j => (U (Proc.devRef .tc main_arg8) : S3x128.Idx → EReal) (ix2 0 j)) := by
  refine Eq.trans ?_ (rowOf_eq 0 (U (Proc.devRef .tc main_arg8)) slices_S3x128_S1x128_0_0 0 rfl)
  after_results
  rfl

/-- Stretch 3: the row of column means, from the per-block column sums. -/
theorem stretch3_mu (U : Valuation τ sig (Elt Ideal)) (e : Rw → Cl → EReal)
    (h7 : (U (Proc.devRef .tc main_v66_1) : S20x8x128.Idx → EReal) = parts e) :
    (StableHlo.after (hostOps3 (F := Ideal)) U (Proc.devRef .tc main_v78) : S1x128.Idx → EReal) = toRow (mean e) := by
  refine Eq.trans ?_ (meanRow_parts e)
  rw [← h7]
  after_results
  rfl

/-- Stretch 3: the row of clipped variances, from the per-block column sums of the entries and of their squares. -/
theorem stretch3_var (U : Valuation τ sig (Elt Ideal)) (e : Rw → Cl → EReal)
    (h7 : (U (Proc.devRef .tc main_v66_1) : S20x8x128.Idx → EReal) = parts e)
    (h8 : (U (Proc.devRef .tc main_v66_2) : S20x8x128.Idx → EReal) = parts (fun n j => e n j * e n j)) :
    (StableHlo.after (hostOps3 (F := Ideal)) U (Proc.devRef .tc main_v77) : S1x128.Idx → EReal) = toRow (varK e) := by
  refine Eq.trans ?_ (varRow_parts e)
  rw [← h7, ← h8]
  after_results
  rfl

/-- Stretch 3: the row of scales is row 1 of the stack. -/
theorem stretch3_gamma (U : Valuation τ sig (Elt Ideal)) :
    (StableHlo.after (hostOps3 (F := Ideal)) U (Proc.devRef .tc main_v81) : S1x128.Idx → EReal)
      = toRow (fun j => (U (Proc.devRef .tc main_arg7) : S3x128.Idx → EReal) (ix2 1 j)) := by
  refine Eq.trans ?_ (rowOf_eq 1 (U (Proc.devRef .tc main_arg7)) slices_S3x128_S1x128_1_0 1 rfl)
  after_results
  rfl

/-- Stretch 3: the row of shifts is row 1 of the stack. -/
theorem stretch3_beta (U : Valuation τ sig (Elt Ideal)) :
    (StableHlo.after (hostOps3 (F := Ideal)) U (Proc.devRef .tc main_v84) : S1x128.Idx → EReal)
      = toRow (fun j => (U (Proc.devRef .tc main_arg8) : S3x128.Idx → EReal) (ix2 1 j)) := by
  refine Eq.trans ?_ (rowOf_eq 1 (U (Proc.devRef .tc main_arg8)) slices_S3x128_S1x128_1_0 1 rfl)
  after_results
  rfl

/-- Stretch 5: the row of column means, from the per-block column sums. -/
theorem stretch5_mu (U : Valuation τ sig (Elt Ideal)) (e : Rw → Cl → EReal)
    (h7 : (U (Proc.devRef .tc main_v107_1) : S20x8x128.Idx → EReal) = parts e) :
    (StableHlo.after (hostOps5 (F := Ideal)) U (Proc.devRef .tc main_v119) : S1x128.Idx → EReal) = toRow (mean e) := by
  refine Eq.trans ?_ (meanRow_parts e)
  rw [← h7]
  after_results
  rfl

/-- Stretch 5: the row of clipped variances, from the per-block column sums of the entries and of their squares. -/
theorem stretch5_var (U : Valuation τ sig (Elt Ideal)) (e : Rw → Cl → EReal)
    (h7 : (U (Proc.devRef .tc main_v107_1) : S20x8x128.Idx → EReal) = parts e)
    (h8 : (U (Proc.devRef .tc main_v107_2) : S20x8x128.Idx → EReal) = parts (fun n j => e n j * e n j)) :
    (StableHlo.after (hostOps5 (F := Ideal)) U (Proc.devRef .tc main_v118) : S1x128.Idx → EReal) = toRow (varK e) := by
  refine Eq.trans ?_ (varRow_parts e)
  rw [← h7, ← h8]
  after_results
  rfl

/-- Stretch 5: the row of scales is row 2 of the stack. -/
theorem stretch5_gamma (U : Valuation τ sig (Elt Ideal)) :
    (StableHlo.after (hostOps5 (F := Ideal)) U (Proc.devRef .tc main_v122) : S1x128.Idx → EReal)
      = toRow (fun j => (U (Proc.devRef .tc main_arg7) : S3x128.Idx → EReal) (ix2 2 j)) := by
  refine Eq.trans ?_ (rowOf_eq 2 (U (Proc.devRef .tc main_arg7)) slices_S3x128_S1x128_2_0 2 rfl)
  after_results
  rfl

/-- Stretch 5: the row of shifts is row 2 of the stack. -/
theorem stretch5_beta (U : Valuation τ sig (Elt Ideal)) :
    (StableHlo.after (hostOps5 (F := Ideal)) U (Proc.devRef .tc main_v125) : S1x128.Idx → EReal)
      = toRow (fun j => (U (Proc.devRef .tc main_arg8) : S3x128.Idx → EReal) (ix2 2 j)) := by
  refine Eq.trans ?_ (rowOf_eq 2 (U (Proc.devRef .tc main_arg8)) slices_S3x128_S1x128_2_0 2 rfl)
  after_results
  rfl

/-! ## The stretches that precede the perceptron regions: the layer's weights -/

/-- Stretch 0: layer 0's first weight matrix is matrix 0 of the stack. -/
theorem stretch0_W1 (U : Valuation τ sig (Elt Ideal)) :
    (StableHlo.after (hostOps0 (F := Ideal)) U (Proc.devRef .tc main_v16) : S128x128.Idx → EReal)
      = toArr2 (fun k j => (U (Proc.devRef .tc main_arg3) : S3x128x128.Idx → EReal) (ix3 0 k j)) := by
  refine Eq.trans ?_ (matOf_eq 0 (U (Proc.devRef .tc main_arg3)) slices_S3x128x128_S1x128x128_0_0_0 0 rfl)
  after_results
  rfl

/-- Stretch 0: layer 0's first bias row is row 0 of the stack. -/
theorem stretch0_b1 (U : Valuation τ sig (Elt Ideal)) :
    (StableHlo.after (hostOps0 (F := Ideal)) U (Proc.devRef .tc main_v19) : S1x128.Idx → EReal)
      = toRow (fun j => (U (Proc.devRef .tc main_arg4) : S3x128.Idx → EReal) (ix2 0 j)) := by
  refine Eq.trans ?_ (rowOf_eq 0 (U (Proc.devRef .tc main_arg4)) slices_S3x128_S1x128_0_0 0 rfl)
  after_results
  rfl

/-- Stretch 0: layer 0's second weight matrix is matrix 0 of the stack. -/
theorem stretch0_W2 (U : Valuation τ sig (Elt Ideal)) :
    (StableHlo.after (hostOps0 (F := Ideal)) U (Proc.devRef .tc main_v21) : S128x128.Idx → EReal)
      = toArr2 (fun k j => (U (Proc.devRef .tc main_arg5) : S3x128x128.Idx → EReal) (ix3 0 k j)) := by
  refine Eq.trans ?_ (matOf_eq 0 (U (Proc.devRef .tc main_arg5)) slices_S3x128x128_S1x128x128_0_0_0 0 rfl)
  after_results
  rfl

/-- Stretch 0: layer 0's second bias row is row 0 of the stack. -/
theorem stretch0_b2 (U : Valuation τ sig (Elt Ideal)) :
    (StableHlo.after (hostOps0 (F := Ideal)) U (Proc.devRef .tc main_v24) : S1x128.Idx → EReal)
      = toRow (fun j => (U (Proc.devRef .tc main_arg6) : S3x128.Idx → EReal) (ix2 0 j)) := by
  refine Eq.trans ?_ (rowOf_eq 0 (U (Proc.devRef .tc main_arg6)) slices_S3x128_S1x128_0_0 0 rfl)
  after_results
  rfl

/-- Stretch 2: layer 1's first weight matrix is matrix 1 of the stack. -/
theorem stretch2_W1 (U : Valuation τ sig (Elt Ideal)) :
    (StableHlo.after (hostOps2 (F := Ideal)) U (Proc.devRef .tc main_v57) : S128x128.Idx → EReal)
      = toArr2 (fun k j => (U (Proc.devRef .tc main_arg3) : S3x128x128.Idx → EReal) (ix3 1 k j)) := by
  refine Eq.trans ?_ (matOf_eq 1 (U (Proc.devRef .tc main_arg3)) slices_S3x128x128_S1x128x128_1_0_0 1 rfl)
  after_results
  rfl

/-- Stretch 2: layer 1's first bias row is row 1 of the stack. -/
theorem stretch2_b1 (U : Valuation τ sig (Elt Ideal)) :
    (StableHlo.after (hostOps2 (F := Ideal)) U (Proc.devRef .tc main_v60) : S1x128.Idx → EReal)
      = toRow (fun j => (U (Proc.devRef .tc main_arg4) : S3x128.Idx → EReal) (ix2 1 j)) := by
  refine Eq.trans ?_ (rowOf_eq 1 (U (Proc.devRef .tc main_arg4)) slices_S3x128_S1x128_1_0 1 rfl)
  after_results
  rfl

/-- Stretch 2: layer 1's second weight matrix is matrix 1 of the stack. -/
theorem stretch2_W2 (U : Valuation τ sig (Elt Ideal)) :
    (StableHlo.after (hostOps2 (F := Ideal)) U (Proc.devRef .tc main_v62) : S128x128.Idx → EReal)
      = toArr2 (fun k j => (U (Proc.devRef .tc main_arg5) : S3x128x128.Idx → EReal) (ix3 1 k j)) := by
  refine Eq.trans ?_ (matOf_eq 1 (U (Proc.devRef .tc main_arg5)) slices_S3x128x128_S1x128x128_1_0_0 1 rfl)
  after_results
  rfl

/-- Stretch 2: layer 1's second bias row is row 1 of the stack. -/
theorem stretch2_b2 (U : Valuation τ sig (Elt Ideal)) :
    (StableHlo.after (hostOps2 (F := Ideal)) U (Proc.devRef .tc main_v65) : S1x128.Idx → EReal)
      = toRow (fun j => (U (Proc.devRef .tc main_arg6) : S3x128.Idx → EReal) (ix2 1 j)) := by
  refine Eq.trans ?_ (rowOf_eq 1 (U (Proc.devRef .tc main_arg6)) slices_S3x128_S1x128_1_0 1 rfl)
  after_results
  rfl

/-- Stretch 4: layer 2's first weight matrix is matrix 2 of the stack. -/
theorem stretch4_W1 (U : Valuation τ sig (Elt Ideal)) :
    (StableHlo.after (hostOps4 (F := Ideal)) U (Proc.devRef .tc main_v98) : S128x128.Idx → EReal)
      = toArr2 (fun k j => (U (Proc.devRef .tc main_arg3) : S3x128x128.Idx → EReal) (ix3 2 k j)) := by
  refine Eq.trans ?_ (matOf_eq 2 (U (Proc.devRef .tc main_arg3)) slices_S3x128x128_S1x128x128_2_0_0 2 rfl)
  after_results
  rfl

/-- Stretch 4: layer 2's first bias row is row 2 of the stack. -/
theorem stretch4_b1 (U : Valuation τ sig (Elt Ideal)) :
    (StableHlo.after (hostOps4 (F := Ideal)) U (Proc.devRef .tc main_v101) : S1x128.Idx → EReal)
      = toRow (fun j => (U (Proc.devRef .tc main_arg4) : S3x128.Idx → EReal) (ix2 2 j)) := by
  refine Eq.trans ?_ (rowOf_eq 2 (U (Proc.devRef .tc main_arg4)) slices_S3x128_S1x128_2_0 2 rfl)
  after_results
  rfl

/-- Stretch 4: layer 2's second weight matrix is matrix 2 of the stack. -/
theorem stretch4_W2 (U : Valuation τ sig (Elt Ideal)) :
    (StableHlo.after (hostOps4 (F := Ideal)) U (Proc.devRef .tc main_v103) : S128x128.Idx → EReal)
      = toArr2 (fun k j => (U (Proc.devRef .tc main_arg5) : S3x128x128.Idx → EReal) (ix3 2 k j)) := by
  refine Eq.trans ?_ (matOf_eq 2 (U (Proc.devRef .tc main_arg5)) slices_S3x128x128_S1x128x128_2_0_0 2 rfl)
  after_results
  rfl

/-- Stretch 4: layer 2's second bias row is row 2 of the stack. -/
theorem stretch4_b2 (U : Valuation τ sig (Elt Ideal)) :
    (StableHlo.after (hostOps4 (F := Ideal)) U (Proc.devRef .tc main_v106) : S1x128.Idx → EReal)
      = toRow (fun j => (U (Proc.devRef .tc main_arg6) : S3x128.Idx → EReal) (ix2 2 j)) := by
  refine Eq.trans ?_ (rowOf_eq 2 (U (Proc.devRef .tc main_arg6)) slices_S3x128_S1x128_2_0 2 rfl)
  after_results
  rfl

/-! ## The per-graph sums -/

/-- Stretch 2: the per-graph sums of a layer's features, from the per-block per-graph sums. -/
theorem stretch2_pool (U : Valuation τ sig (Elt Ideal)) (h : Rw → Cl → EReal) (lbl : Rw → BitVec 32)
    (h7 : (U (Proc.devRef .tc main_v44_1) : S20x512x128.Idx → EReal) = poolParts h lbl) :
    (StableHlo.after (hostOps2 (F := Ideal)) U (Proc.devRef .tc main_v45) : S512x128.Idx → EReal) = toArr2 (pool h lbl) := by
  refine Eq.trans ?_ (poolArr_poolParts h lbl)
  rw [← h7]
  after_results
  rfl

/-- Stretch 4: the per-graph sums of a layer's features, from the per-block per-graph sums. -/
theorem stretch4_pool (U : Valuation τ sig (Elt Ideal)) (h : Rw → Cl → EReal) (lbl : Rw → BitVec 32)
    (h7 : (U (Proc.devRef .tc main_v85_1) : S20x512x128.Idx → EReal) = poolParts h lbl) :
    (StableHlo.after (hostOps4 (F := Ideal)) U (Proc.devRef .tc main_v86) : S512x128.Idx → EReal) = toArr2 (pool h lbl) := by
  refine Eq.trans ?_ (poolArr_poolParts h lbl)
  rw [← h7]
  after_results
  rfl

/-- Stretch 6: the per-graph sums of a layer's features, from the per-block per-graph sums. -/
theorem stretch6_pool (U : Valuation τ sig (Elt Ideal)) (h : Rw → Cl → EReal) (lbl : Rw → BitVec 32)
    (h7 : (U (Proc.devRef .tc main_v126_1) : S20x512x128.Idx → EReal) = poolParts h lbl) :
    (StableHlo.after (hostOps6 (F := Ideal)) U (Proc.devRef .tc main_v127) : S512x128.Idx → EReal) = toArr2 (pool h lbl) := by
  refine Eq.trans ?_ (poolArr_poolParts h lbl)
  rw [← h7]
  after_results
  rfl

/-! ## The two results -/

/-- The last stretch's per-graph sums, as the sum over the blocks. -/
theorem stretch6_v127_term (U : Valuation τ sig (Elt Ideal)) :
    (StableHlo.after (hostOps6 (F := Ideal)) U (Proc.devRef .tc main_v127) : S512x128.Idx → EReal) = poolArr (U (Proc.devRef .tc main_v126_1)) := by
  after_results
  rfl

/-- The per-graph result: the three layers' per-graph sums side by side. -/
theorem stretch6_v128 (U : Valuation τ sig (Elt Ideal)) :
    (StableHlo.after (hostOps6 (F := Ideal)) U (Proc.devRef .tc main_v128) : S512x384.Idx → EReal)
      = concatenate S512x384 1 [⟨S512x128, (U (Proc.devRef .tc main_v45) : S512x128.Idx → EReal)⟩,
          ⟨S512x128, (U (Proc.devRef .tc main_v86) : S512x128.Idx → EReal)⟩,
          ⟨S512x128, (StableHlo.after (hostOps6 (F := Ideal)) U (Proc.devRef .tc main_v127) : S512x128.Idx → EReal)⟩]
        concatenates_S512x128_S512x128_S512x128_S512x384_d1 := by
  rw [stretch6_v127_term U]
  after_results
  rfl

/-- The per-node result: the three layers' features side by side. -/
theorem stretch6_v129 (U : Valuation τ sig (Elt Ideal)) :
    (StableHlo.after (hostOps6 (F := Ideal)) U (Proc.devRef .tc main_v129) : S100000x384.Idx → EReal)
      = concatenate S100000x384 1 [⟨S100000x128, (U (Proc.devRef .tc main_v44_0) : S100000x128.Idx → EReal)⟩,
          ⟨S100000x128, (U (Proc.devRef .tc main_v85_0) : S100000x128.Idx → EReal)⟩,
          ⟨S100000x128, (U (Proc.devRef .tc main_v126_0) : S100000x128.Idx → EReal)⟩]
        concatenates_S100000x128_S100000x128_S100000x128_S100000x384_d1 := by
  after_results
  rfl

end Cert.KernelIdeal.Hand

end
-- ==== Proof.KIVal.lean ====
/- The values of the idealized kernel program, boundary by boundary. With the inputs read in curried form and the
   neighbour aggregation as one function, the buffers after each item of @main hold, layer by layer: the aggregate
   of the current features and the layer's slices of the weight tables; the perceptron's output with its per-block
   column sums and sums of squares; the column mean and the clipped variance with the layer's scale and shift; the
   normalised features — the next layer's features — with their per-block per-graph sums; and, one stretch later,
   the per-graph sums. The two results are the three pooled tables side by side and the three layers' features
   side by side. Every equation is between whole arrays. -/
import proofs.«406400_j6640019439960_2_alg».proof.Proof.KIFold
import proofs.«406400_j6640019439960_2_alg».proof.Proof.Layers
import proofs.«406400_j6640019439960_2_alg».proof.Proof.Agg
import proofs.«406400_j6640019439960_2_alg».proof.Proof.KIValA0
import proofs.«406400_j6640019439960_2_alg».proof.Proof.KIValA2
import proofs.«406400_j6640019439960_2_alg».proof.Proof.KIValA4
import proofs.«406400_j6640019439960_2_alg».proof.Proof.KIValB1
import proofs.«406400_j6640019439960_2_alg».proof.Proof.KIValB3
import proofs.«406400_j6640019439960_2_alg».proof.Proof.KIValB5
import proofs.«406400_j6640019439960_2_alg».proof.Proof.KIValHost

-- deciding that a reference is none of a region's window arrays, or none of a stretch's written references, walks
-- lists of some dozens of the program's references
set_option maxRecDepth 4096

noncomputable section

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-! ## The inputs and the aggregation, read off the launch memory -/

/-- The inputs in curried form. -/
def inpOf : Cert.Spec.Inp where
  x := of2 (m ((c : Thread nD τ).loc main_arg0) : S100000x128.Idx → EReal)
  lbl := lab1 (m ((c : Thread nD τ).loc main_arg2) : S100000.Idx → BitVec 32)
  W1 := fun L k j => (m ((c : Thread nD τ).loc main_arg3) : S3x128x128.Idx → EReal) (ix3 L k j)
  b1 := fun L j => (m ((c : Thread nD τ).loc main_arg4) : S3x128.Idx → EReal) (ix2 L j)
  W2 := fun L k j => (m ((c : Thread nD τ).loc main_arg5) : S3x128x128.Idx → EReal) (ix3 L k j)
  b2 := fun L j => (m ((c : Thread nD τ).loc main_arg6) : S3x128.Idx → EReal) (ix2 L j)
  gamma := fun L j => (m ((c : Thread nD τ).loc main_arg7) : S3x128.Idx → EReal) (ix2 L j)
  beta := fun L j => (m ((c : Thread nD τ).loc main_arg8) : S3x128.Idx → EReal) (ix2 L j)

/-- The neighbour aggregation along the launch edge list, on curried features. -/
def aggOf : (Rw → Cl → EReal) → (Rw → Cl → EReal) := fun h =>
  of2 (aggCore (toArr2 h) (srcOf (m ((c : Thread nD τ).loc main_arg1))) (dstOf (m ((c : Thread nD τ).loc main_arg1))))

/-- It keeps real entries real. -/
theorem aggOf_real : ∀ h, R2 h → R2 (aggOf m c h) := fun h hh => aggCore_real (toArr2 h) _ _ hh

/-- The features after L layers, and the perceptron's output in layer L. -/
abbrev hk (L : Nat) : Rw → Cl → EReal := hK (aggOf m c) (inpOf m c) L
abbrev ek (L : Nat) : Rw → Cl → EReal :=
  mlp (aggOf m c (hk m c L)) (hk m c L) ((inpOf m c).W1 ⟨L % 3, Nat.mod_lt _ (by decide)⟩)
    ((inpOf m c).b1 ⟨L % 3, Nat.mod_lt _ (by decide)⟩) ((inpOf m c).W2 ⟨L % 3, Nat.mod_lt _ (by decide)⟩)
    ((inpOf m c).b2 ⟨L % 3, Nat.mod_lt _ (by decide)⟩)

/-- A layer's new features are the normalisation of its perceptron's output by that output's column statistics. -/
theorem hk_succ (L : Nat) : hk m c (L + 1) = bn (ek m c L) (mean (ek m c L)) (varK (ek m c L))
    ((inpOf m c).gamma ⟨L % 3, Nat.mod_lt _ (by decide)⟩) ((inpOf m c).beta ⟨L % 3, Nat.mod_lt _ (by decide)⟩) := rfl

/-- With real inputs every layer's features are real. -/
theorem hk_real (hI : (inpOf m c).Real) (L : Nat) : R2 (hk m c L) := by
  have h := hK_eq_hR (aggOf_real m c) hI L
  show R2 (hK (aggOf m c) (inpOf m c) L)
  rw [h.1]
  exact h.2

/-! ## Small congruences -/

theorem slice3 {X Y : S3x128x128.Idx → EReal} (h : X = Y) (L : Fin 3) :
    toArr2 (fun (k j : Cl) => X (ix3 L k j)) = toArr2 (fun (k j : Cl) => Y (ix3 L k j)) := h ▸ rfl
theorem slice2 {X Y : S3x128.Idx → EReal} (h : X = Y) (L : Fin 3) :
    toRow (fun (j : Cl) => X (ix2 L j)) = toRow (fun (j : Cl) => Y (ix2 L j)) := h ▸ rfl

/-- The aggregate of an array that is some curried features, along the launch edges. -/
theorem agg_step (h : Rw → Cl → EReal) {X : S100000x128.Idx → EReal} {s d : S640000.Idx → BitVec 32} (hX : X = toArr2 h)
    (hs : s = srcOf (m ((c : Thread nD τ).loc main_arg1))) (hd : d = dstOf (m ((c : Thread nD τ).loc main_arg1))) :
    aggCore X s d = toArr2 (aggOf m c h) := by
  subst hX hs hd
  exact (toArr2_of2 _).symm

section
variable (V : (c : Dev nD) → (b : Ref sig .tc) → Buf (Elt Ideal) ((c : Thread nD τ).loc b))

/-- Region 0's perceptron at entry contents that are given curried data. -/
theorem eA0_eq {a h : Rw → Cl → EReal} {w1 w2 : Cl → Cl → EReal} {b1 b2 : Cl → EReal}
    (h14 : (V c main_v14 : S100000x128.Idx → EReal) = toArr2 a) (h0 : (V c main_arg0 : S100000x128.Idx → EReal) = toArr2 h)
    (h16 : (V c main_v16 : S128x128.Idx → EReal) = toArr2 w1) (h19 : (V c main_v19 : S1x128.Idx → EReal) = toRow b1)
    (h21 : (V c main_v21 : S128x128.Idx → EReal) = toArr2 w2) (h24 : (V c main_v24 : S1x128.Idx → EReal) = toRow b2) :
    eA0 V c = mlp a h w1 b1 w2 b2 := by
  have e : eA0 V c = mlp (of2 (toArr2 a)) (of2 (toArr2 h)) (of2 (toArr2 w1)) (row (toRow b1)) (of2 (toArr2 w2)) (row (toRow b2)) := by
    show mlp (of2 (V c main_v14 : S100000x128.Idx → EReal)) (of2 (V c main_arg0 : S100000x128.Idx → EReal))
      (of2 (V c main_v16 : S128x128.Idx → EReal)) (row (V c main_v19 : S1x128.Idx → EReal))
      (of2 (V c main_v21 : S128x128.Idx → EReal)) (row (V c main_v24 : S1x128.Idx → EReal)) = _
    rw [h14, h0, h16, h19, h21, h24]
  exact e

theorem eA2_eq {a h : Rw → Cl → EReal} {w1 w2 : Cl → Cl → EReal} {b1 b2 : Cl → EReal}
    (h14 : (V c main_v55 : S100000x128.Idx → EReal) = toArr2 a) (h0 : (V c main_v44_0 : S100000x128.Idx → EReal) = toArr2 h)
    (h16 : (V c main_v57 : S128x128.Idx → EReal) = toArr2 w1) (h19 : (V c main_v60 : S1x128.Idx → EReal) = toRow b1)
    (h21 : (V c main_v62 : S128x128.Idx → EReal) = toArr2 w2) (h24 : (V c main_v65 : S1x128.Idx → EReal) = toRow b2) :
    eA2 V c = mlp a h w1 b1 w2 b2 := by
  have e : eA2 V c = mlp (of2 (toArr2 a)) (of2 (toArr2 h)) (of2 (toArr2 w1)) (row (toRow b1)) (of2 (toArr2 w2)) (row (toRow b2)) := by
    show mlp (of2 (V c main_v55 : S100000x128.Idx → EReal)) (of2 (V c main_v44_0 : S100000x128.Idx → EReal))
      (of2 (V c main_v57 : S128x128.Idx → EReal)) (row (V c main_v60 : S1x128.Idx → EReal))
      (of2 (V c main_v62 : S128x128.Idx → EReal)) (row (V c main_v65 : S1x128.Idx → EReal)) = _
    rw [h14, h0, h16, h19, h21, h24]
  exact e

theorem eA4_eq {a h : Rw → Cl → EReal} {w1 w2 : Cl → Cl → EReal} {b1 b2 : Cl → EReal}
    (h14 : (V c main_v96 : S100000x128.Idx → EReal) = toArr2 a) (h0 : (V c main_v85_0 : S100000x128.Idx → EReal) = toArr2 h)
    (h16 : (V c main_v98 : S128x128.Idx → EReal) = toArr2 w1) (h19 : (V c main_v101 : S1x128.Idx → EReal) = toRow b1)
    (h21 : (V c main_v103 : S128x128.Idx → EReal) = toArr2 w2) (h24 : (V c main_v106 : S1x128.Idx → EReal) = toRow b2) :
    eA4 V c = mlp a h w1 b1 w2 b2 := by
  have e : eA4 V c = mlp (of2 (toArr2 a)) (of2 (toArr2 h)) (of2 (toArr2 w1)) (row (toRow b1)) (of2 (toArr2 w2)) (row (toRow b2)) := by
    show mlp (of2 (V c main_v96 : S100000x128.Idx → EReal)) (of2 (V c main_v85_0 : S100000x128.Idx → EReal))
      (of2 (V c main_v98 : S128x128.Idx → EReal)) (row (V c main_v101 : S1x128.Idx → EReal))
      (of2 (V c main_v103 : S128x128.Idx → EReal)) (row (V c main_v106 : S1x128.Idx → EReal)) = _
    rw [h14, h0, h16, h19, h21, h24]
  exact e

/-- Region 1's normalisation at entry contents that are given curried data. -/
theorem hB1_eq {e : Rw → Cl → EReal} {mu var g b : Cl → EReal}
    (h0 : (V c main_v25_0 : S100000x128.Idx → EReal) = toArr2 e) (h37 : (V c main_v37 : S1x128.Idx → EReal) = toRow mu)
    (h36 : (V c main_v36 : S1x128.Idx → EReal) = toRow var) (h40 : (V c main_v40 : S1x128.Idx → EReal) = toRow g)
    (h43 : (V c main_v43 : S1x128.Idx → EReal) = toRow b) : hB1 V c = bn e mu var g b := by
  have q : hB1 V c = bn (of2 (toArr2 e)) (row (toRow mu)) (row (toRow var)) (row (toRow g)) (row (toRow b)) := by
    show bn (of2 (V c main_v25_0 : S100000x128.Idx → EReal)) (row (V c main_v37 : S1x128.Idx → EReal))
      (row (V c main_v36 : S1x128.Idx → EReal)) (row (V c main_v40 : S1x128.Idx → EReal)) (row (V c main_v43 : S1x128.Idx → EReal)) = _
    rw [h0, h37, h36, h40, h43]
  exact q

theorem hB3_eq {e : Rw → Cl → EReal} {mu var g b : Cl → EReal}
    (h0 : (V c main_v66_0 : S100000x128.Idx → EReal) = toArr2 e) (h37 : (V c main_v78 : S1x128.Idx → EReal) = toRow mu)
    (h36 : (V c main_v77 : S1x128.Idx → EReal) = toRow var) (h40 : (V c main_v81 : S1x128.Idx → EReal) = toRow g)
    (h43 : (V c main_v84 : S1x128.Idx → EReal) = toRow b) : hB3 V c = bn e mu var g b := by
  have q : hB3 V c = bn (of2 (toArr2 e)) (row (toRow mu)) (row (toRow var)) (row (toRow g)) (row (toRow b)) := by
    show bn (of2 (V c main_v66_0 : S100000x128.Idx → EReal)) (row (V c main_v78 : S1x128.Idx → EReal))
      (row (V c main_v77 : S1x128.Idx → EReal)) (row (V c main_v81 : S1x128.Idx → EReal)) (row (V c main_v84 : S1x128.Idx → EReal)) = _
    rw [h0, h37, h36, h40, h43]
  exact q

theorem hB5_eq {e : Rw → Cl → EReal} {mu var g b : Cl → EReal}
    (h0 : (V c main_v107_0 : S100000x128.Idx → EReal) = toArr2 e) (h37 : (V c main_v119 : S1x128.Idx → EReal) = toRow mu)
    (h36 : (V c main_v118 : S1x128.Idx → EReal) = toRow var) (h40 : (V c main_v122 : S1x128.Idx → EReal) = toRow g)
    (h43 : (V c main_v125 : S1x128.Idx → EReal) = toRow b) : hB5 V c = bn e mu var g b := by
  have q : hB5 V c = bn (of2 (toArr2 e)) (row (toRow mu)) (row (toRow var)) (row (toRow g)) (row (toRow b)) := by
    show bn (of2 (V c main_v107_0 : S100000x128.Idx → EReal)) (row (V c main_v119 : S1x128.Idx → EReal))
      (row (V c main_v118 : S1x128.Idx → EReal)) (row (V c main_v122 : S1x128.Idx → EReal)) (row (V c main_v125 : S1x128.Idx → EReal)) = _
    rw [h0, h37, h36, h40, h43]
  exact q
end

/-! ## What each item of @main leaves alone

Per item, the references this chain reads later and the item does not touch: a host stretch leaves alone what none
of its operations writes, a kernel region what is none of its window arrays; an input window's array is left as
entered. -/

/-- The parameter tables. -/
abbrev parL : List (Ref sig .tc) := [main_arg3, main_arg4, main_arg5, main_arg6, main_arg7, main_arg8]
abbrev K1 : List (Ref sig .tc) := parL ++ [main_arg0]
abbrev K2 : List (Ref sig .tc) := parL ++ [main_v1, main_v3, main_v4]
abbrev K3 : List (Ref sig .tc) := parL ++ [main_v1, main_v3, main_v4, main_v25_0]
abbrev K4 : List (Ref sig .tc) := parL ++ [main_v1, main_v3]
abbrev K5 : List (Ref sig .tc) := parL ++ [main_v1, main_v3, main_v4, main_v44_0]
abbrev K6 : List (Ref sig .tc) := parL ++ [main_v1, main_v3, main_v4, main_v45]
abbrev K7 : List (Ref sig .tc) := parL ++ [main_v1, main_v3, main_v4, main_v45, main_v44_0, main_v66_0]
abbrev K8 : List (Ref sig .tc) := parL ++ [main_v1, main_v3, main_v45, main_v44_0]
abbrev K9 : List (Ref sig .tc) := parL ++ [main_v4, main_v45, main_v44_0, main_v85_0]
abbrev K10 : List (Ref sig .tc) := parL ++ [main_v4, main_v45, main_v86, main_v44_0]
abbrev K11 : List (Ref sig .tc) := parL ++ [main_v4, main_v45, main_v86, main_v44_0, main_v85_0, main_v107_0]
abbrev K12 : List (Ref sig .tc) := [main_v45, main_v86, main_v44_0, main_v85_0]

theorem keep1 (b : Ref sig .tc) (hb : b ∈ K1) : W1 m c (Proc.devRef .tc b) = W0 m c (Proc.devRef .tc b) :=
  W1_of m c b ((by decide : ∀ r ∈ K1, r ∉ (hostOps0_W : List (Ref sig .tc))) b hb)
theorem keep2 (b : Ref sig .tc) (hb : b ∈ K2) : W2 m c (Proc.devRef .tc b) = W1 m c (Proc.devRef .tc b) :=
  W2_of_ne m c b ((by decide : ∀ r ∈ K2, ∀ w, Pipeline.arrRef spec0 w ≠ r) b hb)
theorem keep3 (b : Ref sig .tc) (hb : b ∈ K3) : W3 m c (Proc.devRef .tc b) = W2 m c (Proc.devRef .tc b) :=
  W3_of m c b ((by decide : ∀ r ∈ K3, r ∉ (hostOps1_W : List (Ref sig .tc))) b hb)
theorem keep4 (b : Ref sig .tc) (hb : b ∈ K4) : W4 m c (Proc.devRef .tc b) = W3 m c (Proc.devRef .tc b) :=
  W4_of_ne m c b ((by decide : ∀ r ∈ K4, ∀ w, Pipeline.arrRef spec1 w ≠ r) b hb)
theorem keep5 (b : Ref sig .tc) (hb : b ∈ K5) : W5 m c (Proc.devRef .tc b) = W4 m c (Proc.devRef .tc b) :=
  W5_of m c b ((by decide : ∀ r ∈ K5, r ∉ (hostOps2_W : List (Ref sig .tc))) b hb)
theorem keep6 (b : Ref sig .tc) (hb : b ∈ K6) : W6 m c (Proc.devRef .tc b) = W5 m c (Proc.devRef .tc b) :=
  W6_of_ne m c b ((by decide : ∀ r ∈ K6, ∀ w, Pipeline.arrRef spec2 w ≠ r) b hb)
theorem keep7 (b : Ref sig .tc) (hb : b ∈ K7) : W7 m c (Proc.devRef .tc b) = W6 m c (Proc.devRef .tc b) :=
  W7_of m c b ((by decide : ∀ r ∈ K7, r ∉ (hostOps3_W : List (Ref sig .tc))) b hb)
theorem keep8 (b : Ref sig .tc) (hb : b ∈ K8) : W8 m c (Proc.devRef .tc b) = W7 m c (Proc.devRef .tc b) :=
  W8_of_ne m c b ((by decide : ∀ r ∈ K8, ∀ w, Pipeline.arrRef spec3 w ≠ r) b hb)
theorem keep9 (b : Ref sig .tc) (hb : b ∈ K9) : W9 m c (Proc.devRef .tc b) = W8 m c (Proc.devRef .tc b) :=
  W9_of m c b ((by decide : ∀ r ∈ K9, r ∉ (hostOps4_W : List (Ref sig .tc))) b hb)
theorem keep10 (b : Ref sig .tc) (hb : b ∈ K10) : W10 m c (Proc.devRef .tc b) = W9 m c (Proc.devRef .tc b) :=
  W10_of_ne m c b ((by decide : ∀ r ∈ K10, ∀ w, Pipeline.arrRef spec4 w ≠ r) b hb)
theorem keep11 (b : Ref sig .tc) (hb : b ∈ K11) : W11 m c (Proc.devRef .tc b) = W10 m c (Proc.devRef .tc b) :=
  W11_of m c b ((by decide : ∀ r ∈ K11, r ∉ (hostOps5_W : List (Ref sig .tc))) b hb)
theorem keep12 (b : Ref sig .tc) (hb : b ∈ K12) : W12 m c (Proc.devRef .tc b) = W11 m c (Proc.devRef .tc b) :=
  W12_of_ne m c b ((by decide : ∀ r ∈ K12, ∀ w, Pipeline.arrRef spec5 w ≠ r) b hb)

/-- The label column is an input window of regions 1 and 3; the features are one of regions 2 and 4. -/
theorem in4 : W4 m c (Proc.devRef .tc main_v4) = W3 m c (Proc.devRef .tc main_v4) :=
  (W4_arr m c 5).trans (((dat1 (V3 m) c).arrAt_in 5 rfl _).trans (A_eq1 (V3 m) c 5))
theorem in8 : W8 m c (Proc.devRef .tc main_v4) = W7 m c (Proc.devRef .tc main_v4) :=
  (W8_arr m c 5).trans (((dat3 (V7 m) c).arrAt_in 5 rfl _).trans (A_eq3 (V7 m) c 5))
theorem in6 : W6 m c (Proc.devRef .tc main_v44_0) = W5 m c (Proc.devRef .tc main_v44_0) :=
  (W6_arr m c 1).trans (((dat2 (V5 m) c).arrAt_in 1 rfl _).trans (A_eq2 (V5 m) c 1))
theorem in10 : W10 m c (Proc.devRef .tc main_v85_0) = W9 m c (Proc.devRef .tc main_v85_0) :=
  (W10_arr m c 1).trans (((dat4 (V9 m) c).arrAt_in 1 rfl _).trans (A_eq4 (V9 m) c 1))

/-- The parameter tables hold their launch contents at every boundary. -/
theorem par2 (b : Ref sig .tc) (hb : b ∈ parL) : W2 m c (Proc.devRef .tc b) = m ((c : Thread nD τ).loc b) :=
  (keep2 m c b (List.mem_append_left _ hb)).trans ((keep1 m c b (List.mem_append_left _ hb)).trans rfl)
theorem par4 (b : Ref sig .tc) (hb : b ∈ parL) : W4 m c (Proc.devRef .tc b) = m ((c : Thread nD τ).loc b) :=
  (keep4 m c b (List.mem_append_left _ hb)).trans ((keep3 m c b (List.mem_append_left _ hb)).trans (par2 m c b hb))
theorem par6 (b : Ref sig .tc) (hb : b ∈ parL) : W6 m c (Proc.devRef .tc b) = m ((c : Thread nD τ).loc b) :=
  (keep6 m c b (List.mem_append_left _ hb)).trans ((keep5 m c b (List.mem_append_left _ hb)).trans (par4 m c b hb))
theorem par8 (b : Ref sig .tc) (hb : b ∈ parL) : W8 m c (Proc.devRef .tc b) = m ((c : Thread nD τ).loc b) :=
  (keep8 m c b (List.mem_append_left _ hb)).trans ((keep7 m c b (List.mem_append_left _ hb)).trans (par6 m c b hb))
theorem par10 (b : Ref sig .tc) (hb : b ∈ parL) : W10 m c (Proc.devRef .tc b) = m ((c : Thread nD τ).loc b) :=
  (keep10 m c b (List.mem_append_left _ hb)).trans ((keep9 m c b (List.mem_append_left _ hb)).trans (par8 m c b hb))

/-- The edges' sources and destinations, as the first stretch left them, where the later aggregations read them. -/
theorem v1_4 : (W4 m c (Proc.devRef .tc main_v1) : S640000.Idx → BitVec 32) = srcOf (m ((c : Thread nD τ).loc main_arg1)) :=
  (keep4 m c main_v1 (by decide)).trans ((keep3 m c main_v1 (by decide)).trans ((keep2 m c main_v1 (by decide)).trans
    (stretch0_src (W0 m c))))
theorem v3_4 : (W4 m c (Proc.devRef .tc main_v3) : S640000.Idx → BitVec 32) = dstOf (m ((c : Thread nD τ).loc main_arg1)) :=
  (keep4 m c main_v3 (by decide)).trans ((keep3 m c main_v3 (by decide)).trans ((keep2 m c main_v3 (by decide)).trans
    (stretch0_dst (W0 m c))))
theorem v1_8 : (W8 m c (Proc.devRef .tc main_v1) : S640000.Idx → BitVec 32) = srcOf (m ((c : Thread nD τ).loc main_arg1)) :=
  (keep8 m c main_v1 (by decide)).trans ((keep7 m c main_v1 (by decide)).trans ((keep6 m c main_v1 (by decide)).trans
    ((keep5 m c main_v1 (by decide)).trans (v1_4 m c))))
theorem v3_8 : (W8 m c (Proc.devRef .tc main_v3) : S640000.Idx → BitVec 32) = dstOf (m ((c : Thread nD τ).loc main_arg1)) :=
  (keep8 m c main_v3 (by decide)).trans ((keep7 m c main_v3 (by decide)).trans ((keep6 m c main_v3 (by decide)).trans
    ((keep5 m c main_v3 (by decide)).trans (v3_4 m c))))

/-- The label column where regions 1, 3 and 5 read it: the launch labels as a one-column matrix. -/
theorem v4_3 : (W3 m c (Proc.devRef .tc main_v4) : S100000x1.Idx → BitVec 32)
    = shapeCast S100000x1 (m ((c : Thread nD τ).loc main_arg2) : S100000.Idx → BitVec 32) shapeCasts_S100000_S100000x1 :=
  (keep3 m c main_v4 (by decide)).trans ((keep2 m c main_v4 (by decide)).trans (stretch0_lab (W0 m c)))
theorem v4_7 : (W7 m c (Proc.devRef .tc main_v4) : S100000x1.Idx → BitVec 32)
    = shapeCast S100000x1 (m ((c : Thread nD τ).loc main_arg2) : S100000.Idx → BitVec 32) shapeCasts_S100000_S100000x1 :=
  (keep7 m c main_v4 (by decide)).trans ((keep6 m c main_v4 (by decide)).trans ((keep5 m c main_v4 (by decide)).trans
    ((in4 m c).trans (v4_3 m c))))
theorem v4_11 : (W11 m c (Proc.devRef .tc main_v4) : S100000x1.Idx → BitVec 32)
    = shapeCast S100000x1 (m ((c : Thread nD τ).loc main_arg2) : S100000.Idx → BitVec 32) shapeCasts_S100000_S100000x1 :=
  (keep11 m c main_v4 (by decide)).trans ((keep10 m c main_v4 (by decide)).trans ((keep9 m c main_v4 (by decide)).trans
    ((in8 m c).trans (v4_7 m c))))
theorem lab3 : lab (V3 m c main_v4) = (inpOf m c).lbl := by
  show lab (W3 m c (Proc.devRef .tc main_v4) : S100000x1.Idx → BitVec 32) = _
  rw [v4_3 m c]; exact lab_cast _
theorem lab7 : lab (V7 m c main_v4) = (inpOf m c).lbl := by
  show lab (W7 m c (Proc.devRef .tc main_v4) : S100000x1.Idx → BitVec 32) = _
  rw [v4_7 m c]; exact lab_cast _
theorem lab11 : lab (V11 m c main_v4) = (inpOf m c).lbl := by
  show lab (W11 m c (Proc.devRef .tc main_v4) : S100000x1.Idx → BitVec 32) = _
  rw [v4_11 m c]; exact lab_cast _

/-! ## Layer 0 -/

theorem l0_agg : (W1 m c (Proc.devRef .tc main_v14) : S100000x128.Idx → EReal) = toArr2 (aggOf m c (hk m c 0)) :=
  (stretch0_agg (W0 m c)).trans (agg_step m c (hk m c 0) (toArr2_of2 _).symm rfl rfl)
theorem l0_feat : (W1 m c (Proc.devRef .tc main_arg0) : S100000x128.Idx → EReal) = toArr2 (hk m c 0) :=
  (keep1 m c main_arg0 (by decide)).trans (toArr2_of2 _).symm
theorem l0_w1 : (W1 m c (Proc.devRef .tc main_v16) : S128x128.Idx → EReal) = toArr2 ((inpOf m c).W1 0) := stretch0_W1 (W0 m c)
theorem l0_b1 : (W1 m c (Proc.devRef .tc main_v19) : S1x128.Idx → EReal) = toRow ((inpOf m c).b1 0) := stretch0_b1 (W0 m c)
theorem l0_w2 : (W1 m c (Proc.devRef .tc main_v21) : S128x128.Idx → EReal) = toArr2 ((inpOf m c).W2 0) := stretch0_W2 (W0 m c)
theorem l0_b2 : (W1 m c (Proc.devRef .tc main_v24) : S1x128.Idx → EReal) = toRow ((inpOf m c).b2 0) := stretch0_b2 (W0 m c)

/-- Region 0's perceptron, at the contents it is entered from, is layer 0's. -/
theorem l0_eA : eA0 (V1 m) c = ek m c 0 :=
  eA0_eq c (V1 m) (l0_agg m c) (l0_feat m c) (l0_w1 m c) (l0_b1 m c) (l0_w2 m c) (l0_b2 m c)
theorem l0_e : (W2 m c (Proc.devRef .tc main_v25_0) : S100000x128.Idx → EReal) = toArr2 (ek m c 0) :=
  (W2_arr m c 6).trans ((arr0_6 (V1 m) c).trans (congrArg toArr2 (l0_eA m c)))
theorem l0_s1 : (W2 m c (Proc.devRef .tc main_v25_1) : S20x8x128.Idx → EReal) = parts (ek m c 0) :=
  (W2_arr m c 7).trans ((arr0_7 (V1 m) c).trans (congrArg parts (l0_eA m c)))
theorem l0_s2 : (W2 m c (Proc.devRef .tc main_v25_2) : S20x8x128.Idx → EReal) = parts (fun n j => ek m c 0 n j * ek m c 0 n j) :=
  (W2_arr m c 8).trans ((arr0_8 (V1 m) c).trans
    (congrArg (fun e : Rw → Cl → EReal => parts (fun n j => e n j * e n j)) (l0_eA m c)))

theorem l0_mu : (W3 m c (Proc.devRef .tc main_v37) : S1x128.Idx → EReal) = toRow (mean (ek m c 0)) :=
  stretch1_mu (W2 m c) _ (l0_s1 m c)
theorem l0_var : (W3 m c (Proc.devRef .tc main_v36) : S1x128.Idx → EReal) = toRow (varK (ek m c 0)) :=
  stretch1_var (W2 m c) _ (l0_s1 m c) (l0_s2 m c)
theorem l0_gamma : (W3 m c (Proc.devRef .tc main_v40) : S1x128.Idx → EReal) = toRow ((inpOf m c).gamma 0) :=
  (stretch1_gamma (W2 m c)).trans (slice2 (par2 m c main_arg7 (by decide)) 0)
theorem l0_beta : (W3 m c (Proc.devRef .tc main_v43) : S1x128.Idx → EReal) = toRow ((inpOf m c).beta 0) :=
  (stretch1_beta (W2 m c)).trans (slice2 (par2 m c main_arg8 (by decide)) 0)
theorem l0_e3 : (W3 m c (Proc.devRef .tc main_v25_0) : S100000x128.Idx → EReal) = toArr2 (ek m c 0) :=
  (keep3 m c main_v25_0 (by decide)).trans (l0_e m c)

/-- Region 1's normalisation, at the contents it is entered from, gives the features after one layer. -/
theorem l0_hB : hB1 (V3 m) c = hk m c 1 :=
  (hB1_eq c (V3 m) (l0_e3 m c) (l0_mu m c) (l0_var m c) (l0_gamma m c) (l0_beta m c)).trans (hk_succ m c 0).symm
theorem l0_h : (W4 m c (Proc.devRef .tc main_v44_0) : S100000x128.Idx → EReal) = toArr2 (hk m c 1) :=
  (W4_arr m c 6).trans ((arr1_6 (V3 m) c).trans (congrArg toArr2 (l0_hB m c)))
theorem l0_pp (hI : (inpOf m c).Real) :
    (W4 m c (Proc.devRef .tc main_v44_1) : S20x512x128.Idx → EReal) = poolParts (hk m c 1) (inpOf m c).lbl :=
  (W4_arr m c 7).trans ((arr1_7 (V3 m) c ((l0_hB m c).symm ▸ hk_real m c hI 1)).trans
    (congrArg₂ poolParts (l0_hB m c) (lab3 m c)))

/-! ## Layer 1 -/

theorem l1_pool (hI : (inpOf m c).Real) :
    (W5 m c (Proc.devRef .tc main_v45) : S512x128.Idx → EReal) = toArr2 (pool (hk m c 1) (inpOf m c).lbl) :=
  stretch2_pool (W4 m c) _ _ (l0_pp m c hI)
theorem l1_agg : (W5 m c (Proc.devRef .tc main_v55) : S100000x128.Idx → EReal) = toArr2 (aggOf m c (hk m c 1)) :=
  (stretch2_agg (W4 m c)).trans (agg_step m c (hk m c 1) (l0_h m c) (v1_4 m c) (v3_4 m c))
theorem l1_feat : (W5 m c (Proc.devRef .tc main_v44_0) : S100000x128.Idx → EReal) = toArr2 (hk m c 1) :=
  (keep5 m c main_v44_0 (by decide)).trans (l0_h m c)
theorem l1_w1 : (W5 m c (Proc.devRef .tc main_v57) : S128x128.Idx → EReal) = toArr2 ((inpOf m c).W1 1) :=
  (stretch2_W1 (W4 m c)).trans (slice3 (par4 m c main_arg3 (by decide)) 1)
theorem l1_b1 : (W5 m c (Proc.devRef .tc main_v60) : S1x128.Idx → EReal) = toRow ((inpOf m c).b1 1) :=
  (stretch2_b1 (W4 m c)).trans (slice2 (par4 m c main_arg4 (by decide)) 1)
theorem l1_w2 : (W5 m c (Proc.devRef .tc main_v62) : S128x128.Idx → EReal) = toArr2 ((inpOf m c).W2 1) :=
  (stretch2_W2 (W4 m c)).trans (slice3 (par4 m c main_arg5 (by decide)) 1)
theorem l1_b2 : (W5 m c (Proc.devRef .tc main_v65) : S1x128.Idx → EReal) = toRow ((inpOf m c).b2 1) :=
  (stretch2_b2 (W4 m c)).trans (slice2 (par4 m c main_arg6 (by decide)) 1)

theorem l1_eA : eA2 (V5 m) c = ek m c 1 :=
  eA2_eq c (V5 m) (l1_agg m c) (l1_feat m c) (l1_w1 m c) (l1_b1 m c) (l1_w2 m c) (l1_b2 m c)
theorem l1_e : (W6 m c (Proc.devRef .tc main_v66_0) : S100000x128.Idx → EReal) = toArr2 (ek m c 1) :=
  (W6_arr m c 6).trans ((arr2_6 (V5 m) c).trans (congrArg toArr2 (l1_eA m c)))
theorem l1_s1 : (W6 m c (Proc.devRef .tc main_v66_1) : S20x8x128.Idx → EReal) = parts (ek m c 1) :=
  (W6_arr m c 7).trans ((arr2_7 (V5 m) c).trans (congrArg parts (l1_eA m c)))
theorem l1_s2 : (W6 m c (Proc.devRef .tc main_v66_2) : S20x8x128.Idx → EReal) = parts (fun n j => ek m c 1 n j * ek m c 1 n j) :=
  (W6_arr m c 8).trans ((arr2_8 (V5 m) c).trans
    (congrArg (fun e : Rw → Cl → EReal => parts (fun n j => e n j * e n j)) (l1_eA m c)))

theorem l1_mu : (W7 m c (Proc.devRef .tc main_v78) : S1x128.Idx → EReal) = toRow (mean (ek m c 1)) :=
  stretch3_mu (W6 m c) _ (l1_s1 m c)
theorem l1_var : (W7 m c (Proc.devRef .tc main_v77) : S1x128.Idx → EReal) = toRow (varK (ek m c 1)) :=
  stretch3_var (W6 m c) _ (l1_s1 m c) (l1_s2 m c)
theorem l1_gamma : (W7 m c (Proc.devRef .tc main_v81) : S1x128.Idx → EReal) = toRow ((inpOf m c).gamma 1) :=
  (stretch3_gamma (W6 m c)).trans (slice2 (par6 m c main_arg7 (by decide)) 1)
theorem l1_beta : (W7 m c (Proc.devRef .tc main_v84) : S1x128.Idx → EReal) = toRow ((inpOf m c).beta 1) :=
  (stretch3_beta (W6 m c)).trans (slice2 (par6 m c main_arg8 (by decide)) 1)
theorem l1_e3 : (W7 m c (Proc.devRef .tc main_v66_0) : S100000x128.Idx → EReal) = toArr2 (ek m c 1) :=
  (keep7 m c main_v66_0 (by decide)).trans (l1_e m c)

theorem l1_hB : hB3 (V7 m) c = hk m c 2 :=
  (hB3_eq c (V7 m) (l1_e3 m c) (l1_mu m c) (l1_var m c) (l1_gamma m c) (l1_beta m c)).trans (hk_succ m c 1).symm
theorem l1_h : (W8 m c (Proc.devRef .tc main_v85_0) : S100000x128.Idx → EReal) = toArr2 (hk m c 2) :=
  (W8_arr m c 6).trans ((arr3_6 (V7 m) c).trans (congrArg toArr2 (l1_hB m c)))
theorem l1_pp (hI : (inpOf m c).Real) :
    (W8 m c (Proc.devRef .tc main_v85_1) : S20x512x128.Idx → EReal) = poolParts (hk m c 2) (inpOf m c).lbl :=
  (W8_arr m c 7).trans ((arr3_7 (V7 m) c ((l1_hB m c).symm ▸ hk_real m c hI 2)).trans
    (congrArg₂ poolParts (l1_hB m c) (lab7 m c)))

/-! ## Layer 2 -/

theorem l2_pool (hI : (inpOf m c).Real) :
    (W9 m c (Proc.devRef .tc main_v86) : S512x128.Idx → EReal) = toArr2 (pool (hk m c 2) (inpOf m c).lbl) :=
  stretch4_pool (W8 m c) _ _ (l1_pp m c hI)
theorem l2_agg : (W9 m c (Proc.devRef .tc main_v96) : S100000x128.Idx → EReal) = toArr2 (aggOf m c (hk m c 2)) :=
  (stretch4_agg (W8 m c)).trans (agg_step m c (hk m c 2) (l1_h m c) (v1_8 m c) (v3_8 m c))
theorem l2_feat : (W9 m c (Proc.devRef .tc main_v85_0) : S100000x128.Idx → EReal) = toArr2 (hk m c 2) :=
  (keep9 m c main_v85_0 (by decide)).trans (l1_h m c)
theorem l2_w1 : (W9 m c (Proc.devRef .tc main_v98) : S128x128.Idx → EReal) = toArr2 ((inpOf m c).W1 2) :=
  (stretch4_W1 (W8 m c)).trans (slice3 (par8 m c main_arg3 (by decide)) 2)
theorem l2_b1 : (W9 m c (Proc.devRef .tc main_v101) : S1x128.Idx → EReal) = toRow ((inpOf m c).b1 2) :=
  (stretch4_b1 (W8 m c)).trans (slice2 (par8 m c main_arg4 (by decide)) 2)
theorem l2_w2 : (W9 m c (Proc.devRef .tc main_v103) : S128x128.Idx → EReal) = toArr2 ((inpOf m c).W2 2) :=
  (stretch4_W2 (W8 m c)).trans (slice3 (par8 m c main_arg5 (by decide)) 2)
theorem l2_b2 : (W9 m c (Proc.devRef .tc main_v106) : S1x128.Idx → EReal) = toRow ((inpOf m c).b2 2) :=
  (stretch4_b2 (W8 m c)).trans (slice2 (par8 m c main_arg6 (by decide)) 2)

theorem l2_eA : eA4 (V9 m) c = ek m c 2 :=
  eA4_eq c (V9 m) (l2_agg m c) (l2_feat m c) (l2_w1 m c) (l2_b1 m c) (l2_w2 m c) (l2_b2 m c)
theorem l2_e : (W10 m c (Proc.devRef .tc main_v107_0) : S100000x128.Idx → EReal) = toArr2 (ek m c 2) :=
  (W10_arr m c 6).trans ((arr4_6 (V9 m) c).trans (congrArg toArr2 (l2_eA m c)))
theorem l2_s1 : (W10 m c (Proc.devRef .tc main_v107_1) : S20x8x128.Idx → EReal) = parts (ek m c 2) :=
  (W10_arr m c 7).trans ((arr4_7 (V9 m) c).trans (congrArg parts (l2_eA m c)))
theorem l2_s2 : (W10 m c (Proc.devRef .tc main_v107_2) : S20x8x128.Idx → EReal) = parts (fun n j => ek m c 2 n j * ek m c 2 n j) :=
  (W10_arr m c 8).trans ((arr4_8 (V9 m) c).trans
    (congrArg (fun e : Rw → Cl → EReal => parts (fun n j => e n j * e n j)) (l2_eA m c)))

theorem l2_mu : (W11 m c (Proc.devRef .tc main_v119) : S1x128.Idx → EReal) = toRow (mean (ek m c 2)) :=
  stretch5_mu (W10 m c) _ (l2_s1 m c)
theorem l2_var : (W11 m c (Proc.devRef .tc main_v118) : S1x128.Idx → EReal) = toRow (varK (ek m c 2)) :=
  stretch5_var (W10 m c) _ (l2_s1 m c) (l2_s2 m c)
theorem l2_gamma : (W11 m c (Proc.devRef .tc main_v122) : S1x128.Idx → EReal) = toRow ((inpOf m c).gamma 2) :=
  (stretch5_gamma (W10 m c)).trans (slice2 (par10 m c main_arg7 (by decide)) 2)
theorem l2_beta : (W11 m c (Proc.devRef .tc main_v125) : S1x128.Idx → EReal) = toRow ((inpOf m c).beta 2) :=
  (stretch5_beta (W10 m c)).trans (slice2 (par10 m c main_arg8 (by decide)) 2)
theorem l2_e3 : (W11 m c (Proc.devRef .tc main_v107_0) : S100000x128.Idx → EReal) = toArr2 (ek m c 2) :=
  (keep11 m c main_v107_0 (by decide)).trans (l2_e m c)

theorem l2_hB : hB5 (V11 m) c = hk m c 3 :=
  (hB5_eq c (V11 m) (l2_e3 m c) (l2_mu m c) (l2_var m c) (l2_gamma m c) (l2_beta m c)).trans (hk_succ m c 2).symm
theorem l2_h : (W12 m c (Proc.devRef .tc main_v126_0) : S100000x128.Idx → EReal) = toArr2 (hk m c 3) :=
  (W12_arr m c 6).trans ((arr5_6 (V11 m) c).trans (congrArg toArr2 (l2_hB m c)))
theorem l2_pp (hI : (inpOf m c).Real) :
    (W12 m c (Proc.devRef .tc main_v126_1) : S20x512x128.Idx → EReal) = poolParts (hk m c 3) (inpOf m c).lbl :=
  (W12_arr m c 7).trans ((arr5_7 (V11 m) c ((l2_hB m c).symm ▸ hk_real m c hI 3)).trans
    (congrArg₂ poolParts (l2_hB m c) (lab11 m c)))

/-! ## What the last stretch reads, and the two results -/

theorem h1_12 : (W12 m c (Proc.devRef .tc main_v44_0) : S100000x128.Idx → EReal) = toArr2 (hk m c 1) :=
  (keep12 m c main_v44_0 (by decide)).trans ((keep11 m c main_v44_0 (by decide)).trans ((keep10 m c main_v44_0 (by decide)).trans
    ((keep9 m c main_v44_0 (by decide)).trans ((keep8 m c main_v44_0 (by decide)).trans ((keep7 m c main_v44_0 (by decide)).trans
      ((in6 m c).trans (l1_feat m c)))))))
theorem h2_12 : (W12 m c (Proc.devRef .tc main_v85_0) : S100000x128.Idx → EReal) = toArr2 (hk m c 2) :=
  (keep12 m c main_v85_0 (by decide)).trans ((keep11 m c main_v85_0 (by decide)).trans ((in10 m c).trans (l2_feat m c)))
theorem p1_12 (hI : (inpOf m c).Real) :
    (W12 m c (Proc.devRef .tc main_v45) : S512x128.Idx → EReal) = toArr2 (pool (hk m c 1) (inpOf m c).lbl) :=
  (keep12 m c main_v45 (by decide)).trans ((keep11 m c main_v45 (by decide)).trans ((keep10 m c main_v45 (by decide)).trans
    ((keep9 m c main_v45 (by decide)).trans ((keep8 m c main_v45 (by decide)).trans ((keep7 m c main_v45 (by decide)).trans
      ((keep6 m c main_v45 (by decide)).trans (l1_pool m c hI)))))))
theorem p2_12 (hI : (inpOf m c).Real) :
    (W12 m c (Proc.devRef .tc main_v86) : S512x128.Idx → EReal) = toArr2 (pool (hk m c 2) (inpOf m c).lbl) :=
  (keep12 m c main_v86 (by decide)).trans ((keep11 m c main_v86 (by decide)).trans ((keep10 m c main_v86 (by decide)).trans
    (l2_pool m c hI)))
theorem p3_13 (hI : (inpOf m c).Real) :
    (StableHlo.after (hostOps6 (F := Ideal)) (W12 m c) (Proc.devRef .tc main_v127) : S512x128.Idx → EReal)
      = toArr2 (pool (hk m c 3) (inpOf m c).lbl) :=
  stretch6_pool (W12 m c) _ _ (l2_pp m c hI)

/-- The second result: the three layers' features side by side. (The real-inputs hypothesis is not used.) -/
theorem kernel_v129 (hI : (inpOf m c).Real) :
    (W13 m c (Proc.devRef .tc main_v129) : S100000x384.Idx → EReal)
      = concatenate S100000x384 1 [⟨S100000x128, toArr2 (hK (aggOf m c) (inpOf m c) 1)⟩,
          ⟨S100000x128, toArr2 (hK (aggOf m c) (inpOf m c) 2)⟩, ⟨S100000x128, toArr2 (hK (aggOf m c) (inpOf m c) 3)⟩]
          concatenates_S100000x128_S100000x128_S100000x128_S100000x384_d1 := by
  refine (stretch6_v129 (W12 m c)).trans ?_
  rw [h1_12 m c, h2_12 m c, l2_h m c]

/-- The first result: the three layers' per-graph sums side by side. -/
theorem kernel_v128 (hI : (inpOf m c).Real) :
    (W13 m c (Proc.devRef .tc main_v128) : S512x384.Idx → EReal)
      = concatenate S512x384 1 [⟨S512x128, toArr2 (pool (hK (aggOf m c) (inpOf m c) 1) (inpOf m c).lbl)⟩,
          ⟨S512x128, toArr2 (pool (hK (aggOf m c) (inpOf m c) 2) (inpOf m c).lbl)⟩,
          ⟨S512x128, toArr2 (pool (hK (aggOf m c) (inpOf m c) 3) (inpOf m c).lbl)⟩]
          concatenates_S512x128_S512x128_S512x128_S512x384_d1 := by
  refine (stretch6_v128 (W12 m c)).trans ?_
  rw [p1_12 m c hI, p2_12 m c hI, p3_13 m c hI]

end Cert.KernelIdeal.Hand

end
-- ==== Proof.RefRun.lean ====
/- The reference program's run. @main calls three outlined functions that call functions in turn (the exponential
   linear unit with its two selections; the variance with its selection); written out flat, a called function's
   operations in its call's place over that call's buffers, @main is one straight line of 306 host operations. It
   is stated here as four lists — one per layer of the encoder and one for the pooling and the two
   concatenations — so that what a buffer holds at the end is read one layer at a time:
   `main = seq ops`, every weakly fair execution ends with each buffer at the fold of `ops` over the launch
   contents (`run`), and that fold is the four lists' folds in turn (`after_split`). -/
import proofs.«406400_j6640019439960_2_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Layer 0 of the reference, operation by operation: the two rows of the edge table as index vectors; the
    source index wrapped when negative; the rows of the node features gathered at the sources and summed into
    the rows the targets name; that sum plus the features; the two affine maps with the rectifier between
    them (weights and biases the first slices of their tables); the exponential linear unit, written out with
    its two selections; the batch mean of each column; the batch variance (the columns' mean removed, the
    squares summed and divided by the count less the correction, a selection on that divisor's sign); the
    normalisation by the reciprocal root of the variance plus a small constant, the scale and the shift (the
    first slices of their tables). The last operation writes the layer's output. -/
abbrev opsL0 : List (HloOp τ sig (Elt F)) :=
  [ unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000,
    nullary main_c (constantI S_ 32 0#32),
    unary main_c main_v4 (broadcastInDim S640000 ![] bcast_S_S640000 : (⟨S_, .i32⟩ : BufTy).Contents (Elt F) → (⟨S640000, .i32⟩ : BufTy).Contents (Elt F)),
    binary main_v1 main_v4 main_v5 (cmpi .slt : (⟨S640000, .i32⟩ : BufTy).Contents (Elt F) → (⟨S640000, .i32⟩ : BufTy).Contents (Elt F) → (⟨S640000, .i1⟩ : BufTy).Contents (Elt F)),
    nullary main_c_0 (constantI S_ 32 100000#32),
    unary main_c_0 main_v6 (broadcastInDim S640000 ![] bcast_S_S640000 : (⟨S_, .i32⟩ : BufTy).Contents (Elt F) → (⟨S640000, .i32⟩ : BufTy).Contents (Elt F)),
    binary main_v1 main_v6 main_v7 (addi : (⟨S640000, .i32⟩ : BufTy).Contents (Elt F) → (⟨S640000, .i32⟩ : BufTy).Contents (Elt F) → (⟨S640000, .i32⟩ : BufTy).Contents (Elt F)),
    ternary main_v5 main_v7 main_v1 main_v8 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v8 main_v9 (broadcastInDim S640000x1 ![0] bcast_S640000_S640000x1_0 : (⟨S640000, .i32⟩ : BufTy).Contents (Elt F) → (⟨S640000x1, .i32⟩ : BufTy).Contents (Elt F)),
    binary main_arg0 main_v9 main_v10 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S640000x1 ![0] bcast_S640000_S640000x1_0 : (⟨S640000, .i32⟩ : BufTy).Contents (Elt F) → (⟨S640000x1, .i32⟩ : BufTy).Contents (Elt F)),
    ternary main_v11 main_v12 main_v10 main_v13 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    binary main_v13 main_arg0 main_v14 (addf : (⟨S100000x128, .f32⟩ : BufTy).Contents (Elt F) → (⟨S100000x128, .f32⟩ : BufTy).Contents (Elt F) → (⟨S100000x128, .f32⟩ : BufTy).Contents (Elt F)),
    unary main_arg3 main_v15 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v15 main_v16 rfl shapeCasts_S1x128x128_S128x128,
    binary main_v14 main_v16 main_v17 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v18 ((extractStridedSlice S1x128 ![0, 0] · slices_S3x128_S1x128_0_0) : (⟨S3x128, .f32⟩ : BufTy).Contents (Elt F) → (⟨S1x128, .f32⟩ : BufTy).Contents (Elt F)),
    reshape main_v18 main_v19 rfl shapeCasts_S1x128_S128,
    unary main_v19 main_v20 (broadcastInDim S1x128 ![1] bcast_S128_S1x128_1 : (⟨S128, .f32⟩ : BufTy).Contents (Elt F) → (⟨S1x128, .f32⟩ : BufTy).Contents (Elt F)),
    unary main_v20 main_v21 (broadcastInDim S100000x128 ![0, 1] bcast_S1x128_S100000x128_0_1 : (⟨S1x128, .f32⟩ : BufTy).Contents (Elt F) → (⟨S100000x128, .f32⟩ : BufTy).Contents (Elt F)),
    binary main_v17 main_v21 main_v22 (addf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x00000000#32),
    unary main_cst_1 main_v23 (broadcastInDim S100000x128 ![] bcast_S_S100000x128 : (⟨S_, .f32⟩ : BufTy).Contents (Elt F) → (⟨S100000x128, .f32⟩ : BufTy).Contents (Elt F)),
    binary main_v22 main_v23 main_v24 (maximumf : (⟨S100000x128, .f32⟩ : BufTy).Contents (Elt F) → (⟨S100000x128, .f32⟩ : BufTy).Contents (Elt F) → (⟨S100000x128, .f32⟩ : BufTy).Contents (Elt F)),
    unary main_arg5 main_v25 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v25 main_v26 rfl shapeCasts_S1x128x128_S128x128,
    binary main_v24 main_v26 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v28 ((extractStridedSlice S1x128 ![0, 0] · slices_S3x128_S1x128_0_0) : (⟨S3x128, .f32⟩ : BufTy).Contents (Elt F) → (⟨S1x128, .f32⟩ : BufTy).Contents (Elt F)),
    reshape main_v28 main_v29 rfl shapeCasts_S1x128_S128,
    unary main_v29 main_v30 (broadcastInDim S1x128 ![1] bcast_S128_S1x128_1 : (⟨S128, .f32⟩ : BufTy).Contents (Elt F) → (⟨S1x128, .f32⟩ : BufTy).Contents (Elt F)),
    unary main_v30 main_v31 (broadcastInDim S100000x128 ![0, 1] bcast_S1x128_S100000x128_0_1 : (⟨S1x128, .f32⟩ : BufTy).Contents (Elt F) → (⟨S100000x128, .f32⟩ : BufTy).Contents (Elt F)),
    binary main_v27 main_v31 main_v32 (addf : (⟨S100000x128, .f32⟩ : BufTy).Contents (Elt F) → (⟨S100000x128, .f32⟩ : BufTy).Contents (Elt F) → (⟨S100000x128, .f32⟩ : BufTy).Contents (Elt F)),
    TRef.nullary main_call0.cst (constant S_ .f32 0x00000000#32),
    TRef.unary main_call0.cst main_call0.v0 (broadcastInDim S100000x128 ![] bcast_S_S100000x128),
    TRef.binary (.of main_v32 : TRef sig ⟨S100000x128, .f32⟩) main_call0.v0 main_call0.v1 (cmpf .ogt),
    TRef.nullary main_call0.cst_0 (constant S_ .f32 0x00000000#32),
    TRef.unary main_call0.cst_0 main_call0.v2 (broadcastInDim S100000x128 ![] bcast_S_S100000x128),
    TRef.binary (.of main_v32 : TRef sig ⟨S100000x128, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x128 ![] bcast_S_S100000x128),
    TRef.ternary main_call0.v3 main_call0.call0.v1 (.of main_v32 : TRef sig ⟨S100000x128, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S100000x128 ![] bcast_S_S100000x128),
    TRef.binary main_call0.v6 main_call0.v5 main_call0.v7 mulf,
    TRef.ternary main_call0.v1 (.of main_v32 : TRef sig ⟨S100000x128, .f32⟩) main_call0.v7 main_call0.call1.v0 select,
    nullary main_cst_2 (constant S_ .f32 0x00000000#32),
    binary main_v33 main_cst_2 main_v34 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_3 (constant S_ .f32 0x47C35000#32),
    unary main_cst_3 main_v35 (broadcastInDim S128 ![] bcast_S_S128 : (⟨S_, .f32⟩ : BufTy).Contents (Elt F) → (⟨S128, .f32⟩ : BufTy).Contents (Elt F)),
    binary main_v34 main_v35 main_v36 (Host.divf : (⟨S128, .f32⟩ : BufTy).Contents (Elt F) → (⟨S128, .f32⟩ : BufTy).Contents (Elt F) → (⟨S128, .f32⟩ : BufTy).Contents (Elt F)),
    nullary main_c_4 (constantI S_ 32 0#32),
    TRef.nullary main_call1.cst (constant S_ .f32 0x00000000#32),
    TRef.binary (.of main_v33 : TRef sig ⟨S100000x128, .f32⟩) main_call1.cst main_call1.v0 (fun x v => Host.reduceAdd x v reducesTo_S100000x128_S128_d0 h_S_),
    TRef.unary main_call1.v0 main_call1.v1 (broadcastInDim S1x128 ![1] bcast_S128_S1x128_1),
    TRef.nullary main_call1.cst_0 (constant S_ .f32 0x47C35000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S100000x128 ![0, 1] bcast_S1x128_S100000x128_0_1),
    TRef.binary (.of main_v33 : TRef sig ⟨S100000x128, .f32⟩) main_call1.v4 main_call1.v5 subf,
    TRef.binary main_call1.v5 main_call1.v5 main_call1.v6 mulf,
    TRef.unary (.of main_c_4 : TRef sig ⟨S_, .i32⟩) main_call1.v7 (sitofp .f32),
    TRef.nullary main_call1.cst_1 (constant S_ .f32 0x47C35000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b),
    unary main_v36 main_v38 (broadcastInDim S1x128 ![1] bcast_S128_S1x128_1 : (⟨S128, .f32⟩ : BufTy).Contents (Elt F) → (⟨S1x128, .f32⟩ : BufTy).Contents (Elt F)),
    unary main_v38 main_v39 (broadcastInDim S100000x128 ![0, 1] bcast_S1x128_S100000x128_0_1 : (⟨S1x128, .f32⟩ : BufTy).Contents (Elt F) → (⟨S100000x128, .f32⟩ : BufTy).Contents (Elt F)),
    binary main_v33 main_v39 main_v40 (subf : (⟨S100000x128, .f32⟩ : BufTy).Contents (Elt F) → (⟨S100000x128, .f32⟩ : BufTy).Contents (Elt F) → (⟨S100000x128, .f32⟩ : BufTy).Contents (Elt F)),
    nullary main_cst_5 (constant S_ .f32 0x3727C5AC#32),
    unary main_cst_5 main_v41 (broadcastInDim S128 ![] bcast_S_S128 : (⟨S_, .f32⟩ : BufTy).Contents (Elt F) → (⟨S128, .f32⟩ : BufTy).Contents (Elt F)),
    binary main_v37 main_v41 main_v42 (addf : (⟨S128, .f32⟩ : BufTy).Contents (Elt F) → (⟨S128, .f32⟩ : BufTy).Contents (Elt F) → (⟨S128, .f32⟩ : BufTy).Contents (Elt F)),
    unary main_v42 main_v43 (Host.rsqrt : (⟨S128, .f32⟩ : BufTy).Contents (Elt F) → (⟨S128, .f32⟩ : BufTy).Contents (Elt F)),
    unary main_v43 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v40 main_v45 main_v46 (mulf : (⟨S100000x128, .f32⟩ : BufTy).Contents (Elt F) → (⟨S100000x128, .f32⟩ : BufTy).Contents (Elt F) → (⟨S100000x128, .f32⟩ : BufTy).Contents (Elt F)),
    unary main_arg7 main_v47 ((extractStridedSlice S1x128 ![0, 0] · slices_S3x128_S1x128_0_0) : (⟨S3x128, .f32⟩ : BufTy).Contents (Elt F) → (⟨S1x128, .f32⟩ : BufTy).Contents (Elt F)),
    reshape main_v47 main_v48 rfl shapeCasts_S1x128_S128,
    unary main_v48 main_v49 (broadcastInDim S1x128 ![1] bcast_S128_S1x128_1 : (⟨S128, .f32⟩ : BufTy).Contents (Elt F) → (⟨S1x128, .f32⟩ : BufTy).Contents (Elt F)),
    unary main_v49 main_v50 (broadcastInDim S100000x128 ![0, 1] bcast_S1x128_S100000x128_0_1 : (⟨S1x128, .f32⟩ : BufTy).Contents (Elt F) → (⟨S100000x128, .f32⟩ : BufTy).Contents (Elt F)),
    binary main_v46 main_v50 main_v51 (mulf : (⟨S100000x128, .f32⟩ : BufTy).Contents (Elt F) → (⟨S100000x128, .f32⟩ : BufTy).Contents (Elt F) → (⟨S100000x128, .f32⟩ : BufTy).Contents (Elt F)),
    unary main_arg8 main_v52 ((extractStridedSlice S1x128 ![0, 0] · slices_S3x128_S1x128_0_0) : (⟨S3x128, .f32⟩ : BufTy).Contents (Elt F) → (⟨S1x128, .f32⟩ : BufTy).Contents (Elt F)),
    reshape main_v52 main_v53 rfl shapeCasts_S1x128_S128,
    unary main_v53 main_v54 (broadcastInDim S1x128 ![1] bcast_S128_S1x128_1 : (⟨S128, .f32⟩ : BufTy).Contents (Elt F) → (⟨S1x128, .f32⟩ : BufTy).Contents (Elt F)),
    unary main_v54 main_v55 (broadcastInDim S100000x128 ![0, 1] bcast_S1x128_S100000x128_0_1 : (⟨S1x128, .f32⟩ : BufTy).Contents (Elt F) → (⟨S100000x128, .f32⟩ : BufTy).Contents (Elt F)),
    binary main_v51 main_v55 main_v56 (addf : (⟨S100000x128, .f32⟩ : BufTy).Contents (Elt F) → (⟨S100000x128, .f32⟩ : BufTy).Contents (Elt F) → (⟨S100000x128, .f32⟩ : BufTy).Contents (Elt F)) ]

/-- Layer 1: the same operations as layer 0 from the wrap of the source index on, reading layer 0's output
    where layer 0 read the node features and the second slices of the weight, bias, scale and shift tables. -/
abbrev opsL1 : List (HloOp τ sig (Elt F)) :=
  [ nullary main_c_6 (constantI S_ 32 0#32),
    unary main_c_6 main_v57 (broadcastInDim S640000 ![] bcast_S_S640000 : (⟨S_, .i32⟩ : BufTy).Contents (Elt F) → (⟨S640000, .i32⟩ : BufTy).Contents (Elt F)),
    binary main_v1 main_v57 main_v58 (cmpi .slt : (⟨S640000, .i32⟩ : BufTy).Contents (Elt F) → (⟨S640000, .i32⟩ : BufTy).Contents (Elt F) → (⟨S640000, .i1⟩ : BufTy).Contents (Elt F)),
    nullary main_c_7 (constantI S_ 32 100000#32),
    unary main_c_7 main_v59 (broadcastInDim S640000 ![] bcast_S_S640000 : (⟨S_, .i32⟩ : BufTy).Contents (Elt F) → (⟨S640000, .i32⟩ : BufTy).Contents (Elt F)),
    binary main_v1 main_v59 main_v60 (addi : (⟨S640000, .i32⟩ : BufTy).Contents (Elt F) → (⟨S640000, .i32⟩ : BufTy).Contents (Elt F) → (⟨S640000, .i32⟩ : BufTy).Contents (Elt F)),
    ternary main_v58 main_v60 main_v1 main_v61 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v61 main_v62 (broadcastInDim S640000x1 ![0] bcast_S640000_S640000x1_0 : (⟨S640000, .i32⟩ : BufTy).Contents (Elt F) → (⟨S640000x1, .i32⟩ : BufTy).Contents (Elt F)),
    binary main_v56 main_v62 main_v63 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    nullary main_cst_8 (constant S_ .f32 0x00000000#32),
    unary main_cst_8 main_v64 (broadcastInDim S100000x128 ![] bcast_S_S100000x128 : (⟨S_, .f32⟩ : BufTy).Contents (Elt F) → (⟨S100000x128, .f32⟩ : BufTy).Contents (Elt F)),
    unary main_v3 main_v65 (broadcastInDim S640000x1 ![0] bcast_S640000_S640000x1_0 : (⟨S640000, .i32⟩ : BufTy).Contents (Elt F) → (⟨S640000x1, .i32⟩ : BufTy).Contents (Elt F)),
    ternary main_v64 main_v65 main_v63 main_v66 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    binary main_v66 main_v56 main_v67 (addf : (⟨S100000x128, .f32⟩ : BufTy).Contents (Elt F) → (⟨S100000x128, .f32⟩ : BufTy).Contents (Elt F) → (⟨S100000x128, .f32⟩ : BufTy).Contents (Elt F)),
    unary main_arg3 main_v68 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v68 main_v69 rfl shapeCasts_S1x128x128_S128x128,
    binary main_v67 main_v69 main_v70 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v71 ((extractStridedSlice S1x128 ![1, 0] · slices_S3x128_S1x128_1_0) : (⟨S3x128, .f32⟩ : BufTy).Contents (Elt F) → (⟨S1x128, .f32⟩ : BufTy).Contents (Elt F)),
    reshape main_v71 main_v72 rfl shapeCasts_S1x128_S128,
    unary main_v72 main_v73 (broadcastInDim S1x128 ![1] bcast_S128_S1x128_1 : (⟨S128, .f32⟩ : BufTy).Contents (Elt F) → (⟨S1x128, .f32⟩ : BufTy).Contents (Elt F)),
    unary main_v73 main_v74 (broadcastInDim S100000x128 ![0, 1] bcast_S1x128_S100000x128_0_1 : (⟨S1x128, .f32⟩ : BufTy).Contents (Elt F) → (⟨S100000x128, .f32⟩ : BufTy).Contents (Elt F)),
    binary main_v70 main_v74 main_v75 (addf : (⟨S100000x128, .f32⟩ : BufTy).Contents (Elt F) → (⟨S100000x128, .f32⟩ : BufTy).Contents (Elt F) → (⟨S100000x128, .f32⟩ : BufTy).Contents (Elt F)),
    nullary main_cst_9 (constant S_ .f32 0x00000000#32),
    unary main_cst_9 main_v76 (broadcastInDim S100000x128 ![] bcast_S_S100000x128 : (⟨S_, .f32⟩ : BufTy).Contents (Elt F) → (⟨S100000x128, .f32⟩ : BufTy).Contents (Elt F)),
    binary main_v75 main_v76 main_v77 (maximumf : (⟨S100000x128, .f32⟩ : BufTy).Contents (Elt F) → (⟨S100000x128, .f32⟩ : BufTy).Contents (Elt F) → (⟨S100000x128, .f32⟩ : BufTy).Contents (Elt F)),
    unary main_arg5 main_v78 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v78 main_v79 rfl shapeCasts_S1x128x128_S128x128,
    binary main_v77 main_v79 main_v80 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v81 ((extractStridedSlice S1x128 ![1, 0] · slices_S3x128_S1x128_1_0) : (⟨S3x128, .f32⟩ : BufTy).Contents (Elt F) → (⟨S1x128, .f32⟩ : BufTy).Contents (Elt F)),
    reshape main_v81 main_v82 rfl shapeCasts_S1x128_S128,
    unary main_v82 main_v83 (broadcastInDim S1x128 ![1] bcast_S128_S1x128_1 : (⟨S128, .f32⟩ : BufTy).Contents (Elt F) → (⟨S1x128, .f32⟩ : BufTy).Contents (Elt F)),
    unary main_v83 main_v84 (broadcastInDim S100000x128 ![0, 1] bcast_S1x128_S100000x128_0_1 : (⟨S1x128, .f32⟩ : BufTy).Contents (Elt F) → (⟨S100000x128, .f32⟩ : BufTy).Contents (Elt F)),
    binary main_v80 main_v84 main_v85 (addf : (⟨S100000x128, .f32⟩ : BufTy).Contents (Elt F) → (⟨S100000x128, .f32⟩ : BufTy).Contents (Elt F) → (⟨S100000x128, .f32⟩ : BufTy).Contents (Elt F)),
    TRef.nullary main_call2.cst (constant S_ .f32 0x00000000#32),
    TRef.unary main_call2.cst main_call2.v0 (broadcastInDim S100000x128 ![] bcast_S_S100000x128),
    TRef.binary (.of main_v85 : TRef sig ⟨S100000x128, .f32⟩) main_call2.v0 main_call2.v1 (cmpf .ogt),
    TRef.nullary main_call2.cst_0 (constant S_ .f32 0x00000000#32),
    TRef.unary main_call2.cst_0 main_call2.v2 (broadcastInDim S100000x128 ![] bcast_S_S100000x128),
    TRef.binary (.of main_v85 : TRef sig ⟨S100000x128, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S100000x128 ![] bcast_S_S100000x128),
    TRef.ternary main_call2.v3 main_call2.call0.v1 (.of main_v85 : TRef sig ⟨S100000x128, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S100000x128 ![] bcast_S_S100000x128),
    TRef.binary main_call2.v6 main_call2.v5 main_call2.v7 mulf,
    TRef.ternary main_call2.v1 (.of main_v85 : TRef sig ⟨S100000x128, .f32⟩) main_call2.v7 main_call2.call1.v0 select,
    nullary main_cst_10 (constant S_ .f32 0x00000000#32),
    binary main_v86 main_cst_10 main_v87 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_11 (constant S_ .f32 0x47C35000#32),
    unary main_cst_11 main_v88 (broadcastInDim S128 ![] bcast_S_S128 : (⟨S_, .f32⟩ : BufTy).Contents (Elt F) → (⟨S128, .f32⟩ : BufTy).Contents (Elt F)),
    binary main_v87 main_v88 main_v89 (Host.divf : (⟨S128, .f32⟩ : BufTy).Contents (Elt F) → (⟨S128, .f32⟩ : BufTy).Contents (Elt F) → (⟨S128, .f32⟩ : BufTy).Contents (Elt F)),
    nullary main_c_12 (constantI S_ 32 0#32),
    TRef.nullary main_call3.cst (constant S_ .f32 0x00000000#32),
    TRef.binary (.of main_v86 : TRef sig ⟨S100000x128, .f32⟩) main_call3.cst main_call3.v0 (fun x v => Host.reduceAdd x v reducesTo_S100000x128_S128_d0 h_S_),
    TRef.unary main_call3.v0 main_call3.v1 (broadcastInDim S1x128 ![1] bcast_S128_S1x128_1),
    TRef.nullary main_call3.cst_0 (constant S_ .f32 0x47C35000#32),
    TRef.unary main_call3.cst_0 main_call3.v2 (broadcastInDim S1x128 ![] bcast_S_S1x128),
    TRef.binary main_call3.v1 main_call3.v2 main_call3.v3 Host.divf,
    TRef.unary main_call3.v3 main_call3.v4 (broadcastInDim S100000x128 ![0, 1] bcast_S1x128_S100000x128_0_1),
    TRef.binary (.of main_v86 : TRef sig ⟨S100000x128, .f32⟩) main_call3.v4 main_call3.v5 subf,
    TRef.binary main_call3.v5 main_call3.v5 main_call3.v6 mulf,
    TRef.unary (.of main_c_12 : TRef sig ⟨S_, .i32⟩) main_call3.v7 (sitofp .f32),
    TRef.nullary main_call3.cst_1 (constant S_ .f32 0x47C35000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S100000x128_S128_d0 h_S_),
    TRef.unary main_call3.v8 main_call3.v10 (broadcastInDim S128 ![] bcast_S_S128),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S128 ![] bcast_S_S128),
    TRef.ternary main_call3.v12 main_call3.v11 main_call3.call0.v1 main_call3.call0.v2 (fun p a b => select (broadcastInDim S128 ![] bcast_S_S128 p) a b),
    unary main_v89 main_v91 (broadcastInDim S1x128 ![1] bcast_S128_S1x128_1 : (⟨S128, .f32⟩ : BufTy).Contents (Elt F) → (⟨S1x128, .f32⟩ : BufTy).Contents (Elt F)),
    unary main_v91 main_v92 (broadcastInDim S100000x128 ![0, 1] bcast_S1x128_S100000x128_0_1 : (⟨S1x128, .f32⟩ : BufTy).Contents (Elt F) → (⟨S100000x128, .f32⟩ : BufTy).Contents (Elt F)),
    binary main_v86 main_v92 main_v93 (subf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x3727C5AC#32),
    unary main_cst_13 main_v94 (broadcastInDim S128 ![] bcast_S_S128 : (⟨S_, .f32⟩ : BufTy).Contents (Elt F) → (⟨S128, .f32⟩ : BufTy).Contents (Elt F)),
    binary main_v90 main_v94 main_v95 (addf : (⟨S128, .f32⟩ : BufTy).Contents (Elt F) → (⟨S128, .f32⟩ : BufTy).Contents (Elt F) → (⟨S128, .f32⟩ : BufTy).Contents (Elt F)),
    unary main_v95 main_v96 (Host.rsqrt : (⟨S128, .f32⟩ : BufTy).Contents (Elt F) → (⟨S128, .f32⟩ : BufTy).Contents (Elt F)),
    unary main_v96 main_v97 (broadcastInDim S1x128 ![1] bcast_S128_S1x128_1 : (⟨S128, .f32⟩ : BufTy).Contents (Elt F) → (⟨S1x128, .f32⟩ : BufTy).Contents (Elt F)),
    unary main_v97 main_v98 (broadcastInDim S100000x128 ![0, 1] bcast_S1x128_S100000x128_0_1 : (⟨S1x128, .f32⟩ : BufTy).Contents (Elt F) → (⟨S100000x128, .f32⟩ : BufTy).Contents (Elt F)),
    binary main_v93 main_v98 main_v99 (mulf : (⟨S100000x128, .f32⟩ : BufTy).Contents (Elt F) → (⟨S100000x128, .f32⟩ : BufTy).Contents (Elt F) → (⟨S100000x128, .f32⟩ : BufTy).Contents (Elt F)),
    unary main_arg7 main_v100 ((extractStridedSlice S1x128 ![1, 0] · slices_S3x128_S1x128_1_0) : (⟨S3x128, .f32⟩ : BufTy).Contents (Elt F) → (⟨S1x128, .f32⟩ : BufTy).Contents (Elt F)),
    reshape main_v100 main_v101 rfl shapeCasts_S1x128_S128,
    unary main_v101 main_v102 (broadcastInDim S1x128 ![1] bcast_S128_S1x128_1 : (⟨S128, .f32⟩ : BufTy).Contents (Elt F) → (⟨S1x128, .f32⟩ : BufTy).Contents (Elt F)),
    unary main_v102 main_v103 (broadcastInDim S100000x128 ![0, 1] bcast_S1x128_S100000x128_0_1 : (⟨S1x128, .f32⟩ : BufTy).Contents (Elt F) → (⟨S100000x128, .f32⟩ : BufTy).Contents (Elt F)),
    binary main_v99 main_v103 main_v104 (mulf : (⟨S100000x128, .f32⟩ : BufTy).Contents (Elt F) → (⟨S100000x128, .f32⟩ : BufTy).Contents (Elt F) → (⟨S100000x128, .f32⟩ : BufTy).Contents (Elt F)),
    unary main_arg8 main_v105 ((extractStridedSlice S1x128 ![1, 0] · slices_S3x128_S1x128_1_0) : (⟨S3x128, .f32⟩ : BufTy).Contents (Elt F) → (⟨S1x128, .f32⟩ : BufTy).Contents (Elt F)),
    reshape main_v105 main_v106 rfl shapeCasts_S1x128_S128,
    unary main_v106 main_v107 (broadcastInDim S1x128 ![1] bcast_S128_S1x128_1 : (⟨S128, .f32⟩ : BufTy).Contents (Elt F) → (⟨S1x128, .f32⟩ : BufTy).Contents (Elt F)),
    unary main_v107 main_v108 (broadcastInDim S100000x128 ![0, 1] bcast_S1x128_S100000x128_0_1 : (⟨S1x128, .f32⟩ : BufTy).Contents (Elt F) → (⟨S100000x128, .f32⟩ : BufTy).Contents (Elt F)),
    binary main_v104 main_v108 main_v109 (addf : (⟨S100000x128, .f32⟩ : BufTy).Contents (Elt F) → (⟨S100000x128, .f32⟩ : BufTy).Contents (Elt F) → (⟨S100000x128, .f32⟩ : BufTy).Contents (Elt F)) ]

/-- Layer 2: the same operations again, reading layer 1's output and the third slices of the tables. -/
abbrev opsL2 : List (HloOp τ sig (Elt F)) :=
  [ nullary main_c_14 (constantI S_ 32 0#32),
    unary main_c_14 main_v110 (broadcastInDim S640000 ![] bcast_S_S640000 : (⟨S_, .i32⟩ : BufTy).Contents (Elt F) → (⟨S640000, .i32⟩ : BufTy).Contents (Elt F)),
    binary main_v1 main_v110 main_v111 (cmpi .slt : (⟨S640000, .i32⟩ : BufTy).Contents (Elt F) → (⟨S640000, .i32⟩ : BufTy).Contents (Elt F) → (⟨S640000, .i1⟩ : BufTy).Contents (Elt F)),
    nullary main_c_15 (constantI S_ 32 100000#32),
    unary main_c_15 main_v112 (broadcastInDim S640000 ![] bcast_S_S640000 : (⟨S_, .i32⟩ : BufTy).Contents (Elt F) → (⟨S640000, .i32⟩ : BufTy).Contents (Elt F)),
    binary main_v1 main_v112 main_v113 (addi : (⟨S640000, .i32⟩ : BufTy).Contents (Elt F) → (⟨S640000, .i32⟩ : BufTy).Contents (Elt F) → (⟨S640000, .i32⟩ : BufTy).Contents (Elt F)),
    ternary main_v111 main_v113 main_v1 main_v114 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v114 main_v115 (broadcastInDim S640000x1 ![0] bcast_S640000_S640000x1_0 : (⟨S640000, .i32⟩ : BufTy).Contents (Elt F) → (⟨S640000x1, .i32⟩ : BufTy).Contents (Elt F)),
    binary main_v109 main_v115 main_v116 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    nullary main_cst_16 (constant S_ .f32 0x00000000#32),
    unary main_cst_16 main_v117 (broadcastInDim S100000x128 ![] bcast_S_S100000x128 : (⟨S_, .f32⟩ : BufTy).Contents (Elt F) → (⟨S100000x128, .f32⟩ : BufTy).Contents (Elt F)),
    unary main_v3 main_v118 (broadcastInDim S640000x1 ![0] bcast_S640000_S640000x1_0 : (⟨S640000, .i32⟩ : BufTy).Contents (Elt F) → (⟨S640000x1, .i32⟩ : BufTy).Contents (Elt F)),
    ternary main_v117 main_v118 main_v116 main_v119 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    binary main_v119 main_v109 main_v120 (addf : (⟨S100000x128, .f32⟩ : BufTy).Contents (Elt F) → (⟨S100000x128, .f32⟩ : BufTy).Contents (Elt F) → (⟨S100000x128, .f32⟩ : BufTy).Contents (Elt F)),
    unary main_arg3 main_v121 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v121 main_v122 rfl shapeCasts_S1x128x128_S128x128,
    binary main_v120 main_v122 main_v123 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v124 ((extractStridedSlice S1x128 ![2, 0] · slices_S3x128_S1x128_2_0) : (⟨S3x128, .f32⟩ : BufTy).Contents (Elt F) → (⟨S1x128, .f32⟩ : BufTy).Contents (Elt F)),
    reshape main_v124 main_v125 rfl shapeCasts_S1x128_S128,
    unary main_v125 main_v126 (broadcastInDim S1x128 ![1] bcast_S128_S1x128_1 : (⟨S128, .f32⟩ : BufTy).Contents (Elt F) → (⟨S1x128, .f32⟩ : BufTy).Contents (Elt F)),
    unary main_v126 main_v127 (broadcastInDim S100000x128 ![0, 1] bcast_S1x128_S100000x128_0_1 : (⟨S1x128, .f32⟩ : BufTy).Contents (Elt F) → (⟨S100000x128, .f32⟩ : BufTy).Contents (Elt F)),
    binary main_v123 main_v127 main_v128 (addf : (⟨S100000x128, .f32⟩ : BufTy).Contents (Elt F) → (⟨S100000x128, .f32⟩ : BufTy).Contents (Elt F) → (⟨S100000x128, .f32⟩ : BufTy).Contents (Elt F)),
    nullary main_cst_17 (constant S_ .f32 0x00000000#32),
    unary main_cst_17 main_v129 (broadcastInDim S100000x128 ![] bcast_S_S100000x128 : (⟨S_, .f32⟩ : BufTy).Contents (Elt F) → (⟨S100000x128, .f32⟩ : BufTy).Contents (Elt F)),
    binary main_v128 main_v129 main_v130 (maximumf : (⟨S100000x128, .f32⟩ : BufTy).Contents (Elt F) → (⟨S100000x128, .f32⟩ : BufTy).Contents (Elt F) → (⟨S100000x128, .f32⟩ : BufTy).Contents (Elt F)),
    unary main_arg5 main_v131 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v131 main_v132 rfl shapeCasts_S1x128x128_S128x128,
    binary main_v130 main_v132 main_v133 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v134 ((extractStridedSlice S1x128 ![2, 0] · slices_S3x128_S1x128_2_0) : (⟨S3x128, .f32⟩ : BufTy).Contents (Elt F) → (⟨S1x128, .f32⟩ : BufTy).Contents (Elt F)),
    reshape main_v134 main_v135 rfl shapeCasts_S1x128_S128,
    unary main_v135 main_v136 (broadcastInDim S1x128 ![1] bcast_S128_S1x128_1 : (⟨S128, .f32⟩ : BufTy).Contents (Elt F) → (⟨S1x128, .f32⟩ : BufTy).Contents (Elt F)),
    unary main_v136 main_v137 (broadcastInDim S100000x128 ![0, 1] bcast_S1x128_S100000x128_0_1 : (⟨S1x128, .f32⟩ : BufTy).Contents (Elt F) → (⟨S100000x128, .f32⟩ : BufTy).Contents (Elt F)),
    binary main_v133 main_v137 main_v138 (addf : (⟨S100000x128, .f32⟩ : BufTy).Contents (Elt F) → (⟨S100000x128, .f32⟩ : BufTy).Contents (Elt F) → (⟨S100000x128, .f32⟩ : BufTy).Contents (Elt F)),
    TRef.nullary main_call4.cst (constant S_ .f32 0x00000000#32),
    TRef.unary main_call4.cst main_call4.v0 (broadcastInDim S100000x128 ![] bcast_S_S100000x128),
    TRef.binary (.of main_v138 : TRef sig ⟨S100000x128, .f32⟩) main_call4.v0 main_call4.v1 (cmpf .ogt),
    TRef.nullary main_call4.cst_0 (constant S_ .f32 0x00000000#32),
    TRef.unary main_call4.cst_0 main_call4.v2 (broadcastInDim S100000x128 ![] bcast_S_S100000x128),
    TRef.binary (.of main_v138 : TRef sig ⟨S100000x128, .f32⟩) main_call4.v2 main_call4.v3 (cmpf .ogt),
    TRef.nullary main_call4.cst_1 (constant S_ .f32 0x00000000#32),
    TRef.unary main_call4.cst_1 main_call4.call0.v0 id,
    TRef.unary main_call4.call0.v0 main_call4.call0.v1 (broadcastInDim S100000x128 ![] bcast_S_S100000x128),
    TRef.ternary main_call4.v3 main_call4.call0.v1 (.of main_v138 : TRef sig ⟨S100000x128, .f32⟩) main_call4.call0.v2 select,
    TRef.unary main_call4.call0.v2 main_call4.v5 Host.expm1,
    TRef.nullary main_call4.cst_2 (constant S_ .f32 0x3F800000#32),
    TRef.unary main_call4.cst_2 main_call4.v6 (broadcastInDim S100000x128 ![] bcast_S_S100000x128),
    TRef.binary main_call4.v6 main_call4.v5 main_call4.v7 mulf,
    TRef.ternary main_call4.v1 (.of main_v138 : TRef sig ⟨S100000x128, .f32⟩) main_call4.v7 main_call4.call1.v0 select,
    nullary main_cst_18 (constant S_ .f32 0x00000000#32),
    binary main_v139 main_cst_18 main_v140 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_19 (constant S_ .f32 0x47C35000#32),
    unary main_cst_19 main_v141 (broadcastInDim S128 ![] bcast_S_S128 : (⟨S_, .f32⟩ : BufTy).Contents (Elt F) → (⟨S128, .f32⟩ : BufTy).Contents (Elt F)),
    binary main_v140 main_v141 main_v142 (Host.divf : (⟨S128, .f32⟩ : BufTy).Contents (Elt F) → (⟨S128, .f32⟩ : BufTy).Contents (Elt F) → (⟨S128, .f32⟩ : BufTy).Contents (Elt F)),
    nullary main_c_20 (constantI S_ 32 0#32),
    TRef.nullary main_call5.cst (constant S_ .f32 0x00000000#32),
    TRef.binary (.of main_v139 : TRef sig ⟨S100000x128, .f32⟩) main_call5.cst main_call5.v0 (fun x v => Host.reduceAdd x v reducesTo_S100000x128_S128_d0 h_S_),
    TRef.unary main_call5.v0 main_call5.v1 (broadcastInDim S1x128 ![1] bcast_S128_S1x128_1),
    TRef.nullary main_call5.cst_0 (constant S_ .f32 0x47C35000#32),
    TRef.unary main_call5.cst_0 main_call5.v2 (broadcastInDim S1x128 ![] bcast_S_S1x128),
    TRef.binary main_call5.v1 main_call5.v2 main_call5.v3 Host.divf,
    TRef.unary main_call5.v3 main_call5.v4 (broadcastInDim S100000x128 ![0, 1] bcast_S1x128_S100000x128_0_1),
    TRef.binary (.of main_v139 : TRef sig ⟨S100000x128, .f32⟩) main_call5.v4 main_call5.v5 subf,
    TRef.binary main_call5.v5 main_call5.v5 main_call5.v6 mulf,
    TRef.unary (.of main_c_20 : TRef sig ⟨S_, .i32⟩) main_call5.v7 (sitofp .f32),
    TRef.nullary main_call5.cst_1 (constant S_ .f32 0x47C35000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S100000x128_S128_d0 h_S_),
    TRef.unary main_call5.v8 main_call5.v10 (broadcastInDim S128 ![] bcast_S_S128),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S128 ![] bcast_S_S128),
    TRef.ternary main_call5.v12 main_call5.v11 main_call5.call0.v1 main_call5.call0.v2 (fun p a b => select (broadcastInDim S128 ![] bcast_S_S128 p) a b),
    unary main_v142 main_v144 (broadcastInDim S1x128 ![1] bcast_S128_S1x128_1 : (⟨S128, .f32⟩ : BufTy).Contents (Elt F) → (⟨S1x128, .f32⟩ : BufTy).Contents (Elt F)),
    unary main_v144 main_v145 (broadcastInDim S100000x128 ![0, 1] bcast_S1x128_S100000x128_0_1 : (⟨S1x128, .f32⟩ : BufTy).Contents (Elt F) → (⟨S100000x128, .f32⟩ : BufTy).Contents (Elt F)),
    binary main_v139 main_v145 main_v146 (subf : (⟨S100000x128, .f32⟩ : BufTy).Contents (Elt F) → (⟨S100000x128, .f32⟩ : BufTy).Contents (Elt F) → (⟨S100000x128, .f32⟩ : BufTy).Contents (Elt F)),
    nullary main_cst_21 (constant S_ .f32 0x3727C5AC#32),
    unary main_cst_21 main_v147 (broadcastInDim S128 ![] bcast_S_S128 : (⟨S_, .f32⟩ : BufTy).Contents (Elt F) → (⟨S128, .f32⟩ : BufTy).Contents (Elt F)),
    binary main_v143 main_v147 main_v148 (addf : (⟨S128, .f32⟩ : BufTy).Contents (Elt F) → (⟨S128, .f32⟩ : BufTy).Contents (Elt F) → (⟨S128, .f32⟩ : BufTy).Contents (Elt F)),
    unary main_v148 main_v149 (Host.rsqrt : (⟨S128, .f32⟩ : BufTy).Contents (Elt F) → (⟨S128, .f32⟩ : BufTy).Contents (Elt F)),
    unary main_v149 main_v150 (broadcastInDim S1x128 ![1] bcast_S128_S1x128_1 : (⟨S128, .f32⟩ : BufTy).Contents (Elt F) → (⟨S1x128, .f32⟩ : BufTy).Contents (Elt F)),
    unary main_v150 main_v151 (broadcastInDim S100000x128 ![0, 1] bcast_S1x128_S100000x128_0_1 : (⟨S1x128, .f32⟩ : BufTy).Contents (Elt F) → (⟨S100000x128, .f32⟩ : BufTy).Contents (Elt F)),
    binary main_v146 main_v151 main_v152 (mulf : (⟨S100000x128, .f32⟩ : BufTy).Contents (Elt F) → (⟨S100000x128, .f32⟩ : BufTy).Contents (Elt F) → (⟨S100000x128, .f32⟩ : BufTy).Contents (Elt F)),
    unary main_arg7 main_v153 ((extractStridedSlice S1x128 ![2, 0] · slices_S3x128_S1x128_2_0) : (⟨S3x128, .f32⟩ : BufTy).Contents (Elt F) → (⟨S1x128, .f32⟩ : BufTy).Contents (Elt F)),
    reshape main_v153 main_v154 rfl shapeCasts_S1x128_S128,
    unary main_v154 main_v155 (broadcastInDim S1x128 ![1] bcast_S128_S1x128_1 : (⟨S128, .f32⟩ : BufTy).Contents (Elt F) → (⟨S1x128, .f32⟩ : BufTy).Contents (Elt F)),
    unary main_v155 main_v156 (broadcastInDim S100000x128 ![0, 1] bcast_S1x128_S100000x128_0_1 : (⟨S1x128, .f32⟩ : BufTy).Contents (Elt F) → (⟨S100000x128, .f32⟩ : BufTy).Contents (Elt F)),
    binary main_v152 main_v156 main_v157 (mulf : (⟨S100000x128, .f32⟩ : BufTy).Contents (Elt F) → (⟨S100000x128, .f32⟩ : BufTy).Contents (Elt F) → (⟨S100000x128, .f32⟩ : BufTy).Contents (Elt F)),
    unary main_arg8 main_v158 ((extractStridedSlice S1x128 ![2, 0] · slices_S3x128_S1x128_2_0) : (⟨S3x128, .f32⟩ : BufTy).Contents (Elt F) → (⟨S1x128, .f32⟩ : BufTy).Contents (Elt F)),
    reshape main_v158 main_v159 rfl shapeCasts_S1x128_S128,
    unary main_v159 main_v160 (broadcastInDim S1x128 ![1] bcast_S128_S1x128_1 : (⟨S128, .f32⟩ : BufTy).Contents (Elt F) → (⟨S1x128, .f32⟩ : BufTy).Contents (Elt F)),
    unary main_v160 main_v161 (broadcastInDim S100000x128 ![0, 1] bcast_S1x128_S100000x128_0_1 : (⟨S1x128, .f32⟩ : BufTy).Contents (Elt F) → (⟨S100000x128, .f32⟩ : BufTy).Contents (Elt F)),
    binary main_v157 main_v161 main_v162 (addf : (⟨S100000x128, .f32⟩ : BufTy).Contents (Elt F) → (⟨S100000x128, .f32⟩ : BufTy).Contents (Elt F) → (⟨S100000x128, .f32⟩ : BufTy).Contents (Elt F)) ]

/-- The tail: each layer's output summed over the nodes of each graph (a zero table of one row per graph, the
    graph index of each node as a column, the scatter-sum), and the two results: the three pooled tables side
    by side, and the three layer outputs side by side. -/
abbrev opsT : List (HloOp τ sig (Elt F)) :=
  [ nullary main_cst_22 (constant S_ .f32 0x00000000#32),
    unary main_cst_22 main_v163 (broadcastInDim S512x128 ![] bcast_S_S512x128 : (⟨S_, .f32⟩ : BufTy).Contents (Elt F) → (⟨S512x128, .f32⟩ : BufTy).Contents (Elt F)),
    unary main_arg2 main_v164 (broadcastInDim S100000x1 ![0] bcast_S100000_S100000x1_0 : (⟨S100000, .i32⟩ : BufTy).Contents (Elt F) → (⟨S100000x1, .i32⟩ : BufTy).Contents (Elt F)),
    ternary main_v163 main_v164 main_v56 main_v165 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    nullary main_cst_23 (constant S_ .f32 0x00000000#32),
    unary main_cst_23 main_v166 (broadcastInDim S512x128 ![] bcast_S_S512x128 : (⟨S_, .f32⟩ : BufTy).Contents (Elt F) → (⟨S512x128, .f32⟩ : BufTy).Contents (Elt F)),
    unary main_arg2 main_v167 (broadcastInDim S100000x1 ![0] bcast_S100000_S100000x1_0 : (⟨S100000, .i32⟩ : BufTy).Contents (Elt F) → (⟨S100000x1, .i32⟩ : BufTy).Contents (Elt F)),
    ternary main_v166 main_v167 main_v109 main_v168 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    nullary main_cst_24 (constant S_ .f32 0x00000000#32),
    unary main_cst_24 main_v169 (broadcastInDim S512x128 ![] bcast_S_S512x128 : (⟨S_, .f32⟩ : BufTy).Contents (Elt F) → (⟨S512x128, .f32⟩ : BufTy).Contents (Elt F)),
    unary main_arg2 main_v170 (broadcastInDim S100000x1 ![0] bcast_S100000_S100000x1_0 : (⟨S100000, .i32⟩ : BufTy).Contents (Elt F) → (⟨S100000x1, .i32⟩ : BufTy).Contents (Elt F)),
    ternary main_v169 main_v170 main_v162 main_v171 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    nary ![main_v165, main_v168, main_v171] main_v172 (fun u => concatenate S512x384 1 [⟨S512x128, u 0⟩, ⟨S512x128, u 1⟩, ⟨S512x128, u 2⟩] concatenates_S512x128_S512x128_S512x128_S512x384_d1),
    nary ![main_v56, main_v109, main_v162] main_v173 (fun u => concatenate S100000x384 1 [⟨S100000x128, u 0⟩, ⟨S100000x128, u 1⟩, ⟨S100000x128, u 2⟩] concatenates_S100000x128_S100000x128_S100000x128_S100000x384_d1) ]

/-- @main's operations, in order, a called function's operations in its call's place. -/
abbrev ops : List (HloOp τ sig (Elt F)) := opsL0 ++ opsL1 ++ opsL2 ++ opsT

-- a window's chain of binds re-associated at each call: one rewrite per operation of a called function
set_option maxRecDepth 8192 in
set_option maxHeartbeats 4000000 in
/-- The first window of @main is the first ninety-five operations of layer 0. -/
theorem part0_eq (c : Dev nD) : main_part0 (F := F) c = seq (opsL0.take 95) := by
  simp only [main_part0, fn_elu.body, fn_var.body, fn_where.body, fn_where_0.body, fn_where_1.body, bind_assoc, pure_bind]
  rfl

set_option maxRecDepth 8192 in
set_option maxHeartbeats 4000000 in
/-- The second window: layer 0's last five operations, then the first ninety of layer 1. -/
theorem part1_eq (c : Dev nD) : main_part1 (F := F) c = seq (opsL0.drop 95 ++ opsL1.take 90) := by
  simp only [main_part1, fn_elu.body, fn_var.body, fn_where.body, fn_where_0.body, fn_where_1.body, bind_assoc, pure_bind]
  rfl

set_option maxRecDepth 8192 in
set_option maxHeartbeats 4000000 in
/-- The third window: layer 1's last six operations, then the first eighty-nine of layer 2. -/
theorem part2_eq (c : Dev nD) : main_part2 (F := F) c = seq (opsL1.drop 90 ++ opsL2.take 89) := by
  simp only [main_part2, fn_elu.body, fn_var.body, fn_where.body, fn_where_0.body, fn_where_1.body, bind_assoc, pure_bind]
  rfl

set_option maxRecDepth 8192 in
set_option maxHeartbeats 4000000 in
/-- The last window: layer 2's last seven operations, then the tail. -/
theorem part3_eq (c : Dev nD) : main_part3 (F := F) c = seq (opsL2.drop 89 ++ opsT) := by
  simp only [main_part3, bind_assoc, pure_bind]
  rfl

/-- The whole list cut where the windows end. -/
theorem ops_windows : (ops : List (HloOp τ sig (Elt F)))
    = opsL0.take 95 ++ ((opsL0.drop 95 ++ opsL1.take 90) ++ ((opsL1.drop 90 ++ opsL2.take 89) ++ (opsL2.drop 89 ++ opsT))) := by
  conv_lhs => rw [ops, ← List.take_append_drop 95 (opsL0 (F := F)), ← List.take_append_drop 90 (opsL1 (F := F)),
    ← List.take_append_drop 89 (opsL2 (F := F))]
  simp only [List.append_assoc]

/-- @main is the straight line of its operations: window by window, the windows joined. -/
theorem main_eq (c : Dev nD) : main (F := F) c = seq ops := by
  rw [ops_windows, seq_append (opsL0.take 95), seq_append (opsL0.drop 95 ++ opsL1.take 90),
    seq_append (opsL1.drop 90 ++ opsL2.take 89), ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation of layer 0 touches TensorCore buffers only. -/
theorem opsL0_sub : (opsL0 : List (HloOp τ sig (Elt F))).Forall fun op => op.bufs ⊆ tcRefs τ sig := by
  simp only [opsL0, List.forall_cons, List.Forall, nullary_bufs_sub, unary_bufs_sub, binary_bufs_sub, ternary_bufs_sub,
    reshape_bufs_sub, and_self]

set_option maxRecDepth 8192 in
theorem opsL1_sub : (opsL1 : List (HloOp τ sig (Elt F))).Forall fun op => op.bufs ⊆ tcRefs τ sig := by
  simp only [opsL1, List.forall_cons, List.Forall, nullary_bufs_sub, unary_bufs_sub, binary_bufs_sub, ternary_bufs_sub,
    reshape_bufs_sub, and_self]

set_option maxRecDepth 8192 in
theorem opsL2_sub : (opsL2 : List (HloOp τ sig (Elt F))).Forall fun op => op.bufs ⊆ tcRefs τ sig := by
  simp only [opsL2, List.forall_cons, List.Forall, nullary_bufs_sub, unary_bufs_sub, binary_bufs_sub, ternary_bufs_sub,
    reshape_bufs_sub, and_self]

theorem opsT_sub : (opsT : List (HloOp τ sig (Elt F))).Forall fun op => op.bufs ⊆ tcRefs τ sig := by
  simp only [opsT, List.forall_cons, List.Forall, nullary_bufs_sub, unary_bufs_sub, ternary_bufs_sub, nary_bufs_sub, and_self]

theorem ops_sub : (ops : List (HloOp τ sig (Elt F))).Forall fun op => op.bufs ⊆ tcRefs τ sig :=
  List.forall_append.mpr ⟨List.forall_append.mpr ⟨List.forall_append.mpr ⟨opsL0_sub, opsL1_sub⟩, opsL2_sub⟩, opsT_sub⟩

set_option maxRecDepth 8192 in
/-- No operation of layer 0 leaves a buffer's contents to the machine. -/
theorem opsL0_fresh : (opsL0 : List (HloOp τ sig (Elt F))).Forall fun op => op.fresh = ∅ := by
  simp only [opsL0, List.forall_cons, List.Forall]
  repeat' constructor

set_option maxRecDepth 8192 in
theorem opsL1_fresh : (opsL1 : List (HloOp τ sig (Elt F))).Forall fun op => op.fresh = ∅ := by
  simp only [opsL1, List.forall_cons, List.Forall]
  repeat' constructor

set_option maxRecDepth 8192 in
theorem opsL2_fresh : (opsL2 : List (HloOp τ sig (Elt F))).Forall fun op => op.fresh = ∅ := by
  simp only [opsL2, List.forall_cons, List.Forall]
  repeat' constructor

theorem opsT_fresh : (opsT : List (HloOp τ sig (Elt F))).Forall fun op => op.fresh = ∅ := by
  simp only [opsT, List.forall_cons, List.Forall]
  repeat' constructor

theorem ops_fresh : ∀ op ∈ (ops : List (HloOp τ sig (Elt F))), op.fresh = ∅ :=
  List.forall_iff_forall_mem.mp
    (List.forall_append.mpr ⟨List.forall_append.mpr ⟨List.forall_append.mpr ⟨opsL0_fresh, opsL1_fresh⟩, opsL2_fresh⟩, opsT_fresh⟩)

/-- On every device, for any float values, from any memory with zero counters: every weakly fair execution of
    @main terminates, and every final state has each TensorCore buffer at the fold of the operations over the
    launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The fold over the whole list is the four folds one after the other. -/
theorem after_split (V : Valuation τ sig (Elt F)) :
    after (ops (F := F)) V = after opsT (after opsL2 (after opsL1 (after opsL0 V))) := by
  rw [ops, StableHlo.after_append, StableHlo.after_append, StableHlo.after_append]

end Cert.ReferenceIdeal.Hand

end
-- ==== Proof.RefKeep.lean ====
/- Which buffers each of the reference's four lists of operations leaves alone. Every operation writes exactly
   one buffer, its result; a list's writes are therefore its results in order, and a buffer that is not among
   them holds after the list what it held before. The arguments are written by no list, so at the end of
   @main they hold their launch contents. -/
import proofs.«406400_j6640019439960_2_alg».proof.Proof.RefRun

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations that write, one by one, exactly the references of a list write nothing outside that list. -/
theorem writes_sub_of_forall₂ {l : List (HloOp τ sig (Elt F))} {W : List (Ref sig .tc)}
    (h : List.Forall₂ (fun op r => op.writes = {(Proc.devRef (τ := τ) .tc r : DevRef τ sig)}) l W) :
    l.Forall fun op => op.writes ⊆ (W.map (Proc.devRef (τ := τ) .tc)).toFinset := by
  induction h with
  | nil => trivial
  | @cons a b l₁ l₂ hab _ ih =>
    refine (List.forall_cons _ _ _).mpr ⟨?_, List.Forall.imp (fun op hop => hop.trans ?_) ih⟩
    · rw [hab, Finset.singleton_subset_iff, List.mem_toFinset]
      exact List.mem_map_of_mem List.mem_cons_self
    · intro x hx
      rw [List.mem_toFinset] at hx ⊢
      rw [List.map_cons]
      exact List.mem_cons_of_mem _ hx

/-- The results of layer 0's operations, in order. -/
abbrev opsL0_W : List (Ref sig .tc) :=
  [main_v0, main_v1, main_v2, main_v3, main_c, main_v4, main_v5, main_c_0, main_v6, main_v7, main_v8, main_v9, main_v10,
    main_cst, main_v11, main_v12, main_v13, main_v14, main_v15, main_v16, main_v17, main_v18, main_v19, main_v20, main_v21,
    main_v22, main_cst_1, main_v23, main_v24, main_v25, main_v26, main_v27, main_v28, main_v29, main_v30, main_v31, main_v32,
    main_call0_cst, main_call0_v0, main_call0_v1, main_call0_cst_0, main_call0_v2, main_call0_v3, main_call0_cst_1,
    main_call0_call0_v0, main_call0_call0_v1, main_call0_v4, main_call0_v5, main_call0_cst_2, main_call0_v6, main_call0_v7,
    main_v33, main_cst_2, main_v34, main_cst_3, main_v35, main_v36, main_c_4,
    main_call1_cst, main_call1_v0, main_call1_v1, main_call1_cst_0, main_call1_v2, main_call1_v3, main_call1_v4, main_call1_v5,
    main_call1_v6, main_call1_v7, main_call1_cst_1, main_call1_v8, main_call1_cst_2, main_call1_v9, main_call1_v10,
    main_call1_v11, main_call1_cst_3, main_call1_v12, main_call1_cst_4, main_call1_call0_v0, main_call1_call0_v1, main_v37,
    main_v38, main_v39, main_v40, main_cst_5, main_v41, main_v42, main_v43, main_v44, main_v45, main_v46, main_v47, main_v48,
    main_v49, main_v50, main_v51, main_v52, main_v53, main_v54, main_v55, main_v56]

/-- The results of layer 1's operations, in order. -/
abbrev opsL1_W : List (Ref sig .tc) :=
  [main_c_6, main_v57, main_v58, main_c_7, main_v59, main_v60, main_v61, main_v62, main_v63, main_cst_8, main_v64, main_v65,
    main_v66, main_v67, main_v68, main_v69, main_v70, main_v71, main_v72, main_v73, main_v74, main_v75, main_cst_9, main_v76,
    main_v77, main_v78, main_v79, main_v80, main_v81, main_v82, main_v83, main_v84, main_v85,
    main_call2_cst, main_call2_v0, main_call2_v1, main_call2_cst_0, main_call2_v2, main_call2_v3, main_call2_cst_1,
    main_call2_call0_v0, main_call2_call0_v1, main_call2_v4, main_call2_v5, main_call2_cst_2, main_call2_v6, main_call2_v7,
    main_v86, main_cst_10, main_v87, main_cst_11, main_v88, main_v89, main_c_12,
    main_call3_cst, main_call3_v0, main_call3_v1, main_call3_cst_0, main_call3_v2, main_call3_v3, main_call3_v4, main_call3_v5,
    main_call3_v6, main_call3_v7, main_call3_cst_1, main_call3_v8, main_call3_cst_2, main_call3_v9, main_call3_v10,
    main_call3_v11, main_call3_cst_3, main_call3_v12, main_call3_cst_4, main_call3_call0_v0, main_call3_call0_v1, main_v90,
    main_v91, main_v92, main_v93, main_cst_13, main_v94, main_v95, main_v96, main_v97, main_v98, main_v99, main_v100,
    main_v101, main_v102, main_v103, main_v104, main_v105, main_v106, main_v107, main_v108, main_v109]

/-- The results of layer 2's operations, in order. -/
abbrev opsL2_W : List (Ref sig .tc) :=
  [main_c_14, main_v110, main_v111, main_c_15, main_v112, main_v113, main_v114, main_v115, main_v116, main_cst_16, main_v117,
    main_v118, main_v119, main_v120, main_v121, main_v122, main_v123, main_v124, main_v125, main_v126, main_v127, main_v128,
    main_cst_17, main_v129, main_v130, main_v131, main_v132, main_v133, main_v134, main_v135, main_v136, main_v137, main_v138,
    main_call4_cst, main_call4_v0, main_call4_v1, main_call4_cst_0, main_call4_v2, main_call4_v3, main_call4_cst_1,
    main_call4_call0_v0, main_call4_call0_v1, main_call4_v4, main_call4_v5, main_call4_cst_2, main_call4_v6, main_call4_v7,
    main_v139, main_cst_18, main_v140, main_cst_19, main_v141, main_v142, main_c_20,
    main_call5_cst, main_call5_v0, main_call5_v1, main_call5_cst_0, main_call5_v2, main_call5_v3, main_call5_v4, main_call5_v5,
    main_call5_v6, main_call5_v7, main_call5_cst_1, main_call5_v8, main_call5_cst_2, main_call5_v9, main_call5_v10,
    main_call5_v11, main_call5_cst_3, main_call5_v12, main_call5_cst_4, main_call5_call0_v0, main_call5_call0_v1, main_v143,
    main_v144, main_v145, main_v146, main_cst_21, main_v147, main_v148, main_v149, main_v150, main_v151, main_v152, main_v153,
    main_v154, main_v155, main_v156, main_v157, main_v158, main_v159, main_v160, main_v161, main_v162]

/-- The results of the tail's operations, in order. -/
abbrev opsT_W : List (Ref sig .tc) :=
  [main_cst_22, main_v163, main_v164, main_v165, main_cst_23, main_v166, main_v167, main_v168, main_cst_24, main_v169,
    main_v170, main_v171, main_v172, main_v173]

set_option maxRecDepth 8192 in
theorem opsL0_writes : (opsL0 : List (HloOp τ sig (Elt F))).Forall fun op =>
    op.writes ⊆ (opsL0_W.map (Proc.devRef (τ := τ) .tc)).toFinset :=
  writes_sub_of_forall₂ (by repeat' constructor)

set_option maxRecDepth 8192 in
theorem opsL1_writes : (opsL1 : List (HloOp τ sig (Elt F))).Forall fun op =>
    op.writes ⊆ (opsL1_W.map (Proc.devRef (τ := τ) .tc)).toFinset :=
  writes_sub_of_forall₂ (by repeat' constructor)

set_option maxRecDepth 8192 in
theorem opsL2_writes : (opsL2 : List (HloOp τ sig (Elt F))).Forall fun op =>
    op.writes ⊆ (opsL2_W.map (Proc.devRef (τ := τ) .tc)).toFinset :=
  writes_sub_of_forall₂ (by repeat' constructor)

theorem opsT_writes : (opsT : List (HloOp τ sig (Elt F))).Forall fun op =>
    op.writes ⊆ (opsT_W.map (Proc.devRef (τ := τ) .tc)).toFinset :=
  writes_sub_of_forall₂ (by repeat' constructor)

/-- Layer 0 leaves the nine arguments alone. -/
theorem keepL0 (U : Valuation τ sig (Elt F)) (b : Ref sig .tc)
    (hb : b ∈ ([main_arg0, main_arg1, main_arg2, main_arg3, main_arg4, main_arg5, main_arg6, main_arg7, main_arg8] : List (Ref sig .tc))) :
    after opsL0 U (Proc.devRef .tc b) = U (Proc.devRef .tc b) :=
  after_of_writes_sub opsL0 U opsL0_writes
    ((by decide : ∀ r ∈ ([main_arg0, main_arg1, main_arg2, main_arg3, main_arg4, main_arg5, main_arg6, main_arg7, main_arg8] : List (Ref sig .tc)), r ∉ opsL0_W) b hb)

/-- Layer 1 leaves alone the arguments, the two index vectors and layer 0's output. -/
theorem keepL1 (U : Valuation τ sig (Elt F)) (b : Ref sig .tc)
    (hb : b ∈ ([main_arg0, main_arg1, main_arg2, main_arg3, main_arg4, main_arg5, main_arg6, main_arg7, main_arg8, main_v1, main_v3, main_v56] : List (Ref sig .tc))) :
    after opsL1 U (Proc.devRef .tc b) = U (Proc.devRef .tc b) :=
  after_of_writes_sub opsL1 U opsL1_writes
    ((by decide : ∀ r ∈ ([main_arg0, main_arg1, main_arg2, main_arg3, main_arg4, main_arg5, main_arg6, main_arg7, main_arg8, main_v1, main_v3, main_v56] : List (Ref sig .tc)), r ∉ opsL1_W) b hb)

/-- Layer 2 leaves alone the arguments, the two index vectors and the outputs of layers 0 and 1. -/
theorem keepL2 (U : Valuation τ sig (Elt F)) (b : Ref sig .tc)
    (hb : b ∈ ([main_arg0, main_arg1, main_arg2, main_arg3, main_arg4, main_arg5, main_arg6, main_arg7, main_arg8, main_v1, main_v3, main_v56, main_v109] : List (Ref sig .tc))) :
    after opsL2 U (Proc.devRef .tc b) = U (Proc.devRef .tc b) :=
  after_of_writes_sub opsL2 U opsL2_writes
    ((by decide : ∀ r ∈ ([main_arg0, main_arg1, main_arg2, main_arg3, main_arg4, main_arg5, main_arg6, main_arg7, main_arg8, main_v1, main_v3, main_v56, main_v109] : List (Ref sig .tc)), r ∉ opsL2_W) b hb)

/-- The tail leaves alone the arguments and the three layers' outputs. -/
theorem keepT (U : Valuation τ sig (Elt F)) (b : Ref sig .tc)
    (hb : b ∈ ([main_arg0, main_arg1, main_arg2, main_arg3, main_arg4, main_arg5, main_arg6, main_arg7, main_arg8, main_v56, main_v109, main_v162] : List (Ref sig .tc))) :
    after opsT U (Proc.devRef .tc b) = U (Proc.devRef .tc b) :=
  after_of_writes_sub opsT U opsT_writes
    ((by decide : ∀ r ∈ ([main_arg0, main_arg1, main_arg2, main_arg3, main_arg4, main_arg5, main_arg6, main_arg7, main_arg8, main_v56, main_v109, main_v162] : List (Ref sig .tc)), r ∉ opsT_W) b hb)

/-- At the end of @main every argument holds its launch contents. -/
theorem ref_args (m : (ℓ : Loc nD τ sig) → Buf (Elt F) ℓ) (c : Dev nD) (b : Ref sig .tc)
    (hb : b ∈ ([main_arg0, main_arg1, main_arg2, main_arg3, main_arg4, main_arg5, main_arg6, main_arg7, main_arg8] : List (Ref sig .tc))) :
    after ops (launchContents m c) (Proc.devRef .tc b) = m ((c.tc : Thread nD τ).loc b) := by
  have h1 : b ∈ ([main_arg0, main_arg1, main_arg2, main_arg3, main_arg4, main_arg5, main_arg6, main_arg7, main_arg8, main_v1, main_v3, main_v56] : List (Ref sig .tc)) :=
    List.mem_append_left [main_v1, main_v3, main_v56] hb
  have h2 : b ∈ ([main_arg0, main_arg1, main_arg2, main_arg3, main_arg4, main_arg5, main_arg6, main_arg7, main_arg8, main_v1, main_v3, main_v56, main_v109] : List (Ref sig .tc)) :=
    List.mem_append_left [main_v1, main_v3, main_v56, main_v109] hb
  have hT : b ∈ ([main_arg0, main_arg1, main_arg2, main_arg3, main_arg4, main_arg5, main_arg6, main_arg7, main_arg8, main_v56, main_v109, main_v162] : List (Ref sig .tc)) :=
    List.mem_append_left [main_v56, main_v109, main_v162] hb
  rw [after_split, keepT _ b hT, keepL2 _ b h2, keepL1 _ b h1, keepL0 _ b hb]

end Cert.ReferenceIdeal.Hand

end
-- ==== Proof.RefLayerMath.lean ====
/-
  One layer of the reference as operations on whole arrays, and what each of them computes index by index.
  A layer takes the aggregate and the features, adds them, applies an affine map, the rectifier, a second affine
  map and the exponential-linear unit, takes the column means and the column variances of the result (the variance
  as the mean of squared deviations, guarded by a comparison of the divisor with zero that always holds), and
  normalises, scales and shifts.  Each piece is stated as a function of arrays and shown equal, entry by entry, to
  the curried function of the same name; the layer is their composition.
-/
import proofs.«406400_j6640019439960_2_alg».proof.Proof.Gen.ReferenceIdeal
import proofs.«406400_j6640019439960_2_alg».proof.Proof.Spec
import proofs.«406400_j6640019439960_2_alg».proof.Proof.Math
import proofs.«406400_j6640019439960_2_alg».proof.Proof.LibPlainDot
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.ReferenceIdeal.Hand

open Cert.ReferenceIdeal Cert.ReferenceIdeal.Gen Cert.Spec Idealize.ShloMosaic Idealize.ShloMosaic.ValueIdx

/-! ## The pieces of a layer as operations on whole arrays -/

/-- A scalar word spread over the node-by-column array. -/
def splat2 (w : BitVec 32) : FVec Ideal S100000x128 .f32 :=
  broadcastInDim S100000x128 ![] bcast_S_S100000x128 (constant (F := Ideal) S_ .f32 w)

theorem splat2_apply (w : BitVec 32) (i : S100000x128.Idx) : splat2 w i = Ideal.ofBits .f32 w := by
  unfold splat2
  rw [broadcastInDim_scalar_apply, constant_apply]

/-- A scalar word spread over the columns. -/
def splat1 (w : BitVec 32) : FVec Ideal S128 .f32 :=
  broadcastInDim S128 ![] bcast_S_S128 (constant (F := Ideal) S_ .f32 w)

theorem splat1_apply (w : BitVec 32) (i : S128.Idx) : splat1 w i = Ideal.ofBits .f32 w := by
  unfold splat1
  rw [broadcastInDim_scalar_apply, constant_apply]

/-- A vector over the columns repeated down the rows: first as one row, then that row under every node. -/
def bcRow (v : FVec Ideal S128 .f32) : FVec Ideal S100000x128 .f32 :=
  broadcastInDim S100000x128 ![0, 1] bcast_S1x128_S100000x128_0_1 (broadcastInDim S1x128 ![1] bcast_S128_S1x128_1 v)

theorem asRow_apply (v : FVec Ideal S128 .f32) (u : Fin 1) (j : Cl) :
    broadcastInDim S1x128 ![1] bcast_S128_S1x128_1 v (ix2 u j) = v (ix1 j) :=
  broadcastInDim_apply _ bcast_S128_S1x128_1 v (ix2 u j) (ix1 j) fun a => by
    match a with
    | ⟨0, _⟩ => show j.val = if (128 : Nat) = 1 then 0 else j.val; rw [if_neg (by decide)]

theorem downRows_apply (r : FVec Ideal S1x128 .f32) (n : Rw) (j : Cl) :
    broadcastInDim S100000x128 ![0, 1] bcast_S1x128_S100000x128_0_1 r (ix2 n j) = r (ix2 (0 : Fin 1) j) :=
  broadcastInDim_apply _ bcast_S1x128_S100000x128_0_1 r (ix2 n j) (ix2 (0 : Fin 1) j) fun a => by
    match a with
    | ⟨0, _⟩ => show (0 : Nat) = if (1 : Nat) = 1 then 0 else n.val; rw [if_pos rfl]
    | ⟨1, _⟩ => show j.val = if (128 : Nat) = 1 then 0 else j.val; rw [if_neg (by decide)]

theorem bcRow_apply (v : FVec Ideal S128 .f32) (n : Rw) (j : Cl) : bcRow v (ix2 n j) = v (ix1 j) := by
  unfold bcRow
  rw [downRows_apply, asRow_apply]

/-- Table `L` of a stack of three weight matrices, as a matrix. -/
def matOf (o : Fin 3 → Nat) (h : S3x128x128.Slices o S1x128x128) (W : FVec Ideal S3x128x128 .f32) : FVec Ideal S128x128 .f32 :=
  shapeCast S128x128 (extractStridedSlice S1x128x128 o W h) shapeCasts_S1x128x128_S128x128

theorem matOf_apply (L : Fin 3) (o : Fin 3 → Nat) (ho : o = ![L.val, 0, 0]) (h : S3x128x128.Slices o S1x128x128)
    (W : FVec Ideal S3x128x128 .f32) (k j : Cl) : matOf o h W (ix2 k j) = W (ix3 L k j) := by
  subst ho
  unfold matOf
  rw [shapeCast_1ab_ab_apply]
  refine extractStridedSlice_apply _ W h _ _ fun a => ?_
  match a with
  | ⟨0, _⟩ => show L.val = L.val + 0; rfl
  | ⟨1, _⟩ => show k.val = 0 + k.val; rw [Nat.zero_add]
  | ⟨2, _⟩ => show j.val = 0 + j.val; rw [Nat.zero_add]

/-- Row `L` of a stack of three vectors over the columns, as a vector. -/
def vecOf (o : Fin 2 → Nat) (h : S3x128.Slices o S1x128) (b : FVec Ideal S3x128 .f32) : FVec Ideal S128 .f32 :=
  shapeCast S128 (extractStridedSlice S1x128 o b h) shapeCasts_S1x128_S128

theorem vecOf_apply (L : Fin 3) (o : Fin 2 → Nat) (ho : o = ![L.val, 0]) (h : S3x128.Slices o S1x128)
    (b : FVec Ideal S3x128 .f32) (j : Cl) : vecOf o h b (ix1 j) = b (ix2 L j) := by
  subst ho
  unfold vecOf
  rw [shapeCast_1a_a_apply]
  refine extractStridedSlice_apply _ b h _ _ fun a => ?_
  match a with
  | ⟨0, _⟩ => show L.val = L.val + 0; rfl
  | ⟨1, _⟩ => show j.val = 0 + j.val; rw [Nat.zero_add]

/-- An affine map of the rows: the matrix product plus the bias under every node. -/
def linT (x : FVec Ideal S100000x128 .f32) (W : FVec Ideal S128x128 .f32) (b : FVec Ideal S128 .f32) : FVec Ideal S100000x128 .f32 :=
  addf (Host.dotGeneral dot_S100000x128_S128x128_S100000x128_1_0_0_1_n_n none x W) (bcRow b)

theorem linT_eq (x : FVec Ideal S100000x128 .f32) (W : FVec Ideal S128x128 .f32) (b : FVec Ideal S128 .f32) :
    linT x W b = toArr2 (lin (of2 x) (of2 W) (of1 b)) := by
  funext i
  obtain ⟨n, j, rfl⟩ : ∃ (n : Rw) (j : Cl), i = ix2 n j := ⟨i 0, i 1, eq_ix2 i⟩
  show Host.dotGeneral dot_S100000x128_S128x128_S100000x128_1_0_0_1_n_n none x W (ix2 n j) + bcRow b (ix2 n j) = _
  rw [bcRow_apply]
  simp only [Host.dotGeneral]
  rw [Ideal.dotGeneral_apply,
    PlainDot.sum_eq dot_S100000x128_S128x128_S100000x128_1_0_0_1_n_n rfl rfl rfl rfl rfl rfl x W n j]
  rfl

/-- The rectifier: the larger of the entry and zero. -/
def reluT (y : FVec Ideal S100000x128 .f32) : FVec Ideal S100000x128 .f32 := maximumf y (splat2 0x00000000#32)

theorem reluT_eq (y : FVec Ideal S100000x128 .f32) : reluT y = toArr2 (relu (of2 y)) := by
  funext i
  obtain ⟨n, j, rfl⟩ : ∃ (n : Rw) (j : Cl), i = ix2 n j := ⟨i 0, i 1, eq_ix2 i⟩
  show max (y (ix2 n j)) (splat2 0x00000000#32 (ix2 n j)) = _
  rw [splat2_apply, Ideal.ofBits_zero_f32]
  rfl

/-- The exponential-linear unit as the program writes it: where the entry exceeds zero the entry, elsewhere one
    times the exponential less one of the entry (of zero where the entry exceeds zero, a value never used). -/
def eluT (y : FVec Ideal S100000x128 .f32) : FVec Ideal S100000x128 .f32 :=
  select (cmpf .ogt y (splat2 0x00000000#32)) y
    (mulf (splat2 0x3F800000#32)
      (Host.expm1 (select (cmpf .ogt y (splat2 0x00000000#32))
        (broadcastInDim S100000x128 ![] bcast_S_S100000x128 (id (constant (F := Ideal) S_ .f32 0x00000000#32))) y)))

theorem eluT_eq (y : FVec Ideal S100000x128 .f32) : eluT y = toArr2 (elu (of2 y)) := by
  funext i
  obtain ⟨n, j, rfl⟩ : ∃ (n : Rw) (j : Cl), i = ix2 n j := ⟨i 0, i 1, eq_ix2 i⟩
  show Scalar.select (Ideal.cmp .ogt (y (ix2 n j)) (splat2 0x00000000#32 (ix2 n j))) (y (ix2 n j))
      (splat2 0x3F800000#32 (ix2 n j) * (Ideal.exp (Scalar.select (Ideal.cmp .ogt (y (ix2 n j)) (splat2 0x00000000#32 (ix2 n j)))
        (splat2 0x00000000#32 (ix2 n j)) (y (ix2 n j))) - 1))
    = Scalar.select (Ideal.cmp .ogt (y (ix2 n j)) 0) (y (ix2 n j)) (Ideal.exp (y (ix2 n j)) - 1)
  rw [splat2_apply, splat2_apply, Ideal.ofBits_zero_f32, one_eq, one_mul]
  generalize Ideal.cmp .ogt (y (ix2 n j)) 0 = c
  by_cases hc : c = 1#1
  · rw [hc, select_one, select_one]
  · rw [eq_zero_of_ne_one hc, select_zero, select_zero, select_zero]

/-- The column sums of an array, from zero. -/
def colSumT (e : FVec Ideal S100000x128 .f32) : FVec Ideal S128 .f32 :=
  Host.reduceAdd e (constant (F := Ideal) S_ .f32 0x00000000#32) reducesTo_S100000x128_S128_d0 h_S_

theorem colSumT_apply (e : FVec Ideal S100000x128 .f32) (j : Cl) : colSumT e (ix1 j) = colSum (of2 e) j := by
  unfold colSumT
  rw [hostReduceAdd_apply, Ideal.hostReduceAdd_single reducesTo_S100000x128_S128_d0 (by decide), constant_apply,
    Ideal.ofBits_zero_f32, zero_add]
  refine Finset.sum_congr rfl fun k _ => ?_
  exact congrArg e (funext fun a => Fin.ext (by match a with | ⟨0, _⟩ => rfl | ⟨1, _⟩ => rfl))

/-- The column means: the column sums over the node count. -/
def meanT (e : FVec Ideal S100000x128 .f32) : FVec Ideal S128 .f32 := Host.divf (colSumT e) (splat1 0x47C35000#32)

theorem meanT_apply (e : FVec Ideal S100000x128 .f32) (j : Cl) : meanT e (ix1 j) = mean (of2 e) j := by
  unfold meanT
  rw [hostDivf_apply, colSumT_apply, splat1_apply]
  rfl

/-- The deviations from the column means, the means written as the program's variance writes them: the column sums
    as one row over the node count as one row, that row under every node. -/
def devT (e : FVec Ideal S100000x128 .f32) : FVec Ideal S100000x128 .f32 :=
  subf e (broadcastInDim S100000x128 ![0, 1] bcast_S1x128_S100000x128_0_1
    (Host.divf (broadcastInDim S1x128 ![1] bcast_S128_S1x128_1 (colSumT e))
      (broadcastInDim S1x128 ![] bcast_S_S1x128 (constant (F := Ideal) S_ .f32 0x47C35000#32))))

theorem devT_apply (e : FVec Ideal S100000x128 .f32) (n : Rw) (j : Cl) :
    devT e (ix2 n j) = e (ix2 n j) - mean (of2 e) j := by
  unfold devT
  rw [subf_apply, downRows_apply, hostDivf_apply, asRow_apply, colSumT_apply, broadcastInDim_scalar_apply, constant_apply]
  rfl

/-- The variance's divisor: the node count less the integer zero as a float. -/
def cntT : FVec Ideal S_ .f32 :=
  subf (constant (F := Ideal) S_ .f32 0x47C35000#32) (sitofp .f32 (constantI S_ 32 0#32))

theorem cntT_apply (i : S_.Idx) : cntT i = nW := by
  show Ideal.ofBits .f32 0x47C35000#32 - (((0#32 : BitVec 32).toInt : ℝ) : EReal) = nW
  rw [show (0#32 : BitVec 32).toInt = 0 by decide, Int.cast_zero, EReal.coe_zero, sub_zero]

theorem nW_pos : (0 : EReal) < nW := by
  rw [nW_eq]
  exact EReal.coe_pos.mpr (by norm_num)

theorem cmp_nW_pos : Ideal.cmp .ogt nW 0 = 1#1 := by
  show BitVec.ofBool (decide ((0 : EReal) < nW)) = 1#1
  rw [decide_eq_true nW_pos]
  rfl

/-- The variance as the program writes it: the column sums of the squared deviations over the divisor where the
    divisor exceeds zero, a not-a-number word elsewhere. -/
def varT (e : FVec Ideal S100000x128 .f32) : FVec Ideal S128 .f32 :=
  select (broadcastInDim S128 ![] bcast_S_S128 (cmpf .ogt cntT (constant (F := Ideal) S_ .f32 0x00000000#32)))
    (Host.divf (colSumT (mulf (devT e) (devT e))) (broadcastInDim S128 ![] bcast_S_S128 cntT))
    (broadcastInDim S128 ![] bcast_S_S128 (id (constant (F := Ideal) S_ .f32 0x7FC00000#32)))

theorem varT_apply (e : FVec Ideal S100000x128 .f32) (j : Cl) : varT e (ix1 j) = varR (of2 e) j := by
  unfold varT
  rw [select_apply, broadcastInDim_scalar_apply, cmpf_apply, cntT_apply, constant_apply, Ideal.ofBits_zero_f32]
  show Scalar.select (Ideal.cmp .ogt nW 0) _ _ = _
  rw [cmp_nW_pos, select_one, hostDivf_apply, colSumT_apply, broadcastInDim_scalar_apply, cntT_apply]
  show Ideal.div (∑ n : Rw, devT e (ix2 n j) * devT e (ix2 n j)) nW = _
  simp only [devT_apply]
  rfl

/-- The normalisation: the deviations from the given means times the reciprocal root of the given variances plus
    the small constant, scaled and shifted, each column vector under every node. -/
def bnT (e : FVec Ideal S100000x128 .f32) (mu var g bt : FVec Ideal S128 .f32) : FVec Ideal S100000x128 .f32 :=
  addf (mulf (mulf (subf e (bcRow mu)) (bcRow (Host.rsqrt (addf var (splat1 0x3727C5AC#32))))) (bcRow g)) (bcRow bt)

theorem bnT_eq (e : FVec Ideal S100000x128 .f32) (mu var g bt : FVec Ideal S128 .f32) :
    bnT e mu var g bt = toArr2 (bn (of2 e) (of1 mu) (of1 var) (of1 g) (of1 bt)) := by
  funext i
  obtain ⟨n, j, rfl⟩ : ∃ (n : Rw) (j : Cl), i = ix2 n j := ⟨i 0, i 1, eq_ix2 i⟩
  show (e (ix2 n j) - bcRow mu (ix2 n j)) * bcRow (Host.rsqrt (addf var (splat1 0x3727C5AC#32))) (ix2 n j) * bcRow g (ix2 n j)
    + bcRow bt (ix2 n j) = _
  rw [bcRow_apply, bcRow_apply, bcRow_apply, bcRow_apply]
  show (e (ix2 n j) - mu (ix1 j)) * Ideal.rsqrt (var (ix1 j) + splat1 0x3727C5AC#32 (ix1 j)) * g (ix1 j) + bt (ix1 j) = _
  rw [splat1_apply]
  rfl

/-! ## One layer -/

/-- The perceptron on the aggregate plus the features. -/
def mlpT (agg h : FVec Ideal S100000x128 .f32) (W1 : FVec Ideal S128x128 .f32) (b1 : FVec Ideal S128 .f32)
    (W2 : FVec Ideal S128x128 .f32) (b2 : FVec Ideal S128 .f32) : FVec Ideal S100000x128 .f32 :=
  eluT (linT (reluT (linT (addf agg h) W1 b1)) W2 b2)

theorem mlpT_eq (agg h : FVec Ideal S100000x128 .f32) (W1 : FVec Ideal S128x128 .f32) (b1 : FVec Ideal S128 .f32)
    (W2 : FVec Ideal S128x128 .f32) (b2 : FVec Ideal S128 .f32) :
    mlpT agg h W1 b1 W2 b2 = toArr2 (mlp (of2 agg) (of2 h) (of2 W1) (of1 b1) (of2 W2) (of1 b2)) := by
  unfold mlpT
  rw [linT_eq (addf agg h), reluT_eq, linT_eq, eluT_eq]
  rfl

/-- One layer: the perceptron's output normalised by its own column means and variances. -/
def layerT (agg h : FVec Ideal S100000x128 .f32) (W1 : FVec Ideal S128x128 .f32) (b1 : FVec Ideal S128 .f32)
    (W2 : FVec Ideal S128x128 .f32) (b2 g bt : FVec Ideal S128 .f32) : FVec Ideal S100000x128 .f32 :=
  bnT (mlpT agg h W1 b1 W2 b2) (meanT (mlpT agg h W1 b1 W2 b2)) (varT (mlpT agg h W1 b1 W2 b2)) g bt

theorem layerT_eq (agg h : FVec Ideal S100000x128 .f32) (W1 : FVec Ideal S128x128 .f32) (b1 : FVec Ideal S128 .f32)
    (W2 : FVec Ideal S128x128 .f32) (b2 g bt : FVec Ideal S128 .f32) :
    layerT agg h W1 b1 W2 b2 g bt
      = toArr2 (layerR (of2 agg) (of2 h) (of2 W1) (of1 b1) (of2 W2) (of1 b2) (of1 g) (of1 bt)) := by
  have hm : ∀ e : FVec Ideal S100000x128 .f32, of1 (meanT e) = mean (of2 e) := fun e => funext fun j => meanT_apply e j
  have hv : ∀ e : FVec Ideal S100000x128 .f32, of1 (varT e) = varR (of2 e) := fun e => funext fun j => varT_apply e j
  unfold layerT
  rw [bnT_eq, hm, hv, mlpT_eq]
  rfl

/-! ## The aggregation -/

/-- The edges' source nodes: row 0 of the edge list. -/
def srcT (ei : IVec S2x640000 32) : IVec S640000 32 :=
  shapeCast S640000 (extractStridedSlice S1x640000 ![0, 0] ei slices_S2x640000_S1x640000_0_0) shapeCasts_S1x640000_S640000

/-- The edges' destination nodes: row 1 of the edge list. -/
def dstT (ei : IVec S2x640000 32) : IVec S640000 32 :=
  shapeCast S640000 (extractStridedSlice S1x640000 ![1, 0] ei slices_S2x640000_S1x640000_1_0) shapeCasts_S1x640000_S640000

/-- The aggregate of the features `h` along the edges: from the zero array, each edge adds the row of `h` at its
    source (a negative source index first moved up by the node count) to the row at its destination. -/
def aggT (h : FVec Ideal S100000x128 .f32) (src dst : IVec S640000 32) : FVec Ideal S100000x128 .f32 :=
  Host.scatterAdd scatter_S100000x128_S640000x1_S640000x128_1_0_0_1
    (broadcastInDim S100000x128 ![] bcast_S_S100000x128 (constant (F := Ideal) S_ .f32 0x00000000#32))
    (broadcastInDim S640000x1 ![0] bcast_S640000_S640000x1_0 dst)
    (Host.gather gather_S100000x128_S640000x1_S640000x128_1_0_n_n_0_1_1128 h
      (broadcastInDim S640000x1 ![0] bcast_S640000_S640000x1_0
        (select (cmpi .slt src (broadcastInDim S640000 ![] bcast_S_S640000 (constantI S_ 32 0#32)))
          (addi src (broadcastInDim S640000 ![] bcast_S_S640000 (constantI S_ 32 100000#32))) src)))

/-- An array read by coordinates and laid out again is itself. -/
theorem toArr2_of2 {a b : Nat} (f : (⟨2, ![a, b]⟩ : Shape).Idx → EReal) : toArr2 (of2 f) = f :=
  funext fun i => (congrArg f (eq_ix2 i)).symm

end Cert.ReferenceIdeal.Hand

end
-- ==== Proof.RefL0.lean ====
/-
  What layer 0's operations leave behind, over any contents of the buffers before them: the two rows of the edge list
  as index vectors, and the layer's output — one layer, as a function of whole arrays, of the aggregate of the given
  features along the edges, the features themselves, and the first tables of the two weight stacks, the two bias
  stacks, the scale stack and the shift stack.  The list is read in four pieces, each over any contents before it.
-/
import proofs.«406400_j6640019439960_2_alg».proof.Proof.RefRun
import proofs.«406400_j6640019439960_2_alg».proof.Proof.RefLayerMath

noncomputable section

namespace Cert.ReferenceIdeal.Hand

open Cert.ReferenceIdeal Cert.ReferenceIdeal.Gen Cert.Spec Idealize.ShloMosaic Idealize.ShloMosaic.TcCoe Idealize.SL.Sem Idealize.ShloMosaic.StableHlo

variable {F : FTy → Type} [FloatOps F]

/-- The layer's list cut in four: through the second affine map; the exponential-linear unit; the column means and
    variances; the normalisation. -/
abbrev cA0 : List (HloOp τ sig (Elt F)) := (opsL0).take 37
abbrev cB0 : List (HloOp τ sig (Elt F)) := ((opsL0).drop 37).take 15
abbrev cC0 : List (HloOp τ sig (Elt F)) := (((opsL0).drop 37).drop 15).take 28
abbrev cD0 : List (HloOp τ sig (Elt F)) := (((opsL0).drop 37).drop 15).drop 28

/-- The fold over the layer's list is the four pieces' folds in turn. -/
theorem cut0 (U : Valuation τ sig (Elt F)) :
    after (opsL0 (F := F)) U = after cD0 (after cC0 (after cB0 (after cA0 U))) := by
  conv_lhs =>
    rw [← List.take_append_drop 37 (opsL0 (F := F)), ← List.take_append_drop 15 (List.drop 37 (opsL0 (F := F))),
      ← List.take_append_drop 28 (List.drop 15 (List.drop 37 (opsL0 (F := F))))]
  rw [StableHlo.after_append, StableHlo.after_append, StableHlo.after_append]

set_option maxRecDepth 16384 in
set_option maxHeartbeats 1000000 in
/-- The first piece leaves the second affine map's output. -/
theorem A0_y (U : Valuation τ sig (Elt Ideal)) {h : FVec Ideal S100000x128 .f32} {ei : IVec S2x640000 32}
    {W1 W2 : FVec Ideal S3x128x128 .f32} {b1 b2 : FVec Ideal S3x128 .f32}
    (hh : (U (Proc.devRef .tc main_arg0) : FVec Ideal S100000x128 .f32) = h)
    (he : (U (Proc.devRef .tc main_arg1) : IVec S2x640000 32) = ei)
    (h3 : (U (Proc.devRef .tc main_arg3) : FVec Ideal S3x128x128 .f32) = W1)
    (h4 : (U (Proc.devRef .tc main_arg4) : FVec Ideal S3x128 .f32) = b1)
    (h5 : (U (Proc.devRef .tc main_arg5) : FVec Ideal S3x128x128 .f32) = W2)
    (h6 : (U (Proc.devRef .tc main_arg6) : FVec Ideal S3x128 .f32) = b2) :
    (after (cA0 (F := Ideal)) U (Proc.devRef .tc main_v32) : FVec Ideal S100000x128 .f32)
      = linT (reluT (linT (addf (aggT h (srcT ei) (dstT ei)) h) (matOf ![0, 0, 0] slices_S3x128x128_S1x128x128_0_0_0 W1) (vecOf ![0, 0] slices_S3x128_S1x128_0_0 b1))) (matOf ![0, 0, 0] slices_S3x128x128_S1x128x128_0_0_0 W2) (vecOf ![0, 0] slices_S3x128_S1x128_0_0 b2) := by
  subst hh he h3 h4 h5 h6
  simp only [cA0, cB0, cC0, cD0, opsL0, List.take_succ_cons, List.take_zero, List.drop_succ_cons, List.drop_zero]
  after_results_simp
  rfl

theorem A0_k7 (U : Valuation τ sig (Elt Ideal)) :
    after (cA0 (F := Ideal)) U (Proc.devRef .tc main_arg7) = U (Proc.devRef .tc main_arg7) := by
  simp only [cA0, cB0, cC0, cD0, opsL0, List.take_succ_cons, List.take_zero, List.drop_succ_cons, List.drop_zero]
  after_results_simp

theorem A0_k8 (U : Valuation τ sig (Elt Ideal)) :
    after (cA0 (F := Ideal)) U (Proc.devRef .tc main_arg8) = U (Proc.devRef .tc main_arg8) := by
  simp only [cA0, cB0, cC0, cD0, opsL0, List.take_succ_cons, List.take_zero, List.drop_succ_cons, List.drop_zero]
  after_results_simp

/-- The second piece leaves the exponential-linear unit of that output. -/
theorem B0_e (U : Valuation τ sig (Elt Ideal)) {y : FVec Ideal S100000x128 .f32}
    (hy : (U (Proc.devRef .tc main_v32) : FVec Ideal S100000x128 .f32) = y) :
    (after (cB0 (F := Ideal)) U (Proc.devRef .tc main_v33) : FVec Ideal S100000x128 .f32) = eluT y := by
  subst hy
  simp only [cA0, cB0, cC0, cD0, opsL0, List.take_succ_cons, List.take_zero, List.drop_succ_cons, List.drop_zero]
  after_results_simp
  rfl

theorem B0_k7 (U : Valuation τ sig (Elt Ideal)) :
    after (cB0 (F := Ideal)) U (Proc.devRef .tc main_arg7) = U (Proc.devRef .tc main_arg7) := by
  simp only [cA0, cB0, cC0, cD0, opsL0, List.take_succ_cons, List.take_zero, List.drop_succ_cons, List.drop_zero]
  after_results_simp

theorem B0_k8 (U : Valuation τ sig (Elt Ideal)) :
    after (cB0 (F := Ideal)) U (Proc.devRef .tc main_arg8) = U (Proc.devRef .tc main_arg8) := by
  simp only [cA0, cB0, cC0, cD0, opsL0, List.take_succ_cons, List.take_zero, List.drop_succ_cons, List.drop_zero]
  after_results_simp

/-- The third piece leaves the column means -/
theorem C0_mu (U : Valuation τ sig (Elt Ideal)) {e : FVec Ideal S100000x128 .f32}
    (he : (U (Proc.devRef .tc main_v33) : FVec Ideal S100000x128 .f32) = e) :
    (after (cC0 (F := Ideal)) U (Proc.devRef .tc main_v36) : FVec Ideal S128 .f32) = meanT e := by
  subst he
  simp only [cA0, cB0, cC0, cD0, opsL0, List.take_succ_cons, List.take_zero, List.drop_succ_cons, List.drop_zero]
  after_results_simp
  rfl

/-- and the column variances. -/
theorem C0_var (U : Valuation τ sig (Elt Ideal)) {e : FVec Ideal S100000x128 .f32}
    (he : (U (Proc.devRef .tc main_v33) : FVec Ideal S100000x128 .f32) = e) :
    (after (cC0 (F := Ideal)) U (Proc.devRef .tc main_v37) : FVec Ideal S128 .f32) = varT e := by
  subst he
  simp only [cA0, cB0, cC0, cD0, opsL0, List.take_succ_cons, List.take_zero, List.drop_succ_cons, List.drop_zero]
  after_results_simp
  rfl

theorem C0_ke (U : Valuation τ sig (Elt Ideal)) :
    after (cC0 (F := Ideal)) U (Proc.devRef .tc main_v33) = U (Proc.devRef .tc main_v33) := by
  simp only [cA0, cB0, cC0, cD0, opsL0, List.take_succ_cons, List.take_zero, List.drop_succ_cons, List.drop_zero]
  after_results_simp

theorem C0_k7 (U : Valuation τ sig (Elt Ideal)) :
    after (cC0 (F := Ideal)) U (Proc.devRef .tc main_arg7) = U (Proc.devRef .tc main_arg7) := by
  simp only [cA0, cB0, cC0, cD0, opsL0, List.take_succ_cons, List.take_zero, List.drop_succ_cons, List.drop_zero]
  after_results_simp

theorem C0_k8 (U : Valuation τ sig (Elt Ideal)) :
    after (cC0 (F := Ideal)) U (Proc.devRef .tc main_arg8) = U (Proc.devRef .tc main_arg8) := by
  simp only [cA0, cB0, cC0, cD0, opsL0, List.take_succ_cons, List.take_zero, List.drop_succ_cons, List.drop_zero]
  after_results_simp

/-- The last piece leaves the normalised, scaled and shifted array. -/
theorem D0_out (U : Valuation τ sig (Elt Ideal)) {e : FVec Ideal S100000x128 .f32} {mu var : FVec Ideal S128 .f32} {g bt : FVec Ideal S3x128 .f32}
    (he : (U (Proc.devRef .tc main_v33) : FVec Ideal S100000x128 .f32) = e)
    (hmu : (U (Proc.devRef .tc main_v36) : FVec Ideal S128 .f32) = mu)
    (hvar : (U (Proc.devRef .tc main_v37) : FVec Ideal S128 .f32) = var)
    (h7 : (U (Proc.devRef .tc main_arg7) : FVec Ideal S3x128 .f32) = g)
    (h8 : (U (Proc.devRef .tc main_arg8) : FVec Ideal S3x128 .f32) = bt) :
    (after (cD0 (F := Ideal)) U (Proc.devRef .tc main_v56) : FVec Ideal S100000x128 .f32)
      = bnT e mu var (vecOf ![0, 0] slices_S3x128_S1x128_0_0 g) (vecOf ![0, 0] slices_S3x128_S1x128_0_0 bt) := by
  subst he hmu hvar h7 h8
  simp only [cA0, cB0, cC0, cD0, opsL0, List.take_succ_cons, List.take_zero, List.drop_succ_cons, List.drop_zero]
  after_results_simp
  rfl

/-- The layer's output, over any contents of the buffers before the layer. -/
theorem L0_v56 (U : Valuation τ sig (Elt Ideal)) {h : FVec Ideal S100000x128 .f32} {ei : IVec S2x640000 32}
    {W1 W2 : FVec Ideal S3x128x128 .f32} {b1 b2 g bt : FVec Ideal S3x128 .f32}
    (hh : (U (Proc.devRef .tc main_arg0) : FVec Ideal S100000x128 .f32) = h)
    (he : (U (Proc.devRef .tc main_arg1) : IVec S2x640000 32) = ei)
    (h3 : (U (Proc.devRef .tc main_arg3) : FVec Ideal S3x128x128 .f32) = W1)
    (h4 : (U (Proc.devRef .tc main_arg4) : FVec Ideal S3x128 .f32) = b1)
    (h5 : (U (Proc.devRef .tc main_arg5) : FVec Ideal S3x128x128 .f32) = W2)
    (h6 : (U (Proc.devRef .tc main_arg6) : FVec Ideal S3x128 .f32) = b2)
    (h7 : (U (Proc.devRef .tc main_arg7) : FVec Ideal S3x128 .f32) = g)
    (h8 : (U (Proc.devRef .tc main_arg8) : FVec Ideal S3x128 .f32) = bt) :
    (after (opsL0 (F := Ideal)) U (Proc.devRef .tc main_v56) : FVec Ideal S100000x128 .f32)
      = layerT (aggT h (srcT ei) (dstT ei)) h (matOf ![0, 0, 0] slices_S3x128x128_S1x128x128_0_0_0 W1) (vecOf ![0, 0] slices_S3x128_S1x128_0_0 b1) (matOf ![0, 0, 0] slices_S3x128x128_S1x128x128_0_0_0 W2) (vecOf ![0, 0] slices_S3x128_S1x128_0_0 b2) (vecOf ![0, 0] slices_S3x128_S1x128_0_0 g) (vecOf ![0, 0] slices_S3x128_S1x128_0_0 bt) := by
  have hy := A0_y U hh he h3 h4 h5 h6
  have hE := B0_e (after cA0 U) hy
  have hmu := C0_mu (after cB0 (after cA0 U)) hE
  have hvar := C0_var (after cB0 (after cA0 U)) hE
  have hE' := (C0_ke (after cB0 (after cA0 U))).trans hE
  have h7' := (C0_k7 (after cB0 (after cA0 U))).trans ((B0_k7 (after cA0 U)).trans ((A0_k7 U).trans h7))
  have h8' := (C0_k8 (after cB0 (after cA0 U))).trans ((B0_k8 (after cA0 U)).trans ((A0_k8 U).trans h8))
  exact (congrFun (cut0 U) (Proc.devRef .tc main_v56)).trans (D0_out _ hE' hmu hvar h7' h8')

/-- Layer 0 also leaves the edges' source nodes -/
theorem L0_v1 (U : Valuation τ sig (Elt Ideal)) {ei : IVec S2x640000 32}
    (he : (U (Proc.devRef .tc main_arg1) : IVec S2x640000 32) = ei) :
    (after (opsL0 (F := Ideal)) U (Proc.devRef .tc main_v1) : IVec S640000 32) = srcT ei := by
  subst he
  after_results_simp
  rfl

/-- and their destination nodes. -/
theorem L0_v3 (U : Valuation τ sig (Elt Ideal)) {ei : IVec S2x640000 32}
    (he : (U (Proc.devRef .tc main_arg1) : IVec S2x640000 32) = ei) :
    (after (opsL0 (F := Ideal)) U (Proc.devRef .tc main_v3) : IVec S640000 32) = dstT ei := by
  subst he
  after_results_simp
  rfl

end Cert.ReferenceIdeal.Hand

end
-- ==== Proof.RefL1.lean ====
/-
  What layer 1's operations leave behind, over any contents of the buffers before them: one layer, as a function of
  whole arrays, of the aggregate of layer 0's output along the edges (the two index vectors as layer 0 left them),
  that output itself, and the second tables of the weight, bias, scale and shift stacks.  The list is read in four
  pieces, each over any contents before it.
-/
import proofs.«406400_j6640019439960_2_alg».proof.Proof.RefRun
import proofs.«406400_j6640019439960_2_alg».proof.Proof.RefLayerMath

noncomputable section

namespace Cert.ReferenceIdeal.Hand

open Cert.ReferenceIdeal Cert.ReferenceIdeal.Gen Cert.Spec Idealize.ShloMosaic Idealize.ShloMosaic.TcCoe Idealize.SL.Sem Idealize.ShloMosaic.StableHlo

variable {F : FTy → Type} [FloatOps F]

/-- The layer's list cut in four: through the second affine map; the exponential-linear unit; the column means and
    variances; the normalisation. -/
abbrev cA1 : List (HloOp τ sig (Elt F)) := (opsL1).take 33
abbrev cB1 : List (HloOp τ sig (Elt F)) := ((opsL1).drop 33).take 15
abbrev cC1 : List (HloOp τ sig (Elt F)) := (((opsL1).drop 33).drop 15).take 28
abbrev cD1 : List (HloOp τ sig (Elt F)) := (((opsL1).drop 33).drop 15).drop 28

/-- The fold over the layer's list is the four pieces' folds in turn. -/
theorem cut1 (U : Valuation τ sig (Elt F)) :
    after (opsL1 (F := F)) U = after cD1 (after cC1 (after cB1 (after cA1 U))) := by
  conv_lhs =>
    rw [← List.take_append_drop 33 (opsL1 (F := F)), ← List.take_append_drop 15 (List.drop 33 (opsL1 (F := F))),
      ← List.take_append_drop 28 (List.drop 15 (List.drop 33 (opsL1 (F := F))))]
  rw [StableHlo.after_append, StableHlo.after_append, StableHlo.after_append]

set_option maxRecDepth 16384 in
set_option maxHeartbeats 1000000 in
/-- The first piece leaves the second affine map's output. -/
theorem A1_y (U : Valuation τ sig (Elt Ideal)) {h : FVec Ideal S100000x128 .f32} {src dst : IVec S640000 32}
    {W1 W2 : FVec Ideal S3x128x128 .f32} {b1 b2 : FVec Ideal S3x128 .f32}
    (hh : (U (Proc.devRef .tc main_v56) : FVec Ideal S100000x128 .f32) = h)
    (hs : (U (Proc.devRef .tc main_v1) : IVec S640000 32) = src)
    (hd : (U (Proc.devRef .tc main_v3) : IVec S640000 32) = dst)
    (h3 : (U (Proc.devRef .tc main_arg3) : FVec Ideal S3x128x128 .f32) = W1)
    (h4 : (U (Proc.devRef .tc main_arg4) : FVec Ideal S3x128 .f32) = b1)
    (h5 : (U (Proc.devRef .tc main_arg5) : FVec Ideal S3x128x128 .f32) = W2)
    (h6 : (U (Proc.devRef .tc main_arg6) : FVec Ideal S3x128 .f32) = b2) :
    (after (cA1 (F := Ideal)) U (Proc.devRef .tc main_v85) : FVec Ideal S100000x128 .f32)
      = linT (reluT (linT (addf (aggT h src dst) h) (matOf ![1, 0, 0] slices_S3x128x128_S1x128x128_1_0_0 W1) (vecOf ![1, 0] slices_S3x128_S1x128_1_0 b1))) (matOf ![1, 0, 0] slices_S3x128x128_S1x128x128_1_0_0 W2) (vecOf ![1, 0] slices_S3x128_S1x128_1_0 b2) := by
  subst hh hs hd h3 h4 h5 h6
  simp only [cA1, cB1, cC1, cD1, opsL1, List.take_succ_cons, List.take_zero, List.drop_succ_cons, List.drop_zero]
  after_results_simp
  rfl

theorem A1_k7 (U : Valuation τ sig (Elt Ideal)) :
    after (cA1 (F := Ideal)) U (Proc.devRef .tc main_arg7) = U (Proc.devRef .tc main_arg7) := by
  simp only [cA1, cB1, cC1, cD1, opsL1, List.take_succ_cons, List.take_zero, List.drop_succ_cons, List.drop_zero]
  after_results_simp

theorem A1_k8 (U : Valuation τ sig (Elt Ideal)) :
    after (cA1 (F := Ideal)) U (Proc.devRef .tc main_arg8) = U (Proc.devRef .tc main_arg8) := by
  simp only [cA1, cB1, cC1, cD1, opsL1, List.take_succ_cons, List.take_zero, List.drop_succ_cons, List.drop_zero]
  after_results_simp

/-- The second piece leaves the exponential-linear unit of that output. -/
theorem B1_e (U : Valuation τ sig (Elt Ideal)) {y : FVec Ideal S100000x128 .f32}
    (hy : (U (Proc.devRef .tc main_v85) : FVec Ideal S100000x128 .f32) = y) :
    (after (cB1 (F := Ideal)) U (Proc.devRef .tc main_v86) : FVec Ideal S100000x128 .f32) = eluT y := by
  subst hy
  simp only [cA1, cB1, cC1, cD1, opsL1, List.take_succ_cons, List.take_zero, List.drop_succ_cons, List.drop_zero]
  after_results_simp
  rfl

theorem B1_k7 (U : Valuation τ sig (Elt Ideal)) :
    after (cB1 (F := Ideal)) U (Proc.devRef .tc main_arg7) = U (Proc.devRef .tc main_arg7) := by
  simp only [cA1, cB1, cC1, cD1, opsL1, List.take_succ_cons, List.take_zero, List.drop_succ_cons, List.drop_zero]
  after_results_simp

theorem B1_k8 (U : Valuation τ sig (Elt Ideal)) :
    after (cB1 (F := Ideal)) U (Proc.devRef .tc main_arg8) = U (Proc.devRef .tc main_arg8) := by
  simp only [cA1, cB1, cC1, cD1, opsL1, List.take_succ_cons, List.take_zero, List.drop_succ_cons, List.drop_zero]
  after_results_simp

/-- The third piece leaves the column means -/
theorem C1_mu (U : Valuation τ sig (Elt Ideal)) {e : FVec Ideal S100000x128 .f32}
    (he : (U (Proc.devRef .tc main_v86) : FVec Ideal S100000x128 .f32) = e) :
    (after (cC1 (F := Ideal)) U (Proc.devRef .tc main_v89) : FVec Ideal S128 .f32) = meanT e := by
  subst he
  simp only [cA1, cB1, cC1, cD1, opsL1, List.take_succ_cons, List.take_zero, List.drop_succ_cons, List.drop_zero]
  after_results_simp
  rfl

/-- and the column variances. -/
theorem C1_var (U : Valuation τ sig (Elt Ideal)) {e : FVec Ideal S100000x128 .f32}
    (he : (U (Proc.devRef .tc main_v86) : FVec Ideal S100000x128 .f32) = e) :
    (after (cC1 (F := Ideal)) U (Proc.devRef .tc main_v90) : FVec Ideal S128 .f32) = varT e := by
  subst he
  simp only [cA1, cB1, cC1, cD1, opsL1, List.take_succ_cons, List.take_zero, List.drop_succ_cons, List.drop_zero]
  after_results_simp
  rfl

theorem C1_ke (U : Valuation τ sig (Elt Ideal)) :
    after (cC1 (F := Ideal)) U (Proc.devRef .tc main_v86) = U (Proc.devRef .tc main_v86) := by
  simp only [cA1, cB1, cC1, cD1, opsL1, List.take_succ_cons, List.take_zero, List.drop_succ_cons, List.drop_zero]
  after_results_simp

theorem C1_k7 (U : Valuation τ sig (Elt Ideal)) :
    after (cC1 (F := Ideal)) U (Proc.devRef .tc main_arg7) = U (Proc.devRef .tc main_arg7) := by
  simp only [cA1, cB1, cC1, cD1, opsL1, List.take_succ_cons, List.take_zero, List.drop_succ_cons, List.drop_zero]
  after_results_simp

theorem C1_k8 (U : Valuation τ sig (Elt Ideal)) :
    after (cC1 (F := Ideal)) U (Proc.devRef .tc main_arg8) = U (Proc.devRef .tc main_arg8) := by
  simp only [cA1, cB1, cC1, cD1, opsL1, List.take_succ_cons, List.take_zero, List.drop_succ_cons, List.drop_zero]
  after_results_simp

/-- The last piece leaves the normalised, scaled and shifted array. -/
theorem D1_out (U : Valuation τ sig (Elt Ideal)) {e : FVec Ideal S100000x128 .f32} {mu var : FVec Ideal S128 .f32} {g bt : FVec Ideal S3x128 .f32}
    (he : (U (Proc.devRef .tc main_v86) : FVec Ideal S100000x128 .f32) = e)
    (hmu : (U (Proc.devRef .tc main_v89) : FVec Ideal S128 .f32) = mu)
    (hvar : (U (Proc.devRef .tc main_v90) : FVec Ideal S128 .f32) = var)
    (h7 : (U (Proc.devRef .tc main_arg7) : FVec Ideal S3x128 .f32) = g)
    (h8 : (U (Proc.devRef .tc main_arg8) : FVec Ideal S3x128 .f32) = bt) :
    (after (cD1 (F := Ideal)) U (Proc.devRef .tc main_v109) : FVec Ideal S100000x128 .f32)
      = bnT e mu var (vecOf ![1, 0] slices_S3x128_S1x128_1_0 g) (vecOf ![1, 0] slices_S3x128_S1x128_1_0 bt) := by
  subst he hmu hvar h7 h8
  simp only [cA1, cB1, cC1, cD1, opsL1, List.take_succ_cons, List.take_zero, List.drop_succ_cons, List.drop_zero]
  after_results_simp
  rfl

/-- The layer's output, over any contents of the buffers before the layer. -/
theorem L1_v109 (U : Valuation τ sig (Elt Ideal)) {h : FVec Ideal S100000x128 .f32} {src dst : IVec S640000 32}
    {W1 W2 : FVec Ideal S3x128x128 .f32} {b1 b2 g bt : FVec Ideal S3x128 .f32}
    (hh : (U (Proc.devRef .tc main_v56) : FVec Ideal S100000x128 .f32) = h)
    (hs : (U (Proc.devRef .tc main_v1) : IVec S640000 32) = src)
    (hd : (U (Proc.devRef .tc main_v3) : IVec S640000 32) = dst)
    (h3 : (U (Proc.devRef .tc main_arg3) : FVec Ideal S3x128x128 .f32) = W1)
    (h4 : (U (Proc.devRef .tc main_arg4) : FVec Ideal S3x128 .f32) = b1)
    (h5 : (U (Proc.devRef .tc main_arg5) : FVec Ideal S3x128x128 .f32) = W2)
    (h6 : (U (Proc.devRef .tc main_arg6) : FVec Ideal S3x128 .f32) = b2)
    (h7 : (U (Proc.devRef .tc main_arg7) : FVec Ideal S3x128 .f32) = g)
    (h8 : (U (Proc.devRef .tc main_arg8) : FVec Ideal S3x128 .f32) = bt) :
    (after (opsL1 (F := Ideal)) U (Proc.devRef .tc main_v109) : FVec Ideal S100000x128 .f32)
      = layerT (aggT h src dst) h (matOf ![1, 0, 0] slices_S3x128x128_S1x128x128_1_0_0 W1) (vecOf ![1, 0] slices_S3x128_S1x128_1_0 b1) (matOf ![1, 0, 0] slices_S3x128x128_S1x128x128_1_0_0 W2) (vecOf ![1, 0] slices_S3x128_S1x128_1_0 b2) (vecOf ![1, 0] slices_S3x128_S1x128_1_0 g) (vecOf ![1, 0] slices_S3x128_S1x128_1_0 bt) := by
  have hy := A1_y U hh hs hd h3 h4 h5 h6
  have hE := B1_e (after cA1 U) hy
  have hmu := C1_mu (after cB1 (after cA1 U)) hE
  have hvar := C1_var (after cB1 (after cA1 U)) hE
  have hE' := (C1_ke (after cB1 (after cA1 U))).trans hE
  have h7' := (C1_k7 (after cB1 (after cA1 U))).trans ((B1_k7 (after cA1 U)).trans ((A1_k7 U).trans h7))
  have h8' := (C1_k8 (after cB1 (after cA1 U))).trans ((B1_k8 (after cA1 U)).trans ((A1_k8 U).trans h8))
  exact (congrFun (cut1 U) (Proc.devRef .tc main_v109)).trans (D1_out _ hE' hmu hvar h7' h8')

end Cert.ReferenceIdeal.Hand

end
-- ==== Proof.RefL2.lean ====
/-
  What layer 2's operations leave behind, over any contents of the buffers before them: one layer, as a function of
  whole arrays, of the aggregate of layer 1's output along the edges (the two index vectors as layer 1 left them),
  that output itself, and the third tables of the weight, bias, scale and shift stacks.  The list is read in four
  pieces, each over any contents before it.
-/
import proofs.«406400_j6640019439960_2_alg».proof.Proof.RefRun
import proofs.«406400_j6640019439960_2_alg».proof.Proof.RefLayerMath

noncomputable section

namespace Cert.ReferenceIdeal.Hand

open Cert.ReferenceIdeal Cert.ReferenceIdeal.Gen Cert.Spec Idealize.ShloMosaic Idealize.ShloMosaic.TcCoe Idealize.SL.Sem Idealize.ShloMosaic.StableHlo

variable {F : FTy → Type} [FloatOps F]

/-- The layer's list cut in four: through the second affine map; the exponential-linear unit; the column means and
    variances; the normalisation. -/
abbrev cA2 : List (HloOp τ sig (Elt F)) := (opsL2).take 33
abbrev cB2 : List (HloOp τ sig (Elt F)) := ((opsL2).drop 33).take 15
abbrev cC2 : List (HloOp τ sig (Elt F)) := (((opsL2).drop 33).drop 15).take 28
abbrev cD2 : List (HloOp τ sig (Elt F)) := (((opsL2).drop 33).drop 15).drop 28

/-- The fold over the layer's list is the four pieces' folds in turn. -/
theorem cut2 (U : Valuation τ sig (Elt F)) :
    after (opsL2 (F := F)) U = after cD2 (after cC2 (after cB2 (after cA2 U))) := by
  conv_lhs =>
    rw [← List.take_append_drop 33 (opsL2 (F := F)), ← List.take_append_drop 15 (List.drop 33 (opsL2 (F := F))),
      ← List.take_append_drop 28 (List.drop 15 (List.drop 33 (opsL2 (F := F))))]
  rw [StableHlo.after_append, StableHlo.after_append, StableHlo.after_append]

set_option maxRecDepth 16384 in
set_option maxHeartbeats 1000000 in
/-- The first piece leaves the second affine map's output. -/
theorem A2_y (U : Valuation τ sig (Elt Ideal)) {h : FVec Ideal S100000x128 .f32} {src dst : IVec S640000 32}
    {W1 W2 : FVec Ideal S3x128x128 .f32} {b1 b2 : FVec Ideal S3x128 .f32}
    (hh : (U (Proc.devRef .tc main_v109) : FVec Ideal S100000x128 .f32) = h)
    (hs : (U (Proc.devRef .tc main_v1) : IVec S640000 32) = src)
    (hd : (U (Proc.devRef .tc main_v3) : IVec S640000 32) = dst)
    (h3 : (U (Proc.devRef .tc main_arg3) : FVec Ideal S3x128x128 .f32) = W1)
    (h4 : (U (Proc.devRef .tc main_arg4) : FVec Ideal S3x128 .f32) = b1)
    (h5 : (U (Proc.devRef .tc main_arg5) : FVec Ideal S3x128x128 .f32) = W2)
    (h6 : (U (Proc.devRef .tc main_arg6) : FVec Ideal S3x128 .f32) = b2) :
    (after (cA2 (F := Ideal)) U (Proc.devRef .tc main_v138) : FVec Ideal S100000x128 .f32)
      = linT (reluT (linT (addf (aggT h src dst) h) (matOf ![2, 0, 0] slices_S3x128x128_S1x128x128_2_0_0 W1) (vecOf ![2, 0] slices_S3x128_S1x128_2_0 b1))) (matOf ![2, 0, 0] slices_S3x128x128_S1x128x128_2_0_0 W2) (vecOf ![2, 0] slices_S3x128_S1x128_2_0 b2) := by
  subst hh hs hd h3 h4 h5 h6
  simp only [cA2, cB2, cC2, cD2, opsL2, List.take_succ_cons, List.take_zero, List.drop_succ_cons, List.drop_zero]
  after_results_simp
  rfl

theorem A2_k7 (U : Valuation τ sig (Elt Ideal)) :
    after (cA2 (F := Ideal)) U (Proc.devRef .tc main_arg7) = U (Proc.devRef .tc main_arg7) := by
  simp only [cA2, cB2, cC2, cD2, opsL2, List.take_succ_cons, List.take_zero, List.drop_succ_cons, List.drop_zero]
  after_results_simp

theorem A2_k8 (U : Valuation τ sig (Elt Ideal)) :
    after (cA2 (F := Ideal)) U (Proc.devRef .tc main_arg8) = U (Proc.devRef .tc main_arg8) := by
  simp only [cA2, cB2, cC2, cD2, opsL2, List.take_succ_cons, List.take_zero, List.drop_succ_cons, List.drop_zero]
  after_results_simp

/-- The second piece leaves the exponential-linear unit of that output. -/
theorem B2_e (U : Valuation τ sig (Elt Ideal)) {y : FVec Ideal S100000x128 .f32}
    (hy : (U (Proc.devRef .tc main_v138) : FVec Ideal S100000x128 .f32) = y) :
    (after (cB2 (F := Ideal)) U (Proc.devRef .tc main_v139) : FVec Ideal S100000x128 .f32) = eluT y := by
  subst hy
  simp only [cA2, cB2, cC2, cD2, opsL2, List.take_succ_cons, List.take_zero, List.drop_succ_cons, List.drop_zero]
  after_results_simp
  rfl

theorem B2_k7 (U : Valuation τ sig (Elt Ideal)) :
    after (cB2 (F := Ideal)) U (Proc.devRef .tc main_arg7) = U (Proc.devRef .tc main_arg7) := by
  simp only [cA2, cB2, cC2, cD2, opsL2, List.take_succ_cons, List.take_zero, List.drop_succ_cons, List.drop_zero]
  after_results_simp

theorem B2_k8 (U : Valuation τ sig (Elt Ideal)) :
    after (cB2 (F := Ideal)) U (Proc.devRef .tc main_arg8) = U (Proc.devRef .tc main_arg8) := by
  simp only [cA2, cB2, cC2, cD2, opsL2, List.take_succ_cons, List.take_zero, List.drop_succ_cons, List.drop_zero]
  after_results_simp

/-- The third piece leaves the column means -/
theorem C2_mu (U : Valuation τ sig (Elt Ideal)) {e : FVec Ideal S100000x128 .f32}
    (he : (U (Proc.devRef .tc main_v139) : FVec Ideal S100000x128 .f32) = e) :
    (after (cC2 (F := Ideal)) U (Proc.devRef .tc main_v142) : FVec Ideal S128 .f32) = meanT e := by
  subst he
  simp only [cA2, cB2, cC2, cD2, opsL2, List.take_succ_cons, List.take_zero, List.drop_succ_cons, List.drop_zero]
  after_results_simp
  rfl

/-- and the column variances. -/
theorem C2_var (U : Valuation τ sig (Elt Ideal)) {e : FVec Ideal S100000x128 .f32}
    (he : (U (Proc.devRef .tc main_v139) : FVec Ideal S100000x128 .f32) = e) :
    (after (cC2 (F := Ideal)) U (Proc.devRef .tc main_v143) : FVec Ideal S128 .f32) = varT e := by
  subst he
  simp only [cA2, cB2, cC2, cD2, opsL2, List.take_succ_cons, List.take_zero, List.drop_succ_cons, List.drop_zero]
  after_results_simp
  rfl

theorem C2_ke (U : Valuation τ sig (Elt Ideal)) :
    after (cC2 (F := Ideal)) U (Proc.devRef .tc main_v139) = U (Proc.devRef .tc main_v139) := by
  simp only [cA2, cB2, cC2, cD2, opsL2, List.take_succ_cons, List.take_zero, List.drop_succ_cons, List.drop_zero]
  after_results_simp

theorem C2_k7 (U : Valuation τ sig (Elt Ideal)) :
    after (cC2 (F := Ideal)) U (Proc.devRef .tc main_arg7) = U (Proc.devRef .tc main_arg7) := by
  simp only [cA2, cB2, cC2, cD2, opsL2, List.take_succ_cons, List.take_zero, List.drop_succ_cons, List.drop_zero]
  after_results_simp

theorem C2_k8 (U : Valuation τ sig (Elt Ideal)) :
    after (cC2 (F := Ideal)) U (Proc.devRef .tc main_arg8) = U (Proc.devRef .tc main_arg8) := by
  simp only [cA2, cB2, cC2, cD2, opsL2, List.take_succ_cons, List.take_zero, List.drop_succ_cons, List.drop_zero]
  after_results_simp

/-- The last piece leaves the normalised, scaled and shifted array. -/
theorem D2_out (U : Valuation τ sig (Elt Ideal)) {e : FVec Ideal S100000x128 .f32} {mu var : FVec Ideal S128 .f32} {g bt : FVec Ideal S3x128 .f32}
    (he : (U (Proc.devRef .tc main_v139) : FVec Ideal S100000x128 .f32) = e)
    (hmu : (U (Proc.devRef .tc main_v142) : FVec Ideal S128 .f32) = mu)
    (hvar : (U (Proc.devRef .tc main_v143) : FVec Ideal S128 .f32) = var)
    (h7 : (U (Proc.devRef .tc main_arg7) : FVec Ideal S3x128 .f32) = g)
    (h8 : (U (Proc.devRef .tc main_arg8) : FVec Ideal S3x128 .f32) = bt) :
    (after (cD2 (F := Ideal)) U (Proc.devRef .tc main_v162) : FVec Ideal S100000x128 .f32)
      = bnT e mu var (vecOf ![2, 0] slices_S3x128_S1x128_2_0 g) (vecOf ![2, 0] slices_S3x128_S1x128_2_0 bt) := by
  subst he hmu hvar h7 h8
  simp only [cA2, cB2, cC2, cD2, opsL2, List.take_succ_cons, List.take_zero, List.drop_succ_cons, List.drop_zero]
  after_results_simp
  rfl

/-- The layer's output, over any contents of the buffers before the layer. -/
theorem L2_v162 (U : Valuation τ sig (Elt Ideal)) {h : FVec Ideal S100000x128 .f32} {src dst : IVec S640000 32}
    {W1 W2 : FVec Ideal S3x128x128 .f32} {b1 b2 g bt : FVec Ideal S3x128 .f32}
    (hh : (U (Proc.devRef .tc main_v109) : FVec Ideal S100000x128 .f32) = h)
    (hs : (U (Proc.devRef .tc main_v1) : IVec S640000 32) = src)
    (hd : (U (Proc.devRef .tc main_v3) : IVec S640000 32) = dst)
    (h3 : (U (Proc.devRef .tc main_arg3) : FVec Ideal S3x128x128 .f32) = W1)
    (h4 : (U (Proc.devRef .tc main_arg4) : FVec Ideal S3x128 .f32) = b1)
    (h5 : (U (Proc.devRef .tc main_arg5) : FVec Ideal S3x128x128 .f32) = W2)
    (h6 : (U (Proc.devRef .tc main_arg6) : FVec Ideal S3x128 .f32) = b2)
    (h7 : (U (Proc.devRef .tc main_arg7) : FVec Ideal S3x128 .f32) = g)
    (h8 : (U (Proc.devRef .tc main_arg8) : FVec Ideal S3x128 .f32) = bt) :
    (after (opsL2 (F := Ideal)) U (Proc.devRef .tc main_v162) : FVec Ideal S100000x128 .f32)
      = layerT (aggT h src dst) h (matOf ![2, 0, 0] slices_S3x128x128_S1x128x128_2_0_0 W1) (vecOf ![2, 0] slices_S3x128_S1x128_2_0 b1) (matOf ![2, 0, 0] slices_S3x128x128_S1x128x128_2_0_0 W2) (vecOf ![2, 0] slices_S3x128_S1x128_2_0 b2) (vecOf ![2, 0] slices_S3x128_S1x128_2_0 g) (vecOf ![2, 0] slices_S3x128_S1x128_2_0 bt) := by
  have hy := A2_y U hh hs hd h3 h4 h5 h6
  have hE := B2_e (after cA2 U) hy
  have hmu := C2_mu (after cB2 (after cA2 U)) hE
  have hvar := C2_var (after cB2 (after cA2 U)) hE
  have hE' := (C2_ke (after cB2 (after cA2 U))).trans hE
  have h7' := (C2_k7 (after cB2 (after cA2 U))).trans ((B2_k7 (after cA2 U)).trans ((A2_k7 U).trans h7))
  have h8' := (C2_k8 (after cB2 (after cA2 U))).trans ((B2_k8 (after cA2 U)).trans ((A2_k8 U).trans h8))
  exact (congrFun (cut2 U) (Proc.devRef .tc main_v162)).trans (D2_out _ hE' hmu hvar h7' h8')

end Cert.ReferenceIdeal.Hand

end
-- ==== Proof.RefLayers.lean ====
/-
  The three layers of the reference, each over any contents of the buffers before it, in curried form: a layer's output
  is one layer of the specification at the aggregate of its input features along the edges, the input features, and
  table 0, 1 or 2 of each stack of weights, biases, scales and shifts.  The aggregate is the function the kernel
  program's host stretches compute: the two programs apply the same operations with the same dimension records.
-/
import proofs.«406400_j6640019439960_2_alg».proof.Proof.RefRun
import proofs.«406400_j6640019439960_2_alg».proof.Proof.RefLayerMath
import proofs.«406400_j6640019439960_2_alg».proof.Proof.RefL0
import proofs.«406400_j6640019439960_2_alg».proof.Proof.RefL1
import proofs.«406400_j6640019439960_2_alg».proof.Proof.RefL2
import proofs.«406400_j6640019439960_2_alg».proof.Proof.Agg

noncomputable section

namespace Cert.ReferenceIdeal.Hand

open Cert.ReferenceIdeal Cert.ReferenceIdeal.Gen Cert.Spec Idealize.ShloMosaic Idealize.ShloMosaic.ValueIdx Idealize.ShloMosaic.TcCoe Idealize.SL.Sem Idealize.ShloMosaic.StableHlo

/-- The two programs slice the same rows off the edge list and aggregate by the same operations. -/
theorem srcT_eq (ei : IVec S2x640000 32) : srcT ei = Cert.KernelIdeal.Hand.srcOf ei := rfl
theorem dstT_eq (ei : IVec S2x640000 32) : dstT ei = Cert.KernelIdeal.Hand.dstOf ei := rfl
theorem aggT_eq (h : FVec Ideal S100000x128 .f32) (src dst : IVec S640000 32) :
    aggT h src dst = Cert.KernelIdeal.Hand.aggCore h src dst := rfl

theorem layer0_run (U : Valuation τ sig (Elt Ideal)) :
    (after (opsL0 (F := Ideal)) U (Proc.devRef .tc main_v56) : S100000x128.Idx → EReal)
      = toArr2 (layerR
          (of2 (Cert.KernelIdeal.Hand.aggCore (U (Proc.devRef .tc main_arg0)) (Cert.KernelIdeal.Hand.srcOf (U (Proc.devRef .tc main_arg1))) (Cert.KernelIdeal.Hand.dstOf (U (Proc.devRef .tc main_arg1)))))
          (of2 (U (Proc.devRef .tc main_arg0) : S100000x128.Idx → EReal))
          (fun k j => (U (Proc.devRef .tc main_arg3) : S3x128x128.Idx → EReal) (ix3 (0 : Fin 3) k j))
          (fun j => (U (Proc.devRef .tc main_arg4) : S3x128.Idx → EReal) (ix2 (0 : Fin 3) j))
          (fun k j => (U (Proc.devRef .tc main_arg5) : S3x128x128.Idx → EReal) (ix3 (0 : Fin 3) k j))
          (fun j => (U (Proc.devRef .tc main_arg6) : S3x128.Idx → EReal) (ix2 (0 : Fin 3) j))
          (fun j => (U (Proc.devRef .tc main_arg7) : S3x128.Idx → EReal) (ix2 (0 : Fin 3) j))
          (fun j => (U (Proc.devRef .tc main_arg8) : S3x128.Idx → EReal) (ix2 (0 : Fin 3) j))) := by
  have e3 : of2 (matOf ![0, 0, 0] slices_S3x128x128_S1x128x128_0_0_0 (U (Proc.devRef .tc main_arg3)))
      = fun k j => (U (Proc.devRef .tc main_arg3) : S3x128x128.Idx → EReal) (ix3 (0 : Fin 3) k j) :=
    funext fun k => funext fun j => matOf_apply (0 : Fin 3) _ rfl _ _ k j
  have e5 : of2 (matOf ![0, 0, 0] slices_S3x128x128_S1x128x128_0_0_0 (U (Proc.devRef .tc main_arg5)))
      = fun k j => (U (Proc.devRef .tc main_arg5) : S3x128x128.Idx → EReal) (ix3 (0 : Fin 3) k j) :=
    funext fun k => funext fun j => matOf_apply (0 : Fin 3) _ rfl _ _ k j
  have e4 : of1 (vecOf ![0, 0] slices_S3x128_S1x128_0_0 (U (Proc.devRef .tc main_arg4)))
      = fun j => (U (Proc.devRef .tc main_arg4) : S3x128.Idx → EReal) (ix2 (0 : Fin 3) j) :=
    funext fun j => vecOf_apply (0 : Fin 3) _ rfl _ _ j
  have e6 : of1 (vecOf ![0, 0] slices_S3x128_S1x128_0_0 (U (Proc.devRef .tc main_arg6)))
      = fun j => (U (Proc.devRef .tc main_arg6) : S3x128.Idx → EReal) (ix2 (0 : Fin 3) j) :=
    funext fun j => vecOf_apply (0 : Fin 3) _ rfl _ _ j
  have e7 : of1 (vecOf ![0, 0] slices_S3x128_S1x128_0_0 (U (Proc.devRef .tc main_arg7)))
      = fun j => (U (Proc.devRef .tc main_arg7) : S3x128.Idx → EReal) (ix2 (0 : Fin 3) j) :=
    funext fun j => vecOf_apply (0 : Fin 3) _ rfl _ _ j
  have e8 : of1 (vecOf ![0, 0] slices_S3x128_S1x128_0_0 (U (Proc.devRef .tc main_arg8)))
      = fun j => (U (Proc.devRef .tc main_arg8) : S3x128.Idx → EReal) (ix2 (0 : Fin 3) j) :=
    funext fun j => vecOf_apply (0 : Fin 3) _ rfl _ _ j
  refine (L0_v56 U rfl rfl rfl rfl rfl rfl rfl rfl).trans ?_
  rw [layerT_eq, e3, e4, e5, e6, e7, e8]
  rfl

theorem layer0_src (U : Valuation τ sig (Elt Ideal)) :
    (after (opsL0 (F := Ideal)) U (Proc.devRef .tc main_v1) : S640000.Idx → BitVec 32)
      = Cert.KernelIdeal.Hand.srcOf (U (Proc.devRef .tc main_arg1)) :=
  L0_v1 U rfl

theorem layer0_dst (U : Valuation τ sig (Elt Ideal)) :
    (after (opsL0 (F := Ideal)) U (Proc.devRef .tc main_v3) : S640000.Idx → BitVec 32)
      = Cert.KernelIdeal.Hand.dstOf (U (Proc.devRef .tc main_arg1)) :=
  L0_v3 U rfl

theorem layer1_run (U : Valuation τ sig (Elt Ideal)) :
    (after (opsL1 (F := Ideal)) U (Proc.devRef .tc main_v109) : S100000x128.Idx → EReal)
      = toArr2 (layerR
          (of2 (Cert.KernelIdeal.Hand.aggCore (U (Proc.devRef .tc main_v56)) (U (Proc.devRef .tc main_v1)) (U (Proc.devRef .tc main_v3))))
          (of2 (U (Proc.devRef .tc main_v56) : S100000x128.Idx → EReal))
          (fun k j => (U (Proc.devRef .tc main_arg3) : S3x128x128.Idx → EReal) (ix3 (1 : Fin 3) k j))
          (fun j => (U (Proc.devRef .tc main_arg4) : S3x128.Idx → EReal) (ix2 (1 : Fin 3) j))
          (fun k j => (U (Proc.devRef .tc main_arg5) : S3x128x128.Idx → EReal) (ix3 (1 : Fin 3) k j))
          (fun j => (U (Proc.devRef .tc main_arg6) : S3x128.Idx → EReal) (ix2 (1 : Fin 3) j))
          (fun j => (U (Proc.devRef .tc main_arg7) : S3x128.Idx → EReal) (ix2 (1 : Fin 3) j))
          (fun j => (U (Proc.devRef .tc main_arg8) : S3x128.Idx → EReal) (ix2 (1 : Fin 3) j))) := by
  have e3 : of2 (matOf ![1, 0, 0] slices_S3x128x128_S1x128x128_1_0_0 (U (Proc.devRef .tc main_arg3)))
      = fun k j => (U (Proc.devRef .tc main_arg3) : S3x128x128.Idx → EReal) (ix3 (1 : Fin 3) k j) :=
    funext fun k => funext fun j => matOf_apply (1 : Fin 3) _ rfl _ _ k j
  have e5 : of2 (matOf ![1, 0, 0] slices_S3x128x128_S1x128x128_1_0_0 (U (Proc.devRef .tc main_arg5)))
      = fun k j => (U (Proc.devRef .tc main_arg5) : S3x128x128.Idx → EReal) (ix3 (1 : Fin 3) k j) :=
    funext fun k => funext fun j => matOf_apply (1 : Fin 3) _ rfl _ _ k j
  have e4 : of1 (vecOf ![1, 0] slices_S3x128_S1x128_1_0 (U (Proc.devRef .tc main_arg4)))
      = fun j => (U (Proc.devRef .tc main_arg4) : S3x128.Idx → EReal) (ix2 (1 : Fin 3) j) :=
    funext fun j => vecOf_apply (1 : Fin 3) _ rfl _ _ j
  have e6 : of1 (vecOf ![1, 0] slices_S3x128_S1x128_1_0 (U (Proc.devRef .tc main_arg6)))
      = fun j => (U (Proc.devRef .tc main_arg6) : S3x128.Idx → EReal) (ix2 (1 : Fin 3) j) :=
    funext fun j => vecOf_apply (1 : Fin 3) _ rfl _ _ j
  have e7 : of1 (vecOf ![1, 0] slices_S3x128_S1x128_1_0 (U (Proc.devRef .tc main_arg7)))
      = fun j => (U (Proc.devRef .tc main_arg7) : S3x128.Idx → EReal) (ix2 (1 : Fin 3) j) :=
    funext fun j => vecOf_apply (1 : Fin 3) _ rfl _ _ j
  have e8 : of1 (vecOf ![1, 0] slices_S3x128_S1x128_1_0 (U (Proc.devRef .tc main_arg8)))
      = fun j => (U (Proc.devRef .tc main_arg8) : S3x128.Idx → EReal) (ix2 (1 : Fin 3) j) :=
    funext fun j => vecOf_apply (1 : Fin 3) _ rfl _ _ j
  refine (L1_v109 U rfl rfl rfl rfl rfl rfl rfl rfl rfl).trans ?_
  rw [layerT_eq, e3, e4, e5, e6, e7, e8]
  rfl

theorem layer2_run (U : Valuation τ sig (Elt Ideal)) :
    (after (opsL2 (F := Ideal)) U (Proc.devRef .tc main_v162) : S100000x128.Idx → EReal)
      = toArr2 (layerR
          (of2 (Cert.KernelIdeal.Hand.aggCore (U (Proc.devRef .tc main_v109)) (U (Proc.devRef .tc main_v1)) (U (Proc.devRef .tc main_v3))))
          (of2 (U (Proc.devRef .tc main_v109) : S100000x128.Idx → EReal))
          (fun k j => (U (Proc.devRef .tc main_arg3) : S3x128x128.Idx → EReal) (ix3 (2 : Fin 3) k j))
          (fun j => (U (Proc.devRef .tc main_arg4) : S3x128.Idx → EReal) (ix2 (2 : Fin 3) j))
          (fun k j => (U (Proc.devRef .tc main_arg5) : S3x128x128.Idx → EReal) (ix3 (2 : Fin 3) k j))
          (fun j => (U (Proc.devRef .tc main_arg6) : S3x128.Idx → EReal) (ix2 (2 : Fin 3) j))
          (fun j => (U (Proc.devRef .tc main_arg7) : S3x128.Idx → EReal) (ix2 (2 : Fin 3) j))
          (fun j => (U (Proc.devRef .tc main_arg8) : S3x128.Idx → EReal) (ix2 (2 : Fin 3) j))) := by
  have e3 : of2 (matOf ![2, 0, 0] slices_S3x128x128_S1x128x128_2_0_0 (U (Proc.devRef .tc main_arg3)))
      = fun k j => (U (Proc.devRef .tc main_arg3) : S3x128x128.Idx → EReal) (ix3 (2 : Fin 3) k j) :=
    funext fun k => funext fun j => matOf_apply (2 : Fin 3) _ rfl _ _ k j
  have e5 : of2 (matOf ![2, 0, 0] slices_S3x128x128_S1x128x128_2_0_0 (U (Proc.devRef .tc main_arg5)))
      = fun k j => (U (Proc.devRef .tc main_arg5) : S3x128x128.Idx → EReal) (ix3 (2 : Fin 3) k j) :=
    funext fun k => funext fun j => matOf_apply (2 : Fin 3) _ rfl _ _ k j
  have e4 : of1 (vecOf ![2, 0] slices_S3x128_S1x128_2_0 (U (Proc.devRef .tc main_arg4)))
      = fun j => (U (Proc.devRef .tc main_arg4) : S3x128.Idx → EReal) (ix2 (2 : Fin 3) j) :=
    funext fun j => vecOf_apply (2 : Fin 3) _ rfl _ _ j
  have e6 : of1 (vecOf ![2, 0] slices_S3x128_S1x128_2_0 (U (Proc.devRef .tc main_arg6)))
      = fun j => (U (Proc.devRef .tc main_arg6) : S3x128.Idx → EReal) (ix2 (2 : Fin 3) j) :=
    funext fun j => vecOf_apply (2 : Fin 3) _ rfl _ _ j
  have e7 : of1 (vecOf ![2, 0] slices_S3x128_S1x128_2_0 (U (Proc.devRef .tc main_arg7)))
      = fun j => (U (Proc.devRef .tc main_arg7) : S3x128.Idx → EReal) (ix2 (2 : Fin 3) j) :=
    funext fun j => vecOf_apply (2 : Fin 3) _ rfl _ _ j
  have e8 : of1 (vecOf ![2, 0] slices_S3x128_S1x128_2_0 (U (Proc.devRef .tc main_arg8)))
      = fun j => (U (Proc.devRef .tc main_arg8) : S3x128.Idx → EReal) (ix2 (2 : Fin 3) j) :=
    funext fun j => vecOf_apply (2 : Fin 3) _ rfl _ _ j
  refine (L2_v162 U rfl rfl rfl rfl rfl rfl rfl rfl rfl).trans ?_
  rw [layerT_eq, e3, e4, e5, e6, e7, e8]
  rfl

end Cert.ReferenceIdeal.Hand

end
-- ==== Proof.RefTail.lean ====
/-
  What the tail's operations leave behind, over any contents of the buffers before them: the three layers' outputs
  side by side, and the three layers' outputs summed per graph (from a zero table, every node's row added to the row
  its label names) side by side.
-/
import proofs.«406400_j6640019439960_2_alg».proof.Proof.RefRun
import proofs.«406400_j6640019439960_2_alg».proof.Proof.RefLayerMath

noncomputable section

namespace Cert.ReferenceIdeal.Hand

open Cert.ReferenceIdeal Cert.ReferenceIdeal.Gen Cert.Spec Idealize.ShloMosaic Idealize.ShloMosaic.TcCoe Idealize.SL.Sem Idealize.ShloMosaic.StableHlo

/-- The rows of `h` summed per graph: from the zero table, row `n` added to the row the label of `n` names. -/
def poolT (h : FVec Ideal S100000x128 .f32) (lb : IVec S100000 32) : FVec Ideal S512x128 .f32 :=
  Host.scatterAdd scatter_S512x128_S100000x1_S100000x128_1_0_0_1
    (broadcastInDim S512x128 ![] bcast_S_S512x128 (constant (F := Ideal) S_ .f32 0x00000000#32))
    (broadcastInDim S100000x1 ![0] bcast_S100000_S100000x1_0 lb) h

/-- Reading a buffer through the operations before it, one at a time: an operation's own result is its function at
    its operands' contents; any other buffer holds what it held before the operation. -/
local macro "read_back" : tactic =>
  `(tactic| repeat (first
      | rw [nullary_result] | rw [unary_result] | rw [ternary_result]
      | (rw [nullary_result_ne]; rotate_left; decide)
      | (rw [unary_result_ne]; rotate_left; decide)
      | (rw [ternary_result_ne]; rotate_left; decide)
      | (rw [nary_result_ne]; rotate_left; decide)))

/-- The second result: the three layers' outputs side by side. -/
theorem T_v173 (U : Valuation τ sig (Elt Ideal)) {a b e : FVec Ideal S100000x128 .f32}
    (ha : (U (Proc.devRef .tc main_v56) : FVec Ideal S100000x128 .f32) = a)
    (hb : (U (Proc.devRef .tc main_v109) : FVec Ideal S100000x128 .f32) = b)
    (he : (U (Proc.devRef .tc main_v162) : FVec Ideal S100000x128 .f32) = e) :
    (after (opsT (F := Ideal)) U (Proc.devRef .tc main_v173) : FVec Ideal S100000x384 .f32)
      = concatenate S100000x384 1 [⟨S100000x128, a⟩, ⟨S100000x128, b⟩, ⟨S100000x128, e⟩]
          concatenates_S100000x128_S100000x128_S100000x128_S100000x384_d1 := by
  subst ha hb he
  simp only [after_cons, after_nil]
  rw [nary_result]
  dsimp only [Matrix.cons_val]
  read_back
  all_goals rfl

/-- The first result: the three layers' outputs summed per graph, side by side. -/
theorem T_v172 (U : Valuation τ sig (Elt Ideal)) {a b e : FVec Ideal S100000x128 .f32} {lb : IVec S100000 32}
    (ha : (U (Proc.devRef .tc main_v56) : FVec Ideal S100000x128 .f32) = a)
    (hb : (U (Proc.devRef .tc main_v109) : FVec Ideal S100000x128 .f32) = b)
    (he : (U (Proc.devRef .tc main_v162) : FVec Ideal S100000x128 .f32) = e)
    (hl : (U (Proc.devRef .tc main_arg2) : IVec S100000 32) = lb) :
    (after (opsT (F := Ideal)) U (Proc.devRef .tc main_v172) : FVec Ideal S512x384 .f32)
      = concatenate S512x384 1 [⟨S512x128, poolT a lb⟩, ⟨S512x128, poolT b lb⟩, ⟨S512x128, poolT e lb⟩]
          concatenates_S512x128_S512x128_S512x128_S512x384_d1 := by
  subst ha hb he hl
  simp only [after_cons, after_nil]
  rw [nary_result_ne]; rotate_left; decide
  rw [nary_result]
  dsimp only [Matrix.cons_val]
  read_back
  all_goals rfl

end Cert.ReferenceIdeal.Hand

end
-- ==== Proof.RefPool.lean ====
/-
  The reference's per-graph sum: an accumulating scatter of the rows into a zero array, each row sent to the graph its
  label names, is the sum over the rows of each graph.
-/
import proofs.«406400_j6640019439960_2_alg».proof.Proof.Gen.ReferenceIdeal
import proofs.«406400_j6640019439960_2_alg».proof.Proof.Spec
import proofs.«406400_j6640019439960_2_alg».proof.Proof.Math
import Idealize.ShloMosaic.PureOps.Ideal.Laws
import Idealize.ShloMosaic.Lib.ValueIdx

noncomputable section

namespace Cert.ReferenceIdeal.Hand

open Cert.ReferenceIdeal Cert.ReferenceIdeal.Gen Cert.Spec Idealize.ShloMosaic Idealize.ShloMosaic.ValueIdx

/-- The scatter's dimension numbers. -/
abbrev dS : ScatterDims S512x128 S100000x1 S100000x128 := scatter_S512x128_S100000x1_S100000x128_1_0_0_1

/-! ### Where an update lands

With window axis 1 of the updates going to axis 1 of the operand, axis 0 of the operand inserted and named by the one
component of the start index: the start is the label word read signed on axis 0 and zero on axis 1; the window
coordinate is zero on axis 0 and the update's column on axis 1. -/

theorem window0 (j : S100000x128.Idx) : dS.window j 0 = 0 := rfl
theorem window1 (j : S100000x128.Idx) : dS.window j 1 = (j 1).val := rfl
theorem start1 (j : S100000x128.Idx) (idx : IVec S100000x1 32) : dS.start j idx 1 = 0 := rfl
theorem siIdx0 (j : S100000x128.Idx) : dS.siIdx j ⟨0, by decide⟩ = ix2 (j 0) 0 := by
  funext b
  match b with
  | ⟨0, _⟩ => rfl
  | ⟨1, _⟩ => rfl
theorem start0 (j : S100000x128.Idx) (idx : IVec S100000x1 32) :
    dS.start j idx 0 = (idx (ix2 (j 0) 0)).toInt := by
  show (idx (dS.siIdx j ⟨0, by decide⟩)).toInt = _
  rw [siIdx0]
  rfl

/-- A 32-bit word whose signed reading is a natural number below 512 is the word of that number. -/
theorem word_of_toInt {x : BitVec 32} {g : Nat} (hg : g < 512) (hx : x.toInt = (g : Int)) : x = BitVec.ofNat 32 g := by
  apply BitVec.eq_of_toNat_eq
  rw [BitVec.toNat_ofNat]
  rw [BitVec.toInt_eq_toNat_cond] at hx
  have hlt := x.isLt
  split at hx <;> omega

/-- The word of a natural number below 512 reads signed as that number. -/
theorem toInt_word {g : Nat} (hg : g < 512) : (BitVec.ofNat 32 g).toInt = (g : Int) := by
  rw [BitVec.toInt_eq_toNat_cond, BitVec.toNat_ofNat]
  have : g % 2 ^ 32 = g := Nat.mod_eq_of_lt (by omega)
  rw [this]
  split <;> omega

/-- An update at row n, column q lands at graph g, column j exactly when row n's label is the word of g and q = j. -/
theorem lands_iff (idx : IVec S100000x1 32) (n : Fin 100000) (q : Fin 128) (i : S512x128.Idx) :
    dS.resultIdx? (ix2 n q) idx = some i ↔ (idx (ix2 n 0) = BitVec.ofNat 32 (i 0).val ∧ q = i 1) := by
  have hi0 : (i 0).val < 512 := (i 0).isLt
  have hi1 : (i 1).val < 128 := (i 1).isLt
  have hq : q.val < 128 := q.isLt
  unfold ScatterDims.resultIdx?
  constructor
  · intro hsome
    split at hsome
    · rename_i hall
      have heq := Option.some.inj hsome
      have h0 := congrArg (fun f => (f 0).val) heq
      have h1 := congrArg (fun f => (f 1).val) heq
      simp only [start0, window0, start1, window1] at h0 h1
      have hb0 := hall 0
      rw [start0, window0] at hb0
      constructor
      · apply word_of_toInt hi0
        change ((idx (ix2 n 0)).toInt + ((0 : Nat) : Int)).toNat = (i 0).val at h0
        change 0 ≤ (idx (ix2 n 0)).toInt + ((0 : Nat) : Int) ∧ _ at hb0
        omega
      · apply Fin.ext
        change ((0 : Int) + ((q.val : Nat) : Int)).toNat = (i 1).val at h1
        omega
    · exact absurd hsome (by simp)
  · rintro ⟨hw, hqi⟩
    have hs0 : dS.start (ix2 n q) idx 0 = ((i 0).val : Int) := by
      rw [start0]
      change (idx (ix2 n 0)).toInt = _
      rw [hw]
      exact toInt_word hi0
    have hall : ∀ a, 0 ≤ dS.start (ix2 n q) idx a + dS.window (ix2 n q) a
        ∧ dS.start (ix2 n q) idx a + dS.window (ix2 n q) a < S512x128.size a := by
      intro a
      match a with
      | ⟨0, _⟩ =>
        change 0 ≤ dS.start (ix2 n q) idx 0 + ((0 : Nat) : Int) ∧ dS.start (ix2 n q) idx 0 + ((0 : Nat) : Int) < (512 : Nat)
        rw [hs0]
        omega
      | ⟨1, _⟩ =>
        change 0 ≤ (0 : Int) + ((q.val : Nat) : Int) ∧ (0 : Int) + ((q.val : Nat) : Int) < (128 : Nat)
        omega
    rw [dif_pos hall]
    congr 1
    funext a
    apply Fin.ext
    match a with
    | ⟨0, _⟩ =>
      change (dS.start (ix2 n q) idx 0 + ((0 : Nat) : Int)).toNat = (i 0).val
      rw [hs0]
      omega
    | ⟨1, _⟩ =>
      change ((0 : Int) + ((q.val : Nat) : Int)).toNat = (i 1).val
      rw [hqi]
      omega

/-! ### The two constant operands and the sum -/

/-- The label matrix read at its one column is the label array. -/
theorem labels_apply (lb : S100000.Idx → BitVec 32) (n : Fin 100000) :
    broadcastInDim S100000x1 ![0] bcast_S100000_S100000x1_0 lb (ix2 n 0) = lb (ix1 n) := by
  unfold broadcastInDim
  congr 1
  funext a
  match a with
  | ⟨0, _⟩ => rfl

/-- The base of the accumulation is the zero array. -/
theorem zeros_apply (i : S512x128.Idx) :
    broadcastInDim S512x128 ![] bcast_S_S512x128 (constant (F := Ideal) S_ .f32 0x00000000#32) i = 0 :=
  Ideal.ofBits_zero_f32

/-- The accumulating scatter at an index: the base there plus the sum of the updates that land there. -/
theorem scatterAdd_apply (x : S512x128.Idx → EReal) (idx : IVec S100000x1 32) (upd : S100000x128.Idx → EReal)
    (i : S512x128.Idx) :
    Host.scatterAdd (F := Ideal) (φ := .f32) dS x idx upd i
      = x i + ∑ j ∈ Finset.univ.filter (fun j => dS.resultIdx? j idx = some i), upd j := rfl

/-- Of the columns of a row only the given one lands, and only when the row's label is the graph's word. -/
theorem sum_cols (A : Prop) [Decidable A] (f : Fin 128 → EReal) (j : Fin 128) :
    (∑ q : Fin 128, if (A ∧ q = j) then f q else 0) = if A then f j else 0 := by
  by_cases hA : A
  · simp only [hA, true_and, if_true]
    rw [Finset.sum_ite_eq' Finset.univ j, if_pos (Finset.mem_univ j)]
  · simp only [hA, false_and, if_false]
    exact Finset.sum_const_zero

/-- The same at an index given by its coordinates. -/
theorem lands_ix2_iff (idx : IVec S100000x1 32) (n : Fin 100000) (q : Fin 128) (g : Fin 512) (j : Fin 128) :
    dS.resultIdx? (ix2 n q) idx = some (ix2 g j) ↔ (idx (ix2 n 0) = BitVec.ofNat 32 g.val ∧ q = j) :=
  lands_iff idx n q (ix2 g j)

/-- Scattering the rows, with addition, into a zero array at the graphs a one-column label matrix names gives at graph g,
    column j the sum of the rows labelled g at column j. -/
theorem pool_scatter_lab (h : S100000x128.Idx → EReal) (idx : S100000x1.Idx → BitVec 32) :
    Host.scatterAdd scatter_S512x128_S100000x1_S100000x128_1_0_0_1
      (broadcastInDim S512x128 ![] bcast_S_S512x128 (constant (F := Ideal) S_ .f32 0x00000000#32)) idx h
      = toArr2 (Cert.Spec.pool (of2 h) (lab idx)) := by
  funext i
  obtain ⟨g, j, rfl⟩ : ∃ (g : Fin 512) (j : Fin 128), i = ix2 g j := ⟨i 0, i 1, eq_ix2 i⟩
  rw [scatterAdd_apply, zeros_apply, zero_add, Finset.sum_filter, sum_idx2]
  show _ = ∑ n : Rw, if idx (ix2 n 0) = BitVec.ofNat 32 g.val then h (ix2 n j) else 0
  refine Finset.sum_congr rfl (fun n _ => ?_)
  have hq : ∀ q : Fin 128,
      (if dS.resultIdx? (ix2 n q) idx = some (ix2 g j) then h (ix2 n q) else 0)
        = if (idx (ix2 n 0) = BitVec.ofNat 32 g.val ∧ q = j) then h (ix2 n q) else 0 := by
    intro q
    exact if_congr (lands_ix2_iff idx n q g j) rfl rfl
  simp only [hq]
  exact sum_cols _ (fun q => h (ix2 n q)) j

/-- The reference's per-graph sum: the same with the label array spread into its one-column matrix. -/
theorem pool_scatter (h : S100000x128.Idx → EReal) (lb : S100000.Idx → BitVec 32) :
    Host.scatterAdd scatter_S512x128_S100000x1_S100000x128_1_0_0_1
      (broadcastInDim S512x128 ![] bcast_S_S512x128 (constant (F := Ideal) S_ .f32 0x00000000#32))
      (broadcastInDim S100000x1 ![0] bcast_S100000_S100000x1_0 lb) h
      = toArr2 (Cert.Spec.pool (of2 h) (lab1 lb)) := by
  rw [pool_scatter_lab]
  have hl : lab (broadcastInDim S100000x1 ![0] bcast_S100000_S100000x1_0 lb) = lab1 lb :=
    funext fun n => labels_apply lb n
  rw [hl]

end Cert.ReferenceIdeal.Hand

end
-- ==== Proof.RefVal.lean ====
/-
  The reference's two results as functions of the launch memory.  Its operations are four lists run in turn: one per
  layer, then the pooling and the two concatenations.  Each layer's list computes one layer of the encoder from the
  layer before (the first from the inputs), with the aggregation taken along the two rows of the edge list, and leaves
  the inputs and the earlier layers' outputs alone; so the three outputs are the first three terms after the inputs of
  the sequence of layers, the second result is those three side by side, and the first result is their per-graph sums
  side by side.
-/
import proofs.«406400_j6640019439960_2_alg».proof.Proof.RefRun
import proofs.«406400_j6640019439960_2_alg».proof.Proof.RefKeep
import proofs.«406400_j6640019439960_2_alg».proof.Proof.RefLayerMath
import proofs.«406400_j6640019439960_2_alg».proof.Proof.RefLayers
import proofs.«406400_j6640019439960_2_alg».proof.Proof.RefTail
import proofs.«406400_j6640019439960_2_alg».proof.Proof.RefPool
import proofs.«406400_j6640019439960_2_alg».proof.Proof.Layers
import proofs.«406400_j6640019439960_2_alg».proof.Proof.Agg

noncomputable section

namespace Cert.ReferenceIdeal.Hand

open Cert.ReferenceIdeal Cert.ReferenceIdeal.Gen Cert.Spec Idealize.ShloMosaic Idealize.ShloMosaic.ValueIdx Idealize.ShloMosaic.TcCoe Idealize.SL.Sem Idealize.ShloMosaic.StableHlo

/-! ## The inputs and the aggregation, read off the launch memory -/

variable (m : (ℓ : Loc nD τ sig) → Buf (Elt Ideal) ℓ) (c : Dev nD)

/-- The inputs in curried form: the node features, the graph labels, and per layer the two weight matrices, the two
    biases, the scale and the shift. -/
def inpOf : Cert.Spec.Inp where
  x := of2 ((m ((c.tc : Thread nD τ).loc main_arg0)) : S100000x128.Idx → EReal)
  lbl := lab1 ((m ((c.tc : Thread nD τ).loc main_arg2)) : S100000.Idx → BitVec 32)
  W1 := fun L k j => ((m ((c.tc : Thread nD τ).loc main_arg3)) : S3x128x128.Idx → EReal) (ix3 L k j)
  b1 := fun L j => ((m ((c.tc : Thread nD τ).loc main_arg4)) : S3x128.Idx → EReal) (ix2 L j)
  W2 := fun L k j => ((m ((c.tc : Thread nD τ).loc main_arg5)) : S3x128x128.Idx → EReal) (ix3 L k j)
  b2 := fun L j => ((m ((c.tc : Thread nD τ).loc main_arg6)) : S3x128.Idx → EReal) (ix2 L j)
  gamma := fun L j => ((m ((c.tc : Thread nD τ).loc main_arg7)) : S3x128.Idx → EReal) (ix2 L j)
  beta := fun L j => ((m ((c.tc : Thread nD τ).loc main_arg8)) : S3x128.Idx → EReal) (ix2 L j)

/-- The aggregation of features along the two rows of the edge list. -/
def aggOf : (Rw → Cl → EReal) → (Rw → Cl → EReal) :=
  fun h => of2 (Cert.KernelIdeal.Hand.aggCore (toArr2 h)
    (Cert.KernelIdeal.Hand.srcOf ((m ((c.tc : Thread nD τ).loc main_arg1)) : S2x640000.Idx → BitVec 32))
    (Cert.KernelIdeal.Hand.dstOf ((m ((c.tc : Thread nD τ).loc main_arg1)) : S2x640000.Idx → BitVec 32)))

/-- A curried function, made an array and read back at pairs of coordinates, is itself. -/
theorem of2_toArr2 {a b : Nat} (g : Fin a → Fin b → EReal) : of2 (toArr2 g) = g := rfl

/-! ## The arguments through the layers -/

/-- After layer 0 every argument holds its launch contents; -/
theorem arg_L0 (b : Ref sig .tc) (hb : b ∈ ([main_arg0, main_arg1, main_arg2, main_arg3, main_arg4, main_arg5, main_arg6, main_arg7, main_arg8] : List (Ref sig .tc))) :
    after (opsL0 (F := Ideal)) (launchContents m c) (Proc.devRef .tc b) = m ((c.tc : Thread nD τ).loc b) :=
  keepL0 _ b hb

/-- after layers 0 and 1 too. -/
theorem arg_L1 (b : Ref sig .tc) (hb : b ∈ ([main_arg0, main_arg1, main_arg2, main_arg3, main_arg4, main_arg5, main_arg6, main_arg7, main_arg8] : List (Ref sig .tc))) :
    after (opsL1 (F := Ideal)) (after opsL0 (launchContents m c)) (Proc.devRef .tc b) = m ((c.tc : Thread nD τ).loc b) := by
  rw [keepL1 _ b (List.mem_append_left [main_v1, main_v3, main_v56] hb)]
  exact keepL0 _ b hb

/-- The edges' source nodes, as layer 0 leaves them, are still there after layer 1; -/
theorem src_L1 : (after (opsL1 (F := Ideal)) (after opsL0 (launchContents m c)) (Proc.devRef .tc main_v1) : S640000.Idx → BitVec 32)
    = Cert.KernelIdeal.Hand.srcOf ((m ((c.tc : Thread nD τ).loc main_arg1)) : S2x640000.Idx → BitVec 32) := by
  rw [keepL1 _ main_v1 (by decide), layer0_src]

/-- so are their destination nodes. -/
theorem dst_L1 : (after (opsL1 (F := Ideal)) (after opsL0 (launchContents m c)) (Proc.devRef .tc main_v3) : S640000.Idx → BitVec 32)
    = Cert.KernelIdeal.Hand.dstOf ((m ((c.tc : Thread nD τ).loc main_arg1)) : S2x640000.Idx → BitVec 32) := by
  rw [keepL1 _ main_v3 (by decide), layer0_dst]

/-! ## The three layers' outputs -/

/-- Layer 0 leaves the first term of the sequence of layers. -/
theorem feat1 : (after (opsL0 (F := Ideal)) (launchContents m c) (Proc.devRef .tc main_v56) : S100000x128.Idx → EReal)
    = toArr2 (hR (aggOf m c) (inpOf m c) 1) := by
  have hx : toArr2 (of2 ((m ((c.tc : Thread nD τ).loc main_arg0)) : S100000x128.Idx → EReal)) = (m ((c.tc : Thread nD τ).loc main_arg0)) := toArr2_of2 _
  have hA : aggOf m c (inpOf m c).x = of2 (Cert.KernelIdeal.Hand.aggCore (launchContents m c (Proc.devRef .tc main_arg0))
      (Cert.KernelIdeal.Hand.srcOf (launchContents m c (Proc.devRef .tc main_arg1)))
      (Cert.KernelIdeal.Hand.dstOf (launchContents m c (Proc.devRef .tc main_arg1)))) := by
    show of2 (Cert.KernelIdeal.Hand.aggCore (toArr2 (of2 _)) _ _) = _
    rw [hx]
  rw [layer0_run, ← hA]
  rfl

/-- Layers 0 and 1 leave the second term. -/
theorem feat2 : (after (opsL1 (F := Ideal)) (after opsL0 (launchContents m c)) (Proc.devRef .tc main_v109) : S100000x128.Idx → EReal)
    = toArr2 (hR (aggOf m c) (inpOf m c) 2) := by
  rw [layer1_run, feat1 m c, layer0_src, layer0_dst, arg_L0 m c main_arg3 (by decide), arg_L0 m c main_arg4 (by decide),
    arg_L0 m c main_arg5 (by decide), arg_L0 m c main_arg6 (by decide), arg_L0 m c main_arg7 (by decide),
    arg_L0 m c main_arg8 (by decide), of2_toArr2]
  rfl

/-- Layers 0, 1 and 2 leave the third term. -/
theorem feat3 : (after (opsL2 (F := Ideal)) (after opsL1 (after opsL0 (launchContents m c))) (Proc.devRef .tc main_v162) : S100000x128.Idx → EReal)
    = toArr2 (hR (aggOf m c) (inpOf m c) 3) := by
  rw [layer2_run, feat2 m c, src_L1 m c, dst_L1 m c, arg_L1 m c main_arg3 (by decide), arg_L1 m c main_arg4 (by decide),
    arg_L1 m c main_arg5 (by decide), arg_L1 m c main_arg6 (by decide), arg_L1 m c main_arg7 (by decide),
    arg_L1 m c main_arg8 (by decide), of2_toArr2]
  rfl

/-- After all three layers the first layer's output is still there; -/
theorem feat1_end : (after (opsL2 (F := Ideal)) (after opsL1 (after opsL0 (launchContents m c))) (Proc.devRef .tc main_v56) : S100000x128.Idx → EReal)
    = toArr2 (hR (aggOf m c) (inpOf m c) 1) := by
  rw [keepL2 _ main_v56 (by decide), keepL1 _ main_v56 (by decide)]
  exact feat1 m c

/-- so is the second layer's; -/
theorem feat2_end : (after (opsL2 (F := Ideal)) (after opsL1 (after opsL0 (launchContents m c))) (Proc.devRef .tc main_v109) : S100000x128.Idx → EReal)
    = toArr2 (hR (aggOf m c) (inpOf m c) 2) := by
  rw [keepL2 _ main_v109 (by decide)]
  exact feat2 m c

/-- and the labels hold their launch contents. -/
theorem lbl_end : (after (opsL2 (F := Ideal)) (after opsL1 (after opsL0 (launchContents m c))) (Proc.devRef .tc main_arg2) : S100000.Idx → BitVec 32)
    = (m ((c.tc : Thread nD τ).loc main_arg2)) := by
  rw [keepL2 _ main_arg2 (by decide)]
  exact arg_L1 m c main_arg2 (by decide)

/-! ## The two results -/

/-- The per-graph sums of a curried array of rows, computed as the reference computes them. -/
theorem poolT_toArr2 (g : Rw → Cl → EReal) (lb : S100000.Idx → BitVec 32) : poolT (toArr2 g) lb = toArr2 (pool g (lab1 lb)) := by
  unfold poolT
  rw [pool_scatter, of2_toArr2]

/-- The second result: the three layers' features side by side. -/
theorem ref_v173 : (after (ops (F := Ideal)) (launchContents m c) (Proc.devRef .tc main_v173) : S100000x384.Idx → EReal)
    = concatenate S100000x384 1 [⟨S100000x128, toArr2 (hR (aggOf m c) (inpOf m c) 1)⟩,
        ⟨S100000x128, toArr2 (hR (aggOf m c) (inpOf m c) 2)⟩, ⟨S100000x128, toArr2 (hR (aggOf m c) (inpOf m c) 3)⟩]
        concatenates_S100000x128_S100000x128_S100000x128_S100000x384_d1 := by
  rw [after_split]
  exact T_v173 _ (feat1_end m c) (feat2_end m c) (feat3 m c)

/-- The first result: the three layers' features summed per graph, side by side. -/
theorem ref_v172 : (after (ops (F := Ideal)) (launchContents m c) (Proc.devRef .tc main_v172) : S512x384.Idx → EReal)
    = concatenate S512x384 1 [⟨S512x128, toArr2 (pool (hR (aggOf m c) (inpOf m c) 1) (inpOf m c).lbl)⟩,
        ⟨S512x128, toArr2 (pool (hR (aggOf m c) (inpOf m c) 2) (inpOf m c).lbl)⟩,
        ⟨S512x128, toArr2 (pool (hR (aggOf m c) (inpOf m c) 3) (inpOf m c).lbl)⟩]
        concatenates_S512x128_S512x128_S512x128_S512x384_d1 := by
  rw [after_split, T_v172 _ (feat1_end m c) (feat2_end m c) (feat3 m c) (lbl_end m c), poolT_toArr2, poolT_toArr2, poolT_toArr2]
  rfl

end Cert.ReferenceIdeal.Hand

end
-- ==== Proof.PreReal.lean ====
/-
  From "every float argument is finite" to "every entry of every float argument is a real number", over the
  extended reals.  The precondition is a conjunction of seven tests, one per float argument; each test says that
  the absolute value of every entry lies strictly below plus infinity.  An extended real whose absolute value,
  the larger of itself and its negation, is strictly below plus infinity is neither infinity, hence a real.
-/
import proofs.«406400_j6640019439960_2_alg».proof.Defs
import proofs.«406400_j6640019439960_2_alg».proof.Proof.Gen.KernelIdeal
import proofs.«406400_j6640019439960_2_alg».proof.Proof.Gen.Pre_finite_inputs
import proofs.«406400_j6640019439960_2_alg».proof.Proof.Spec
import Idealize.ShloMosaic.Lib.ReduceAll

noncomputable section

namespace Cert.KernelIdeal.Hand

open Idealize.ShloMosaic Idealize.SL.Sem Cert.Spec

/-- The scalar shape has exactly one index. -/
instance subsingleton_scalar_idx : Subsingleton Cert.Pre_finite_inputs.S_.Idx :=
  ⟨fun a b => funext fun d => d.elim0⟩

/-- The word of plus infinity denotes the top element. -/
theorem inf_word_eq_top : Ideal.ofBits .f32 0x7F800000#32 = (⊤ : EReal) := by
  simp [Ideal.ofBits, Ideal.ieee]

/-- A strict comparison that came out true: the left side is strictly below the right side. -/
theorem lt_of_cmp_olt {a b : EReal} (h : Ideal.cmp .olt a b = 1#1) : a < b := by
  by_contra hn
  simp [Ideal.cmp, hn] at h

/-- An extended real whose absolute value is strictly below the top element is a real number. -/
theorem isReal_of_abs_lt_top (x : EReal) (h : max x (-x) < (⊤ : EReal)) : IsReal x := by
  induction x using EReal.rec with
  | bot => simp at h
  | coe r => exact ⟨r, rfl⟩
  | top => simp at h

/-- One test of the precondition, read back: if the conjunction over a whole array of "the absolute value of
    the entry is strictly below plus infinity" holds, every entry of the array is a real number. -/
theorem all_real_of_test {s : Shape} {axes : List (Fin s.rank)}
    (bc : Cert.Pre_finite_inputs.S_.BroadcastsInDim s (![] : Fin 0 → Fin s.rank))
    (hr : s.ReducesTo axes Cert.Pre_finite_inputs.S_) (hu : 0 < Cert.Pre_finite_inputs.S_.numel)
    (x : s.Idx → EReal) (j : Cert.Pre_finite_inputs.S_.Idx)
    (e : Host.reduce IntOp.andi
        (cmpf (F := Ideal) (φ := .f32) .olt (Host.absf (F := Ideal) (φ := .f32) x)
          (broadcastInDim s ![] bc (constant (F := Ideal) Cert.Pre_finite_inputs.S_ .f32 0x7F800000#32)))
        (constantI Cert.Pre_finite_inputs.S_ 1 1#1) hr hu j = 1#1) (i : s.Idx) : IsReal (x i) := by
  have h1 : Ideal.cmp .olt (max (x i) (-(x i))) (Ideal.ofBits .f32 0x7F800000#32) = 1#1 :=
    Host.reduce_andi_all _ _ hr hu j e i
  have h2 := lt_of_cmp_olt h1
  rw [inf_word_eq_top] at h2
  exact isReal_of_abs_lt_top _ h2

/-- Under the precondition, every entry of each of the seven float arguments is a real number. -/
theorem pre_real [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
      (∀ i, IsReal ((m ((c.tc : Thread nD τ).loc main_arg0) : S100000x128.Idx → EReal) i))
    ∧ (∀ i, IsReal ((m ((c.tc : Thread nD τ).loc main_arg3) : S3x128x128.Idx → EReal) i))
    ∧ (∀ i, IsReal ((m ((c.tc : Thread nD τ).loc main_arg4) : S3x128.Idx → EReal) i))
    ∧ (∀ i, IsReal ((m ((c.tc : Thread nD τ).loc main_arg5) : S3x128x128.Idx → EReal) i))
    ∧ (∀ i, IsReal ((m ((c.tc : Thread nD τ).loc main_arg6) : S3x128.Idx → EReal) i))
    ∧ (∀ i, IsReal ((m ((c.tc : Thread nD τ).loc main_arg7) : S3x128.Idx → EReal) i))
    ∧ (∀ i, IsReal ((m ((c.tc : Thread nD τ).loc main_arg8) : S3x128.Idx → EReal) i)) := by
  have h0 := congrFun (hpre c) ValueIdx.ix0
  dsimp only [Cert.Pre_finite_inputs.fn, Cert.Pre_finite_inputs.fn_part1] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨all_real_of_test _ _ _ _ _ e0, all_real_of_test _ _ _ _ _ e3, all_real_of_test _ _ _ _ _ e4,
    all_real_of_test _ _ _ _ _ e5, all_real_of_test _ _ _ _ _ e6, all_real_of_test _ _ _ _ _ e7,
    all_real_of_test _ _ _ _ _ e8⟩

end Cert.KernelIdeal.Hand

end
-- ==== Proof.lean ====
/-
  The certificate's five claims.

  The kernel program runs three layers of a graph network: per layer a neighbour aggregation on the host, a
  kernel that adds the aggregate to the features and applies two affine maps with a rectifier between them and an
  exponential-linear unit after them (storing per-block column sums of the result and of its square), host
  arithmetic that turns those sums into the column mean and the variance `mean of squares - squared mean`
  clipped at zero, and a second kernel that normalises, scales and shifts, and sums the rows per graph by a
  one-hot product over row blocks.  The reference does the same on the host with the variance as the mean of the
  squared deviations and the per-graph sums as an accumulating scatter.

  Frames: each of the kernel program's six kernel regions is run block by block, every block's stores covering its
  staging buffer; the host stretches between them are straight-line.  The reference is one straight line of host
  operations.  Equivalence over the extended reals: both programs compute, layer by layer, the same function of
  the inputs as long as every float input is a real number — the two forms of the variance agree on real
  entries, the rounding to half precision on the way into the matrix unit is the identity on extended reals, the
  low-order correction `h - h` of the one-hot product vanishes on real entries, and the one-hot product over
  row blocks is the per-graph sum the scatter accumulates.
-/
import proofs.«406400_j6640019439960_2_alg».proof.Defs
import proofs.«406400_j6640019439960_2_alg».proof.Proof.Gen.Kernel
import proofs.«406400_j6640019439960_2_alg».proof.Proof.Gen.KernelIdeal
import proofs.«406400_j6640019439960_2_alg».proof.Proof.Gen.ReferenceIdeal
import proofs.«406400_j6640019439960_2_alg».proof.Proof.Gen.Pre_finite_inputs
import proofs.«406400_j6640019439960_2_alg».proof.Proof.KRun
import proofs.«406400_j6640019439960_2_alg».proof.Proof.KIRun
import proofs.«406400_j6640019439960_2_alg».proof.Proof.KIVal
import proofs.«406400_j6640019439960_2_alg».proof.Proof.RefRun
import proofs.«406400_j6640019439960_2_alg».proof.Proof.RefKeep
import proofs.«406400_j6640019439960_2_alg».proof.Proof.RefVal
import proofs.«406400_j6640019439960_2_alg».proof.Proof.PreReal
import proofs.«406400_j6640019439960_2_alg».proof.Proof.Layers
import Idealize.ShloMosaic.Adequacy
import Idealize.ShloMosaic.Init

noncomputable section

namespace Cert.Proof

open Idealize.ShloMosaic Idealize.SL.Sem Cert.Spec

/-- The word-level program runs and leaves its arguments alone. -/
theorem frame_k : Cert.frame_Kernel (hKernel := Cert.Kernel.Gen.facts) (hPre_finite_inputs := Cert.Pre_finite_inputs.Gen.facts) :=
  fun m ρ _ => Cert.Kernel.Hand.frame m ρ

/-- The idealized program runs and leaves its arguments alone. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference runs and leaves its arguments alone: no operation of its straight line writes an argument. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono
    (fun r h c => ⟨(h c _).trans (Cert.ReferenceIdeal.Hand.ref_args m c _ (by decide)),
      (h c _).trans (Cert.ReferenceIdeal.Hand.ref_args m c _ (by decide)),
      (h c _).trans (Cert.ReferenceIdeal.Hand.ref_args m c _ (by decide)),
      (h c _).trans (Cert.ReferenceIdeal.Hand.ref_args m c _ (by decide)),
      (h c _).trans (Cert.ReferenceIdeal.Hand.ref_args m c _ (by decide)),
      (h c _).trans (Cert.ReferenceIdeal.Hand.ref_args m c _ (by decide)),
      (h c _).trans (Cert.ReferenceIdeal.Hand.ref_args m c _ (by decide)),
      (h c _).trans (Cert.ReferenceIdeal.Hand.ref_args m c _ (by decide)),
      (h c _).trans (Cert.ReferenceIdeal.Hand.ref_args m c _ (by decide))⟩)
    (Cert.ReferenceIdeal.Hand.run (F := Ideal) m ρ)

/-- The three rewrites of the ideal pass: a value rounded to half precision and widened back is, on the extended
    reals, the value. -/
theorem preserves : Cert.preserves_Kernel_KernelIdeal :=
  ⟨IdealRules.truncf_extf.statement _ .f32 .bf16, IdealRules.truncf_extf.statement _ .f32 .bf16,
    IdealRules.truncf_extf.statement _ .f32 .bf16⟩

/-- Under the precondition every float input of the idealized program's memory is a real number. -/
theorem inp_real (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    (Cert.KernelIdeal.Hand.inpOf m c).Real := by
  obtain ⟨h0, h3, h4, h5, h6, h7, h8⟩ := Cert.KernelIdeal.Hand.pre_real (hPre_finite_inputs := Cert.Pre_finite_inputs.Gen.facts) m hpre c
  exact ⟨fun _ _ => h0 _, fun _ _ _ => h3 _, fun _ _ => h4 _, fun _ _ _ => h5 _, fun _ _ => h6 _, fun _ _ => h7 _, fun _ _ => h8 _⟩

/-- From memories that agree on the arguments the two idealized programs end with equal results: both hold, layer by
    layer, the same function of the inputs — the kernel program with the clipped variance, the reference with the
    deviation form, equal on the real entries the precondition gives — and both leave the arguments alone. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.W13 m c (Proc.devRef .tc Cert.KernelIdeal.main_v128),
    fun c => Cert.KernelIdeal.Hand.W13 m c (Proc.devRef .tc Cert.KernelIdeal.main_v129),
    Cert.KernelIdeal.Hand.run_main m ρ, ?_⟩
  refine (θ_run (Cert.ReferenceIdeal.defs (F := Ideal)) _ _).mono (fun r h c => ?_)
    (Cert.ReferenceIdeal.Hand.run (F := Ideal) m' ρ')
  have hI := inp_real m hpre c
  obtain ⟨e0, e1, e2, e3, e4, e5, e6, e7, e8⟩ := hagree c
  have hinp : Cert.ReferenceIdeal.Hand.inpOf m' c = Cert.KernelIdeal.Hand.inpOf m c := by
    unfold Cert.ReferenceIdeal.Hand.inpOf Cert.KernelIdeal.Hand.inpOf
    rw [e0, e2, e3, e4, e5, e6, e7, e8]
  have hagg : Cert.ReferenceIdeal.Hand.aggOf m' c = Cert.KernelIdeal.Hand.aggOf m c := by
    unfold Cert.ReferenceIdeal.Hand.aggOf Cert.KernelIdeal.Hand.aggOf
    rw [e1]
  have hKR := fun L => hK_eq_hR (Cert.KernelIdeal.Hand.aggOf_real m c) hI L
  refine ⟨(h c _).trans ((Cert.ReferenceIdeal.Hand.ref_v172 m' c).trans ?_),
    (h c _).trans ((Cert.ReferenceIdeal.Hand.ref_v173 m' c).trans ?_),
    (h c _).trans (Cert.ReferenceIdeal.Hand.ref_args m' c _ (by decide)),
    (h c _).trans (Cert.ReferenceIdeal.Hand.ref_args m' c _ (by decide)),
    (h c _).trans (Cert.ReferenceIdeal.Hand.ref_args m' c _ (by decide)),
    (h c _).trans (Cert.ReferenceIdeal.Hand.ref_args m' c _ (by decide)),
    (h c _).trans (Cert.ReferenceIdeal.Hand.ref_args m' c _ (by decide)),
    (h c _).trans (Cert.ReferenceIdeal.Hand.ref_args m' c _ (by decide)),
    (h c _).trans (Cert.ReferenceIdeal.Hand.ref_args m' c _ (by decide)),
    (h c _).trans (Cert.ReferenceIdeal.Hand.ref_args m' c _ (by decide)),
    (h c _).trans (Cert.ReferenceIdeal.Hand.ref_args m' c _ (by decide))⟩
  · rw [hinp, hagg, ← (hKR 1).1, ← (hKR 2).1, ← (hKR 3).1]
    exact (Cert.KernelIdeal.Hand.kernel_v128 m c hI).symm
  · rw [hinp, hagg, ← (hKR 1).1, ← (hKR 2).1, ← (hKR 3).1]
    exact (Cert.KernelIdeal.Hand.kernel_v129 m c hI).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
